-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥
  ∧ IdealRules.named_const.Statement Cert.KernelIdeal.κ "inv_1000000000000000000000000000000" .f32 0x0DA24260#32 ((1 / 1000000000000000000000000000000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x64 : Shape := ⟨2, ![1024, 64]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  main_v18

def fn {F : FTy → Type} [FloatOps F] (main_arg0 : FVec F S4x4096x1024 .f32) (main_arg1 : FVec F S1024x64 .f32) (main_arg2 : FVec F S1024x64 .f32) (main_arg3 : FVec F S1024x64 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_v13 main_v16
-- ==== Kernel.lean ====
abbrev S4x4096x1024 : Shape := ⟨3, ![4, 4096, 1024]⟩
abbrev S1024x64 : Shape := ⟨2, ![1024, 64]⟩
abbrev S10 : Shape := ⟨1, ![10]⟩
abbrev S16384x1024 : Shape := ⟨2, ![16384, 1024]⟩
abbrev S1024x192 : Shape := ⟨2, ![1024, 192]⟩
abbrev S16384x64 : Shape := ⟨2, ![16384, 64]⟩
abbrev S2048x1024 : Shape := ⟨2, ![2048, 1024]⟩
abbrev S2048x64 : Shape := ⟨2, ![2048, 64]⟩
abbrev S2048x192 : Shape := ⟨2, ![2048, 192]⟩
abbrev S4x4096x64 : Shape := ⟨3, ![4, 4096, 64]⟩
abbrev S1x1024x64 : Shape := ⟨3, ![1, 1024, 64]⟩
abbrev S1 : Shape := ⟨1, ![1]⟩
abbrev S1x4096x64 : Shape := ⟨3, ![1, 4096, 64]⟩
abbrev S1024x1 : Shape := ⟨2, ![1024, 1]⟩
abbrev S64x1024 : Shape := ⟨2, ![64, 1024]⟩
abbrev S1024x1024 : Shape := ⟨2, ![1024, 1024]⟩
abbrev S1024 : Shape := ⟨1, ![1024]⟩

abbrev nBuf : Space → Nat
  | .hbm => 13
  | .vmem => 20
  | .smem => 4
  | _ => 0

abbrev bufTy : (tb : Table) → Fin (tcTables nBuf tb) → BufTy
  | .hbm, ⟨0, _⟩ => ⟨S4x4096x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S16384x1024, .f32⟩
  | .hbm, ⟨5, _⟩ => ⟨S1024x192, .f32⟩
  | .hbm, ⟨6, _⟩ => ⟨S16384x64, .bf16⟩
  | .hbm, ⟨7, _⟩ => ⟨S16384x64, .bf16⟩
  | .hbm, ⟨8, _⟩ => ⟨S16384x64, .bf16⟩
  | .hbm, ⟨9, _⟩ => ⟨S4x4096x64, .bf16⟩
  | .hbm, ⟨10, _⟩ => ⟨S4x4096x64, .bf16⟩
  | .hbm, ⟨11, _⟩ => ⟨S4x4096x64, .bf16⟩
  | .hbm, ⟨12, _⟩ => ⟨S4x4096x64, .f32⟩
  | .local _ .vmem, ⟨0, _⟩ => ⟨S2048x1024, .f32⟩
  | .local _ .vmem, ⟨1, _⟩ => ⟨S2048x1024, .f32⟩
  | .local _ .vmem, ⟨2, _⟩ => ⟨S1024x192, .f32⟩
  | .local _ .vmem, ⟨3, _⟩ => ⟨S2048x64, .bf16⟩
  | .local _ .vmem, ⟨4, _⟩ => ⟨S2048x64, .bf16⟩
  | .local _ .vmem, ⟨5, _⟩ => ⟨S2048x64, .bf16⟩
  | .local _ .vmem, ⟨6, _⟩ => ⟨S2048x64, .bf16⟩
  | .local _ .vmem, ⟨7, _⟩ => ⟨S2048x64, .bf16⟩
  | .local _ .vmem, ⟨8, _⟩ => ⟨S2048x64, .bf16⟩
  | .local _ .vmem, ⟨9, _⟩ => ⟨S1x1024x64, .bf16⟩
  | .local _ .vmem, ⟨10, _⟩ => ⟨S1x1024x64, .bf16⟩
  | .local _ .vmem, ⟨11, _⟩ => ⟨S1x4096x64, .bf16⟩
  | .local _ .vmem, ⟨12, _⟩ => ⟨S1x4096x64, .bf16⟩
  | .local _ .vmem, ⟨13, _⟩ => ⟨S1x4096x64, .bf16⟩
  | .local _ .vmem, ⟨14, _⟩ => ⟨S1x4096x64, .bf16⟩
  | .local _ .vmem, ⟨15, _⟩ => ⟨S1x1024x64, .f32⟩
  | .local _ .vmem, ⟨16, _⟩ => ⟨S1x1024x64, .f32⟩
  | .local _ .vmem, ⟨17, _⟩ => ⟨S1024x1, .f32⟩
  | .local _ .vmem, ⟨18, _⟩ => ⟨S1024x1, .f32⟩
  | .local _ .vmem, ⟨19, _⟩ => ⟨S1024x64, .f32⟩
  | .local _ .smem, ⟨0, _⟩ => ⟨S10, .i32⟩
  | .local _ .smem, ⟨1, _⟩ => ⟨S10, .i32⟩
  | .local _ .smem, ⟨2, _⟩ => ⟨S10, .i32⟩
  | .local _ .smem, ⟨3, _⟩ => ⟨S10, .i32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.smem, 0, rfl⟩
abbrev main_c_0 : Ref sig .tc := ⟨.smem, 1, rfl⟩
abbrev main_c_1 : Ref sig .tc := ⟨.smem, 2, rfl⟩
abbrev main_c_2 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![4, 10], ![false, false]⟩

abbrev pre1 : Pipeline.Prefetch sig := ⟨4, ![main_c.idx, main_c_0.idx, main_c_1.idx, main_c_2.idx], fun | 0 => main_c.names | 1 => main_c_0.names | 2 => main_c_1.names | 3 => main_c_2.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k1_off1 (i : grid1.Coords) : Fin 1 → Nat :=
  let arg1 : BitVec 32 := BitVec.ofNat 32 (i 1).val
  let v0 : Index := Scalar.indexCast arg1
  ![v0.toNat]
def k1_mult1 (v3 : BitVec 32) : BitVec 32 :=
  let c1024_i32 : BitVec 32 := 1024#32
  let v13 : BitVec 32 := Scalar.muli v3 c1024_i32
  v13

def k1_mult2 (v3 : BitVec 32) : BitVec 32 :=
  let c1024_i32_2 : BitVec 32 := 1024#32
  let v15 : BitVec 32 := Scalar.muli v3 c1024_i32_2
  v15
def k1_off2 (v3 : BitVec 32) : Fin 3 → Nat :=
  let c0_3 : Index := 0#32
  let c1024_i32 : BitVec 32 := 1024#32
  let v13 : BitVec 32 := Scalar.muli v3 c1024_i32
  let v14 : BitVec 32 := v13
  let v17 : Index := Scalar.indexCast v14
  let c0_4 : Index := 0#32
  ![0, v17.toNat, 0]

def k1_chk1 (v3 : BitVec 32) : Prop :=
  (1024 ∣ (k1_mult1 v3).toNat) ∧
  (1024 ∣ (k1_mult2 v3).toNat) ∧
  (∀ a, (k1_off2 v3) a + S1x1024x64.size a ≤ S1x4096x64.size a)
instance k1_chk1.dec : ∀ (v3 : BitVec 32), Decidable (k1_chk1 v3) := fun v3 => decidable_of_iff' _ (Iff.of_eq (k1_chk1.eq_1 v3))
theorem k1_mult1_dvd : ∀ (v3 : BitVec 32) (k1_hw1 : k1_chk1 v3), 1024 ∣ (k1_mult1 v3).toNat := fun v3 k1_hw1 => k1_hw1.1
theorem k1_mult2_dvd : ∀ (v3 : BitVec 32) (k1_hw1 : k1_chk1 v3), 1024 ∣ (k1_mult2 v3).toNat := fun v3 k1_hw1 => k1_hw1.2.1
theorem k1_off2_inb : ∀ (v3 : BitVec 32) (k1_hw1 : k1_chk1 v3), ∀ a, (k1_off2 v3) a + S1x1024x64.size a ≤ S1x4096x64.size a := fun v3 k1_hw1 => k1_hw1.2.2

def k1_cond4 (v7 : BitVec 32) : BitVec 1 :=
  let c1_i32_10 : BitVec 32 := 1#32
  let v33 : BitVec 1 := Scalar.cmpi .eq v7 c1_i32_10
  let v34 : BitVec 32 := Scalar.extui v33
  let c0_i32_11 : BitVec 32 := 0#32
  let v35 : BitVec 1 := Scalar.cmpi .ne v34 c0_i32_11
  v35

def cc1_transform_0 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k1_off1_inb i)) numel1_S1
  let c0_i32 : BitVec 32 := 0#32
  let c0_i32_0 : BitVec 32 := 0#32
  ![arg0.toNat, v1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k1_off1_inb i)) numel1_S1
  let c0_i32 : BitVec 32 := 0#32
  let c0_i32_0 : BitVec 32 := 0#32
  ![arg0.toNat, v1.toNat, c0_i32.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S4x4096x1024_S16384x1024 : S4x4096x1024.ShapeCasts S16384x1024
  concatenates_S1024x64_S1024x64_S1024x64_S1024x192_d1 : Shape.Concatenates [S1024x64, S1024x64, S1024x64] S1024x192 1
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  bitsLt_bf16_f32 : FTy.bits .bf16 < FTy.bits .f32
  inb_S1024x192_S1024x192_0_0 : ∀ a, (![0, 0] : Fin 2 → Nat) a + S1024x192.size a ≤ S1024x192.size a
  h_S1024x192 : 0 < S1024x192.numel
  shapeCasts_S1024x192_S1024x192 : S1024x192.ShapeCasts S1024x192
  slices_S2048x192_o0_0_S2048x64 : S2048x192.Slices ![0, 0] S2048x64
  inb_S2048x64_S2048x64_0_0 : ∀ a, (![0, 0] : Fin 2 → Nat) a + S2048x64.size a ≤ S2048x64.size a
  h_S2048x64 : 0 < S2048x64.numel
  packedbf16_S2048x64_S2048x64_0_0 : (Rect.unit (s := S2048x64) ![0, 0] S2048x64.size inb_S2048x64_S2048x64_0_0).PackedRows (EltTy.packing .bf16)
  slices_S2048x192_o0_64_S2048x64 : S2048x192.Slices ![0, 64] S2048x64
  slices_S2048x192_o0_128_S2048x64 : S2048x192.Slices ![0, 128] S2048x64
  shapeCasts_S16384x64_S4x4096x64 : S16384x64.ShapeCasts S4x4096x64
  numel1_S1 : S1.numel = 1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  transposes_S1024x64_p1_0_S64x1024 : S1024x64.Transposes [1, 0] S64x1024
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x64 : S1024x1.Broadcasts S1024x64
  shapeCasts_S1024x64_S1x1024x64 : S1024x64.ShapeCasts S1x1024x64
  dot_S2048x1024_S1024x192_S2048x192_1_0_0_1_n_n_wf : DotDims.WF S2048x1024 S1024x192 S2048x192 [1] [0] [0] [1] [] []
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x1024.size a
  hwx0_0 : ∀ i : grid0.Coords, EltTy.bits .f32 = 32 ∨ (Rect.block (s := S16384x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x192.size a ≤ S1024x192.size a
  hwx0_1 : ∀ i : grid0.Coords, EltTy.bits .f32 = 32 ∨ (Rect.block (s := S1024x192) S1024x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S16384x64.size a
  hwx0_2 : ∀ i : grid0.Coords, EltTy.bits .bf16 = 32 ∨ (Rect.block (s := S16384x64) S2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S16384x64.size a
  hwx0_3 : ∀ i : grid0.Coords, EltTy.bits .bf16 = 32 ∨ (Rect.block (s := S16384x64) S2048x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x64.size a ≤ S16384x64.size a
  hwx0_4 : ∀ i : grid0.Coords, EltTy.bits .bf16 = 32 ∨ (Rect.block (s := S16384x64) S2048x64.size (cc0_transform_4 i) (hinb0_4 i)).WholeWords (EltTy.packing .bf16)
  hrank1 : 0 < grid1.rank
  k1_off1_inb : ∀ i : grid1.Coords, ∀ a, (k1_off1 i) a + S1.size a ≤ S10.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x64.size a ≤ S4x4096x64.size a
  hwx1_1 : ∀ i : grid1.Coords, EltTy.bits .bf16 = 32 ∨ (Rect.block (s := S4x4096x64) S1x4096x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x64.size a ≤ S4x4096x64.size a
  hwx1_2 : ∀ i : grid1.Coords, EltTy.bits .bf16 = 32 ∨ (Rect.block (s := S4x4096x64) S1x4096x64.size (cc1_transform_2 i) (hinb1_2 i)).WholeWords (EltTy.packing .bf16)
  hstage1_3 : ∀ j, (stage1_3 j).IsWhole
  nbuf1_3 : grid1.bufCount reads1_3 false = 2
  hreads1_3 : ∀ {F : FTy → Type} [FloatOps F] (pf : pre1.Contents (Elt F)) (i i' : grid1.Coords), (∀ a, reads1_3 a = true → i a = i' a) → cc1_transform_3 k1_off1_inb numel1_S1 pf i = cc1_transform_3 k1_off1_inb numel1_S1 pf i'

variable [Facts₀]

def dot_S2048x1024_S1024x192_S2048x192_1_0_0_1_n_n : DotDims S2048x1024 S1024x192 S2048x192 where
  lhsContracting := [1]
  rhsContracting := [0]
  lhsNonContracting := [0]
  rhsNonContracting := [1]
  lhsBatch := []
  rhsBatch := []
  wf := dot_S2048x1024_S1024x192_S2048x192_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S2048x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S2048x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S2048x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev spec1_0 : Pipeline.WinSpec sig grid1.rank :=
  Pipeline.WinSpec.ofSpec (Memref.whole main_v3) S1x1024x64.size reads1_0 false false 2 stage1_0 sem1_0 nbuf1_0 hstage1_0

abbrev spec1_1 : Pipeline.WinSpec sig grid1.rank :=
  Pipeline.WinSpec.ofSpec (Memref.whole main_v4) S1x4096x64.size reads1_1 false false 2 stage1_1 sem1_1 nbuf1_1 hstage1_1

abbrev spec1_2 : Pipeline.WinSpec sig grid1.rank :=
  Pipeline.WinSpec.ofSpec (Memref.whole main_v5) S1x4096x64.size reads1_2 false false 2 stage1_2 sem1_2 nbuf1_2 hstage1_2

abbrev spec1_3 : Pipeline.WinSpec sig grid1.rank :=
  Pipeline.WinSpec.ofSpec (Memref.whole main_v6) S1x1024x64.size reads1_3 true false 2 stage1_3 sem1_3 nbuf1_3 hstage1_3

abbrev spec1 : Fin 4 → Pipeline.WinSpec sig grid1.rank := fun | 0 => spec1_0 | 1 => spec1_1 | 2 => spec1_2 | 3 => spec1_3 | ⟨_ + 4, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | ⟨_ + 4, h⟩ => absurd h (Nat.not_lt.2 (Nat.le_add_left _ _))
abbrev ix1 (pf : pre1.Contents (Elt F)) : (w : Fin 4) → grid1.Coords → Fin (spec1 w).shape.rank → Nat := fun | 0 => cc1_transform_0 k1_off1_inb numel1_S1 pf | 1 => cc1_transform_1 | 2 => cc1_transform_2 | 3 => cc1_transform_3 k1_off1_inb numel1_S1 pf | ⟨_ + 4, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 | 2 => hreads1_2 | 3 => hreads1_3 pf | ⟨_ + 4, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x1024x64.size a ≤ S4x4096x64.size a), EltTy.bits .bf16 = 32 ∨ (Rect.block (s := S4x4096x64) S1x1024x64.size (cc1_transform_0 k1_off1_inb numel1_S1 pf i) h).WholeWords (EltTy.packing .bf16)) ∧
  (∀ i : grid1.Coords, ∃ h : (∀ a, (cc1_transform_3 k1_off1_inb numel1_S1 pf i a + 1) * S1x1024x64.size a ≤ S4x4096x64.size a), EltTy.bits .f32 = 32 ∨ (Rect.block (s := S4x4096x64) S1x1024x64.size (cc1_transform_3 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => hinb1_1 | 2 => hinb1_2 | 3 => fun i a => (hok.2 i).elim fun h _ => h a | ⟨_ + 4, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => hwx1_1 | 2 => hwx1_2 | 3 => fun i => (hok.2 i).elim fun _ h => h | ⟨_ + 4, h⟩ => absurd h (Nat.not_lt.2 (Nat.le_add_left _ _))
abbrev idle1 (pf : pre1.Contents (Elt F)) : Fin 4 → grid1.Coords → Bool := fun | 0 => fun _ => false | 1 => fun _ => false | 2 => fun _ => false | 3 => fun i => !(k1_cond4 (pf.atD 3 (k1_off1 i)) == 1#1) | ⟨_ + 4, h⟩ => absurd h (Nat.not_lt.2 (Nat.le_add_left _ _))

class Facts : Prop extends Facts₀ where
  harr1 : ∀ w, (spec1 w).arr.IsWhole

variable [Facts]
-- ==== ReferenceIdeal.lean ====
abbrev S4x4096x1024 : Shape := ⟨3, ![4, 4096, 1024]⟩
abbrev S1024x64 : Shape := ⟨2, ![1024, 64]⟩
abbrev S4x4096x64 : Shape := ⟨3, ![4, 4096, 64]⟩
abbrev S4x4096x4096 : Shape := ⟨3, ![4, 4096, 4096]⟩
abbrev S_ : Shape := ⟨0, ![]⟩
abbrev S4096x4096 : Shape := ⟨2, ![4096, 4096]⟩
abbrev S1x4096x4096 : Shape := ⟨3, ![1, 4096, 4096]⟩
abbrev S4x4096 : Shape := ⟨2, ![4, 4096]⟩
abbrev S4x4096x1 : Shape := ⟨3, ![4, 4096, 1]⟩

abbrev nBuf : Space → Nat
  | .hbm => 43
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S4x4096x64, .f32⟩
  | .hbm, ⟨5, _⟩ => ⟨S4x4096x64, .f32⟩
  | .hbm, ⟨6, _⟩ => ⟨S4x4096x64, .f32⟩
  | .hbm, ⟨7, _⟩ => ⟨S4x4096x4096, .f32⟩
  | .hbm, ⟨8, _⟩ => ⟨S_, .f32⟩
  | .hbm, ⟨9, _⟩ => ⟨S4x4096x4096, .f32⟩
  | .hbm, ⟨10, _⟩ => ⟨S4x4096x4096, .f32⟩
  | .hbm, ⟨11, _⟩ => ⟨S_, .i1⟩
  | .hbm, ⟨12, _⟩ => ⟨S4096x4096, .i1⟩
  | .hbm, ⟨13, _⟩ => ⟨S4096x4096, .i32⟩
  | .hbm, ⟨14, _⟩ => ⟨S_, .i32⟩
  | .hbm, ⟨15, _⟩ => ⟨S4096x4096, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S_, .i1⟩
  | .hbm, ⟨20, _⟩ => ⟨S4096x4096, .i1⟩
  | .hbm, ⟨21, _⟩ => ⟨S4096x4096, .i1⟩
  | .hbm, ⟨22, _⟩ => ⟨S1x4096x4096, .i1⟩
  | .hbm, ⟨23, _⟩ => ⟨S_, .f32⟩
  | .hbm, ⟨24, _⟩ => ⟨S_, .f32⟩
  | .hbm, ⟨25, _⟩ => ⟨S4x4096x4096, .i1⟩
  | .hbm, ⟨26, _⟩ => ⟨S4x4096x4096, .f32⟩
  | .hbm, ⟨27, _⟩ => ⟨S4x4096x4096, .f32⟩
  | .hbm, ⟨28, _⟩ => ⟨S_, .f32⟩
  | .hbm, ⟨29, _⟩ => ⟨S4x4096, .f32⟩
  | .hbm, ⟨30, _⟩ => ⟨S_, .f32⟩
  | .hbm, ⟨31, _⟩ => ⟨S4x4096, .f32⟩
  | .hbm, ⟨32, _⟩ => ⟨S4x4096, .f32⟩
  | .hbm, ⟨33, _⟩ => ⟨S4x4096x1, .f32⟩
  | .hbm, ⟨34, _⟩ => ⟨S4x4096x4096, .f32⟩
  | .hbm, ⟨35, _⟩ => ⟨S4x4096x4096, .f32⟩
  | .hbm, ⟨36, _⟩ => ⟨S4x4096x4096, .f32⟩
  | .hbm, ⟨37, _⟩ => ⟨S_, .f32⟩
  | .hbm, ⟨38, _⟩ => ⟨S4x4096, .f32⟩
  | .hbm, ⟨39, _⟩ => ⟨S4x4096x1, .f32⟩
  | .hbm, ⟨40, _⟩ => ⟨S4x4096x4096, .f32⟩
  | .hbm, ⟨41, _⟩ => ⟨S4x4096x4096, .f32⟩
  | .hbm, ⟨42, _⟩ => ⟨S4x4096x64, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  bcast_S_S4096x4096 : S_.BroadcastsInDim S4096x4096 (![] : Fin 0 → Fin S4096x4096.rank)
  bcast_S4096x4096_S1x4096x4096_1_2 : S4096x4096.BroadcastsInDim S1x4096x4096 (![1, 2] : Fin 2 → Fin S1x4096x4096.rank)
  bcast_S1x4096x4096_S4x4096x4096_0_1_2 : S1x4096x4096.BroadcastsInDim S4x4096x4096 (![0, 1, 2] : Fin 3 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S1024x64_S4x4096x64_2_0_01_1_n_n_wf : DotDims.WF S4x4096x1024 S1024x64 S4x4096x64 [2] [0] [0, 1] [1] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x1024_S1024x64_S4x4096x64_2_0_01_1_n_n : DotDims S4x4096x1024 S1024x64 S4x4096x64 where
  lhsContracting := [2]
  rhsContracting := [0]
  lhsNonContracting := [0, 1]
  rhsNonContracting := [1]
  lhsBatch := []
  rhsBatch := []
  wf := dot_S4x4096x1024_S1024x64_S4x4096x64_2_0_01_1_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.K.R0.lean ====
/-
  The projection region of the attention program: one pass over the 8 row blocks of the activations. At each
  point the body reads the point's block of 2048 activation rows (window 0, fetched at every point) and the fused
  weight matrix of 192 columns (window 1, fetched at the first point only and resident afterwards), forms their
  product once, and writes its three column groups of 64, rounded to bf16, into the three output blocks (windows 2, 3
  and 4: the query, key and value projections). Each output block is written by ONE store over the whole block, so what
  the body leaves there is the stored value itself, a function of the two input blocks alone; what it finds in an
  input buffer is that window's block at the point, fetched there or not. This module states the windows' blocks, the
  three output values, the body's triple on whole staging buffers, the region's proof data (arrays as the region finds
  them; after the body each input's buffer at its block and each output's at its stored value; nothing owed; full
  shares) and the body obligation at every point. The matrix product stays symbolic throughout.
-/
import proofs.«422911_j40922448396699_3_alg».proof.Proof.Gen.Kernel.Launch
import proofs.«422911_j40922448396699_3_alg».proof.Proof.Gen.Kernel.Skeleton
import proofs.«422911_j40922448396699_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of long extents recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
-- the core's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's row block at every point, for any proof data whose array is
    `V`'s and whose body leaves the block in place (the window is fetched at every point; the general lemma covers
    it all the same). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the weight matrix at every point, though it is fetched at the first only: an
    unfetched input's block index has not moved, so the buffer still holds the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole, through the unit rectangle at the origin -/

abbrev r0_0 : Rect S2048x1024 := Rect.unit (s := S2048x1024) ![0, 0] S2048x1024.size inb_S2048x1024_S2048x1024_0_0
abbrev r0_1 : Rect S1024x192 := Rect.unit (s := S1024x192) ![0, 0] S1024x192.size inb_S1024x192_S1024x192_0_0
abbrev r0_2 : Rect S2048x64 := Rect.unit (s := S2048x64) ![0, 0] S2048x64.size inb_S2048x64_S2048x64_0_0

/-- The origin of a rank-2 shape, spelt as a literal vector, is the zero function. -/
theorem origin2 : (![0, 0] : Fin 2 → Nat) = fun _ => 0 := by
  funext a; fin_cases a <;> rfl

/-! ## What the body leaves in each output window's buffer -/

/-- The query block's buffer after the body: its one store, over the first 64 product columns of the loaded blocks. -/
def out0_2 (x0 : Vec F S2048x1024 .f32) (x1 : Vec F S1024x192 .f32) : Vec F S2048x64 .bf16 :=
  View.canon [⟨r0_2, k0_pay2 (View.ld x0 r0_0) (View.ld x1 r0_1)⟩]

/-- The key block's buffer after the body: product columns 64 to 127. -/
def out0_3 (x0 : Vec F S2048x1024 .f32) (x1 : Vec F S1024x192 .f32) : Vec F S2048x64 .bf16 :=
  View.canon [⟨r0_2, k0_pay3 (View.ld x0 r0_0) (View.ld x1 r0_1)⟩]

/-- The value block's buffer after the body: product columns 128 to 191. -/
def out0_4 (x0 : Vec F S2048x1024 .f32) (x1 : Vec F S1024x192 .f32) : Vec F S2048x64 .bf16 :=
  View.canon [⟨r0_2, k0_pay4 (View.ld x0 r0_0) (View.ld x1 r0_1)⟩]

/-- One store over the whole block leaves the stored value, and a load of a whole block reads the block. -/
theorem out0_2_eq (x0 : Vec F S2048x1024 .f32) (x1 : Vec F S1024x192 .f32) : out0_2 x0 x1 = k0_pay2 x0 x1 := by
  unfold out0_2
  rw [View.canon_unit_zero (S := S2048x64) origin2, View.ld_unit_zero (S := S2048x1024) origin2, View.ld_unit_zero (S := S1024x192) origin2]
theorem out0_3_eq (x0 : Vec F S2048x1024 .f32) (x1 : Vec F S1024x192 .f32) : out0_3 x0 x1 = k0_pay3 x0 x1 := by
  unfold out0_3
  rw [View.canon_unit_zero (S := S2048x64) origin2, View.ld_unit_zero (S := S2048x1024) origin2, View.ld_unit_zero (S := S1024x192) origin2]
theorem out0_4_eq (x0 : Vec F S2048x1024 .f32) (x1 : Vec F S1024x192 .f32) : out0_4 x0 x1 = k0_pay4 x0 x1 := by
  unfold out0_4
  rw [View.canon_unit_zero (S := S2048x64) origin2, View.ld_unit_zero (S := S2048x1024) origin2, View.ld_unit_zero (S := S1024x192) origin2]

/-- The one store of an output block covers it. -/
theorem cover0_2 (p0 : Vec F S2048x64 .bf16) (y : S2048x64.Idx) :
    ∃ pc ∈ ([⟨r0_2, p0⟩] : List (View.Piece (Elt F) S2048x64 .bf16)), y ∈ pc.1.set :=
  ⟨_, List.mem_singleton_self _, View.mem_set_unit_zero (S := S2048x64) origin2 inb_S2048x64_S2048x64_0_0 y⟩

/-! ## The body's triple -/

/-- The kernel body on whole staging buffers, the inputs' at read contents `x0`, `x1` and the outputs' at anything,
    runs to the continuation holding the inputs' as they were and each output's at its stored value. -/
theorem sound_kernel0 (c : Dev nD) (E : Set ℕ) (i : grid0.Coords)
    (arg1 : Memref sig .tc .vmem S2048x1024 .f32) (harg1 : arg1.IsWhole) (arg2 : Memref sig .tc .vmem S1024x192 .f32) (harg2 : arg2.IsWhole)
    (arg3 : Memref sig .tc .vmem S2048x64 .bf16) (harg3 : arg3.IsWhole) (arg4 : Memref sig .tc .vmem S2048x64 .bf16) (harg4 : arg4.IsWhole)
    (arg5 : Memref sig .tc .vmem S2048x64 .bf16) (harg5 : arg5.IsWhole)
    (x0 : Vec F S2048x1024 .f32) (x1 : Vec F S1024x192 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x0 x1)) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  isplitl [H3]
  · iexists _; isplitr
    swap; · iexact H3
    ipureintro
    exact View.read_writes_eq_canon _ _ _ (cover0_2 _)
  iexists _; isplitr
  swap; · iexact H4
  ipureintro
  exact View.read_writes_eq_canon _ _ _ (cover0_2 _)

/-! ## The region's proof data -/

/-- The proof data of the projection pipeline on core `c`: the arrays as the region finds them (`V`); after the body
    at point `t` each input's buffer at its block and each output's at its stored value of the two input blocks; the
    region invariant (the core's other scoped buffers and its random-number register, each at some contents), untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Step.lean ====
/-
  The online-softmax state of the attention kernel and its update steps, as pure functions of the values the body loads
  (over the generated payload terms): the state is (running row maximum m, running denominator l, running numerator acc);
  `st0` is the reset state (m = -∞, l = 0, acc = 0); `updN` folds one UNMASKED key/value block into the state, `updD` one
  DIAGONAL block (scores above the diagonal replaced by the mask value); `fin` is the quotient acc / max(l, ε) written to the
  output block; `kld` is the key (or value) block of 1024 rows cut out of the resident 4096-row batch at the row offset the
  table word names.
-/
import proofs.«422911_j40922448396699_3_alg».proof.Proof.Gen.Kernel.Skeleton
import Idealize.ShloMosaic.Lib.Pipeline.FrameBody

noncomputable section

namespace Cert.Kernel.Hand

open Idealize.ShloMosaic Idealize.SL.Sem Cert.Kernel Cert.Kernel.Gen

variable {F : FTy → Type} [FloatOps F]

/-- The carried state: row maxima, row denominators, row numerators. -/
abbrev St (F : FTy → Type) [FloatOps F] : Type := Vec F S1024x1 .f32 × Vec F S1024x1 .f32 × Vec F S1024x64 .f32

/-- The reset state: maxima at -∞, denominators and numerators at zero. -/
def st0 : St F := (k1_pay1 (F := F), k1_pay2 (F := F), k1_pay3 (F := F))

/-- One unmasked block folded into the state (query block `q`, key block `kb`, value block `vb`). -/
def updN (q kb vb : Vec F S1x1024x64 .bf16) (s : St F) : St F :=
  (k1_pay18 q kb s.1, k1_pay16 q kb s.1 s.1 s.2.1, k1_pay17 q kb vb s.1 s.1 s.2.2)

/-- One diagonal (causally masked) block folded into the state. -/
def updD (q kb vb : Vec F S1x1024x64 .bf16) (s : St F) : St F :=
  (k1_pay12 q kb s.1, k1_pay10 q kb s.1 s.1 s.2.1, k1_pay11 q kb vb s.1 s.1 s.2.2)

/-- The output block: numerators over denominators (guarded below by ε). -/
def fin (s : St F) : Vec F S1x1024x64 .f32 := k1_pay19 s.2.1 s.2.2

/-- The 1024-row block of a resident 4096-row batch at the row offset the table word `w` names. -/
def kld (x : Vec F S1x4096x64 .bf16) (w : BitVec 32) (hw : k1_chk1 w) : Vec F S1x1024x64 .bf16 :=
  View.ld x (Rect.unit (s := S1x4096x64) (k1_off2 w) S1x1024x64.size (k1_off2_inb w hw))

end Cert.Kernel.Hand

end
-- ==== Proof.K.R1Runs.lean ====
/-
  The attention region's prefetched tables, its memory references and the run of its kernel body in the four control
  cases of the triangular schedule.

  The four tables are literal: at step t of the ten steps of a batch they give the query block qi(t), the key block
  ki(t) (ki ≤ qi: the lower triangle, row by row), whether t is the first step of its query block and whether it is the
  last. The body reads the four words of step t, resets the carried state (row maxima, denominators, numerators) on a
  first step, loads the query block and the key and value blocks at row offset ki(t)·1024 of the resident batch, folds the
  block into the state — with the causal mask when ki = qi, without it when ki ≠ qi — and on a last step writes
  numerators over denominators to the output block. Every store of the body writes a whole buffer, so each buffer's
  contents after the run is the payload of its last store, and a load after a store in the same run reads that payload:
  the state after the step is `updD` or `updN` of the state before it (the reset state `st0` on a first step) and the
  output block is `fin` of the new state.

  The four cases are: first, diagonal and last (a one-block row); first and off the diagonal; diagonal and last, not
  first; off the diagonal, neither first nor last. Each run is stated as a triple from the blocks, the state and the
  tables held to the same with the new state (and the output block, where the step is a last one).
-/
import proofs.«422911_j40922448396699_3_alg».proof.Proof.Gen.Kernel.Launch
import proofs.«422911_j40922448396699_3_alg».proof.Proof.Gen.Kernel.Skeleton
import proofs.«422911_j40922448396699_3_alg».proof.Proof.K.Step
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The tables -/

/-- The four tables' contents, as the constants of the entry function write them: query block, key block, first-step
    flag and last-step flag of each of the ten steps. -/
def tbl : pre1.Contents (Elt F) := fun
  | 0 => fun i => lit0 (S10.rowMajor i)
  | 1 => fun i => lit1 (S10.rowMajor i)
  | 2 => fun i => lit2 (S10.rowMajor i)
  | 3 => fun i => lit3 (S10.rowMajor i)
  | ⟨_ + 4, h⟩ => absurd h (Nat.not_lt.2 (Nat.le_add_left _ _))

/-- At every step the block index the query-block table names is at most 3: the block of 1024 rows lies inside the 4096
    rows of its batch (checked at each of the 40 points). -/
theorem blk_inb : ∀ (i : grid1.Coords) (a : Fin 3),
    ((![(BitVec.ofNat 32 (i 0).val).toNat,
        (lit0 (S10.rowMajor ((Rect.unit (s := S10) (k1_off1 i) S1.size (k1_off1_inb i)).emb (Shape.Idx.first (numel1_S1.symm ▸ Nat.one_pos))))).toNat,
        (0#32).toNat] : Fin 3 → Nat) a + 1) * S1x1024x64.size a ≤ S4x4096x64.size a := by
  decide +kernel

/-- The side condition of the tables: the query block and the output block the tables name lie inside their arrays at
    every step (the block index is at most 3 of 4), and their transfers end on whole words (the block's rows are a
    multiple of the packing; a 32-bit element is a word). -/
theorem hok : ok1 (F := F) tbl :=
  ⟨fun i => ⟨blk_inb i, .inr (Affine.block_words_dvd (of_decide_eq_true rfl) (by decide))⟩,
   fun i => ⟨blk_inb i, .inl rfl⟩⟩

/-- The tables as admissible contents, and the region's pipeline at them. -/
abbrev adm1 : (pcfg1 (F := F)).Adm := ⟨tbl, hok⟩
abbrev cfgM : Pipeline.Cfg sig Λ₀ := cfg1 (F := F) adm1

/-- Each table as the body is handed it: its whole buffer. -/
abbrev tbM1_0 : Memref sig .tc .smem S10 .i32 := Memref.whole main_c
abbrev htbM1_0 : tbM1_0.IsWhole := Memref.isWhole_whole _
abbrev tbM1_1 : Memref sig .tc .smem S10 .i32 := Memref.whole main_c_0
abbrev htbM1_1 : tbM1_1.IsWhole := Memref.isWhole_whole _
abbrev tbM1_2 : Memref sig .tc .smem S10 .i32 := Memref.whole main_c_1
abbrev htbM1_2 : tbM1_2.IsWhole := Memref.isWhole_whole _
abbrev tbM1_3 : Memref sig .tc .smem S10 .i32 := Memref.whole main_c_2
abbrev htbM1_3 : tbM1_3.IsWhole := Memref.isWhole_whole _

/-- A table's buffer on core `c`: the type of its contents, and the buffer held whole at contents `f`. -/
abbrev TbBuf1 (c : Dev nD) {S : Shape} {e : EltTy} (M : Memref sig .tc .smem S e) : Type := Buf (Elt F) (M.view.loc (c : Thread nD τ))
abbrev tbPt1 (c : Dev nD) {S : Shape} {e : EltTy} (M : Memref sig .tc .smem S e) (f : TbBuf1 (F := F) c M) : sProp 𝕄 :=
  M.view.loc (c : Thread nD τ) ↦{fullShare} f

/-- The four tables held whole, table by table. -/
theorem PhiT1_eq (c : Dev nD) :
    (Pipeline.prefHeld (Ix := Unit) (Name := ℕ) (U := UR sig nD τ) (Lvl := ℕ) pre1 c (fun _ => fullShare) tbl : sProp 𝕄)
      = iprop(tbPt1 c tbM1_0 (tbl 0) ∗ tbPt1 c tbM1_1 (tbl 1) ∗ tbPt1 c tbM1_2 (tbl 2) ∗ tbPt1 c tbM1_3 (tbl 3)) := by
  unfold Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## The carried state's buffers -/

abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x64 .f32 := Memref.whole cc1_scratch2

/-! ## The words of a step and the body's conditions -/

/-- The word the body reads of table `M` (held at contents `xt`) at the step of coordinates `i`. -/
abbrev wordAt (c : Dev nD) (M : Memref sig .tc .smem S10 .i32) (xt : TbBuf1 (F := F) c M) (i : grid1.Coords) : BitVec 32 :=
  M.view.readAt (Elt F) (Rect.unit (s := S10) (k1_off1 i) S1.size (k1_off1_inb i)).toLoadRect xt (Shape.Idx.first (numel1_S1.symm ▸ Nat.one_pos))

/-- The step is the first of its query block (the first-step flag is 1). -/
abbrev condF (w5 : BitVec 32) : Prop := (Scalar.cmpi .ne (Scalar.extui (Scalar.cmpi .eq w5 1#32)) 0#32) = 1#1
/-- The key block is the query block (the diagonal block: masked). -/
abbrev condD (w1 w3 : BitVec 32) : Prop := (Scalar.cmpi .ne (Scalar.extui (Scalar.cmpi .eq w3 w1)) 0#32) = 1#1
/-- The key block is not the query block (below the diagonal: unmasked). -/
abbrev condN (w1 w3 : BitVec 32) : Prop := (Scalar.cmpi .ne (Scalar.extui (Scalar.cmpi .ne w3 w1)) 0#32) = 1#1
/-- The step is the last of its query block (the last-step flag is 1). -/
abbrev condL (w7 : BitVec 32) : Prop := k1_cond4 w7 = 1#1

/-! ## What a run holds -/

/-- The three input blocks held at their contents: the query block and the resident key and value batches. -/
abbrev insP (c : Dev nD) (arg6 : Memref sig .tc .vmem S1x1024x64 .bf16) (arg7 arg8 : Memref sig .tc .vmem S1x4096x64 .bf16)
    (x0 : Vec F S1x1024x64 .bf16) (x1 x2 : Vec F S1x4096x64 .bf16) : sProp 𝕄 :=
  iprop(owns (c : Thread nD τ) arg6 fullShare x0 ∗ owns (c : Thread nD τ) arg7 fullShare x1 ∗ owns (c : Thread nD τ) arg8 fullShare x2)

/-- The four tables held whole at their contents. -/
abbrev tbsP (c : Dev nD) (xt0 : TbBuf1 (F := F) c tbM1_0) (xt1 : TbBuf1 (F := F) c tbM1_1) (xt2 : TbBuf1 (F := F) c tbM1_2)
    (xt3 : TbBuf1 (F := F) c tbM1_3) : sProp 𝕄 :=
  iprop(tbPt1 c tbM1_0 xt0 ∗ tbPt1 c tbM1_1 xt1 ∗ tbPt1 c tbM1_2 xt2 ∗ tbPt1 c tbM1_3 xt3)

/-- The carried state's three buffers held at the state `s`. -/
abbrev scrP (c : Dev nD) (s : St F) : sProp 𝕄 :=
  iprop(owns (c : Thread nD τ) scM1_0 fullShare s.1 ∗ owns (c : Thread nD τ) scM1_1 fullShare s.2.1 ∗ owns (c : Thread nD τ) scM1_2 fullShare s.2.2)

/-- The carried state's three buffers held at some contents. -/
abbrev scrAny (c : Dev nD) : sProp 𝕄 :=
  iprop((∃ d, owns (c : Thread nD τ) scM1_0 fullShare d) ∗ (∃ d, owns (c : Thread nD τ) scM1_1 fullShare d) ∗ (∃ d, owns (c : Thread nD τ) scM1_2 fullShare d))

/-- The body at the step of coordinates `i`, on the tables, the staged blocks and the carried state's buffers. -/
abbrev prog1 (i : grid1.Coords) (arg6 : Memref sig .tc .vmem S1x1024x64 .bf16) (harg6 : arg6.IsWhole)
    (arg7 arg8 : Memref sig .tc .vmem S1x4096x64 .bf16) (harg7 : arg7.IsWhole) (harg8 : arg8.IsWhole)
    (arg9 : Memref sig .tc .vmem S1x1024x64 .f32) (harg9 : arg9.IsWhole) : Prog (TpuEff nD τ sig (Elt F) Λ₀ .tc) PUnit :=
  cc1__attn_kernel i tbM1_0 htbM1_0 tbM1_1 htbM1_1 tbM1_2 htbM1_2 tbM1_3 htbM1_3 arg6 harg6 arg7 harg7 arg8 harg8 arg9 harg9
    scM1_0 (Memref.isWhole_whole _) scM1_1 (Memref.isWhole_whole _) scM1_2 (Memref.isWhole_whole _)

/-! ## What a whole-buffer store leaves -/

/-- The zero offsets of a rank-2 and of a rank-3 buffer, however the zeros are spelt. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A buffer whose LAST store covered it whole reads that store's payload, whatever it held and whatever was stored
    before. -/
theorem read_store_last {sp : Space} {S : Shape} {e : EltTy} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ (fun y => ⟨_, List.mem_cons_self, View.mem_set_unit_zero h inb y⟩),
    View.canon_cons_unit_zero h]

/-! ## The four runs -/

/-- A first step on the diagonal that is also the last (a one-block row): the state is reset, the masked block folded in, the quotient written. -/
theorem run1_FDL (c : Dev nD) (E : Set ℕ) (i : grid1.Coords)
    (arg6 : Memref sig .tc .vmem S1x1024x64 .bf16) (harg6 : arg6.IsWhole)
    (arg7 arg8 : Memref sig .tc .vmem S1x4096x64 .bf16) (harg7 : arg7.IsWhole) (harg8 : arg8.IsWhole)
    (arg9 : Memref sig .tc .vmem S1x1024x64 .f32) (harg9 : arg9.IsWhole)
    (x0 : Vec F S1x1024x64 .bf16) (x1 x2 : Vec F S1x4096x64 .bf16)
    (xt0 : TbBuf1 (F := F) c tbM1_0) (xt1 : TbBuf1 (F := F) c tbM1_1) (xt2 : TbBuf1 (F := F) c tbM1_2) (xt3 : TbBuf1 (F := F) c tbM1_3)
    (hw : k1_chk1 (wordAt c tbM1_1 xt1 i)) (K : PUnit → sProp 𝕄)
    (hF : condF (wordAt c tbM1_2 xt2 i)) (hD : condD (wordAt c tbM1_0 xt0 i) (wordAt c tbM1_1 xt1 i)) (hN : ¬condN (wordAt c tbM1_0 xt0 i) (wordAt c tbM1_1 xt1 i)) (hL : condL (wordAt c tbM1_3 xt3 i)) :
    iprop(insP c arg6 arg7 arg8 x0 x1 x2 ∗ (∃ d, owns (c : Thread nD τ) arg9 fullShare d) ∗ scrAny c ∗ tbsP c xt0 xt1 xt2 xt3
        ∗ (iprop(insP c arg6 arg7 arg8 x0 x1 x2 ∗ owns (c : Thread nD τ) arg9 fullShare (fin (updD x0 (kld x1 (wordAt c tbM1_1 xt1 i) hw) (kld x2 (wordAt c tbM1_1 xt1 i) hw) st0)) ∗ scrP c (updD x0 (kld x1 (wordAt c tbM1_1 xt1 i) hw) (kld x2 (wordAt c tbM1_1 xt1 i) hw) st0) ∗ tbsP c xt0 xt1 xt2 xt3) -∗ K ⟨⟩))
      ⊢ wp frame (wpE (defs₀ (F := F)) Variants.none c none) E (prog1 i arg6 harg6 arg7 arg8 harg7 harg8 arg9 harg9) K := by
  unfold prog1 insP scrP scrAny tbsP
  simp only [cc1__attn_kernel_eq_skeleton]; unfold cc1__attn_kernel_skel
  simp only [k1_part1_eq_skeleton]
  unfold owns
  iintro ⟨⟨⟨%f0, %hf0, H0⟩, ⟨%f1, %hf1, H1⟩, ⟨%f2, %hf2, H2⟩⟩, ⟨%d9, %f9, -, H9⟩, ⟨⟨%e0, %g0, -, HS0⟩, ⟨%e1, %g1, -, HS1⟩, ⟨%e2, %g2, -, HS2⟩⟩, ⟨HT0, HT1, HT2, HT3⟩, Hk⟩
  obtain rfl := harg6.eq_unread hf0; obtain rfl := harg7.eq_unread hf1; obtain rfl := harg8.eq_unread hf2
  -- the body's run: the assumed side condition is `hw`, each conditional is decided by the case's hypotheses
  sl_exec (disch := first | sl_exact hw | exact hF | exact hD | exact hN | exact hL)
  sl_step
  iapply Hk
  -- the three input blocks are handed back as found
  isplitl [H0 H1 H2]
  · isplitl [H0]
    · iexists _; isplitr; · ipureintro; exact hf0
      iexact H0
    isplitl [H1]
    · iexists _; isplitr; · ipureintro; exact hf1
      iexact H1
    iexists _; isplitr; · ipureintro; exact hf2
    iexact H2
  -- the output block holds its one store's payload: numerators over denominators of the NEW state, each read back
  -- after the store of this step that wrote it
  isplitl [H9]
  · iexists _; isplitr; swap; iexact H9
    ipureintro
    sl_unfold_run_names
    rw [read_store_last _ _ hz3]
    simp only [View.readAt_eq_ld, hf0, hf1, hf2, View.readCov_cons_toLoadRect, View.ld_unit_zero (S := S1024x1) hz2,
      View.ld_unit_zero (S := S1024x64) hz2, View.ld_unit_zero (S := S1x1024x64) hz3]
    rfl
  -- each buffer of the state holds the payload of its last store; a load of it after a store of this step read that
  -- store's payload, one before any store read the state the step began with
  isplitr [HT0 HT1 HT2 HT3]
  · isplitl [HS0]
    · iexists _; isplitr; swap; iexact HS0
      ipureintro
      sl_unfold_run_names
      rw [read_store_last _ _ hz2]
      simp only [View.readAt_eq_ld, hf0, hf1, hf2, View.readCov_cons_toLoadRect, View.ld_unit_zero (S := S1024x1) hz2,
        View.ld_unit_zero (S := S1024x64) hz2, View.ld_unit_zero (S := S1x1024x64) hz3]
      rfl
    isplitl [HS1]
    · iexists _; isplitr; swap; iexact HS1
      ipureintro
      sl_unfold_run_names
      rw [read_store_last _ _ hz2]
      simp only [View.readAt_eq_ld, hf0, hf1, hf2, View.readCov_cons_toLoadRect, View.ld_unit_zero (S := S1024x1) hz2,
        View.ld_unit_zero (S := S1024x64) hz2, View.ld_unit_zero (S := S1x1024x64) hz3]
      rfl
    iexists _; isplitr; swap; iexact HS2
    ipureintro
    sl_unfold_run_names
    rw [read_store_last _ _ hz2]
    simp only [View.readAt_eq_ld, hf0, hf1, hf2, View.readCov_cons_toLoadRect, View.ld_unit_zero (S := S1024x1) hz2,
      View.ld_unit_zero (S := S1024x64) hz2, View.ld_unit_zero (S := S1x1024x64) hz3]
    rfl
  -- the tables are handed back as found
  isplitl [HT0]; · iexact HT0
  isplitl [HT1]; · iexact HT1
  isplitl [HT2]; · iexact HT2
  iexact HT3

/-- A first step below the diagonal, not the last: the state is reset and the unmasked block folded in; the output block is left as found. -/
theorem run1_FN (c : Dev nD) (E : Set ℕ) (i : grid1.Coords)
    (arg6 : Memref sig .tc .vmem S1x1024x64 .bf16) (harg6 : arg6.IsWhole)
    (arg7 arg8 : Memref sig .tc .vmem S1x4096x64 .bf16) (harg7 : arg7.IsWhole) (harg8 : arg8.IsWhole)
    (arg9 : Memref sig .tc .vmem S1x1024x64 .f32) (harg9 : arg9.IsWhole)
    (x0 : Vec F S1x1024x64 .bf16) (x1 x2 : Vec F S1x4096x64 .bf16)
    (xt0 : TbBuf1 (F := F) c tbM1_0) (xt1 : TbBuf1 (F := F) c tbM1_1) (xt2 : TbBuf1 (F := F) c tbM1_2) (xt3 : TbBuf1 (F := F) c tbM1_3)
    (hw : k1_chk1 (wordAt c tbM1_1 xt1 i)) (K : PUnit → sProp 𝕄) (d9 : Vec F S1x1024x64 .f32)
    (hF : condF (wordAt c tbM1_2 xt2 i)) (hD : ¬condD (wordAt c tbM1_0 xt0 i) (wordAt c tbM1_1 xt1 i)) (hN : condN (wordAt c tbM1_0 xt0 i) (wordAt c tbM1_1 xt1 i)) (hL : ¬condL (wordAt c tbM1_3 xt3 i)) :
    iprop(insP c arg6 arg7 arg8 x0 x1 x2 ∗ owns (c : Thread nD τ) arg9 fullShare d9 ∗ scrAny c ∗ tbsP c xt0 xt1 xt2 xt3
        ∗ (iprop(insP c arg6 arg7 arg8 x0 x1 x2 ∗ owns (c : Thread nD τ) arg9 fullShare d9 ∗ scrP c (updN x0 (kld x1 (wordAt c tbM1_1 xt1 i) hw) (kld x2 (wordAt c tbM1_1 xt1 i) hw) st0) ∗ tbsP c xt0 xt1 xt2 xt3) -∗ K ⟨⟩))
      ⊢ wp frame (wpE (defs₀ (F := F)) Variants.none c none) E (prog1 i arg6 harg6 arg7 arg8 harg7 harg8 arg9 harg9) K := by
  unfold prog1 insP scrP scrAny tbsP
  simp only [cc1__attn_kernel_eq_skeleton]; unfold cc1__attn_kernel_skel
  simp only [k1_part1_eq_skeleton]
  unfold owns
  iintro ⟨⟨⟨%f0, %hf0, H0⟩, ⟨%f1, %hf1, H1⟩, ⟨%f2, %hf2, H2⟩⟩, ⟨%f9, %hf9, H9⟩, ⟨⟨%e0, %g0, -, HS0⟩, ⟨%e1, %g1, -, HS1⟩, ⟨%e2, %g2, -, HS2⟩⟩, ⟨HT0, HT1, HT2, HT3⟩, Hk⟩
  obtain rfl := harg6.eq_unread hf0; obtain rfl := harg7.eq_unread hf1; obtain rfl := harg8.eq_unread hf2
  -- the body's run: the assumed side condition is `hw`, each conditional is decided by the case's hypotheses
  sl_exec (disch := first | sl_exact hw | exact hF | exact hD | exact hN | exact hL)
  sl_step
  iapply Hk
  -- the three input blocks are handed back as found
  isplitl [H0 H1 H2]
  · isplitl [H0]
    · iexists _; isplitr; · ipureintro; exact hf0
      iexact H0
    isplitl [H1]
    · iexists _; isplitr; · ipureintro; exact hf1
      iexact H1
    iexists _; isplitr; · ipureintro; exact hf2
    iexact H2
  -- the output block is not stored into: handed back as found
  isplitl [H9]
  · iexists _; isplitr; · ipureintro; exact hf9
    iexact H9
  -- each buffer of the state holds the payload of its last store; a load of it after a store of this step read that
  -- store's payload, one before any store read the state the step began with
  isplitr [HT0 HT1 HT2 HT3]
  · isplitl [HS0]
    · iexists _; isplitr; swap; iexact HS0
      ipureintro
      sl_unfold_run_names
      rw [read_store_last _ _ hz2]
      simp only [View.readAt_eq_ld, hf0, hf1, hf2, View.readCov_cons_toLoadRect, View.ld_unit_zero (S := S1024x1) hz2,
        View.ld_unit_zero (S := S1024x64) hz2, View.ld_unit_zero (S := S1x1024x64) hz3]
      rfl
    isplitl [HS1]
    · iexists _; isplitr; swap; iexact HS1
      ipureintro
      sl_unfold_run_names
      rw [read_store_last _ _ hz2]
      simp only [View.readAt_eq_ld, hf0, hf1, hf2, View.readCov_cons_toLoadRect, View.ld_unit_zero (S := S1024x1) hz2,
        View.ld_unit_zero (S := S1024x64) hz2, View.ld_unit_zero (S := S1x1024x64) hz3]
      rfl
    iexists _; isplitr; swap; iexact HS2
    ipureintro
    sl_unfold_run_names
    rw [read_store_last _ _ hz2]
    simp only [View.readAt_eq_ld, hf0, hf1, hf2, View.readCov_cons_toLoadRect, View.ld_unit_zero (S := S1024x1) hz2,
      View.ld_unit_zero (S := S1024x64) hz2, View.ld_unit_zero (S := S1x1024x64) hz3]
    rfl
  -- the tables are handed back as found
  isplitl [HT0]; · iexact HT0
  isplitl [HT1]; · iexact HT1
  isplitl [HT2]; · iexact HT2
  iexact HT3

/-- A later step on the diagonal, the last of its row: the masked block is folded into the carried state and the quotient written. -/
theorem run1_DL (c : Dev nD) (E : Set ℕ) (i : grid1.Coords)
    (arg6 : Memref sig .tc .vmem S1x1024x64 .bf16) (harg6 : arg6.IsWhole)
    (arg7 arg8 : Memref sig .tc .vmem S1x4096x64 .bf16) (harg7 : arg7.IsWhole) (harg8 : arg8.IsWhole)
    (arg9 : Memref sig .tc .vmem S1x1024x64 .f32) (harg9 : arg9.IsWhole)
    (x0 : Vec F S1x1024x64 .bf16) (x1 x2 : Vec F S1x4096x64 .bf16)
    (xt0 : TbBuf1 (F := F) c tbM1_0) (xt1 : TbBuf1 (F := F) c tbM1_1) (xt2 : TbBuf1 (F := F) c tbM1_2) (xt3 : TbBuf1 (F := F) c tbM1_3)
    (hw : k1_chk1 (wordAt c tbM1_1 xt1 i)) (K : PUnit → sProp 𝕄) (s : St F)
    (hF : ¬condF (wordAt c tbM1_2 xt2 i)) (hD : condD (wordAt c tbM1_0 xt0 i) (wordAt c tbM1_1 xt1 i)) (hN : ¬condN (wordAt c tbM1_0 xt0 i) (wordAt c tbM1_1 xt1 i)) (hL : condL (wordAt c tbM1_3 xt3 i)) :
    iprop(insP c arg6 arg7 arg8 x0 x1 x2 ∗ (∃ d, owns (c : Thread nD τ) arg9 fullShare d) ∗ scrP c s ∗ tbsP c xt0 xt1 xt2 xt3
        ∗ (iprop(insP c arg6 arg7 arg8 x0 x1 x2 ∗ owns (c : Thread nD τ) arg9 fullShare (fin (updD x0 (kld x1 (wordAt c tbM1_1 xt1 i) hw) (kld x2 (wordAt c tbM1_1 xt1 i) hw) s)) ∗ scrP c (updD x0 (kld x1 (wordAt c tbM1_1 xt1 i) hw) (kld x2 (wordAt c tbM1_1 xt1 i) hw) s) ∗ tbsP c xt0 xt1 xt2 xt3) -∗ K ⟨⟩))
      ⊢ wp frame (wpE (defs₀ (F := F)) Variants.none c none) E (prog1 i arg6 harg6 arg7 arg8 harg7 harg8 arg9 harg9) K := by
  unfold prog1 insP scrP tbsP
  simp only [cc1__attn_kernel_eq_skeleton]; unfold cc1__attn_kernel_skel
  simp only [k1_part1_eq_skeleton]
  unfold owns
  iintro ⟨⟨⟨%f0, %hf0, H0⟩, ⟨%f1, %hf1, H1⟩, ⟨%f2, %hf2, H2⟩⟩, ⟨%d9, %f9, -, H9⟩, ⟨⟨%g0, %hg0, HS0⟩, ⟨%g1, %hg1, HS1⟩, ⟨%g2, %hg2, HS2⟩⟩, ⟨HT0, HT1, HT2, HT3⟩, Hk⟩
  obtain rfl := harg6.eq_unread hf0; obtain rfl := harg7.eq_unread hf1; obtain rfl := harg8.eq_unread hf2
  -- the body's run: the assumed side condition is `hw`, each conditional is decided by the case's hypotheses
  sl_exec (disch := first | sl_exact hw | exact hF | exact hD | exact hN | exact hL)
  sl_step
  iapply Hk
  -- the three input blocks are handed back as found
  isplitl [H0 H1 H2]
  · isplitl [H0]
    · iexists _; isplitr; · ipureintro; exact hf0
      iexact H0
    isplitl [H1]
    · iexists _; isplitr; · ipureintro; exact hf1
      iexact H1
    iexists _; isplitr; · ipureintro; exact hf2
    iexact H2
  -- the output block holds its one store's payload: numerators over denominators of the NEW state, each read back
  -- after the store of this step that wrote it
  isplitl [H9]
  · iexists _; isplitr; swap; iexact H9
    ipureintro
    sl_unfold_run_names
    rw [read_store_last _ _ hz3]
    simp only [View.readAt_eq_ld, hf0, hf1, hf2, hg0, hg1, hg2, View.readCov_cons_toLoadRect,
      View.ld_unit_zero (S := S1024x1) hz2, View.ld_unit_zero (S := S1024x64) hz2, View.ld_unit_zero (S := S1x1024x64) hz3]
    rfl
  -- each buffer of the state holds the payload of its last store; a load of it after a store of this step read that
  -- store's payload, one before any store read the state the step began with
  isplitr [HT0 HT1 HT2 HT3]
  · isplitl [HS0]
    · iexists _; isplitr; swap; iexact HS0
      ipureintro
      sl_unfold_run_names
      rw [read_store_last _ _ hz2]
      simp only [View.readAt_eq_ld, hf0, hf1, hf2, hg0, hg1, hg2, View.readCov_cons_toLoadRect,
        View.ld_unit_zero (S := S1024x1) hz2, View.ld_unit_zero (S := S1024x64) hz2, View.ld_unit_zero (S := S1x1024x64) hz3]
      rfl
    isplitl [HS1]
    · iexists _; isplitr; swap; iexact HS1
      ipureintro
      sl_unfold_run_names
      rw [read_store_last _ _ hz2]
      simp only [View.readAt_eq_ld, hf0, hf1, hf2, hg0, hg1, hg2, View.readCov_cons_toLoadRect,
        View.ld_unit_zero (S := S1024x1) hz2, View.ld_unit_zero (S := S1024x64) hz2, View.ld_unit_zero (S := S1x1024x64) hz3]
      rfl
    iexists _; isplitr; swap; iexact HS2
    ipureintro
    sl_unfold_run_names
    rw [read_store_last _ _ hz2]
    simp only [View.readAt_eq_ld, hf0, hf1, hf2, hg0, hg1, hg2, View.readCov_cons_toLoadRect,
      View.ld_unit_zero (S := S1024x1) hz2, View.ld_unit_zero (S := S1024x64) hz2, View.ld_unit_zero (S := S1x1024x64) hz3]
    rfl
  -- the tables are handed back as found
  isplitl [HT0]; · iexact HT0
  isplitl [HT1]; · iexact HT1
  isplitl [HT2]; · iexact HT2
  iexact HT3

/-- A later step below the diagonal, not the last: the unmasked block is folded into the carried state; the output block is left as found. -/
theorem run1_N (c : Dev nD) (E : Set ℕ) (i : grid1.Coords)
    (arg6 : Memref sig .tc .vmem S1x1024x64 .bf16) (harg6 : arg6.IsWhole)
    (arg7 arg8 : Memref sig .tc .vmem S1x4096x64 .bf16) (harg7 : arg7.IsWhole) (harg8 : arg8.IsWhole)
    (arg9 : Memref sig .tc .vmem S1x1024x64 .f32) (harg9 : arg9.IsWhole)
    (x0 : Vec F S1x1024x64 .bf16) (x1 x2 : Vec F S1x4096x64 .bf16)
    (xt0 : TbBuf1 (F := F) c tbM1_0) (xt1 : TbBuf1 (F := F) c tbM1_1) (xt2 : TbBuf1 (F := F) c tbM1_2) (xt3 : TbBuf1 (F := F) c tbM1_3)
    (hw : k1_chk1 (wordAt c tbM1_1 xt1 i)) (K : PUnit → sProp 𝕄) (s : St F) (d9 : Vec F S1x1024x64 .f32)
    (hF : ¬condF (wordAt c tbM1_2 xt2 i)) (hD : ¬condD (wordAt c tbM1_0 xt0 i) (wordAt c tbM1_1 xt1 i)) (hN : condN (wordAt c tbM1_0 xt0 i) (wordAt c tbM1_1 xt1 i)) (hL : ¬condL (wordAt c tbM1_3 xt3 i)) :
    iprop(insP c arg6 arg7 arg8 x0 x1 x2 ∗ owns (c : Thread nD τ) arg9 fullShare d9 ∗ scrP c s ∗ tbsP c xt0 xt1 xt2 xt3
        ∗ (iprop(insP c arg6 arg7 arg8 x0 x1 x2 ∗ owns (c : Thread nD τ) arg9 fullShare d9 ∗ scrP c (updN x0 (kld x1 (wordAt c tbM1_1 xt1 i) hw) (kld x2 (wordAt c tbM1_1 xt1 i) hw) s) ∗ tbsP c xt0 xt1 xt2 xt3) -∗ K ⟨⟩))
      ⊢ wp frame (wpE (defs₀ (F := F)) Variants.none c none) E (prog1 i arg6 harg6 arg7 arg8 harg7 harg8 arg9 harg9) K := by
  unfold prog1 insP scrP tbsP
  simp only [cc1__attn_kernel_eq_skeleton]; unfold cc1__attn_kernel_skel
  simp only [k1_part1_eq_skeleton]
  unfold owns
  iintro ⟨⟨⟨%f0, %hf0, H0⟩, ⟨%f1, %hf1, H1⟩, ⟨%f2, %hf2, H2⟩⟩, ⟨%f9, %hf9, H9⟩, ⟨⟨%g0, %hg0, HS0⟩, ⟨%g1, %hg1, HS1⟩, ⟨%g2, %hg2, HS2⟩⟩, ⟨HT0, HT1, HT2, HT3⟩, Hk⟩
  obtain rfl := harg6.eq_unread hf0; obtain rfl := harg7.eq_unread hf1; obtain rfl := harg8.eq_unread hf2
  -- the body's run: the assumed side condition is `hw`, each conditional is decided by the case's hypotheses
  sl_exec (disch := first | sl_exact hw | exact hF | exact hD | exact hN | exact hL)
  sl_step
  iapply Hk
  -- the three input blocks are handed back as found
  isplitl [H0 H1 H2]
  · isplitl [H0]
    · iexists _; isplitr; · ipureintro; exact hf0
      iexact H0
    isplitl [H1]
    · iexists _; isplitr; · ipureintro; exact hf1
      iexact H1
    iexists _; isplitr; · ipureintro; exact hf2
    iexact H2
  -- the output block is not stored into: handed back as found
  isplitl [H9]
  · iexists _; isplitr; · ipureintro; exact hf9
    iexact H9
  -- each buffer of the state holds the payload of its last store; a load of it after a store of this step read that
  -- store's payload, one before any store read the state the step began with
  isplitr [HT0 HT1 HT2 HT3]
  · isplitl [HS0]
    · iexists _; isplitr; swap; iexact HS0
      ipureintro
      sl_unfold_run_names
      rw [read_store_last _ _ hz2]
      simp only [View.readAt_eq_ld, hf0, hf1, hf2, hg0, hg1, hg2, View.readCov_cons_toLoadRect,
        View.ld_unit_zero (S := S1024x1) hz2, View.ld_unit_zero (S := S1024x64) hz2, View.ld_unit_zero (S := S1x1024x64) hz3]
      rfl
    isplitl [HS1]
    · iexists _; isplitr; swap; iexact HS1
      ipureintro
      sl_unfold_run_names
      rw [read_store_last _ _ hz2]
      simp only [View.readAt_eq_ld, hf0, hf1, hf2, hg0, hg1, hg2, View.readCov_cons_toLoadRect,
        View.ld_unit_zero (S := S1024x1) hz2, View.ld_unit_zero (S := S1024x64) hz2, View.ld_unit_zero (S := S1x1024x64) hz3]
      rfl
    iexists _; isplitr; swap; iexact HS2
    ipureintro
    sl_unfold_run_names
    rw [read_store_last _ _ hz2]
    simp only [View.readAt_eq_ld, hf0, hf1, hf2, hg0, hg1, hg2, View.readCov_cons_toLoadRect,
      View.ld_unit_zero (S := S1024x1) hz2, View.ld_unit_zero (S := S1024x64) hz2, View.ld_unit_zero (S := S1x1024x64) hz3]
    rfl
  -- the tables are handed back as found
  isplitl [HT0]; · iexact HT0
  isplitl [HT1]; · iexact HT1
  isplitl [HT2]; · iexact HT2
  iexact HT3

end Cert.Kernel.Hand

end
-- ==== Proof.K.Tables.lean ====
/-
  The four literal tables of the triangular attention schedule (ten words each: the query-block index, the key-block
  index, and the first-step and last-step flags of each of the ten steps) as the first host stretch leaves them: each
  table's buffer holds its literal, whatever the buffers held before, at any float family.
-/
import proofs.«422911_j40922448396699_3_alg».proof.Proof.Gen.Kernel.Launch
import Idealize.ShloMosaic.Lib.StableHlo.Run

noncomputable section

namespace Cert.Kernel.Hand

open Idealize.ShloMosaic Idealize.SL.Sem Cert.Kernel Cert.Kernel.Gen

variable {F : FTy → Type} [FloatOps F]

/-! ## The four literal tables after the first host stretch, at any float family -/

/-- The first table (the query-block index of each triangular step). -/
theorem table_c_apply (W : Valuation τ sig (Elt F)) :
    StableHlo.after (hostOps0 (F := F)) W (Proc.devRef .tc main_c) = fun i => lit0 (S10.rowMajor i) := by
  after_results
  rfl

/-- The second table (the key-block index of each triangular step). -/
theorem table_c_0_apply (W : Valuation τ sig (Elt F)) :
    StableHlo.after (hostOps0 (F := F)) W (Proc.devRef .tc main_c_0) = fun i => lit1 (S10.rowMajor i) := by
  after_results
  rfl

/-- The third table (whether a step is the first of its query block). -/
theorem table_c_1_apply (W : Valuation τ sig (Elt F)) :
    StableHlo.after (hostOps0 (F := F)) W (Proc.devRef .tc main_c_1) = fun i => lit2 (S10.rowMajor i) := by
  after_results
  rfl

/-- The fourth table (whether a step is the last of its query block). -/
theorem table_c_2_apply (W : Valuation τ sig (Elt F)) :
    StableHlo.after (hostOps0 (F := F)) W (Proc.devRef .tc main_c_2) = fun i => lit3 (S10.rowMajor i) := by
  after_results
  rfl

/-- The four tables together. -/
theorem tables_apply (W : Valuation τ sig (Elt F)) :
    StableHlo.after (hostOps0 (F := F)) W (Proc.devRef .tc main_c) = (fun i => lit0 (S10.rowMajor i))
    ∧ StableHlo.after (hostOps0 (F := F)) W (Proc.devRef .tc main_c_0) = (fun i => lit1 (S10.rowMajor i))
    ∧ StableHlo.after (hostOps0 (F := F)) W (Proc.devRef .tc main_c_1) = (fun i => lit2 (S10.rowMajor i))
    ∧ StableHlo.after (hostOps0 (F := F)) W (Proc.devRef .tc main_c_2) = (fun i => lit3 (S10.rowMajor i)) :=
  ⟨table_c_apply W, table_c_0_apply W, table_c_1_apply W, table_c_2_apply W⟩

end Cert.Kernel.Hand

end
-- ==== Proof.K.R1Dat.lean ====
/-
  REGION 1 (causal attention over the triangular schedule), generic in the float family: the four table words at a grid
  point in closed form, the online-softmax state after each point (reset at a row block's first step, one key/value block
  folded in per step, masked on the diagonal), the output block (numerators over guarded denominators) at a row block's
  last step, the pipeline's proof data over that trajectory, and the body's obligation at every point from the four
  whole-body runs.
-/
import proofs.«422911_j40922448396699_3_alg».proof.Proof.Gen.Kernel.Skeleton
import proofs.«422911_j40922448396699_3_alg».proof.Proof.Gen.Kernel.Launch
import proofs.«422911_j40922448396699_3_alg».proof.Proof.K.Step
import proofs.«422911_j40922448396699_3_alg».proof.Proof.K.R1Runs
import Idealize.ShloMosaic.Lib.Pipeline.FrameBody
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The table words at a point -/

/-- The scalar-load rectangle at a point reads the table element at the point's step (the point's position mod 10). -/
theorem emb_step_val : ∀ t : Fin grid1.N,
    (S10.rowMajor ((Rect.unit (s := S10) (k1_off1 (grid1.coords t)) S1.size (k1_off1_inb (grid1.coords t))).emb (Shape.Idx.first (numel1_S1.symm ▸ Nat.one_pos)))).val
      = t.val % 10 := by
  decide +kernel

theorem emb_step (t : Fin grid1.N) :
    S10.rowMajor ((Rect.unit (s := S10) (k1_off1 (grid1.coords t)) S1.size (k1_off1_inb (grid1.coords t))).emb (Shape.Idx.first (numel1_S1.symm ▸ Nat.one_pos)))
      = (⟨t.val % 10, Nat.mod_lt _ (by decide)⟩ : Fin 10) := Fin.ext (emb_step_val t)

/-- The four words the body reads at a point: the tables' entries at the point's step. -/
theorem word_0 (c : Dev nD) (t : Fin (cfgM (F := F)).N) : wordAt (F := F) c tbM1_0 (tbl 0) (grid1.coords t) = lit0 ⟨t.val % 10, Nat.mod_lt _ (by decide)⟩ :=
  (rfl : wordAt (F := F) c tbM1_0 (tbl 0) (grid1.coords t) = lit0 (S10.rowMajor ((Rect.unit (s := S10) (k1_off1 (grid1.coords t)) S1.size (k1_off1_inb (grid1.coords t))).emb (Shape.Idx.first (numel1_S1.symm ▸ Nat.one_pos))))).trans (congrArg lit0 (emb_step t))
theorem word_1 (c : Dev nD) (t : Fin (cfgM (F := F)).N) : wordAt (F := F) c tbM1_1 (tbl 1) (grid1.coords t) = lit1 ⟨t.val % 10, Nat.mod_lt _ (by decide)⟩ :=
  (rfl : wordAt (F := F) c tbM1_1 (tbl 1) (grid1.coords t) = lit1 (S10.rowMajor ((Rect.unit (s := S10) (k1_off1 (grid1.coords t)) S1.size (k1_off1_inb (grid1.coords t))).emb (Shape.Idx.first (numel1_S1.symm ▸ Nat.one_pos))))).trans (congrArg lit1 (emb_step t))
theorem word_2 (c : Dev nD) (t : Fin (cfgM (F := F)).N) : wordAt (F := F) c tbM1_2 (tbl 2) (grid1.coords t) = lit2 ⟨t.val % 10, Nat.mod_lt _ (by decide)⟩ :=
  (rfl : wordAt (F := F) c tbM1_2 (tbl 2) (grid1.coords t) = lit2 (S10.rowMajor ((Rect.unit (s := S10) (k1_off1 (grid1.coords t)) S1.size (k1_off1_inb (grid1.coords t))).emb (Shape.Idx.first (numel1_S1.symm ▸ Nat.one_pos))))).trans (congrArg lit2 (emb_step t))
theorem word_3 (c : Dev nD) (t : Fin (cfgM (F := F)).N) : wordAt (F := F) c tbM1_3 (tbl 3) (grid1.coords t) = lit3 ⟨t.val % 10, Nat.mod_lt _ (by decide)⟩ :=
  (rfl : wordAt (F := F) c tbM1_3 (tbl 3) (grid1.coords t) = lit3 (S10.rowMajor ((Rect.unit (s := S10) (k1_off1 (grid1.coords t)) S1.size (k1_off1_inb (grid1.coords t))).emb (Shape.Idx.first (numel1_S1.symm ▸ Nat.one_pos))))).trans (congrArg lit3 (emb_step t))

/-- The steps that are the first of their query block, and those on the diagonal (which are also the last of their query
    block): the ten steps run through the lower triangle row by row, rows of 1, 2, 3 and 4 key blocks. -/
abbrev firstJ (j : ℕ) : Prop := j = 0 ∨ j = 1 ∨ j = 3 ∨ j = 6
abbrev diagJ (j : ℕ) : Prop := j = 0 ∨ j = 2 ∨ j = 5 ∨ j = 9

theorem condF_lit : ∀ j : Fin 10, condF (lit2 j) ↔ firstJ j.val := by decide
theorem condD_lit : ∀ j : Fin 10, condD (lit0 j) (lit1 j) ↔ diagJ j.val := by decide
theorem condN_lit : ∀ j : Fin 10, condN (lit0 j) (lit1 j) ↔ ¬diagJ j.val := by decide
theorem condL_lit : ∀ j : Fin 10, condL (lit3 j) ↔ diagJ j.val := by decide
theorem chk_lit : ∀ j : Fin 10, k1_chk1 (lit1 j) := by decide

/-- The body's four conditions at a point, in closed form in the point's step. -/
theorem hcondF (c : Dev nD) (t : Fin (cfgM (F := F)).N) : condF (wordAt (F := F) c tbM1_2 (tbl 2) (grid1.coords t)) ↔ firstJ (t.val % 10) := by
  rw [word_2]; exact condF_lit _
theorem hcondD (c : Dev nD) (t : Fin (cfgM (F := F)).N) : condD (wordAt (F := F) c tbM1_0 (tbl 0) (grid1.coords t)) (wordAt (F := F) c tbM1_1 (tbl 1) (grid1.coords t)) ↔ diagJ (t.val % 10) := by
  rw [word_0, word_1]; exact condD_lit _
theorem hcondN (c : Dev nD) (t : Fin (cfgM (F := F)).N) : condN (wordAt (F := F) c tbM1_0 (tbl 0) (grid1.coords t)) (wordAt (F := F) c tbM1_1 (tbl 1) (grid1.coords t)) ↔ ¬diagJ (t.val % 10) := by
  rw [word_0, word_1]; exact condN_lit _
theorem hcondL (c : Dev nD) (t : Fin (cfgM (F := F)).N) : condL (wordAt (F := F) c tbM1_3 (tbl 3) (grid1.coords t)) ↔ diagJ (t.val % 10) := by
  rw [word_3]; exact condL_lit _

/-- The side condition the body assumes of the key-block word holds at every point (the key block index is at most 3). -/
theorem hw1 (c : Dev nD) (t : Fin (cfgM (F := F)).N) : k1_chk1 (wordAt (F := F) c tbM1_1 (tbl 1) (grid1.coords t)) := by
  rw [word_1]; exact chk_lit _

/-! ## The staging memrefs and the body at a point -/

/-- Each window's current staging memref at a point, and its wholeness. -/
abbrev ms1_0 (t : Fin (cfgM (F := F)).N) : Memref sig .tc .vmem S1x1024x64 .bf16 := spec1_0.stage ((cfgM (F := F)).slots t 0)
abbrev hs1_0 (t : Fin (cfgM (F := F)).N) : (ms1_0 (F := F) t).IsWhole := hstage1_0 (((cfgM (F := F)).slots t 0).cast nbuf1_0)
abbrev ms1_1 (t : Fin (cfgM (F := F)).N) : Memref sig .tc .vmem S1x4096x64 .bf16 := spec1_1.stage ((cfgM (F := F)).slots t 1)
abbrev hs1_1 (t : Fin (cfgM (F := F)).N) : (ms1_1 (F := F) t).IsWhole := hstage1_1 (((cfgM (F := F)).slots t 1).cast nbuf1_1)
abbrev ms1_2 (t : Fin (cfgM (F := F)).N) : Memref sig .tc .vmem S1x4096x64 .bf16 := spec1_2.stage ((cfgM (F := F)).slots t 2)
abbrev hs1_2 (t : Fin (cfgM (F := F)).N) : (ms1_2 (F := F) t).IsWhole := hstage1_2 (((cfgM (F := F)).slots t 2).cast nbuf1_2)
abbrev ms1_3 (t : Fin (cfgM (F := F)).N) : Memref sig .tc .vmem S1x1024x64 .f32 := spec1_3.stage ((cfgM (F := F)).slots t 3)
abbrev hs1_3 (t : Fin (cfgM (F := F)).N) : (ms1_3 (F := F) t).IsWhole := hstage1_3 (((cfgM (F := F)).slots t 3).cast nbuf1_3)

/-- The kernel body at a point, on what the pipeline calls it with: the tables' buffers, the current staging memrefs and the
    carried state's buffers. -/
abbrev bodyAt1 (t : Fin (cfgM (F := F)).N) : Prog (TpuEff nD τ sig (Elt F) Λ₀ .tc) PUnit :=
  cc1__attn_kernel (grid1.coords t) (Memref.whole main_c) (Memref.isWhole_whole _) (Memref.whole main_c_0) (Memref.isWhole_whole _) (Memref.whole main_c_1) (Memref.isWhole_whole _) (Memref.whole main_c_2) (Memref.isWhole_whole _) (spec1_0.stage ((cfgM (F := F)).slots t 0)) (hstage1_0 (((cfgM (F := F)).slots t 0).cast nbuf1_0)) (spec1_1.stage ((cfgM (F := F)).slots t 1)) (hstage1_1 (((cfgM (F := F)).slots t 1).cast nbuf1_1)) (spec1_2.stage ((cfgM (F := F)).slots t 2)) (hstage1_2 (((cfgM (F := F)).slots t 2).cast nbuf1_2)) (spec1_3.stage ((cfgM (F := F)).slots t 3)) (hstage1_3 (((cfgM (F := F)).slots t 3).cast nbuf1_3)) (Memref.whole cc1_scratch0) (Memref.isWhole_whole _) (Memref.whole cc1_scratch1) (Memref.isWhole_whole _) (Memref.whole cc1_scratch2) (Memref.isWhole_whole _)

theorem bodyAt1_eq (t : Fin (cfgM (F := F)).N) :
    bodyAt1 (F := F) t = prog1 (grid1.coords t) (ms1_0 t) (hs1_0 t) (ms1_1 t) (ms1_2 t) (hs1_1 t) (hs1_2 t) (ms1_3 t) (hs1_3 t) := rfl

/-! ## Where the output window is idle -/

theorem S1_size (a : Fin 1) : S1.size a = 1 := by
  match a with
  | ⟨0, _⟩ => rfl

/-- The last-step word as the pipeline's idle table reads it is the word the body loads. -/
theorem atD_3 (c : Dev nD) (i : grid1.Coords) :
    (tbl (F := F)).atD 3 (k1_off1 i) = wordAt (F := F) c tbM1_3 (tbl 3) i := by
  refine (dif_pos (?_ : ∀ a, k1_off1 i a + 1 ≤ (pre1.ref 3).ty.shape.size a)).trans ?_
  · intro (a : Fin 1)
    have h := k1_off1_inb i a
    rw [S1_size] at h
    exact h
  · rfl

/-- At a point that is not a last step the output window is idle: the body stores nothing into it. -/
theorem idleAt1_3 (c : Dev nD) (t : Fin (cfgM (F := F)).N) (h : ¬condL (wordAt (F := F) c tbM1_3 (tbl 3) (grid1.coords t))) :
    (cfgM (F := F)).idle 3 ((cfgM (F := F)).grid.coords t) = true := by
  show (!(k1_cond4 ((tbl (F := F)).atD 3 (k1_off1 (grid1.coords t))) == 1#1)) = true
  rw [atD_3 c]
  simp only [Bool.not_eq_true', beq_eq_false_iff_ne, ne_eq]
  exact h

/-- At a last step it is live. -/
theorem liveAt1_3 (c : Dev nD) (t : Fin (cfgM (F := F)).N) (h : condL (wordAt (F := F) c tbM1_3 (tbl 3) (grid1.coords t))) :
    (cfgM (F := F)).idle 3 ((cfgM (F := F)).grid.coords t) = false := by
  show (!(k1_cond4 ((tbl (F := F)).atD 3 (k1_off1 (grid1.coords t))) == 1#1)) = false
  rw [atD_3 c]
  simp only [Bool.not_eq_false', beq_iff_eq]
  exact h

/-- The output window's block index at a point: the batch, the query block the table names at the point's step, 0. -/
def tr3 (i : grid1.Coords) : Fin 3 → ℕ :=
  ![(BitVec.ofNat 32 (i 0).val).toNat, (lit0 (S10.rowMajor ((Rect.unit (s := S10) (k1_off1 i) S1.size (k1_off1_inb i)).emb (Shape.Idx.first (numel1_S1.symm ▸ Nat.one_pos))))).toNat, (0#32).toNat]

theorem index1_3 (t : Fin (cfgM (F := F)).N) : ((cfgM (F := F)).win 3).index t = tr3 (grid1.coords t) := rfl

/-- After a step that is not a last one the next point has the same output block (same batch, same query block). -/
theorem tr3_step : ∀ t : Fin grid1.N, ¬diagJ (t.val % 10) → ∀ h : t.val + 1 < grid1.N, ∀ a, tr3 (grid1.coords ⟨t.val + 1, h⟩) a = tr3 (grid1.coords t) a := by
  decide +kernel

theorem not_last_of_not_diag : ∀ t : Fin grid1.N, ¬diagJ (t.val % 10) → ¬(t.val + 1 = grid1.N) := by
  decide +kernel

/-- At a point that is not a last step the pipeline does not write the output block back. -/
theorem noFlush1_3 (t : Fin (cfgM (F := F)).N) (h : ¬diagJ (t.val % 10)) : ((cfgM (F := F)).win 3).flush t = false := by
  unfold Pipeline.Window.flush
  refine Bool.and_eq_false_iff.mpr (Or.inr (Bool.or_eq_false_iff.mpr ⟨decide_eq_false (not_last_of_not_diag t h), decide_eq_false ?_⟩))
  rintro ⟨hh, hne⟩
  exact hne (funext fun a => by rw [index1_3, index1_3]; exact tr3_step t h hh a)

/-! ## The windows' blocks, the trajectory of the carried state, the output block -/

variable (V : (c : Dev nD) → (b : Ref sig .tc) → Buf (Elt F) ((c : Thread nD τ).loc b))

/-- Window w's block at point t, read off its array as the region finds it (V). -/
def iblk1 (c : Dev nD) (w : Fin (cfgM (F := F)).W) (t : Fin (cfgM (F := F)).N) : (((cfgM (F := F)).win w).xblock ((cfgM (F := F)).grid.coords t)).Idx → Elt F ((cfgM (F := F)).win w).elt :=
  (((cfgM (F := F)).win w).blk t).view.read (Elt F) (V c (Pipeline.arrRef spec1 w))

/-- The query block of a point, and the key and value blocks it folds in: the 1024 rows of the resident batch at the row
    offset the point's key-block word names. -/
def qAt (c : Dev nD) (t : Fin (cfgM (F := F)).N) : Vec F S1x1024x64 .bf16 := iblk1 V c 0 t
def kAt (c : Dev nD) (t : Fin (cfgM (F := F)).N) : Vec F S1x1024x64 .bf16 :=
  kld (iblk1 V c 1 t) (wordAt (F := F) c tbM1_1 (tbl 1) (grid1.coords t)) (hw1 c t)
def vAt (c : Dev nD) (t : Fin (cfgM (F := F)).N) : Vec F S1x1024x64 .bf16 :=
  kld (iblk1 V c 2 t) (wordAt (F := F) c tbM1_1 (tbl 1) (grid1.coords t)) (hw1 c t)

/-- One point's fold of its key/value block into a state: masked on a diagonal step, plain otherwise. -/
def stepAt (c : Dev nD) (t : Fin (cfgM (F := F)).N) (s : St F) : St F :=
  if diagJ (t.val % 10) then updD (qAt V c t) (kAt V c t) (vAt V c t) s else updN (qAt V c t) (kAt V c t) (vAt V c t) s

/-- THE TRAJECTORY. The carried state after the body at position n: the point's fold applied to the reset state if the
    point is the first step of its query block, else to the state the point before left. -/
def scrAt (c : Dev nD) : (n : ℕ) → n < (cfgM (F := F)).N → St F
  | 0, hn => stepAt V c ⟨0, hn⟩ st0
  | n + 1, hn => stepAt V c ⟨n + 1, hn⟩ (if firstJ ((n + 1) % 10) then st0 else scrAt c n (Nat.lt_of_succ_lt hn))

/-- The trajectory at a first step on the diagonal (a one-block row). -/
theorem scrAt_F_D (c : Dev nD) (t : Fin (cfgM (F := F)).N) (hF : firstJ (t.val % 10)) (hD : diagJ (t.val % 10)) :
    scrAt V c t.val t.isLt = updD (qAt V c t) (kAt V c t) (vAt V c t) st0 := by
  obtain ⟨n, hn⟩ := t
  cases n with
  | zero =>
    show stepAt V c ⟨0, hn⟩ st0 = _
    unfold stepAt
    exact if_pos hD
  | succ n => exact (congrArg (stepAt V c ⟨n + 1, hn⟩) (if_pos hF)).trans (if_pos hD)
/-- At a first step below the diagonal. -/
theorem scrAt_F_N (c : Dev nD) (t : Fin (cfgM (F := F)).N) (hF : firstJ (t.val % 10)) (hD : ¬diagJ (t.val % 10)) :
    scrAt V c t.val t.isLt = updN (qAt V c t) (kAt V c t) (vAt V c t) st0 := by
  obtain ⟨n, hn⟩ := t
  cases n with
  | zero =>
    show stepAt V c ⟨0, hn⟩ st0 = _
    unfold stepAt
    exact if_neg hD
  | succ n => exact (congrArg (stepAt V c ⟨n + 1, hn⟩) (if_pos hF)).trans (if_neg hD)
/-- At a later step on the diagonal: over what the point before left. -/
theorem scrAt_D (c : Dev nD) (t : Fin (cfgM (F := F)).N) (hF : ¬firstJ (t.val % 10)) (hD : diagJ (t.val % 10)) :
    scrAt V c t.val t.isLt = updD (qAt V c t) (kAt V c t) (vAt V c t) (scrAt V c (t.val - 1) (Nat.lt_of_le_of_lt (Nat.sub_le _ _) t.isLt)) := by
  obtain ⟨n, hn⟩ := t
  cases n with
  | zero => exact absurd (Or.inl rfl) hF
  | succ n => exact (congrArg (stepAt V c ⟨n + 1, hn⟩) (if_neg hF)).trans (if_pos hD)
/-- At a later step below the diagonal: over what the point before left. -/
theorem scrAt_N (c : Dev nD) (t : Fin (cfgM (F := F)).N) (hF : ¬firstJ (t.val % 10)) (hD : ¬diagJ (t.val % 10)) :
    scrAt V c t.val t.isLt = updN (qAt V c t) (kAt V c t) (vAt V c t) (scrAt V c (t.val - 1) (Nat.lt_of_le_of_lt (Nat.sub_le _ _) t.isLt)) := by
  obtain ⟨n, hn⟩ := t
  cases n with
  | zero => exact absurd (Or.inl rfl) hF
  | succ n => exact (congrArg (stepAt V c ⟨n + 1, hn⟩) (if_neg hF)).trans (if_neg hD)

/-- The output block after position n: numerators over guarded denominators of the state there (written to the output
    window at a last step, where the state is the whole row's). -/
def outAt (c : Dev nD) (n : ℕ) (hn : n < (cfgM (F := F)).N) : Vec F S1x1024x64 .f32 := fin (scrAt V c n hn)

/-! ## The region's invariant and proof data -/

/-- The core's scoped buffers that are neither this region's staging buffers nor its carried state (the first region's
    staging buffers), each whole at some contents. -/
def restStg (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

/-- The region invariant before position n: before the first point the scoped rest (every scratch at anything), the
    random-number register at some state and the tables whole; afterwards the carried state's buffers at what the point before
    left (the trajectory), the other scoped buffers at anything, the random-number register and the tables whole. -/
def PhiS (c : Dev nD) : (n : ℕ) → n ≤ (cfgM (F := F)).N → sProp 𝕄
  | 0, _ => iprop(Pipeline.ΦA spec1 c ∗ Pipeline.prefHeld (Ix := Unit) (Name := ℕ) (U := UR sig nD τ) (Lvl := ℕ) pre1 c (fun _ => fullShare) (tbl (F := F)))
  | n + 1, hn => iprop(scrP c (scrAt V c n hn) ∗ restStg c ∗ (∃ r, prngReg c r) ∗ Pipeline.prefHeld (Ix := Unit) (Name := ℕ) (U := UR sig nD τ) (Lvl := ℕ) pre1 c (fun _ => fullShare) (tbl (F := F)))

/-- The proof data of the region's pipeline on core c: the arrays as the region finds them (V); after the body at a
    point each input's buffer at its block and the output's at the output block of the state there; the invariant PhiS;
    nothing owed; full shares. -/
def dat1 (c : Dev nD) : Dat τ (Elt F) Unit ℕ (UR sig nD τ) ℕ (cfgM (F := F)) c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt V c t.val t.isLt
  Φ t := PhiS V c t.val (Nat.le_of_lt_succ t.isLt)
  q _ := fullShare
  owed _ := 0

/-- The proof data's arrays are the region-entry contents. -/
theorem A_eq1 (c : Dev nD) (w : Fin (cfgM (F := F)).W) : (dat1 V c).A w = V c (Pipeline.arrRef spec1 w) := by
  dsimp only [dat1]

/-- What the body leaves, window by window. -/
theorem after1_0 (c : Dev nD) (t : Fin (cfgM (F := F)).N) : (dat1 V c).after 0 t = iblk1 V c 0 t := by dsimp only [dat1]; try rfl
theorem after1_1 (c : Dev nD) (t : Fin (cfgM (F := F)).N) : (dat1 V c).after 1 t = iblk1 V c 1 t := by dsimp only [dat1]; try rfl
theorem after1_2 (c : Dev nD) (t : Fin (cfgM (F := F)).N) : (dat1 V c).after 2 t = iblk1 V c 2 t := by dsimp only [dat1]; try rfl
theorem after1_3 (c : Dev nD) (t : Fin (cfgM (F := F)).N) : (dat1 V c).after 3 t = outAt V c t.val t.isLt := by dsimp only [dat1]; try rfl

theorem PhiS_zero (c : Dev nD) (n : ℕ) (h : n ≤ (cfgM (F := F)).N) (hz : n = 0) :
    PhiS V c n h = iprop(Pipeline.ΦA spec1 c ∗ Pipeline.prefHeld (Ix := Unit) (Name := ℕ) (U := UR sig nD τ) (Lvl := ℕ) pre1 c (fun _ => fullShare) (tbl (F := F))) := by
  subst hz; rfl

/-- After point n (before point n + 1): the carried state at that point's. -/
theorem PhiS_succ (c : Dev nD) (n : ℕ) (hn : n < (cfgM (F := F)).N) :
    PhiS V c (n + 1) hn = iprop(scrP c (scrAt V c n hn) ∗ restStg c ∗ (∃ r, prngReg c r) ∗ Pipeline.prefHeld (Ix := Unit) (Name := ℕ) (U := UR sig nD τ) (Lvl := ℕ) pre1 c (fun _ => fullShare) (tbl (F := F))) := rfl

/-- Before a point that is not the first: the carried state at what the point before left. -/
theorem PhiS_pos (c : Dev nD) (n : ℕ) (h : n ≤ (cfgM (F := F)).N) (hz : n ≠ 0) :
    PhiS V c n h = iprop(scrP c (scrAt V c (n - 1) (by omega)) ∗ restStg c ∗ (∃ r, prngReg c r) ∗ Pipeline.prefHeld (Ix := Unit) (Name := ℕ) (U := UR sig nD τ) (Lvl := ℕ) pre1 c (fun _ => fullShare) (tbl (F := F))) := by
  cases n with
  | zero => exact absurd rfl hz
  | succ n => rfl

/-- The scoped rest is the first region's staging buffers and the carried state's three buffers, each at some contents. -/
theorem scopedRest1_split (c : Dev nD) :
    (Pipeline.scopedRest (Ix := Unit) (Name := ℕ) (U := UR sig nD τ) (Lvl := ℕ) (Val := Elt F) spec1 c : sProp 𝕄) ⊢ iprop(restStg c ∗ scrAny c) := by
  rw [scopedRest1_eq]; unfold restStg
  simp only [scrAny, scM1_0, scM1_1, scM1_2, owns_whole]
  iintro ⟨H1, H2, H3, H4, H5, H6, H7, H8, H9, HS0, HS1, HS2⟩
  isplitl [H1 H2 H3 H4 H5 H6 H7 H8 H9]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

  isplitl [HS0]; · iexact HS0
  isplitl [HS1]; · iexact HS1
  iexact HS2

theorem scopedRest1_join (c : Dev nD) :
    iprop(restStg c ∗ scrAny c) ⊢ (Pipeline.scopedRest (Ix := Unit) (Name := ℕ) (U := UR sig nD τ) (Lvl := ℕ) (Val := Elt F) spec1 c : sProp 𝕄) := by
  rw [scopedRest1_eq]; unfold restStg
  simp only [scrAny, scM1_0, scM1_1, scM1_2, owns_whole]
  iintro ⟨⟨H1, H2, H3, H4, H5, H6, H7, H8, H9⟩, HS0, HS1, HS2⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  iexact HS2

/-- A state held is a state held at some contents. -/
theorem scrP_any (c : Dev nD) (s : St F) : scrP (F := F) c s ⊢ scrAny c := by
  iintro ⟨H0, H1, H2⟩
  isplitl [H0]; · iexists _; iexact H0
  isplitl [H1]; · iexists _; iexact H1
  iexists _; iexact H2

/-- Whatever the position, the invariant holds the carried state's buffers at some contents, the other scoped buffers,
    the random-number register and the tables. -/
theorem PhiS_any (c : Dev nD) (n : ℕ) (h : n ≤ (cfgM (F := F)).N) :
    PhiS V c n h ⊢ iprop(scrAny c ∗ restStg c ∗ (∃ r, prngReg c r) ∗ tbsP c (tbl (F := F) 0) (tbl 1) (tbl 2) (tbl 3)) := by
  cases n with
  | zero =>
    rw [PhiS_zero V c 0 h rfl, PhiT1_eq]; unfold Pipeline.ΦA
    iintro ⟨⟨HR, Hg⟩, HT⟩
    ihave HR' := (scopedRest1_split c) $$ HR
    icases HR' with ⟨HA, HS⟩
    isplitl [HS]; · iexact HS
    isplitl [HA]; · iexact HA
    isplitl [Hg]; · iexact Hg
    iexact HT
  | succ n =>
    rw [PhiS_succ, PhiT1_eq]
    iintro ⟨HS, HA, Hg, HT⟩
    isplitl [HS]; · iapply (scrP_any c _); iexact HS
    isplitl [HA]; · iexact HA
    isplitl [Hg]; · iexact Hg
    iexact HT

/-! ## The body obligation and the invariant's ends -/

/-- Each input's current staging buffer holds its block at every point, fetched there or not: the body leaves the block
    in place, the window is never idle and uncut, and unfetched the block index has not moved. -/
theorem before1_0 (c : Dev nD) (t : Fin (cfgM (F := F)).N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin (cfgM (F := F)).N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin (cfgM (F := F)).N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-- What the body is called with at a point (the obligation's precondition, the windows one by one), -/
def bodyPre (c : Dev nD) (t : Fin (cfgM (F := F)).N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost (c : Dev nD) (t : Fin (cfgM (F := F)).N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 1600000 in
/-- The body at any point: the inputs' memrefs hold their blocks; the closed forms of the four table words say which of
    the four control cases the point is in, and that case's run applies; the invariant hands the run the carried state at
    what the point before left (at anything on a first step) and takes it back at the trajectory's state at this point; the
    output buffer is written at a last step and handed back as found otherwise (the window is idle there and not written
    back); the tables pass through unchanged; the core owes nothing throughout. -/
theorem sound_body (c : Dev nD) (t : Fin (cfgM (F := F)).N) :
    bodyPre V c t ⊢ wp frame (wpE (defs₀ (F := F)) Variants.none c none) Set.univ (bodyAt1 t) (fun _ => bodyPost V c t) := by
  unfold bodyPre bodyPost
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).Φ t.castSucc = PhiS V c t.val (Nat.le_of_lt t.isLt) from rfl]
  rw [show (dat1 V c).leavesExact 0 t = owns (c : Thread nD τ) (ms1_0 t) fullShare ((dat1 V c).after 0 t) from rfl, after1_0]
  rw [show (dat1 V c).leavesExact 1 t = owns (c : Thread nD τ) (ms1_1 t) fullShare ((dat1 V c).after 1 t) from rfl, after1_1]
  rw [show (dat1 V c).leavesExact 2 t = owns (c : Thread nD τ) (ms1_2 t) fullShare ((dat1 V c).after 2 t) from rfl, after1_2]
  rw [bodyAt1_eq]
  by_cases hF : firstJ (t.val % 10)
  · by_cases hD : diagJ (t.val % 10)
    ·
      rw [show (dat1 V c).leavesExact 3 t = owns (c : Thread nD τ) (ms1_3 t) fullShare ((dat1 V c).after 3 t) from by
        unfold Dat.leavesExact; rw [liveAt1_3 c t ((hcondL c t).mpr hD)]; rfl, after1_3]
      unfold outAt
      rw [scrAt_F_D V c t hF hD]
      unfold qAt kAt vAt
      rw [PhiT1_eq]
      iintro ⟨HP, Ho, ⟨%d0, H0⟩, ⟨%d1, H1⟩, ⟨%d2, H2⟩, ⟨%d3, H3⟩⟩
      ihave HP' := (PhiS_any V c _ _) $$ HP
      icases HP' with ⟨HS, HA, Hg, HT⟩
      iapply (run1_FDL c Set.univ (grid1.coords t) (ms1_0 t) (hs1_0 t) (ms1_1 t) (ms1_2 t) (hs1_1 t) (hs1_2 t) (ms1_3 t) (hs1_3 t) (iblk1 V c 0 t) (iblk1 V c 1 t) (iblk1 V c 2 t) (tbl 0) (tbl 1) (tbl 2) (tbl 3) (hw1 c t) _ ((hcondF c t).mpr hF) ((hcondD c t).mpr hD) (fun h => (hcondN c t).mp h hD) ((hcondL c t).mpr hD))
      isplitl [H0 H1 H2]
      · isplitl [H0]; · iexact H0
        isplitl [H1]; · iexact H1
        iexact H2
      isplitl [H3]; · iexists _; iexact H3
      isplitl [HS]; · iexact HS
      isplitl [HT]; · iexact HT
      iintro ⟨⟨H0, H1, H2⟩, H3, HS, HT⟩
      isplitl [HS HA Hg HT]
      · isplitl [HS]; · iexact HS
        isplitl [HA]; · iexact HA
        isplitl [Hg]; · iexact Hg
        iexact HT
      isplitl [Ho]; · iexact Ho
      isplitl [H0]; · iexact H0
      isplitl [H1]; · iexact H1
      isplitl [H2]; · iexact H2
      iexact H3
    ·
      rw [Dat.leavesExact_idle (dat1 V c) 3 t (idleAt1_3 c t (fun h => hD ((hcondL c t).mp h))) (noFlush1_3 t hD)]
      rw [scrAt_F_N V c t hF hD]
      unfold qAt kAt vAt
      rw [PhiT1_eq]
      iintro ⟨HP, Ho, ⟨%d0, H0⟩, ⟨%d1, H1⟩, ⟨%d2, H2⟩, ⟨%d3, H3⟩⟩
      ihave HP' := (PhiS_any V c _ _) $$ HP
      icases HP' with ⟨HS, HA, Hg, HT⟩
      iapply (run1_FN c Set.univ (grid1.coords t) (ms1_0 t) (hs1_0 t) (ms1_1 t) (ms1_2 t) (hs1_1 t) (hs1_2 t) (ms1_3 t) (hs1_3 t) (iblk1 V c 0 t) (iblk1 V c 1 t) (iblk1 V c 2 t) (tbl 0) (tbl 1) (tbl 2) (tbl 3) (hw1 c t) _ ((dat1 V c).before 3 t d3) ((hcondF c t).mpr hF) (fun h => hD ((hcondD c t).mp h)) ((hcondN c t).mpr hD) (fun h => hD ((hcondL c t).mp h)))
      isplitl [H0 H1 H2]
      · isplitl [H0]; · iexact H0
        isplitl [H1]; · iexact H1
        iexact H2
      isplitl [H3]; · iexact H3
      isplitl [HS]; · iexact HS
      isplitl [HT]; · iexact HT
      iintro ⟨⟨H0, H1, H2⟩, H3, HS, HT⟩
      isplitl [HS HA Hg HT]
      · isplitl [HS]; · iexact HS
        isplitl [HA]; · iexact HA
        isplitl [Hg]; · iexact Hg
        iexact HT
      isplitl [Ho]; · iexact Ho
      isplitl [H0]; · iexact H0
      isplitl [H1]; · iexact H1
      isplitl [H2]; · iexact H2
      iexists _; iexact H3
  · by_cases hD : diagJ (t.val % 10)
    ·
      rw [show (dat1 V c).leavesExact 3 t = owns (c : Thread nD τ) (ms1_3 t) fullShare ((dat1 V c).after 3 t) from by
        unfold Dat.leavesExact; rw [liveAt1_3 c t ((hcondL c t).mpr hD)]; rfl, after1_3]
      unfold outAt
      rw [scrAt_D V c t hF hD]
      unfold qAt kAt vAt
      rw [PhiS_pos V c _ _ (fun e => hF (by rw [e]; exact Or.inl rfl))]
      rw [PhiT1_eq]
      iintro ⟨⟨HS, HA, Hg, HT⟩, Ho, ⟨%d0, H0⟩, ⟨%d1, H1⟩, ⟨%d2, H2⟩, ⟨%d3, H3⟩⟩
      iapply (run1_DL c Set.univ (grid1.coords t) (ms1_0 t) (hs1_0 t) (ms1_1 t) (ms1_2 t) (hs1_1 t) (hs1_2 t) (ms1_3 t) (hs1_3 t) (iblk1 V c 0 t) (iblk1 V c 1 t) (iblk1 V c 2 t) (tbl 0) (tbl 1) (tbl 2) (tbl 3) (hw1 c t) _ (scrAt V c (t.val - 1) (Nat.lt_of_le_of_lt (Nat.sub_le _ _) t.isLt)) (fun h => hF ((hcondF c t).mp h)) ((hcondD c t).mpr hD) (fun h => (hcondN c t).mp h hD) ((hcondL c t).mpr hD))
      isplitl [H0 H1 H2]
      · isplitl [H0]; · iexact H0
        isplitl [H1]; · iexact H1
        iexact H2
      isplitl [H3]; · iexists _; iexact H3
      isplitl [HS]; · iexact HS
      isplitl [HT]; · iexact HT
      iintro ⟨⟨H0, H1, H2⟩, H3, HS, HT⟩
      isplitl [HS HA Hg HT]
      · isplitl [HS]; · iexact HS
        isplitl [HA]; · iexact HA
        isplitl [Hg]; · iexact Hg
        iexact HT
      isplitl [Ho]; · iexact Ho
      isplitl [H0]; · iexact H0
      isplitl [H1]; · iexact H1
      isplitl [H2]; · iexact H2
      iexact H3
    ·
      rw [Dat.leavesExact_idle (dat1 V c) 3 t (idleAt1_3 c t (fun h => hD ((hcondL c t).mp h))) (noFlush1_3 t hD)]
      rw [scrAt_N V c t hF hD]
      unfold qAt kAt vAt
      rw [PhiS_pos V c _ _ (fun e => hF (by rw [e]; exact Or.inl rfl))]
      rw [PhiT1_eq]
      iintro ⟨⟨HS, HA, Hg, HT⟩, Ho, ⟨%d0, H0⟩, ⟨%d1, H1⟩, ⟨%d2, H2⟩, ⟨%d3, H3⟩⟩
      iapply (run1_N c Set.univ (grid1.coords t) (ms1_0 t) (hs1_0 t) (ms1_1 t) (ms1_2 t) (hs1_1 t) (hs1_2 t) (ms1_3 t) (hs1_3 t) (iblk1 V c 0 t) (iblk1 V c 1 t) (iblk1 V c 2 t) (tbl 0) (tbl 1) (tbl 2) (tbl 3) (hw1 c t) _ (scrAt V c (t.val - 1) (Nat.lt_of_le_of_lt (Nat.sub_le _ _) t.isLt)) ((dat1 V c).before 3 t d3) (fun h => hF ((hcondF c t).mp h)) (fun h => hD ((hcondD c t).mp h)) ((hcondN c t).mpr hD) (fun h => hD ((hcondL c t).mp h)))
      isplitl [H0 H1 H2]
      · isplitl [H0]; · iexact H0
        isplitl [H1]; · iexact H1
        iexact H2
      isplitl [H3]; · iexact H3
      isplitl [HS]; · iexact HS
      isplitl [HT]; · iexact HT
      iintro ⟨⟨H0, H1, H2⟩, H3, HS, HT⟩
      isplitl [HS HA Hg HT]
      · isplitl [HS]; · iexact HS
        isplitl [HA]; · iexact HA
        isplitl [Hg]; · iexact Hg
        iexact HT
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body V c t

/-- What the region is entered with (the random-number register, the tables whole, the scoped rest) is the invariant before
    the first point. -/
theorem hin1 (c : Dev nD) : iprop((∃ r, prngReg c r) ∗ Pipeline.prefHeld (Ix := Unit) (Name := ℕ) (U := UR sig nD τ) (Lvl := ℕ) pre1 c (fun _ => fullShare) (tbl (F := F)) ∗ Pipeline.scopedRest (Ix := Unit) (Name := ℕ) (U := UR sig nD τ) (Lvl := ℕ) (Val := Elt F) spec1 c) ⊢ (dat1 V c).Φ 0 := by
  rw [show (dat1 V c).Φ 0 = PhiS V c 0 (Nat.zero_le _) from rfl, PhiS_zero V c 0 _ rfl]
  unfold Pipeline.ΦA
  iintro ⟨Hg, HT, HR⟩
  isplitl [HR Hg]
  · isplitl [HR]; · iexact HR
    iexact Hg
  iexact HT

/-- After the last point the invariant gives the same back: the carried state's named contents are forgotten. -/
theorem hout1 (c : Dev nD) : (dat1 V c).Φ (Fin.last (cfgM (F := F)).N) ⊢ iprop((∃ r, prngReg c r) ∗ Pipeline.prefHeld (Ix := Unit) (Name := ℕ) (U := UR sig nD τ) (Lvl := ℕ) pre1 c (fun _ => fullShare) (tbl (F := F)) ∗ Pipeline.scopedRest (Ix := Unit) (Name := ℕ) (U := UR sig nD τ) (Lvl := ℕ) (Val := Elt F) spec1 c) := by
  rw [show (dat1 V c).Φ (Fin.last (cfgM (F := F)).N) = PhiS V c (Fin.last (cfgM (F := F)).N).val (Nat.le_of_lt_succ (Fin.last (cfgM (F := F)).N).isLt) from rfl]
  rw [PhiT1_eq]
  refine (PhiS_any V c _ _).trans ?_
  iintro ⟨HS, HA, Hg, HT⟩
  isplitl [Hg]; · iexact Hg
  isplitl [HT]; · iexact HT
  iapply (scopedRest1_join c)
  isplitl [HA]; · iexact HA
  iexact HS

end Cert.Kernel.Hand

end
-- ==== Proof.K.Run.lean ====
/-
  THE RUN of the entry function through its two kernel regions, and THE FRAME.

  The entry function is four segments: a stretch of host operations (the four literal tables of the triangular schedule,
  the reshape of the activations to a matrix of 16384 rows, the concatenation of the three weight matrices along the
  columns), the projection region, a second stretch (the three projections reshaped to [4, 4096, 64]) and the attention
  region. Between two segments each core holds every unscoped buffer whole at a known valuation: the launch memory; that
  memory after the first stretch; that with the projection region's arrays at what its write-backs leave; that after the
  second stretch; that with the attention region's arrays at what its write-backs leave. A host stretch moves the
  valuation by the fold of its operations. A region takes its arrays out of the valuation at entry (its proof data's entry
  contents are read off it) and puts them back at exit at their final contents; every other buffer bypasses the region.
  The attention region reads four prefetched tables: they are among the buffers that bypass its windows, they hold the
  literal contents the first stretch wrote (nothing writes them afterwards), the region holds them whole for its
  duration and gives them back at its exit. The core's random-number register rides along at some state, and no core owes another
  anything.

  The run: from any memory with zero counters every weakly fair execution terminates, nothing faulting, and the final
  memory holds at every unscoped buffer the last valuation. Read at the four argument arrays, which no host operation
  and no region writes, the last valuation is the launch memory: the frame.
-/
import proofs.«422911_j40922448396699_3_alg».proof.Proof.Gen.Kernel.Launch
import proofs.«422911_j40922448396699_3_alg».proof.Proof.Gen.Kernel.Skeleton
import proofs.«422911_j40922448396699_3_alg».proof.Proof.Gen.Kernel.Points
import proofs.«422911_j40922448396699_3_alg».proof.Proof.Gen.Kernel.Regions
import proofs.«422911_j40922448396699_3_alg».proof.Proof.K.R0
import proofs.«422911_j40922448396699_3_alg».proof.Proof.K.R1Runs
import proofs.«422911_j40922448396699_3_alg».proof.Proof.K.Tables
import proofs.«422911_j40922448396699_3_alg».proof.Proof.K.R1Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through the entry function -/

/-- Core `c`'s buffers at launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
/-- The same read at the core's references (what the projection region's proof data take). -/
abbrev V1 : (c : Dev nD) → (b : Ref sig .tc) → Buf (Elt F) ((c : Thread nD τ).loc b) := fun c b => W1 m ρ c b
/-- At the projection region's exit: its arrays at what the pipeline leaves (the inputs as entered, each output's
    write-backs folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's references (the projection region's exit contents). -/
abbrev V2 : (c : Dev nD) → (b : Ref sig .tc) → Buf (Elt F) ((c : Thread nD τ).loc b) := fun c b => W2 m ρ c b
/-- At the projection region's exit each of its arrays holds what the pipeline leaves (`hF0`) and every other buffer
    what it held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention region's entry). -/
abbrev W3 : Dev nD → Valuation τ sig (Elt F) := fun c => StableHlo.after hostOps1 (W2 m ρ c)
/-- The same read at the core's references (what the attention region's proof data take). -/
abbrev V3 : (c : Dev nD) → (b : Ref sig .tc) → Buf (Elt F) ((c : Thread nD τ).loc b) := fun c b => W3 m ρ c b
/-- At the attention region's exit: its arrays at what the pipeline leaves, every other buffer as entered. -/
def W4 (c : Dev nD) : Valuation τ sig (Elt F) :=
  Pipeline.withArrays spec1 c (W3 m ρ c) fun w => (dat1 (V3 m ρ) c).arrAt w (cfgM (F := F)).N
theorem W4_arr (c : Dev nD) (w : Fin (cfgM (F := F)).W) :
    W4 m ρ c (Proc.devRef .tc (Pipeline.arrRef spec1 w)) = (dat1 (V3 m ρ) c).arrAt w (cfgM (F := F)).N := by
  unfold W4; exact Pipeline.withArrays_arr spec1 (launch1 (F := F)).win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the core's references (the attention region's exit contents). -/
abbrev V4 : (c : Dev nD) → (b : Ref sig .tc) → Buf (Elt F) ((c : Thread nD τ).loc b) := fun c b => W4 m ρ c b
theorem hF1 (c : Dev nD) (w : Fin (cfgM (F := F)).W) : (dat1 (V3 m ρ) c).arrAt w (cfgM (F := F)).N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- The fold, spelt out: the valuation at the attention region's entry is the second stretch's fold of the one at the
    projection region's exit, and the one at the projection region's entry is the first stretch's fold of the launch
    memory. -/
theorem W3_eq (c : Dev nD) : W3 m ρ c = StableHlo.after hostOps1 (W2 m ρ c) := rfl
theorem W1_eq (c : Dev nD) : W1 m ρ c = StableHlo.after hostOps0 (fun b => m (c, b)) := rfl

/-! ### What the fold holds at the regions' results -/

/-- The three projections, as the projection region leaves them. -/
theorem W2_main_v2_0 (c : Dev nD) : W2 m ρ c (Proc.devRef .tc main_v2_0) = (dat0 (V1 m ρ) c).arrAt 2 cfg0.N := W2_arr m ρ c 2
theorem W2_main_v2_1 (c : Dev nD) : W2 m ρ c (Proc.devRef .tc main_v2_1) = (dat0 (V1 m ρ) c).arrAt 3 cfg0.N := W2_arr m ρ c 3
theorem W2_main_v2_2 (c : Dev nD) : W2 m ρ c (Proc.devRef .tc main_v2_2) = (dat0 (V1 m ρ) c).arrAt 4 cfg0.N := W2_arr m ρ c 4
/-- The attention output, as the attention region leaves it. -/
theorem W4_main_v6 (c : Dev nD) : W4 m ρ c (Proc.devRef .tc main_v6) = (dat1 (V3 m ρ) c).arrAt 3 (cfgM (F := F)).N := W4_arr m ρ c 3

/-! ### The prefetched tables at the attention region's entry: the literals the first stretch wrote -/

/-- No later operation and no window of the projection region writes a table, so the fold at a table's buffer walks
    back to the first stretch, whose constant leaves the literal there. -/
theorem V3_pre (c : Dev nD) (k : Fin 4) : V3 m ρ c (pre1.ref k) = tbl k := by
  have h0 : ∀ (r : Ref sig .tc), r ∉ (hostOps1_W : List (Ref sig .tc)) → (∀ w, Pipeline.arrRef spec0 w ≠ r) →
      V3 m ρ c r = W1 m ρ c (Proc.devRef .tc r) := fun r h1 h2 =>
    (StableHlo.after_of_writes_sub hostOps1 _ hostOps1_writes h1).trans (W2_of_ne m ρ c r h2)
  match k with
  | ⟨0, _⟩ => exact (h0 main_c (by decide) (by decide)).trans (table_c_apply _)
  | ⟨1, _⟩ => exact (h0 main_c_0 (by decide) (by decide)).trans (table_c_0_apply _)
  | ⟨2, _⟩ => exact (h0 main_c_1 (by decide) (by decide)).trans (table_c_1_apply _)
  | ⟨3, _⟩ => exact (h0 main_c_2 (by decide) (by decide)).trans (table_c_2_apply _)

/-- The buffers that bypass the attention region's windows are the four tables, whole at their literal contents, and the
    rest: the tables are unscoped, distinct and no window's array, and each holds its literal at the region's entry. -/
theorem rest1_split (c : Dev nD) :
    (Pipeline.unscopedRest (Ix := Unit) (Name := ℕ) (U := UR sig nD τ) (Lvl := ℕ) spec1 c (V3 m ρ c) : sProp 𝕄)
      = iprop(Pipeline.prefHeld pre1 c (fun _ => fullShare) (tbl (F := F)) ∗ Pipeline.unscopedRestP pre1 spec1 c (V3 m ρ c)) := by
  rw [Pipeline.unscopedRest_split preFacts1 c (V3 m ρ c), show (fun k => V3 m ρ c (pre1.ref k)) = tbl (F := F) from funext (V3_pre m ρ c)]

/-! ### The arguments end as launched: no host operation and no region writes one, so the fold at an argument's
    buffer walks back to the launch memory -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-! ## The proof data family and the thread state -/

/-- The prefetched tables' admissible contents: the projection pipeline has none, the attention pipeline's are the
    four literals. -/
abbrev adm : (p : Fin 2) → (pcfgs (F := F) p).Adm
  | ⟨0, _⟩ => cfg0.toPCfg_adm
  | ⟨1, _⟩ => adm1
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's random-number register at some state and its debts,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends at
    those references at the stretch's fold of `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The launch element: the pipelines' staging cells, each funded with its launch tokens. -/
abbrev u₀ : UR sig nD τ :=
  initOf (Pipeline.cells (Pipeline.pin (pcfgs (F := F)) adm) (cellOf_inj adm)) (Pipeline.launchToks (Pipeline.pin (pcfgs (F := F)) adm) (cellOf_inj adm))

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the
    random-number register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- THE PROJECTION REGION over the thread state: entered from every unscoped buffer at `W1`, left at `W2`. Its arrays
    are split out of the unscoped buffers at entry and put back at the exit contents; the random-number register goes into
    the region's invariant and comes out; nothing is owed; the kernel has no semaphore of its own. -/
def reg0 : Pipeline.RegionSeg (pcfgs (F := F)) adm (pdats m ρ) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V1 m ρ) c).loose
  hwaits := Pipeline.hwaits_of_owed_zero (pcfgs (F := F)) adm (pdats m ρ) () L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) (launch0 (F := F)).win (launch0 (F := F)).arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      (launch0 (F := F)).win (launch0 (F := F)).arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE ATTENTION REGION over the thread state: entered from every unscoped buffer at `W3`, left at `W4`. Its arrays
    are split out of the unscoped buffers at entry, and of the buffers that bypass its windows the four tables are
    split out too, held whole at their literal contents for the region's duration; at the exit the tables rejoin the
    bypassing buffers and the arrays are put back at the exit contents. The random-number register goes into the region's
    invariant and comes out; nothing is owed; the kernel has no semaphore of its own. -/
def reg1 : Pipeline.RegionSeg (pcfgs (F := F)) adm (pdats m ρ) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V3 m ρ) c).loose
  hwaits := Pipeline.hwaits_of_owed_zero (pcfgs (F := F)) adm (pdats m ρ) () L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop((∃ r, prngReg c r) ∗ Pipeline.prefHeld (Ix := Unit) (Name := ℕ) (U := UR sig nD τ) (Lvl := ℕ) pre1 c (fun _ => fullShare) (tbl (F := F)))
  Z c := Pipeline.unscopedRestP (Ix := Unit) (Name := ℕ) (U := UR sig nD τ) (Lvl := ℕ) pre1 spec1 c (V3 m ρ c)
  hentry c := by
    rw [Pipeline.ownSems0_none]
    have hsplit := Pipeline.arrays_of_unscopedBufs (p := 1) (pcfgs (F := F)) adm (pdats m ρ) (launch1 (F := F)).win (launch1 (F := F)).arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    ihave H' := (Entails.of_eq (rest1_split m ρ c)) $$ Hrest
    icases H' with ⟨Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin1 (V3 m ρ) c
  hout c := by
    rw [Pipeline.ownSems0_none]
    refine (hout1 (V3 m ρ) c).trans ?_
    iintro ⟨Hr, Ht, Hs⟩
    isplitl [Hr Ht]
    · isplitl [Hr] <;> iassumption
    isplitr; · iempintro
    iexact Hs
  hexit c := by
    have hjoin := Pipeline.unscopedBufs_of_arrays (p := 1) (pcfgs (F := F)) adm (Ix := Unit) (Name := ℕ) (U := UR sig nD τ) (Lvl := ℕ)
      (launch1 (F := F)).win (launch1 (F := F)).arr_whole c (pdats m ρ) ((pdats m ρ 1 c).share_full fun _ => rfl)
      (V3 m ρ c) (V4 m ρ c) ((pdats m ρ 1 c).arrAt · (cfgM (F := F)).N) (hF1 m ρ c) (hrest1 m ρ c)
    rw [Pipeline.unscopedBufs_held] at hjoin
    iintro ⟨Ha, HO, ⟨Hp, Ht⟩, Hrest⟩
    ihave Hur := (Entails.of_eq (rest1_split m ρ c).symm) $$ [Ht Hrest]
    · isplitl [Ht] <;> iassumption
    imodintro
    isplitl [Ha Hur Hp]
    · isplitl [Ha Hur]
      · iapply hjoin; isplitl [Ha] <;> iassumption
      iexact Hp
    unfold Pipeline.Dat.owesAt Pipeline.owesWithin
    icases HO with ⟨%W, -, HO⟩; iexists W; iexact HO

/-! ## The entry function as segments, and the launch -/

/-- The four segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The entry function IS the run of the segments: it is the chain of its items, and the segments' run is that chain. -/
theorem main_run (c : Dev nD) : main (F := F) c = Pipeline.Seg.run (segs m ρ) := (main_chain c).trans (by chain_rfl)

set_option backward.isDefEq.respectTransparency.types false in
/-- THE RUN: from any memory with zero counters, every weakly fair execution of the entry function on the cores
    terminates, nothing faulting, and every final memory holds, at every unscoped buffer of every core, the last
    boundary's contents `W4`: the launch over the four segments, the last thread state read against the final state. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () (cellOf_inj adm) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := u₀ (F := F))
    (hu₀ := by
      iintro Hu; imodintro
      isplitl [Hu]
      · iapply (show (ownU (u₀ (F := F)) : sProp 𝕄) ⊢ BI.own (emb₁ (u₀ (F := F))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: the run, read at the four argument arrays, which end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨(h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩) (run_main m ρ)

end Cert.Kernel.Hand

end
-- ==== Proof.KI.R0.lean ====
/-
  The projection region of the attention program: one pass over the 8 row blocks of the activations. At each
  point the body reads the point's block of 2048 activation rows (window 0, fetched at every point) and the fused
  weight matrix of 192 columns (window 1, fetched at the first point only and resident afterwards), forms their
  product once, and writes its three column groups of 64, rounded to bf16, into the three output blocks (windows 2, 3
  and 4: the query, key and value projections). Each output block is written by ONE store over the whole block, so what
  the body leaves there is the stored value itself, a function of the two input blocks alone; what it finds in an
  input buffer is that window's block at the point, fetched there or not. This module states the windows' blocks, the
  three output values, the body's triple on whole staging buffers, the region's proof data (arrays as the region finds
  them; after the body each input's buffer at its block and each output's at its stored value; nothing owed; full
  shares) and the body obligation at every point. The matrix product stays symbolic throughout.
-/
import proofs.«422911_j40922448396699_3_alg».proof.Proof.Gen.KernelIdeal.Launch
import proofs.«422911_j40922448396699_3_alg».proof.Proof.Gen.KernelIdeal.Skeleton
import proofs.«422911_j40922448396699_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of long extents recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Region0
-- the core's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's row block at every point, for any proof data whose array is
    `V`'s and whose body leaves the block in place (the window is fetched at every point; the general lemma covers
    it all the same). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the weight matrix at every point, though it is fetched at the first only: an
    unfetched input's block index has not moved, so the buffer still holds the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole, through the unit rectangle at the origin -/

abbrev r0_0 : Rect S2048x1024 := Rect.unit (s := S2048x1024) ![0, 0] S2048x1024.size inb_S2048x1024_S2048x1024_0_0
abbrev r0_1 : Rect S1024x192 := Rect.unit (s := S1024x192) ![0, 0] S1024x192.size inb_S1024x192_S1024x192_0_0
abbrev r0_2 : Rect S2048x64 := Rect.unit (s := S2048x64) ![0, 0] S2048x64.size inb_S2048x64_S2048x64_0_0

/-- The origin of a rank-2 shape, spelt as a literal vector, is the zero function. -/
theorem origin2 : (![0, 0] : Fin 2 → Nat) = fun _ => 0 := by
  funext a; fin_cases a <;> rfl

/-! ## What the body leaves in each output window's buffer -/

/-- The query block's buffer after the body: its one store, over the first 64 product columns of the loaded blocks. -/
def out0_2 (x0 : Vec F S2048x1024 .f32) (x1 : Vec F S1024x192 .f32) : Vec F S2048x64 .bf16 :=
  View.canon [⟨r0_2, k0_pay2 (View.ld x0 r0_0) (View.ld x1 r0_1)⟩]

/-- The key block's buffer after the body: product columns 64 to 127. -/
def out0_3 (x0 : Vec F S2048x1024 .f32) (x1 : Vec F S1024x192 .f32) : Vec F S2048x64 .bf16 :=
  View.canon [⟨r0_2, k0_pay3 (View.ld x0 r0_0) (View.ld x1 r0_1)⟩]

/-- The value block's buffer after the body: product columns 128 to 191. -/
def out0_4 (x0 : Vec F S2048x1024 .f32) (x1 : Vec F S1024x192 .f32) : Vec F S2048x64 .bf16 :=
  View.canon [⟨r0_2, k0_pay4 (View.ld x0 r0_0) (View.ld x1 r0_1)⟩]

/-- One store over the whole block leaves the stored value, and a load of a whole block reads the block. -/
theorem out0_2_eq (x0 : Vec F S2048x1024 .f32) (x1 : Vec F S1024x192 .f32) : out0_2 x0 x1 = k0_pay2 x0 x1 := by
  unfold out0_2
  rw [View.canon_unit_zero (S := S2048x64) origin2, View.ld_unit_zero (S := S2048x1024) origin2, View.ld_unit_zero (S := S1024x192) origin2]
theorem out0_3_eq (x0 : Vec F S2048x1024 .f32) (x1 : Vec F S1024x192 .f32) : out0_3 x0 x1 = k0_pay3 x0 x1 := by
  unfold out0_3
  rw [View.canon_unit_zero (S := S2048x64) origin2, View.ld_unit_zero (S := S2048x1024) origin2, View.ld_unit_zero (S := S1024x192) origin2]
theorem out0_4_eq (x0 : Vec F S2048x1024 .f32) (x1 : Vec F S1024x192 .f32) : out0_4 x0 x1 = k0_pay4 x0 x1 := by
  unfold out0_4
  rw [View.canon_unit_zero (S := S2048x64) origin2, View.ld_unit_zero (S := S2048x1024) origin2, View.ld_unit_zero (S := S1024x192) origin2]

/-- The one store of an output block covers it. -/
theorem cover0_2 (p0 : Vec F S2048x64 .bf16) (y : S2048x64.Idx) :
    ∃ pc ∈ ([⟨r0_2, p0⟩] : List (View.Piece (Elt F) S2048x64 .bf16)), y ∈ pc.1.set :=
  ⟨_, List.mem_singleton_self _, View.mem_set_unit_zero (S := S2048x64) origin2 inb_S2048x64_S2048x64_0_0 y⟩

/-! ## The body's triple -/

/-- The kernel body on whole staging buffers, the inputs' at read contents `x0`, `x1` and the outputs' at anything,
    runs to the continuation holding the inputs' as they were and each output's at its stored value. -/
theorem sound_kernel0 (c : Dev nD) (E : Set ℕ) (i : grid0.Coords)
    (arg1 : Memref sig .tc .vmem S2048x1024 .f32) (harg1 : arg1.IsWhole) (arg2 : Memref sig .tc .vmem S1024x192 .f32) (harg2 : arg2.IsWhole)
    (arg3 : Memref sig .tc .vmem S2048x64 .bf16) (harg3 : arg3.IsWhole) (arg4 : Memref sig .tc .vmem S2048x64 .bf16) (harg4 : arg4.IsWhole)
    (arg5 : Memref sig .tc .vmem S2048x64 .bf16) (harg5 : arg5.IsWhole)
    (x0 : Vec F S2048x1024 .f32) (x1 : Vec F S1024x192 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x0 x1)) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  isplitl [H3]
  · iexists _; isplitr
    swap; · iexact H3
    ipureintro
    exact View.read_writes_eq_canon _ _ _ (cover0_2 _)
  iexists _; isplitr
  swap; · iexact H4
  ipureintro
  exact View.read_writes_eq_canon _ _ _ (cover0_2 _)

/-! ## The region's proof data -/

/-- The proof data of the projection pipeline on core `c`: the arrays as the region finds them (`V`); after the body
    at point `t` each input's buffer at its block and each output's at its stored value of the two input blocks; the
    region invariant (the core's other scoped buffers and its random-number register, each at some contents), untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Step.lean ====
/-
  The online-softmax state of the attention kernel and its update steps, as pure functions of the values the body loads
  (over the generated payload terms): the state is (running row maximum m, running denominator l, running numerator acc);
  `st0` is the reset state (m = -∞, l = 0, acc = 0); `updN` folds one UNMASKED key/value block into the state, `updD` one
  DIAGONAL block (scores above the diagonal replaced by the mask value); `fin` is the quotient acc / max(l, ε) written to the
  output block; `kld` is the key (or value) block of 1024 rows cut out of the resident 4096-row batch at the row offset the
  table word names.
-/
import proofs.«422911_j40922448396699_3_alg».proof.Proof.Gen.KernelIdeal.Skeleton
import Idealize.ShloMosaic.Lib.Pipeline.FrameBody

noncomputable section

namespace Cert.KernelIdeal.Hand

open Idealize.ShloMosaic Idealize.SL.Sem Cert.KernelIdeal Cert.KernelIdeal.Gen

variable {F : FTy → Type} [FloatOps F] [Named F]

/-- The carried state: row maxima, row denominators, row numerators. -/
abbrev St (F : FTy → Type) [FloatOps F] : Type := Vec F S1024x1 .f32 × Vec F S1024x1 .f32 × Vec F S1024x64 .f32

/-- The reset state: maxima at -∞, denominators and numerators at zero. -/
def st0 : St F := (k1_pay1 (F := F), k1_pay2 (F := F), k1_pay3 (F := F))

/-- One unmasked block folded into the state (query block `q`, key block `kb`, value block `vb`). -/
def updN (q kb vb : Vec F S1x1024x64 .bf16) (s : St F) : St F :=
  (k1_pay18 q kb s.1, k1_pay16 q kb s.1 s.1 s.2.1, k1_pay17 q kb vb s.1 s.1 s.2.2)

/-- One diagonal (causally masked) block folded into the state. -/
def updD (q kb vb : Vec F S1x1024x64 .bf16) (s : St F) : St F :=
  (k1_pay12 q kb s.1, k1_pay10 q kb s.1 s.1 s.2.1, k1_pay11 q kb vb s.1 s.1 s.2.2)

/-- The output block: numerators over denominators (guarded below by ε). -/
def fin (s : St F) : Vec F S1x1024x64 .f32 := k1_pay19 s.2.1 s.2.2

/-- The 1024-row block of a resident 4096-row batch at the row offset the table word `w` names. -/
def kld (x : Vec F S1x4096x64 .bf16) (w : BitVec 32) (hw : k1_chk1 w) : Vec F S1x1024x64 .bf16 :=
  View.ld x (Rect.unit (s := S1x4096x64) (k1_off2 w) S1x1024x64.size (k1_off2_inb w hw))

end Cert.KernelIdeal.Hand

end
-- ==== Proof.KI.R1Runs.lean ====
/-
  The attention region's prefetched tables, its memory references and the run of its kernel body in the four control
  cases of the triangular schedule.

  The four tables are literal: at step t of the ten steps of a batch they give the query block qi(t), the key block
  ki(t) (ki ≤ qi: the lower triangle, row by row), whether t is the first step of its query block and whether it is the
  last. The body reads the four words of step t, resets the carried state (row maxima, denominators, numerators) on a
  first step, loads the query block and the key and value blocks at row offset ki(t)·1024 of the resident batch, folds the
  block into the state — with the causal mask when ki = qi, without it when ki ≠ qi — and on a last step writes
  numerators over denominators to the output block. Every store of the body writes a whole buffer, so each buffer's
  contents after the run is the payload of its last store, and a load after a store in the same run reads that payload:
  the state after the step is `updD` or `updN` of the state before it (the reset state `st0` on a first step) and the
  output block is `fin` of the new state.

  The four cases are: first, diagonal and last (a one-block row); first and off the diagonal; diagonal and last, not
  first; off the diagonal, neither first nor last. Each run is stated as a triple from the blocks, the state and the
  tables held to the same with the new state (and the output block, where the step is a last one).
-/
import proofs.«422911_j40922448396699_3_alg».proof.Proof.Gen.KernelIdeal.Launch
import proofs.«422911_j40922448396699_3_alg».proof.Proof.Gen.KernelIdeal.Skeleton
import proofs.«422911_j40922448396699_3_alg».proof.Proof.KI.Step
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## The tables -/

/-- The four tables' contents, as the constants of the entry function write them: query block, key block, first-step
    flag and last-step flag of each of the ten steps. -/
def tbl : pre1.Contents (Elt F) := fun
  | 0 => fun i => lit0 (S10.rowMajor i)
  | 1 => fun i => lit1 (S10.rowMajor i)
  | 2 => fun i => lit2 (S10.rowMajor i)
  | 3 => fun i => lit3 (S10.rowMajor i)
  | ⟨_ + 4, h⟩ => absurd h (Nat.not_lt.2 (Nat.le_add_left _ _))

/-- At every step the block index the query-block table names is at most 3: the block of 1024 rows lies inside the 4096
    rows of its batch (checked at each of the 40 points). -/
theorem blk_inb : ∀ (i : grid1.Coords) (a : Fin 3),
    ((![(BitVec.ofNat 32 (i 0).val).toNat,
        (lit0 (S10.rowMajor ((Rect.unit (s := S10) (k1_off1 i) S1.size (k1_off1_inb i)).emb (Shape.Idx.first (numel1_S1.symm ▸ Nat.one_pos))))).toNat,
        (0#32).toNat] : Fin 3 → Nat) a + 1) * S1x1024x64.size a ≤ S4x4096x64.size a := by
  decide +kernel

/-- The side condition of the tables: the query block and the output block the tables name lie inside their arrays at
    every step (the block index is at most 3 of 4), and their transfers end on whole words (the block's rows are a
    multiple of the packing; a 32-bit element is a word). -/
theorem hok : ok1 (F := F) tbl :=
  ⟨fun i => ⟨blk_inb i, .inr (Affine.block_words_dvd (of_decide_eq_true rfl) (by decide))⟩,
   fun i => ⟨blk_inb i, .inl rfl⟩⟩

/-- The tables as admissible contents, and the region's pipeline at them. -/
abbrev adm1 : (pcfg1 (F := F)).Adm := ⟨tbl, hok⟩
abbrev cfgM : Pipeline.Cfg sig Λ₀ := cfg1 (F := F) adm1

/-- Each table as the body is handed it: its whole buffer. -/
abbrev tbM1_0 : Memref sig .tc .smem S10 .i32 := Memref.whole main_c
abbrev htbM1_0 : tbM1_0.IsWhole := Memref.isWhole_whole _
abbrev tbM1_1 : Memref sig .tc .smem S10 .i32 := Memref.whole main_c_0
abbrev htbM1_1 : tbM1_1.IsWhole := Memref.isWhole_whole _
abbrev tbM1_2 : Memref sig .tc .smem S10 .i32 := Memref.whole main_c_1
abbrev htbM1_2 : tbM1_2.IsWhole := Memref.isWhole_whole _
abbrev tbM1_3 : Memref sig .tc .smem S10 .i32 := Memref.whole main_c_2
abbrev htbM1_3 : tbM1_3.IsWhole := Memref.isWhole_whole _

/-- A table's buffer on core `c`: the type of its contents, and the buffer held whole at contents `f`. -/
abbrev TbBuf1 (c : Dev nD) {S : Shape} {e : EltTy} (M : Memref sig .tc .smem S e) : Type := Buf (Elt F) (M.view.loc (c : Thread nD τ))
abbrev tbPt1 (c : Dev nD) {S : Shape} {e : EltTy} (M : Memref sig .tc .smem S e) (f : TbBuf1 (F := F) c M) : sProp 𝕄 :=
  M.view.loc (c : Thread nD τ) ↦{fullShare} f

/-- The four tables held whole, table by table. -/
theorem PhiT1_eq (c : Dev nD) :
    (Pipeline.prefHeld (Ix := Unit) (Name := ℕ) (U := UR sig nD τ) (Lvl := ℕ) pre1 c (fun _ => fullShare) tbl : sProp 𝕄)
      = iprop(tbPt1 c tbM1_0 (tbl 0) ∗ tbPt1 c tbM1_1 (tbl 1) ∗ tbPt1 c tbM1_2 (tbl 2) ∗ tbPt1 c tbM1_3 (tbl 3)) := by
  unfold Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## The carried state's buffers -/

abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x64 .f32 := Memref.whole cc1_scratch2

/-! ## The words of a step and the body's conditions -/

/-- The word the body reads of table `M` (held at contents `xt`) at the step of coordinates `i`. -/
abbrev wordAt (c : Dev nD) (M : Memref sig .tc .smem S10 .i32) (xt : TbBuf1 (F := F) c M) (i : grid1.Coords) : BitVec 32 :=
  M.view.readAt (Elt F) (Rect.unit (s := S10) (k1_off1 i) S1.size (k1_off1_inb i)).toLoadRect xt (Shape.Idx.first (numel1_S1.symm ▸ Nat.one_pos))

/-- The step is the first of its query block (the first-step flag is 1). -/
abbrev condF (w5 : BitVec 32) : Prop := (Scalar.cmpi .ne (Scalar.extui (Scalar.cmpi .eq w5 1#32)) 0#32) = 1#1
/-- The key block is the query block (the diagonal block: masked). -/
abbrev condD (w1 w3 : BitVec 32) : Prop := (Scalar.cmpi .ne (Scalar.extui (Scalar.cmpi .eq w3 w1)) 0#32) = 1#1
/-- The key block is not the query block (below the diagonal: unmasked). -/
abbrev condN (w1 w3 : BitVec 32) : Prop := (Scalar.cmpi .ne (Scalar.extui (Scalar.cmpi .ne w3 w1)) 0#32) = 1#1
/-- The step is the last of its query block (the last-step flag is 1). -/
abbrev condL (w7 : BitVec 32) : Prop := k1_cond4 w7 = 1#1

/-! ## What a run holds -/

/-- The three input blocks held at their contents: the query block and the resident key and value batches. -/
abbrev insP (c : Dev nD) (arg6 : Memref sig .tc .vmem S1x1024x64 .bf16) (arg7 arg8 : Memref sig .tc .vmem S1x4096x64 .bf16)
    (x0 : Vec F S1x1024x64 .bf16) (x1 x2 : Vec F S1x4096x64 .bf16) : sProp 𝕄 :=
  iprop(owns (c : Thread nD τ) arg6 fullShare x0 ∗ owns (c : Thread nD τ) arg7 fullShare x1 ∗ owns (c : Thread nD τ) arg8 fullShare x2)

/-- The four tables held whole at their contents. -/
abbrev tbsP (c : Dev nD) (xt0 : TbBuf1 (F := F) c tbM1_0) (xt1 : TbBuf1 (F := F) c tbM1_1) (xt2 : TbBuf1 (F := F) c tbM1_2)
    (xt3 : TbBuf1 (F := F) c tbM1_3) : sProp 𝕄 :=
  iprop(tbPt1 c tbM1_0 xt0 ∗ tbPt1 c tbM1_1 xt1 ∗ tbPt1 c tbM1_2 xt2 ∗ tbPt1 c tbM1_3 xt3)

/-- The carried state's three buffers held at the state `s`. -/
abbrev scrP (c : Dev nD) (s : St F) : sProp 𝕄 :=
  iprop(owns (c : Thread nD τ) scM1_0 fullShare s.1 ∗ owns (c : Thread nD τ) scM1_1 fullShare s.2.1 ∗ owns (c : Thread nD τ) scM1_2 fullShare s.2.2)

/-- The carried state's three buffers held at some contents. -/
abbrev scrAny (c : Dev nD) : sProp 𝕄 :=
  iprop((∃ d, owns (c : Thread nD τ) scM1_0 fullShare d) ∗ (∃ d, owns (c : Thread nD τ) scM1_1 fullShare d) ∗ (∃ d, owns (c : Thread nD τ) scM1_2 fullShare d))

/-- The body at the step of coordinates `i`, on the tables, the staged blocks and the carried state's buffers. -/
abbrev prog1 (i : grid1.Coords) (arg6 : Memref sig .tc .vmem S1x1024x64 .bf16) (harg6 : arg6.IsWhole)
    (arg7 arg8 : Memref sig .tc .vmem S1x4096x64 .bf16) (harg7 : arg7.IsWhole) (harg8 : arg8.IsWhole)
    (arg9 : Memref sig .tc .vmem S1x1024x64 .f32) (harg9 : arg9.IsWhole) : Prog (TpuEff nD τ sig (Elt F) Λ₀ .tc) PUnit :=
  cc1__attn_kernel i tbM1_0 htbM1_0 tbM1_1 htbM1_1 tbM1_2 htbM1_2 tbM1_3 htbM1_3 arg6 harg6 arg7 harg7 arg8 harg8 arg9 harg9
    scM1_0 (Memref.isWhole_whole _) scM1_1 (Memref.isWhole_whole _) scM1_2 (Memref.isWhole_whole _)

/-! ## What a whole-buffer store leaves -/

/-- The zero offsets of a rank-2 and of a rank-3 buffer, however the zeros are spelt. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A buffer whose LAST store covered it whole reads that store's payload, whatever it held and whatever was stored
    before. -/
theorem read_store_last {sp : Space} {S : Shape} {e : EltTy} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ (fun y => ⟨_, List.mem_cons_self, View.mem_set_unit_zero h inb y⟩),
    View.canon_cons_unit_zero h]

/-! ## The four runs -/

/-- A first step on the diagonal that is also the last (a one-block row): the state is reset, the masked block folded in, the quotient written. -/
theorem run1_FDL (c : Dev nD) (E : Set ℕ) (i : grid1.Coords)
    (arg6 : Memref sig .tc .vmem S1x1024x64 .bf16) (harg6 : arg6.IsWhole)
    (arg7 arg8 : Memref sig .tc .vmem S1x4096x64 .bf16) (harg7 : arg7.IsWhole) (harg8 : arg8.IsWhole)
    (arg9 : Memref sig .tc .vmem S1x1024x64 .f32) (harg9 : arg9.IsWhole)
    (x0 : Vec F S1x1024x64 .bf16) (x1 x2 : Vec F S1x4096x64 .bf16)
    (xt0 : TbBuf1 (F := F) c tbM1_0) (xt1 : TbBuf1 (F := F) c tbM1_1) (xt2 : TbBuf1 (F := F) c tbM1_2) (xt3 : TbBuf1 (F := F) c tbM1_3)
    (hw : k1_chk1 (wordAt c tbM1_1 xt1 i)) (K : PUnit → sProp 𝕄)
    (hF : condF (wordAt c tbM1_2 xt2 i)) (hD : condD (wordAt c tbM1_0 xt0 i) (wordAt c tbM1_1 xt1 i)) (hN : ¬condN (wordAt c tbM1_0 xt0 i) (wordAt c tbM1_1 xt1 i)) (hL : condL (wordAt c tbM1_3 xt3 i)) :
    iprop(insP c arg6 arg7 arg8 x0 x1 x2 ∗ (∃ d, owns (c : Thread nD τ) arg9 fullShare d) ∗ scrAny c ∗ tbsP c xt0 xt1 xt2 xt3
        ∗ (iprop(insP c arg6 arg7 arg8 x0 x1 x2 ∗ owns (c : Thread nD τ) arg9 fullShare (fin (updD x0 (kld x1 (wordAt c tbM1_1 xt1 i) hw) (kld x2 (wordAt c tbM1_1 xt1 i) hw) st0)) ∗ scrP c (updD x0 (kld x1 (wordAt c tbM1_1 xt1 i) hw) (kld x2 (wordAt c tbM1_1 xt1 i) hw) st0) ∗ tbsP c xt0 xt1 xt2 xt3) -∗ K ⟨⟩))
      ⊢ wp frame (wpE (defs₀ (F := F)) Variants.none c none) E (prog1 i arg6 harg6 arg7 arg8 harg7 harg8 arg9 harg9) K := by
  unfold prog1 insP scrP scrAny tbsP
  simp only [cc1__attn_kernel_eq_skeleton]; unfold cc1__attn_kernel_skel
  simp only [k1_part1_eq_skeleton]
  unfold owns
  iintro ⟨⟨⟨%f0, %hf0, H0⟩, ⟨%f1, %hf1, H1⟩, ⟨%f2, %hf2, H2⟩⟩, ⟨%d9, %f9, -, H9⟩, ⟨⟨%e0, %g0, -, HS0⟩, ⟨%e1, %g1, -, HS1⟩, ⟨%e2, %g2, -, HS2⟩⟩, ⟨HT0, HT1, HT2, HT3⟩, Hk⟩
  obtain rfl := harg6.eq_unread hf0; obtain rfl := harg7.eq_unread hf1; obtain rfl := harg8.eq_unread hf2
  -- the body's run: the assumed side condition is `hw`, each conditional is decided by the case's hypotheses
  sl_exec (disch := first | sl_exact hw | exact hF | exact hD | exact hN | exact hL)
  sl_step
  iapply Hk
  -- the three input blocks are handed back as found
  isplitl [H0 H1 H2]
  · isplitl [H0]
    · iexists _; isplitr; · ipureintro; exact hf0
      iexact H0
    isplitl [H1]
    · iexists _; isplitr; · ipureintro; exact hf1
      iexact H1
    iexists _; isplitr; · ipureintro; exact hf2
    iexact H2
  -- the output block holds its one store's payload: numerators over denominators of the NEW state, each read back
  -- after the store of this step that wrote it
  isplitl [H9]
  · iexists _; isplitr; swap; iexact H9
    ipureintro
    sl_unfold_run_names
    rw [read_store_last _ _ hz3]
    simp only [View.readAt_eq_ld, hf0, hf1, hf2, View.readCov_cons_toLoadRect, View.ld_unit_zero (S := S1024x1) hz2,
      View.ld_unit_zero (S := S1024x64) hz2, View.ld_unit_zero (S := S1x1024x64) hz3]
    rfl
  -- each buffer of the state holds the payload of its last store; a load of it after a store of this step read that
  -- store's payload, one before any store read the state the step began with
  isplitr [HT0 HT1 HT2 HT3]
  · isplitl [HS0]
    · iexists _; isplitr; swap; iexact HS0
      ipureintro
      sl_unfold_run_names
      rw [read_store_last _ _ hz2]
      simp only [View.readAt_eq_ld, hf0, hf1, hf2, View.readCov_cons_toLoadRect, View.ld_unit_zero (S := S1024x1) hz2,
        View.ld_unit_zero (S := S1024x64) hz2, View.ld_unit_zero (S := S1x1024x64) hz3]
      rfl
    isplitl [HS1]
    · iexists _; isplitr; swap; iexact HS1
      ipureintro
      sl_unfold_run_names
      rw [read_store_last _ _ hz2]
      simp only [View.readAt_eq_ld, hf0, hf1, hf2, View.readCov_cons_toLoadRect, View.ld_unit_zero (S := S1024x1) hz2,
        View.ld_unit_zero (S := S1024x64) hz2, View.ld_unit_zero (S := S1x1024x64) hz3]
      rfl
    iexists _; isplitr; swap; iexact HS2
    ipureintro
    sl_unfold_run_names
    rw [read_store_last _ _ hz2]
    simp only [View.readAt_eq_ld, hf0, hf1, hf2, View.readCov_cons_toLoadRect, View.ld_unit_zero (S := S1024x1) hz2,
      View.ld_unit_zero (S := S1024x64) hz2, View.ld_unit_zero (S := S1x1024x64) hz3]
    rfl
  -- the tables are handed back as found
  isplitl [HT0]; · iexact HT0
  isplitl [HT1]; · iexact HT1
  isplitl [HT2]; · iexact HT2
  iexact HT3

/-- A first step below the diagonal, not the last: the state is reset and the unmasked block folded in; the output block is left as found. -/
theorem run1_FN (c : Dev nD) (E : Set ℕ) (i : grid1.Coords)
    (arg6 : Memref sig .tc .vmem S1x1024x64 .bf16) (harg6 : arg6.IsWhole)
    (arg7 arg8 : Memref sig .tc .vmem S1x4096x64 .bf16) (harg7 : arg7.IsWhole) (harg8 : arg8.IsWhole)
    (arg9 : Memref sig .tc .vmem S1x1024x64 .f32) (harg9 : arg9.IsWhole)
    (x0 : Vec F S1x1024x64 .bf16) (x1 x2 : Vec F S1x4096x64 .bf16)
    (xt0 : TbBuf1 (F := F) c tbM1_0) (xt1 : TbBuf1 (F := F) c tbM1_1) (xt2 : TbBuf1 (F := F) c tbM1_2) (xt3 : TbBuf1 (F := F) c tbM1_3)
    (hw : k1_chk1 (wordAt c tbM1_1 xt1 i)) (K : PUnit → sProp 𝕄) (d9 : Vec F S1x1024x64 .f32)
    (hF : condF (wordAt c tbM1_2 xt2 i)) (hD : ¬condD (wordAt c tbM1_0 xt0 i) (wordAt c tbM1_1 xt1 i)) (hN : condN (wordAt c tbM1_0 xt0 i) (wordAt c tbM1_1 xt1 i)) (hL : ¬condL (wordAt c tbM1_3 xt3 i)) :
    iprop(insP c arg6 arg7 arg8 x0 x1 x2 ∗ owns (c : Thread nD τ) arg9 fullShare d9 ∗ scrAny c ∗ tbsP c xt0 xt1 xt2 xt3
        ∗ (iprop(insP c arg6 arg7 arg8 x0 x1 x2 ∗ owns (c : Thread nD τ) arg9 fullShare d9 ∗ scrP c (updN x0 (kld x1 (wordAt c tbM1_1 xt1 i) hw) (kld x2 (wordAt c tbM1_1 xt1 i) hw) st0) ∗ tbsP c xt0 xt1 xt2 xt3) -∗ K ⟨⟩))
      ⊢ wp frame (wpE (defs₀ (F := F)) Variants.none c none) E (prog1 i arg6 harg6 arg7 arg8 harg7 harg8 arg9 harg9) K := by
  unfold prog1 insP scrP scrAny tbsP
  simp only [cc1__attn_kernel_eq_skeleton]; unfold cc1__attn_kernel_skel
  simp only [k1_part1_eq_skeleton]
  unfold owns
  iintro ⟨⟨⟨%f0, %hf0, H0⟩, ⟨%f1, %hf1, H1⟩, ⟨%f2, %hf2, H2⟩⟩, ⟨%f9, %hf9, H9⟩, ⟨⟨%e0, %g0, -, HS0⟩, ⟨%e1, %g1, -, HS1⟩, ⟨%e2, %g2, -, HS2⟩⟩, ⟨HT0, HT1, HT2, HT3⟩, Hk⟩
  obtain rfl := harg6.eq_unread hf0; obtain rfl := harg7.eq_unread hf1; obtain rfl := harg8.eq_unread hf2
  -- the body's run: the assumed side condition is `hw`, each conditional is decided by the case's hypotheses
  sl_exec (disch := first | sl_exact hw | exact hF | exact hD | exact hN | exact hL)
  sl_step
  iapply Hk
  -- the three input blocks are handed back as found
  isplitl [H0 H1 H2]
  · isplitl [H0]
    · iexists _; isplitr; · ipureintro; exact hf0
      iexact H0
    isplitl [H1]
    · iexists _; isplitr; · ipureintro; exact hf1
      iexact H1
    iexists _; isplitr; · ipureintro; exact hf2
    iexact H2
  -- the output block is not stored into: handed back as found
  isplitl [H9]
  · iexists _; isplitr; · ipureintro; exact hf9
    iexact H9
  -- each buffer of the state holds the payload of its last store; a load of it after a store of this step read that
  -- store's payload, one before any store read the state the step began with
  isplitr [HT0 HT1 HT2 HT3]
  · isplitl [HS0]
    · iexists _; isplitr; swap; iexact HS0
      ipureintro
      sl_unfold_run_names
      rw [read_store_last _ _ hz2]
      simp only [View.readAt_eq_ld, hf0, hf1, hf2, View.readCov_cons_toLoadRect, View.ld_unit_zero (S := S1024x1) hz2,
        View.ld_unit_zero (S := S1024x64) hz2, View.ld_unit_zero (S := S1x1024x64) hz3]
      rfl
    isplitl [HS1]
    · iexists _; isplitr; swap; iexact HS1
      ipureintro
      sl_unfold_run_names
      rw [read_store_last _ _ hz2]
      simp only [View.readAt_eq_ld, hf0, hf1, hf2, View.readCov_cons_toLoadRect, View.ld_unit_zero (S := S1024x1) hz2,
        View.ld_unit_zero (S := S1024x64) hz2, View.ld_unit_zero (S := S1x1024x64) hz3]
      rfl
    iexists _; isplitr; swap; iexact HS2
    ipureintro
    sl_unfold_run_names
    rw [read_store_last _ _ hz2]
    simp only [View.readAt_eq_ld, hf0, hf1, hf2, View.readCov_cons_toLoadRect, View.ld_unit_zero (S := S1024x1) hz2,
      View.ld_unit_zero (S := S1024x64) hz2, View.ld_unit_zero (S := S1x1024x64) hz3]
    rfl
  -- the tables are handed back as found
  isplitl [HT0]; · iexact HT0
  isplitl [HT1]; · iexact HT1
  isplitl [HT2]; · iexact HT2
  iexact HT3

/-- A later step on the diagonal, the last of its row: the masked block is folded into the carried state and the quotient written. -/
theorem run1_DL (c : Dev nD) (E : Set ℕ) (i : grid1.Coords)
    (arg6 : Memref sig .tc .vmem S1x1024x64 .bf16) (harg6 : arg6.IsWhole)
    (arg7 arg8 : Memref sig .tc .vmem S1x4096x64 .bf16) (harg7 : arg7.IsWhole) (harg8 : arg8.IsWhole)
    (arg9 : Memref sig .tc .vmem S1x1024x64 .f32) (harg9 : arg9.IsWhole)
    (x0 : Vec F S1x1024x64 .bf16) (x1 x2 : Vec F S1x4096x64 .bf16)
    (xt0 : TbBuf1 (F := F) c tbM1_0) (xt1 : TbBuf1 (F := F) c tbM1_1) (xt2 : TbBuf1 (F := F) c tbM1_2) (xt3 : TbBuf1 (F := F) c tbM1_3)
    (hw : k1_chk1 (wordAt c tbM1_1 xt1 i)) (K : PUnit → sProp 𝕄) (s : St F)
    (hF : ¬condF (wordAt c tbM1_2 xt2 i)) (hD : condD (wordAt c tbM1_0 xt0 i) (wordAt c tbM1_1 xt1 i)) (hN : ¬condN (wordAt c tbM1_0 xt0 i) (wordAt c tbM1_1 xt1 i)) (hL : condL (wordAt c tbM1_3 xt3 i)) :
    iprop(insP c arg6 arg7 arg8 x0 x1 x2 ∗ (∃ d, owns (c : Thread nD τ) arg9 fullShare d) ∗ scrP c s ∗ tbsP c xt0 xt1 xt2 xt3
        ∗ (iprop(insP c arg6 arg7 arg8 x0 x1 x2 ∗ owns (c : Thread nD τ) arg9 fullShare (fin (updD x0 (kld x1 (wordAt c tbM1_1 xt1 i) hw) (kld x2 (wordAt c tbM1_1 xt1 i) hw) s)) ∗ scrP c (updD x0 (kld x1 (wordAt c tbM1_1 xt1 i) hw) (kld x2 (wordAt c tbM1_1 xt1 i) hw) s) ∗ tbsP c xt0 xt1 xt2 xt3) -∗ K ⟨⟩))
      ⊢ wp frame (wpE (defs₀ (F := F)) Variants.none c none) E (prog1 i arg6 harg6 arg7 arg8 harg7 harg8 arg9 harg9) K := by
  unfold prog1 insP scrP tbsP
  simp only [cc1__attn_kernel_eq_skeleton]; unfold cc1__attn_kernel_skel
  simp only [k1_part1_eq_skeleton]
  unfold owns
  iintro ⟨⟨⟨%f0, %hf0, H0⟩, ⟨%f1, %hf1, H1⟩, ⟨%f2, %hf2, H2⟩⟩, ⟨%d9, %f9, -, H9⟩, ⟨⟨%g0, %hg0, HS0⟩, ⟨%g1, %hg1, HS1⟩, ⟨%g2, %hg2, HS2⟩⟩, ⟨HT0, HT1, HT2, HT3⟩, Hk⟩
  obtain rfl := harg6.eq_unread hf0; obtain rfl := harg7.eq_unread hf1; obtain rfl := harg8.eq_unread hf2
  -- the body's run: the assumed side condition is `hw`, each conditional is decided by the case's hypotheses
  sl_exec (disch := first | sl_exact hw | exact hF | exact hD | exact hN | exact hL)
  sl_step
  iapply Hk
  -- the three input blocks are handed back as found
  isplitl [H0 H1 H2]
  · isplitl [H0]
    · iexists _; isplitr; · ipureintro; exact hf0
      iexact H0
    isplitl [H1]
    · iexists _; isplitr; · ipureintro; exact hf1
      iexact H1
    iexists _; isplitr; · ipureintro; exact hf2
    iexact H2
  -- the output block holds its one store's payload: numerators over denominators of the NEW state, each read back
  -- after the store of this step that wrote it
  isplitl [H9]
  · iexists _; isplitr; swap; iexact H9
    ipureintro
    sl_unfold_run_names
    rw [read_store_last _ _ hz3]
    simp only [View.readAt_eq_ld, hf0, hf1, hf2, hg0, hg1, hg2, View.readCov_cons_toLoadRect,
      View.ld_unit_zero (S := S1024x1) hz2, View.ld_unit_zero (S := S1024x64) hz2, View.ld_unit_zero (S := S1x1024x64) hz3]
    rfl
  -- each buffer of the state holds the payload of its last store; a load of it after a store of this step read that
  -- store's payload, one before any store read the state the step began with
  isplitr [HT0 HT1 HT2 HT3]
  · isplitl [HS0]
    · iexists _; isplitr; swap; iexact HS0
      ipureintro
      sl_unfold_run_names
      rw [read_store_last _ _ hz2]
      simp only [View.readAt_eq_ld, hf0, hf1, hf2, hg0, hg1, hg2, View.readCov_cons_toLoadRect,
        View.ld_unit_zero (S := S1024x1) hz2, View.ld_unit_zero (S := S1024x64) hz2, View.ld_unit_zero (S := S1x1024x64) hz3]
      rfl
    isplitl [HS1]
    · iexists _; isplitr; swap; iexact HS1
      ipureintro
      sl_unfold_run_names
      rw [read_store_last _ _ hz2]
      simp only [View.readAt_eq_ld, hf0, hf1, hf2, hg0, hg1, hg2, View.readCov_cons_toLoadRect,
        View.ld_unit_zero (S := S1024x1) hz2, View.ld_unit_zero (S := S1024x64) hz2, View.ld_unit_zero (S := S1x1024x64) hz3]
      rfl
    iexists _; isplitr; swap; iexact HS2
    ipureintro
    sl_unfold_run_names
    rw [read_store_last _ _ hz2]
    simp only [View.readAt_eq_ld, hf0, hf1, hf2, hg0, hg1, hg2, View.readCov_cons_toLoadRect,
      View.ld_unit_zero (S := S1024x1) hz2, View.ld_unit_zero (S := S1024x64) hz2, View.ld_unit_zero (S := S1x1024x64) hz3]
    rfl
  -- the tables are handed back as found
  isplitl [HT0]; · iexact HT0
  isplitl [HT1]; · iexact HT1
  isplitl [HT2]; · iexact HT2
  iexact HT3

/-- A later step below the diagonal, not the last: the unmasked block is folded into the carried state; the output block is left as found. -/
theorem run1_N (c : Dev nD) (E : Set ℕ) (i : grid1.Coords)
    (arg6 : Memref sig .tc .vmem S1x1024x64 .bf16) (harg6 : arg6.IsWhole)
    (arg7 arg8 : Memref sig .tc .vmem S1x4096x64 .bf16) (harg7 : arg7.IsWhole) (harg8 : arg8.IsWhole)
    (arg9 : Memref sig .tc .vmem S1x1024x64 .f32) (harg9 : arg9.IsWhole)
    (x0 : Vec F S1x1024x64 .bf16) (x1 x2 : Vec F S1x4096x64 .bf16)
    (xt0 : TbBuf1 (F := F) c tbM1_0) (xt1 : TbBuf1 (F := F) c tbM1_1) (xt2 : TbBuf1 (F := F) c tbM1_2) (xt3 : TbBuf1 (F := F) c tbM1_3)
    (hw : k1_chk1 (wordAt c tbM1_1 xt1 i)) (K : PUnit → sProp 𝕄) (s : St F) (d9 : Vec F S1x1024x64 .f32)
    (hF : ¬condF (wordAt c tbM1_2 xt2 i)) (hD : ¬condD (wordAt c tbM1_0 xt0 i) (wordAt c tbM1_1 xt1 i)) (hN : condN (wordAt c tbM1_0 xt0 i) (wordAt c tbM1_1 xt1 i)) (hL : ¬condL (wordAt c tbM1_3 xt3 i)) :
    iprop(insP c arg6 arg7 arg8 x0 x1 x2 ∗ owns (c : Thread nD τ) arg9 fullShare d9 ∗ scrP c s ∗ tbsP c xt0 xt1 xt2 xt3
        ∗ (iprop(insP c arg6 arg7 arg8 x0 x1 x2 ∗ owns (c : Thread nD τ) arg9 fullShare d9 ∗ scrP c (updN x0 (kld x1 (wordAt c tbM1_1 xt1 i) hw) (kld x2 (wordAt c tbM1_1 xt1 i) hw) s) ∗ tbsP c xt0 xt1 xt2 xt3) -∗ K ⟨⟩))
      ⊢ wp frame (wpE (defs₀ (F := F)) Variants.none c none) E (prog1 i arg6 harg6 arg7 arg8 harg7 harg8 arg9 harg9) K := by
  unfold prog1 insP scrP tbsP
  simp only [cc1__attn_kernel_eq_skeleton]; unfold cc1__attn_kernel_skel
  simp only [k1_part1_eq_skeleton]
  unfold owns
  iintro ⟨⟨⟨%f0, %hf0, H0⟩, ⟨%f1, %hf1, H1⟩, ⟨%f2, %hf2, H2⟩⟩, ⟨%f9, %hf9, H9⟩, ⟨⟨%g0, %hg0, HS0⟩, ⟨%g1, %hg1, HS1⟩, ⟨%g2, %hg2, HS2⟩⟩, ⟨HT0, HT1, HT2, HT3⟩, Hk⟩
  obtain rfl := harg6.eq_unread hf0; obtain rfl := harg7.eq_unread hf1; obtain rfl := harg8.eq_unread hf2
  -- the body's run: the assumed side condition is `hw`, each conditional is decided by the case's hypotheses
  sl_exec (disch := first | sl_exact hw | exact hF | exact hD | exact hN | exact hL)
  sl_step
  iapply Hk
  -- the three input blocks are handed back as found
  isplitl [H0 H1 H2]
  · isplitl [H0]
    · iexists _; isplitr; · ipureintro; exact hf0
      iexact H0
    isplitl [H1]
    · iexists _; isplitr; · ipureintro; exact hf1
      iexact H1
    iexists _; isplitr; · ipureintro; exact hf2
    iexact H2
  -- the output block is not stored into: handed back as found
  isplitl [H9]
  · iexists _; isplitr; · ipureintro; exact hf9
    iexact H9
  -- each buffer of the state holds the payload of its last store; a load of it after a store of this step read that
  -- store's payload, one before any store read the state the step began with
  isplitr [HT0 HT1 HT2 HT3]
  · isplitl [HS0]
    · iexists _; isplitr; swap; iexact HS0
      ipureintro
      sl_unfold_run_names
      rw [read_store_last _ _ hz2]
      simp only [View.readAt_eq_ld, hf0, hf1, hf2, hg0, hg1, hg2, View.readCov_cons_toLoadRect,
        View.ld_unit_zero (S := S1024x1) hz2, View.ld_unit_zero (S := S1024x64) hz2, View.ld_unit_zero (S := S1x1024x64) hz3]
      rfl
    isplitl [HS1]
    · iexists _; isplitr; swap; iexact HS1
      ipureintro
      sl_unfold_run_names
      rw [read_store_last _ _ hz2]
      simp only [View.readAt_eq_ld, hf0, hf1, hf2, hg0, hg1, hg2, View.readCov_cons_toLoadRect,
        View.ld_unit_zero (S := S1024x1) hz2, View.ld_unit_zero (S := S1024x64) hz2, View.ld_unit_zero (S := S1x1024x64) hz3]
      rfl
    iexists _; isplitr; swap; iexact HS2
    ipureintro
    sl_unfold_run_names
    rw [read_store_last _ _ hz2]
    simp only [View.readAt_eq_ld, hf0, hf1, hf2, hg0, hg1, hg2, View.readCov_cons_toLoadRect,
      View.ld_unit_zero (S := S1024x1) hz2, View.ld_unit_zero (S := S1024x64) hz2, View.ld_unit_zero (S := S1x1024x64) hz3]
    rfl
  -- the tables are handed back as found
  isplitl [HT0]; · iexact HT0
  isplitl [HT1]; · iexact HT1
  isplitl [HT2]; · iexact HT2
  iexact HT3

end Cert.KernelIdeal.Hand

end
-- ==== Proof.KI.Tables.lean ====
/-
  The four literal tables of the triangular attention schedule (ten words each: the query-block index, the key-block
  index, and the first-step and last-step flags of each of the ten steps) as the first host stretch leaves them: each
  table's buffer holds its literal, whatever the buffers held before, at any float family.
-/
import proofs.«422911_j40922448396699_3_alg».proof.Proof.Gen.KernelIdeal.Launch
import Idealize.ShloMosaic.Lib.StableHlo.Run

noncomputable section

namespace Cert.KernelIdeal.Hand

open Idealize.ShloMosaic Idealize.SL.Sem Cert.KernelIdeal Cert.KernelIdeal.Gen

variable {F : FTy → Type} [FloatOps F] [Named F]

/-! ## The four literal tables after the first host stretch, at any float family -/

/-- The first table (the query-block index of each triangular step). -/
theorem table_c_apply (W : Valuation τ sig (Elt F)) :
    StableHlo.after (hostOps0 (F := F)) W (Proc.devRef .tc main_c) = fun i => lit0 (S10.rowMajor i) := by
  after_results
  rfl

/-- The second table (the key-block index of each triangular step). -/
theorem table_c_0_apply (W : Valuation τ sig (Elt F)) :
    StableHlo.after (hostOps0 (F := F)) W (Proc.devRef .tc main_c_0) = fun i => lit1 (S10.rowMajor i) := by
  after_results
  rfl

/-- The third table (whether a step is the first of its query block). -/
theorem table_c_1_apply (W : Valuation τ sig (Elt F)) :
    StableHlo.after (hostOps0 (F := F)) W (Proc.devRef .tc main_c_1) = fun i => lit2 (S10.rowMajor i) := by
  after_results
  rfl

/-- The fourth table (whether a step is the last of its query block). -/
theorem table_c_2_apply (W : Valuation τ sig (Elt F)) :
    StableHlo.after (hostOps0 (F := F)) W (Proc.devRef .tc main_c_2) = fun i => lit3 (S10.rowMajor i) := by
  after_results
  rfl

/-- The four tables together. -/
theorem tables_apply (W : Valuation τ sig (Elt F)) :
    StableHlo.after (hostOps0 (F := F)) W (Proc.devRef .tc main_c) = (fun i => lit0 (S10.rowMajor i))
    ∧ StableHlo.after (hostOps0 (F := F)) W (Proc.devRef .tc main_c_0) = (fun i => lit1 (S10.rowMajor i))
    ∧ StableHlo.after (hostOps0 (F := F)) W (Proc.devRef .tc main_c_1) = (fun i => lit2 (S10.rowMajor i))
    ∧ StableHlo.after (hostOps0 (F := F)) W (Proc.devRef .tc main_c_2) = (fun i => lit3 (S10.rowMajor i)) :=
  ⟨table_c_apply W, table_c_0_apply W, table_c_1_apply W, table_c_2_apply W⟩

end Cert.KernelIdeal.Hand

end
-- ==== Proof.KI.R1Dat.lean ====
/-
  REGION 1 (causal attention over the triangular schedule), generic in the float family: the four table words at a grid
  point in closed form, the online-softmax state after each point (reset at a row block's first step, one key/value block
  folded in per step, masked on the diagonal), the output block (numerators over guarded denominators) at a row block's
  last step, the pipeline's proof data over that trajectory, and the body's obligation at every point from the four
  whole-body runs.
-/
import proofs.«422911_j40922448396699_3_alg».proof.Proof.Gen.KernelIdeal.Skeleton
import proofs.«422911_j40922448396699_3_alg».proof.Proof.Gen.KernelIdeal.Launch
import proofs.«422911_j40922448396699_3_alg».proof.Proof.KI.Step
import proofs.«422911_j40922448396699_3_alg».proof.Proof.KI.R1Runs
import Idealize.ShloMosaic.Lib.Pipeline.FrameBody
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## The table words at a point -/

/-- The scalar-load rectangle at a point reads the table element at the point's step (the point's position mod 10). -/
theorem emb_step_val : ∀ t : Fin grid1.N,
    (S10.rowMajor ((Rect.unit (s := S10) (k1_off1 (grid1.coords t)) S1.size (k1_off1_inb (grid1.coords t))).emb (Shape.Idx.first (numel1_S1.symm ▸ Nat.one_pos)))).val
      = t.val % 10 := by
  decide +kernel

theorem emb_step (t : Fin grid1.N) :
    S10.rowMajor ((Rect.unit (s := S10) (k1_off1 (grid1.coords t)) S1.size (k1_off1_inb (grid1.coords t))).emb (Shape.Idx.first (numel1_S1.symm ▸ Nat.one_pos)))
      = (⟨t.val % 10, Nat.mod_lt _ (by decide)⟩ : Fin 10) := Fin.ext (emb_step_val t)

/-- The four words the body reads at a point: the tables' entries at the point's step. -/
theorem word_0 (c : Dev nD) (t : Fin (cfgM (F := F)).N) : wordAt (F := F) c tbM1_0 (tbl 0) (grid1.coords t) = lit0 ⟨t.val % 10, Nat.mod_lt _ (by decide)⟩ :=
  (rfl : wordAt (F := F) c tbM1_0 (tbl 0) (grid1.coords t) = lit0 (S10.rowMajor ((Rect.unit (s := S10) (k1_off1 (grid1.coords t)) S1.size (k1_off1_inb (grid1.coords t))).emb (Shape.Idx.first (numel1_S1.symm ▸ Nat.one_pos))))).trans (congrArg lit0 (emb_step t))
theorem word_1 (c : Dev nD) (t : Fin (cfgM (F := F)).N) : wordAt (F := F) c tbM1_1 (tbl 1) (grid1.coords t) = lit1 ⟨t.val % 10, Nat.mod_lt _ (by decide)⟩ :=
  (rfl : wordAt (F := F) c tbM1_1 (tbl 1) (grid1.coords t) = lit1 (S10.rowMajor ((Rect.unit (s := S10) (k1_off1 (grid1.coords t)) S1.size (k1_off1_inb (grid1.coords t))).emb (Shape.Idx.first (numel1_S1.symm ▸ Nat.one_pos))))).trans (congrArg lit1 (emb_step t))
theorem word_2 (c : Dev nD) (t : Fin (cfgM (F := F)).N) : wordAt (F := F) c tbM1_2 (tbl 2) (grid1.coords t) = lit2 ⟨t.val % 10, Nat.mod_lt _ (by decide)⟩ :=
  (rfl : wordAt (F := F) c tbM1_2 (tbl 2) (grid1.coords t) = lit2 (S10.rowMajor ((Rect.unit (s := S10) (k1_off1 (grid1.coords t)) S1.size (k1_off1_inb (grid1.coords t))).emb (Shape.Idx.first (numel1_S1.symm ▸ Nat.one_pos))))).trans (congrArg lit2 (emb_step t))
theorem word_3 (c : Dev nD) (t : Fin (cfgM (F := F)).N) : wordAt (F := F) c tbM1_3 (tbl 3) (grid1.coords t) = lit3 ⟨t.val % 10, Nat.mod_lt _ (by decide)⟩ :=
  (rfl : wordAt (F := F) c tbM1_3 (tbl 3) (grid1.coords t) = lit3 (S10.rowMajor ((Rect.unit (s := S10) (k1_off1 (grid1.coords t)) S1.size (k1_off1_inb (grid1.coords t))).emb (Shape.Idx.first (numel1_S1.symm ▸ Nat.one_pos))))).trans (congrArg lit3 (emb_step t))

/-- The steps that are the first of their query block, and those on the diagonal (which are also the last of their query
    block): the ten steps run through the lower triangle row by row, rows of 1, 2, 3 and 4 key blocks. -/
abbrev firstJ (j : ℕ) : Prop := j = 0 ∨ j = 1 ∨ j = 3 ∨ j = 6
abbrev diagJ (j : ℕ) : Prop := j = 0 ∨ j = 2 ∨ j = 5 ∨ j = 9

theorem condF_lit : ∀ j : Fin 10, condF (lit2 j) ↔ firstJ j.val := by decide
theorem condD_lit : ∀ j : Fin 10, condD (lit0 j) (lit1 j) ↔ diagJ j.val := by decide
theorem condN_lit : ∀ j : Fin 10, condN (lit0 j) (lit1 j) ↔ ¬diagJ j.val := by decide
theorem condL_lit : ∀ j : Fin 10, condL (lit3 j) ↔ diagJ j.val := by decide
theorem chk_lit : ∀ j : Fin 10, k1_chk1 (lit1 j) := by decide

/-- The body's four conditions at a point, in closed form in the point's step. -/
theorem hcondF (c : Dev nD) (t : Fin (cfgM (F := F)).N) : condF (wordAt (F := F) c tbM1_2 (tbl 2) (grid1.coords t)) ↔ firstJ (t.val % 10) := by
  rw [word_2]; exact condF_lit _
theorem hcondD (c : Dev nD) (t : Fin (cfgM (F := F)).N) : condD (wordAt (F := F) c tbM1_0 (tbl 0) (grid1.coords t)) (wordAt (F := F) c tbM1_1 (tbl 1) (grid1.coords t)) ↔ diagJ (t.val % 10) := by
  rw [word_0, word_1]; exact condD_lit _
theorem hcondN (c : Dev nD) (t : Fin (cfgM (F := F)).N) : condN (wordAt (F := F) c tbM1_0 (tbl 0) (grid1.coords t)) (wordAt (F := F) c tbM1_1 (tbl 1) (grid1.coords t)) ↔ ¬diagJ (t.val % 10) := by
  rw [word_0, word_1]; exact condN_lit _
theorem hcondL (c : Dev nD) (t : Fin (cfgM (F := F)).N) : condL (wordAt (F := F) c tbM1_3 (tbl 3) (grid1.coords t)) ↔ diagJ (t.val % 10) := by
  rw [word_3]; exact condL_lit _

/-- The side condition the body assumes of the key-block word holds at every point (the key block index is at most 3). -/
theorem hw1 (c : Dev nD) (t : Fin (cfgM (F := F)).N) : k1_chk1 (wordAt (F := F) c tbM1_1 (tbl 1) (grid1.coords t)) := by
  rw [word_1]; exact chk_lit _

/-! ## The staging memrefs and the body at a point -/

/-- Each window's current staging memref at a point, and its wholeness. -/
abbrev ms1_0 (t : Fin (cfgM (F := F)).N) : Memref sig .tc .vmem S1x1024x64 .bf16 := spec1_0.stage ((cfgM (F := F)).slots t 0)
abbrev hs1_0 (t : Fin (cfgM (F := F)).N) : (ms1_0 (F := F) t).IsWhole := hstage1_0 (((cfgM (F := F)).slots t 0).cast nbuf1_0)
abbrev ms1_1 (t : Fin (cfgM (F := F)).N) : Memref sig .tc .vmem S1x4096x64 .bf16 := spec1_1.stage ((cfgM (F := F)).slots t 1)
abbrev hs1_1 (t : Fin (cfgM (F := F)).N) : (ms1_1 (F := F) t).IsWhole := hstage1_1 (((cfgM (F := F)).slots t 1).cast nbuf1_1)
abbrev ms1_2 (t : Fin (cfgM (F := F)).N) : Memref sig .tc .vmem S1x4096x64 .bf16 := spec1_2.stage ((cfgM (F := F)).slots t 2)
abbrev hs1_2 (t : Fin (cfgM (F := F)).N) : (ms1_2 (F := F) t).IsWhole := hstage1_2 (((cfgM (F := F)).slots t 2).cast nbuf1_2)
abbrev ms1_3 (t : Fin (cfgM (F := F)).N) : Memref sig .tc .vmem S1x1024x64 .f32 := spec1_3.stage ((cfgM (F := F)).slots t 3)
abbrev hs1_3 (t : Fin (cfgM (F := F)).N) : (ms1_3 (F := F) t).IsWhole := hstage1_3 (((cfgM (F := F)).slots t 3).cast nbuf1_3)

/-- The kernel body at a point, on what the pipeline calls it with: the tables' buffers, the current staging memrefs and the
    carried state's buffers. -/
abbrev bodyAt1 (t : Fin (cfgM (F := F)).N) : Prog (TpuEff nD τ sig (Elt F) Λ₀ .tc) PUnit :=
  cc1__attn_kernel (grid1.coords t) (Memref.whole main_c) (Memref.isWhole_whole _) (Memref.whole main_c_0) (Memref.isWhole_whole _) (Memref.whole main_c_1) (Memref.isWhole_whole _) (Memref.whole main_c_2) (Memref.isWhole_whole _) (spec1_0.stage ((cfgM (F := F)).slots t 0)) (hstage1_0 (((cfgM (F := F)).slots t 0).cast nbuf1_0)) (spec1_1.stage ((cfgM (F := F)).slots t 1)) (hstage1_1 (((cfgM (F := F)).slots t 1).cast nbuf1_1)) (spec1_2.stage ((cfgM (F := F)).slots t 2)) (hstage1_2 (((cfgM (F := F)).slots t 2).cast nbuf1_2)) (spec1_3.stage ((cfgM (F := F)).slots t 3)) (hstage1_3 (((cfgM (F := F)).slots t 3).cast nbuf1_3)) (Memref.whole cc1_scratch0) (Memref.isWhole_whole _) (Memref.whole cc1_scratch1) (Memref.isWhole_whole _) (Memref.whole cc1_scratch2) (Memref.isWhole_whole _)

theorem bodyAt1_eq (t : Fin (cfgM (F := F)).N) :
    bodyAt1 (F := F) t = prog1 (grid1.coords t) (ms1_0 t) (hs1_0 t) (ms1_1 t) (ms1_2 t) (hs1_1 t) (hs1_2 t) (ms1_3 t) (hs1_3 t) := rfl

/-! ## Where the output window is idle -/

theorem S1_size (a : Fin 1) : S1.size a = 1 := by
  match a with
  | ⟨0, _⟩ => rfl

/-- The last-step word as the pipeline's idle table reads it is the word the body loads. -/
theorem atD_3 (c : Dev nD) (i : grid1.Coords) :
    (tbl (F := F)).atD 3 (k1_off1 i) = wordAt (F := F) c tbM1_3 (tbl 3) i := by
  refine (dif_pos (?_ : ∀ a, k1_off1 i a + 1 ≤ (pre1.ref 3).ty.shape.size a)).trans ?_
  · intro (a : Fin 1)
    have h := k1_off1_inb i a
    rw [S1_size] at h
    exact h
  · rfl

/-- At a point that is not a last step the output window is idle: the body stores nothing into it. -/
theorem idleAt1_3 (c : Dev nD) (t : Fin (cfgM (F := F)).N) (h : ¬condL (wordAt (F := F) c tbM1_3 (tbl 3) (grid1.coords t))) :
    (cfgM (F := F)).idle 3 ((cfgM (F := F)).grid.coords t) = true := by
  show (!(k1_cond4 ((tbl (F := F)).atD 3 (k1_off1 (grid1.coords t))) == 1#1)) = true
  rw [atD_3 c]
  simp only [Bool.not_eq_true', beq_eq_false_iff_ne, ne_eq]
  exact h

/-- At a last step it is live. -/
theorem liveAt1_3 (c : Dev nD) (t : Fin (cfgM (F := F)).N) (h : condL (wordAt (F := F) c tbM1_3 (tbl 3) (grid1.coords t))) :
    (cfgM (F := F)).idle 3 ((cfgM (F := F)).grid.coords t) = false := by
  show (!(k1_cond4 ((tbl (F := F)).atD 3 (k1_off1 (grid1.coords t))) == 1#1)) = false
  rw [atD_3 c]
  simp only [Bool.not_eq_false', beq_iff_eq]
  exact h

/-- The output window's block index at a point: the batch, the query block the table names at the point's step, 0. -/
def tr3 (i : grid1.Coords) : Fin 3 → ℕ :=
  ![(BitVec.ofNat 32 (i 0).val).toNat, (lit0 (S10.rowMajor ((Rect.unit (s := S10) (k1_off1 i) S1.size (k1_off1_inb i)).emb (Shape.Idx.first (numel1_S1.symm ▸ Nat.one_pos))))).toNat, (0#32).toNat]

theorem index1_3 (t : Fin (cfgM (F := F)).N) : ((cfgM (F := F)).win 3).index t = tr3 (grid1.coords t) := rfl

/-- After a step that is not a last one the next point has the same output block (same batch, same query block). -/
theorem tr3_step : ∀ t : Fin grid1.N, ¬diagJ (t.val % 10) → ∀ h : t.val + 1 < grid1.N, ∀ a, tr3 (grid1.coords ⟨t.val + 1, h⟩) a = tr3 (grid1.coords t) a := by
  decide +kernel

theorem not_last_of_not_diag : ∀ t : Fin grid1.N, ¬diagJ (t.val % 10) → ¬(t.val + 1 = grid1.N) := by
  decide +kernel

/-- At a point that is not a last step the pipeline does not write the output block back. -/
theorem noFlush1_3 (t : Fin (cfgM (F := F)).N) (h : ¬diagJ (t.val % 10)) : ((cfgM (F := F)).win 3).flush t = false := by
  unfold Pipeline.Window.flush
  refine Bool.and_eq_false_iff.mpr (Or.inr (Bool.or_eq_false_iff.mpr ⟨decide_eq_false (not_last_of_not_diag t h), decide_eq_false ?_⟩))
  rintro ⟨hh, hne⟩
  exact hne (funext fun a => by rw [index1_3, index1_3]; exact tr3_step t h hh a)

/-! ## The windows' blocks, the trajectory of the carried state, the output block -/

variable (V : (c : Dev nD) → (b : Ref sig .tc) → Buf (Elt F) ((c : Thread nD τ).loc b))

/-- Window w's block at point t, read off its array as the region finds it (V). -/
def iblk1 (c : Dev nD) (w : Fin (cfgM (F := F)).W) (t : Fin (cfgM (F := F)).N) : (((cfgM (F := F)).win w).xblock ((cfgM (F := F)).grid.coords t)).Idx → Elt F ((cfgM (F := F)).win w).elt :=
  (((cfgM (F := F)).win w).blk t).view.read (Elt F) (V c (Pipeline.arrRef spec1 w))

/-- The query block of a point, and the key and value blocks it folds in: the 1024 rows of the resident batch at the row
    offset the point's key-block word names. -/
def qAt (c : Dev nD) (t : Fin (cfgM (F := F)).N) : Vec F S1x1024x64 .bf16 := iblk1 V c 0 t
def kAt (c : Dev nD) (t : Fin (cfgM (F := F)).N) : Vec F S1x1024x64 .bf16 :=
  kld (iblk1 V c 1 t) (wordAt (F := F) c tbM1_1 (tbl 1) (grid1.coords t)) (hw1 c t)
def vAt (c : Dev nD) (t : Fin (cfgM (F := F)).N) : Vec F S1x1024x64 .bf16 :=
  kld (iblk1 V c 2 t) (wordAt (F := F) c tbM1_1 (tbl 1) (grid1.coords t)) (hw1 c t)

/-- One point's fold of its key/value block into a state: masked on a diagonal step, plain otherwise. -/
def stepAt (c : Dev nD) (t : Fin (cfgM (F := F)).N) (s : St F) : St F :=
  if diagJ (t.val % 10) then updD (qAt V c t) (kAt V c t) (vAt V c t) s else updN (qAt V c t) (kAt V c t) (vAt V c t) s

/-- THE TRAJECTORY. The carried state after the body at position n: the point's fold applied to the reset state if the
    point is the first step of its query block, else to the state the point before left. -/
def scrAt (c : Dev nD) : (n : ℕ) → n < (cfgM (F := F)).N → St F
  | 0, hn => stepAt V c ⟨0, hn⟩ st0
  | n + 1, hn => stepAt V c ⟨n + 1, hn⟩ (if firstJ ((n + 1) % 10) then st0 else scrAt c n (Nat.lt_of_succ_lt hn))

/-- The trajectory at a first step on the diagonal (a one-block row). -/
theorem scrAt_F_D (c : Dev nD) (t : Fin (cfgM (F := F)).N) (hF : firstJ (t.val % 10)) (hD : diagJ (t.val % 10)) :
    scrAt V c t.val t.isLt = updD (qAt V c t) (kAt V c t) (vAt V c t) st0 := by
  obtain ⟨n, hn⟩ := t
  cases n with
  | zero =>
    show stepAt V c ⟨0, hn⟩ st0 = _
    unfold stepAt
    exact if_pos hD
  | succ n => exact (congrArg (stepAt V c ⟨n + 1, hn⟩) (if_pos hF)).trans (if_pos hD)
/-- At a first step below the diagonal. -/
theorem scrAt_F_N (c : Dev nD) (t : Fin (cfgM (F := F)).N) (hF : firstJ (t.val % 10)) (hD : ¬diagJ (t.val % 10)) :
    scrAt V c t.val t.isLt = updN (qAt V c t) (kAt V c t) (vAt V c t) st0 := by
  obtain ⟨n, hn⟩ := t
  cases n with
  | zero =>
    show stepAt V c ⟨0, hn⟩ st0 = _
    unfold stepAt
    exact if_neg hD
  | succ n => exact (congrArg (stepAt V c ⟨n + 1, hn⟩) (if_pos hF)).trans (if_neg hD)
/-- At a later step on the diagonal: over what the point before left. -/
theorem scrAt_D (c : Dev nD) (t : Fin (cfgM (F := F)).N) (hF : ¬firstJ (t.val % 10)) (hD : diagJ (t.val % 10)) :
    scrAt V c t.val t.isLt = updD (qAt V c t) (kAt V c t) (vAt V c t) (scrAt V c (t.val - 1) (Nat.lt_of_le_of_lt (Nat.sub_le _ _) t.isLt)) := by
  obtain ⟨n, hn⟩ := t
  cases n with
  | zero => exact absurd (Or.inl rfl) hF
  | succ n => exact (congrArg (stepAt V c ⟨n + 1, hn⟩) (if_neg hF)).trans (if_pos hD)
/-- At a later step below the diagonal: over what the point before left. -/
theorem scrAt_N (c : Dev nD) (t : Fin (cfgM (F := F)).N) (hF : ¬firstJ (t.val % 10)) (hD : ¬diagJ (t.val % 10)) :
    scrAt V c t.val t.isLt = updN (qAt V c t) (kAt V c t) (vAt V c t) (scrAt V c (t.val - 1) (Nat.lt_of_le_of_lt (Nat.sub_le _ _) t.isLt)) := by
  obtain ⟨n, hn⟩ := t
  cases n with
  | zero => exact absurd (Or.inl rfl) hF
  | succ n => exact (congrArg (stepAt V c ⟨n + 1, hn⟩) (if_neg hF)).trans (if_neg hD)

/-- The output block after position n: numerators over guarded denominators of the state there (written to the output
    window at a last step, where the state is the whole row's). -/
def outAt (c : Dev nD) (n : ℕ) (hn : n < (cfgM (F := F)).N) : Vec F S1x1024x64 .f32 := fin (scrAt V c n hn)

/-! ## The region's invariant and proof data -/

/-- The core's scoped buffers that are neither this region's staging buffers nor its carried state (the first region's
    staging buffers), each whole at some contents. -/
def restStg (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

/-- The region invariant before position n: before the first point the scoped rest (every scratch at anything), the
    random-number register at some state and the tables whole; afterwards the carried state's buffers at what the point before
    left (the trajectory), the other scoped buffers at anything, the random-number register and the tables whole. -/
def PhiS (c : Dev nD) : (n : ℕ) → n ≤ (cfgM (F := F)).N → sProp 𝕄
  | 0, _ => iprop(Pipeline.ΦA spec1 c ∗ Pipeline.prefHeld (Ix := Unit) (Name := ℕ) (U := UR sig nD τ) (Lvl := ℕ) pre1 c (fun _ => fullShare) (tbl (F := F)))
  | n + 1, hn => iprop(scrP c (scrAt V c n hn) ∗ restStg c ∗ (∃ r, prngReg c r) ∗ Pipeline.prefHeld (Ix := Unit) (Name := ℕ) (U := UR sig nD τ) (Lvl := ℕ) pre1 c (fun _ => fullShare) (tbl (F := F)))

/-- The proof data of the region's pipeline on core c: the arrays as the region finds them (V); after the body at a
    point each input's buffer at its block and the output's at the output block of the state there; the invariant PhiS;
    nothing owed; full shares. -/
def dat1 (c : Dev nD) : Dat τ (Elt F) Unit ℕ (UR sig nD τ) ℕ (cfgM (F := F)) c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt V c t.val t.isLt
  Φ t := PhiS V c t.val (Nat.le_of_lt_succ t.isLt)
  q _ := fullShare
  owed _ := 0

/-- The proof data's arrays are the region-entry contents. -/
theorem A_eq1 (c : Dev nD) (w : Fin (cfgM (F := F)).W) : (dat1 V c).A w = V c (Pipeline.arrRef spec1 w) := by
  dsimp only [dat1]

/-- What the body leaves, window by window. -/
theorem after1_0 (c : Dev nD) (t : Fin (cfgM (F := F)).N) : (dat1 V c).after 0 t = iblk1 V c 0 t := by dsimp only [dat1]; try rfl
theorem after1_1 (c : Dev nD) (t : Fin (cfgM (F := F)).N) : (dat1 V c).after 1 t = iblk1 V c 1 t := by dsimp only [dat1]; try rfl
theorem after1_2 (c : Dev nD) (t : Fin (cfgM (F := F)).N) : (dat1 V c).after 2 t = iblk1 V c 2 t := by dsimp only [dat1]; try rfl
theorem after1_3 (c : Dev nD) (t : Fin (cfgM (F := F)).N) : (dat1 V c).after 3 t = outAt V c t.val t.isLt := by dsimp only [dat1]; try rfl

theorem PhiS_zero (c : Dev nD) (n : ℕ) (h : n ≤ (cfgM (F := F)).N) (hz : n = 0) :
    PhiS V c n h = iprop(Pipeline.ΦA spec1 c ∗ Pipeline.prefHeld (Ix := Unit) (Name := ℕ) (U := UR sig nD τ) (Lvl := ℕ) pre1 c (fun _ => fullShare) (tbl (F := F))) := by
  subst hz; rfl

/-- After point n (before point n + 1): the carried state at that point's. -/
theorem PhiS_succ (c : Dev nD) (n : ℕ) (hn : n < (cfgM (F := F)).N) :
    PhiS V c (n + 1) hn = iprop(scrP c (scrAt V c n hn) ∗ restStg c ∗ (∃ r, prngReg c r) ∗ Pipeline.prefHeld (Ix := Unit) (Name := ℕ) (U := UR sig nD τ) (Lvl := ℕ) pre1 c (fun _ => fullShare) (tbl (F := F))) := rfl

/-- Before a point that is not the first: the carried state at what the point before left. -/
theorem PhiS_pos (c : Dev nD) (n : ℕ) (h : n ≤ (cfgM (F := F)).N) (hz : n ≠ 0) :
    PhiS V c n h = iprop(scrP c (scrAt V c (n - 1) (by omega)) ∗ restStg c ∗ (∃ r, prngReg c r) ∗ Pipeline.prefHeld (Ix := Unit) (Name := ℕ) (U := UR sig nD τ) (Lvl := ℕ) pre1 c (fun _ => fullShare) (tbl (F := F))) := by
  cases n with
  | zero => exact absurd rfl hz
  | succ n => rfl

/-- The scoped rest is the first region's staging buffers and the carried state's three buffers, each at some contents. -/
theorem scopedRest1_split (c : Dev nD) :
    (Pipeline.scopedRest (Ix := Unit) (Name := ℕ) (U := UR sig nD τ) (Lvl := ℕ) (Val := Elt F) spec1 c : sProp 𝕄) ⊢ iprop(restStg c ∗ scrAny c) := by
  rw [scopedRest1_eq]; unfold restStg
  simp only [scrAny, scM1_0, scM1_1, scM1_2, owns_whole]
  iintro ⟨H1, H2, H3, H4, H5, H6, H7, H8, H9, HS0, HS1, HS2⟩
  isplitl [H1 H2 H3 H4 H5 H6 H7 H8 H9]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

  isplitl [HS0]; · iexact HS0
  isplitl [HS1]; · iexact HS1
  iexact HS2

theorem scopedRest1_join (c : Dev nD) :
    iprop(restStg c ∗ scrAny c) ⊢ (Pipeline.scopedRest (Ix := Unit) (Name := ℕ) (U := UR sig nD τ) (Lvl := ℕ) (Val := Elt F) spec1 c : sProp 𝕄) := by
  rw [scopedRest1_eq]; unfold restStg
  simp only [scrAny, scM1_0, scM1_1, scM1_2, owns_whole]
  iintro ⟨⟨H1, H2, H3, H4, H5, H6, H7, H8, H9⟩, HS0, HS1, HS2⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  iexact HS2

/-- A state held is a state held at some contents. -/
theorem scrP_any (c : Dev nD) (s : St F) : scrP (F := F) c s ⊢ scrAny c := by
  iintro ⟨H0, H1, H2⟩
  isplitl [H0]; · iexists _; iexact H0
  isplitl [H1]; · iexists _; iexact H1
  iexists _; iexact H2

/-- Whatever the position, the invariant holds the carried state's buffers at some contents, the other scoped buffers,
    the random-number register and the tables. -/
theorem PhiS_any (c : Dev nD) (n : ℕ) (h : n ≤ (cfgM (F := F)).N) :
    PhiS V c n h ⊢ iprop(scrAny c ∗ restStg c ∗ (∃ r, prngReg c r) ∗ tbsP c (tbl (F := F) 0) (tbl 1) (tbl 2) (tbl 3)) := by
  cases n with
  | zero =>
    rw [PhiS_zero V c 0 h rfl, PhiT1_eq]; unfold Pipeline.ΦA
    iintro ⟨⟨HR, Hg⟩, HT⟩
    ihave HR' := (scopedRest1_split c) $$ HR
    icases HR' with ⟨HA, HS⟩
    isplitl [HS]; · iexact HS
    isplitl [HA]; · iexact HA
    isplitl [Hg]; · iexact Hg
    iexact HT
  | succ n =>
    rw [PhiS_succ, PhiT1_eq]
    iintro ⟨HS, HA, Hg, HT⟩
    isplitl [HS]; · iapply (scrP_any c _); iexact HS
    isplitl [HA]; · iexact HA
    isplitl [Hg]; · iexact Hg
    iexact HT

/-! ## The body obligation and the invariant's ends -/

/-- Each input's current staging buffer holds its block at every point, fetched there or not: the body leaves the block
    in place, the window is never idle and uncut, and unfetched the block index has not moved. -/
theorem before1_0 (c : Dev nD) (t : Fin (cfgM (F := F)).N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin (cfgM (F := F)).N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin (cfgM (F := F)).N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-- What the body is called with at a point (the obligation's precondition, the windows one by one), -/
def bodyPre (c : Dev nD) (t : Fin (cfgM (F := F)).N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost (c : Dev nD) (t : Fin (cfgM (F := F)).N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 1600000 in
/-- The body at any point: the inputs' memrefs hold their blocks; the closed forms of the four table words say which of
    the four control cases the point is in, and that case's run applies; the invariant hands the run the carried state at
    what the point before left (at anything on a first step) and takes it back at the trajectory's state at this point; the
    output buffer is written at a last step and handed back as found otherwise (the window is idle there and not written
    back); the tables pass through unchanged; the core owes nothing throughout. -/
theorem sound_body (c : Dev nD) (t : Fin (cfgM (F := F)).N) :
    bodyPre V c t ⊢ wp frame (wpE (defs₀ (F := F)) Variants.none c none) Set.univ (bodyAt1 t) (fun _ => bodyPost V c t) := by
  unfold bodyPre bodyPost
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).Φ t.castSucc = PhiS V c t.val (Nat.le_of_lt t.isLt) from rfl]
  rw [show (dat1 V c).leavesExact 0 t = owns (c : Thread nD τ) (ms1_0 t) fullShare ((dat1 V c).after 0 t) from rfl, after1_0]
  rw [show (dat1 V c).leavesExact 1 t = owns (c : Thread nD τ) (ms1_1 t) fullShare ((dat1 V c).after 1 t) from rfl, after1_1]
  rw [show (dat1 V c).leavesExact 2 t = owns (c : Thread nD τ) (ms1_2 t) fullShare ((dat1 V c).after 2 t) from rfl, after1_2]
  rw [bodyAt1_eq]
  by_cases hF : firstJ (t.val % 10)
  · by_cases hD : diagJ (t.val % 10)
    ·
      rw [show (dat1 V c).leavesExact 3 t = owns (c : Thread nD τ) (ms1_3 t) fullShare ((dat1 V c).after 3 t) from by
        unfold Dat.leavesExact; rw [liveAt1_3 c t ((hcondL c t).mpr hD)]; rfl, after1_3]
      unfold outAt
      rw [scrAt_F_D V c t hF hD]
      unfold qAt kAt vAt
      rw [PhiT1_eq]
      iintro ⟨HP, Ho, ⟨%d0, H0⟩, ⟨%d1, H1⟩, ⟨%d2, H2⟩, ⟨%d3, H3⟩⟩
      ihave HP' := (PhiS_any V c _ _) $$ HP
      icases HP' with ⟨HS, HA, Hg, HT⟩
      iapply (run1_FDL c Set.univ (grid1.coords t) (ms1_0 t) (hs1_0 t) (ms1_1 t) (ms1_2 t) (hs1_1 t) (hs1_2 t) (ms1_3 t) (hs1_3 t) (iblk1 V c 0 t) (iblk1 V c 1 t) (iblk1 V c 2 t) (tbl 0) (tbl 1) (tbl 2) (tbl 3) (hw1 c t) _ ((hcondF c t).mpr hF) ((hcondD c t).mpr hD) (fun h => (hcondN c t).mp h hD) ((hcondL c t).mpr hD))
      isplitl [H0 H1 H2]
      · isplitl [H0]; · iexact H0
        isplitl [H1]; · iexact H1
        iexact H2
      isplitl [H3]; · iexists _; iexact H3
      isplitl [HS]; · iexact HS
      isplitl [HT]; · iexact HT
      iintro ⟨⟨H0, H1, H2⟩, H3, HS, HT⟩
      isplitl [HS HA Hg HT]
      · isplitl [HS]; · iexact HS
        isplitl [HA]; · iexact HA
        isplitl [Hg]; · iexact Hg
        iexact HT
      isplitl [Ho]; · iexact Ho
      isplitl [H0]; · iexact H0
      isplitl [H1]; · iexact H1
      isplitl [H2]; · iexact H2
      iexact H3
    ·
      rw [Dat.leavesExact_idle (dat1 V c) 3 t (idleAt1_3 c t (fun h => hD ((hcondL c t).mp h))) (noFlush1_3 t hD)]
      rw [scrAt_F_N V c t hF hD]
      unfold qAt kAt vAt
      rw [PhiT1_eq]
      iintro ⟨HP, Ho, ⟨%d0, H0⟩, ⟨%d1, H1⟩, ⟨%d2, H2⟩, ⟨%d3, H3⟩⟩
      ihave HP' := (PhiS_any V c _ _) $$ HP
      icases HP' with ⟨HS, HA, Hg, HT⟩
      iapply (run1_FN c Set.univ (grid1.coords t) (ms1_0 t) (hs1_0 t) (ms1_1 t) (ms1_2 t) (hs1_1 t) (hs1_2 t) (ms1_3 t) (hs1_3 t) (iblk1 V c 0 t) (iblk1 V c 1 t) (iblk1 V c 2 t) (tbl 0) (tbl 1) (tbl 2) (tbl 3) (hw1 c t) _ ((dat1 V c).before 3 t d3) ((hcondF c t).mpr hF) (fun h => hD ((hcondD c t).mp h)) ((hcondN c t).mpr hD) (fun h => hD ((hcondL c t).mp h)))
      isplitl [H0 H1 H2]
      · isplitl [H0]; · iexact H0
        isplitl [H1]; · iexact H1
        iexact H2
      isplitl [H3]; · iexact H3
      isplitl [HS]; · iexact HS
      isplitl [HT]; · iexact HT
      iintro ⟨⟨H0, H1, H2⟩, H3, HS, HT⟩
      isplitl [HS HA Hg HT]
      · isplitl [HS]; · iexact HS
        isplitl [HA]; · iexact HA
        isplitl [Hg]; · iexact Hg
        iexact HT
      isplitl [Ho]; · iexact Ho
      isplitl [H0]; · iexact H0
      isplitl [H1]; · iexact H1
      isplitl [H2]; · iexact H2
      iexists _; iexact H3
  · by_cases hD : diagJ (t.val % 10)
    ·
      rw [show (dat1 V c).leavesExact 3 t = owns (c : Thread nD τ) (ms1_3 t) fullShare ((dat1 V c).after 3 t) from by
        unfold Dat.leavesExact; rw [liveAt1_3 c t ((hcondL c t).mpr hD)]; rfl, after1_3]
      unfold outAt
      rw [scrAt_D V c t hF hD]
      unfold qAt kAt vAt
      rw [PhiS_pos V c _ _ (fun e => hF (by rw [e]; exact Or.inl rfl))]
      rw [PhiT1_eq]
      iintro ⟨⟨HS, HA, Hg, HT⟩, Ho, ⟨%d0, H0⟩, ⟨%d1, H1⟩, ⟨%d2, H2⟩, ⟨%d3, H3⟩⟩
      iapply (run1_DL c Set.univ (grid1.coords t) (ms1_0 t) (hs1_0 t) (ms1_1 t) (ms1_2 t) (hs1_1 t) (hs1_2 t) (ms1_3 t) (hs1_3 t) (iblk1 V c 0 t) (iblk1 V c 1 t) (iblk1 V c 2 t) (tbl 0) (tbl 1) (tbl 2) (tbl 3) (hw1 c t) _ (scrAt V c (t.val - 1) (Nat.lt_of_le_of_lt (Nat.sub_le _ _) t.isLt)) (fun h => hF ((hcondF c t).mp h)) ((hcondD c t).mpr hD) (fun h => (hcondN c t).mp h hD) ((hcondL c t).mpr hD))
      isplitl [H0 H1 H2]
      · isplitl [H0]; · iexact H0
        isplitl [H1]; · iexact H1
        iexact H2
      isplitl [H3]; · iexists _; iexact H3
      isplitl [HS]; · iexact HS
      isplitl [HT]; · iexact HT
      iintro ⟨⟨H0, H1, H2⟩, H3, HS, HT⟩
      isplitl [HS HA Hg HT]
      · isplitl [HS]; · iexact HS
        isplitl [HA]; · iexact HA
        isplitl [Hg]; · iexact Hg
        iexact HT
      isplitl [Ho]; · iexact Ho
      isplitl [H0]; · iexact H0
      isplitl [H1]; · iexact H1
      isplitl [H2]; · iexact H2
      iexact H3
    ·
      rw [Dat.leavesExact_idle (dat1 V c) 3 t (idleAt1_3 c t (fun h => hD ((hcondL c t).mp h))) (noFlush1_3 t hD)]
      rw [scrAt_N V c t hF hD]
      unfold qAt kAt vAt
      rw [PhiS_pos V c _ _ (fun e => hF (by rw [e]; exact Or.inl rfl))]
      rw [PhiT1_eq]
      iintro ⟨⟨HS, HA, Hg, HT⟩, Ho, ⟨%d0, H0⟩, ⟨%d1, H1⟩, ⟨%d2, H2⟩, ⟨%d3, H3⟩⟩
      iapply (run1_N c Set.univ (grid1.coords t) (ms1_0 t) (hs1_0 t) (ms1_1 t) (ms1_2 t) (hs1_1 t) (hs1_2 t) (ms1_3 t) (hs1_3 t) (iblk1 V c 0 t) (iblk1 V c 1 t) (iblk1 V c 2 t) (tbl 0) (tbl 1) (tbl 2) (tbl 3) (hw1 c t) _ (scrAt V c (t.val - 1) (Nat.lt_of_le_of_lt (Nat.sub_le _ _) t.isLt)) ((dat1 V c).before 3 t d3) (fun h => hF ((hcondF c t).mp h)) (fun h => hD ((hcondD c t).mp h)) ((hcondN c t).mpr hD) (fun h => hD ((hcondL c t).mp h)))
      isplitl [H0 H1 H2]
      · isplitl [H0]; · iexact H0
        isplitl [H1]; · iexact H1
        iexact H2
      isplitl [H3]; · iexact H3
      isplitl [HS]; · iexact HS
      isplitl [HT]; · iexact HT
      iintro ⟨⟨H0, H1, H2⟩, H3, HS, HT⟩
      isplitl [HS HA Hg HT]
      · isplitl [HS]; · iexact HS
        isplitl [HA]; · iexact HA
        isplitl [Hg]; · iexact Hg
        iexact HT
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body V c t

/-- What the region is entered with (the random-number register, the tables whole, the scoped rest) is the invariant before
    the first point. -/
theorem hin1 (c : Dev nD) : iprop((∃ r, prngReg c r) ∗ Pipeline.prefHeld (Ix := Unit) (Name := ℕ) (U := UR sig nD τ) (Lvl := ℕ) pre1 c (fun _ => fullShare) (tbl (F := F)) ∗ Pipeline.scopedRest (Ix := Unit) (Name := ℕ) (U := UR sig nD τ) (Lvl := ℕ) (Val := Elt F) spec1 c) ⊢ (dat1 V c).Φ 0 := by
  rw [show (dat1 V c).Φ 0 = PhiS V c 0 (Nat.zero_le _) from rfl, PhiS_zero V c 0 _ rfl]
  unfold Pipeline.ΦA
  iintro ⟨Hg, HT, HR⟩
  isplitl [HR Hg]
  · isplitl [HR]; · iexact HR
    iexact Hg
  iexact HT

/-- After the last point the invariant gives the same back: the carried state's named contents are forgotten. -/
theorem hout1 (c : Dev nD) : (dat1 V c).Φ (Fin.last (cfgM (F := F)).N) ⊢ iprop((∃ r, prngReg c r) ∗ Pipeline.prefHeld (Ix := Unit) (Name := ℕ) (U := UR sig nD τ) (Lvl := ℕ) pre1 c (fun _ => fullShare) (tbl (F := F)) ∗ Pipeline.scopedRest (Ix := Unit) (Name := ℕ) (U := UR sig nD τ) (Lvl := ℕ) (Val := Elt F) spec1 c) := by
  rw [show (dat1 V c).Φ (Fin.last (cfgM (F := F)).N) = PhiS V c (Fin.last (cfgM (F := F)).N).val (Nat.le_of_lt_succ (Fin.last (cfgM (F := F)).N).isLt) from rfl]
  rw [PhiT1_eq]
  refine (PhiS_any V c _ _).trans ?_
  iintro ⟨HS, HA, Hg, HT⟩
  isplitl [Hg]; · iexact Hg
  isplitl [HT]; · iexact HT
  iapply (scopedRest1_join c)
  isplitl [HA]; · iexact HA
  iexact HS

end Cert.KernelIdeal.Hand

end
-- ==== Proof.KI.Run.lean ====
/-
  THE RUN of the entry function through its two kernel regions, and THE FRAME.

  The entry function is four segments: a stretch of host operations (the four literal tables of the triangular schedule,
  the reshape of the activations to a matrix of 16384 rows, the concatenation of the three weight matrices along the
  columns), the projection region, a second stretch (the three projections reshaped to [4, 4096, 64]) and the attention
  region. Between two segments each core holds every unscoped buffer whole at a known valuation: the launch memory; that
  memory after the first stretch; that with the projection region's arrays at what its write-backs leave; that after the
  second stretch; that with the attention region's arrays at what its write-backs leave. A host stretch moves the
  valuation by the fold of its operations. A region takes its arrays out of the valuation at entry (its proof data's entry
  contents are read off it) and puts them back at exit at their final contents; every other buffer bypasses the region.
  The attention region reads four prefetched tables: they are among the buffers that bypass its windows, they hold the
  literal contents the first stretch wrote (nothing writes them afterwards), the region holds them whole for its
  duration and gives them back at its exit. The core's random-number register rides along at some state, and no core owes another
  anything.

  The run: from any memory with zero counters every weakly fair execution terminates, nothing faulting, and the final
  memory holds at every unscoped buffer the last valuation. Read at the four argument arrays, which no host operation
  and no region writes, the last valuation is the launch memory: the frame.
-/
import proofs.«422911_j40922448396699_3_alg».proof.Proof.Gen.KernelIdeal.Launch
import proofs.«422911_j40922448396699_3_alg».proof.Proof.Gen.KernelIdeal.Skeleton
import proofs.«422911_j40922448396699_3_alg».proof.Proof.Gen.KernelIdeal.Points
import proofs.«422911_j40922448396699_3_alg».proof.Proof.Gen.KernelIdeal.Regions
import proofs.«422911_j40922448396699_3_alg».proof.Proof.KI.R0
import proofs.«422911_j40922448396699_3_alg».proof.Proof.KI.R1Runs
import proofs.«422911_j40922448396699_3_alg».proof.Proof.KI.Tables
import proofs.«422911_j40922448396699_3_alg».proof.Proof.KI.R1Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through the entry function -/

/-- Core `c`'s buffers at launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
/-- The same read at the core's references (what the projection region's proof data take). -/
abbrev V1 : (c : Dev nD) → (b : Ref sig .tc) → Buf (Elt F) ((c : Thread nD τ).loc b) := fun c b => W1 m ρ c b
/-- At the projection region's exit: its arrays at what the pipeline leaves (the inputs as entered, each output's
    write-backs folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's references (the projection region's exit contents). -/
abbrev V2 : (c : Dev nD) → (b : Ref sig .tc) → Buf (Elt F) ((c : Thread nD τ).loc b) := fun c b => W2 m ρ c b
/-- At the projection region's exit each of its arrays holds what the pipeline leaves (`hF0`) and every other buffer
    what it held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention region's entry). -/
abbrev W3 : Dev nD → Valuation τ sig (Elt F) := fun c => StableHlo.after hostOps1 (W2 m ρ c)
/-- The same read at the core's references (what the attention region's proof data take). -/
abbrev V3 : (c : Dev nD) → (b : Ref sig .tc) → Buf (Elt F) ((c : Thread nD τ).loc b) := fun c b => W3 m ρ c b
/-- At the attention region's exit: its arrays at what the pipeline leaves, every other buffer as entered. -/
def W4 (c : Dev nD) : Valuation τ sig (Elt F) :=
  Pipeline.withArrays spec1 c (W3 m ρ c) fun w => (dat1 (V3 m ρ) c).arrAt w (cfgM (F := F)).N
theorem W4_arr (c : Dev nD) (w : Fin (cfgM (F := F)).W) :
    W4 m ρ c (Proc.devRef .tc (Pipeline.arrRef spec1 w)) = (dat1 (V3 m ρ) c).arrAt w (cfgM (F := F)).N := by
  unfold W4; exact Pipeline.withArrays_arr spec1 (launch1 (F := F)).win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the core's references (the attention region's exit contents). -/
abbrev V4 : (c : Dev nD) → (b : Ref sig .tc) → Buf (Elt F) ((c : Thread nD τ).loc b) := fun c b => W4 m ρ c b
theorem hF1 (c : Dev nD) (w : Fin (cfgM (F := F)).W) : (dat1 (V3 m ρ) c).arrAt w (cfgM (F := F)).N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- The fold, spelt out: the valuation at the attention region's entry is the second stretch's fold of the one at the
    projection region's exit, and the one at the projection region's entry is the first stretch's fold of the launch
    memory. -/
theorem W3_eq (c : Dev nD) : W3 m ρ c = StableHlo.after hostOps1 (W2 m ρ c) := rfl
theorem W1_eq (c : Dev nD) : W1 m ρ c = StableHlo.after hostOps0 (fun b => m (c, b)) := rfl

/-! ### What the fold holds at the regions' results -/

/-- The three projections, as the projection region leaves them. -/
theorem W2_main_v2_0 (c : Dev nD) : W2 m ρ c (Proc.devRef .tc main_v2_0) = (dat0 (V1 m ρ) c).arrAt 2 cfg0.N := W2_arr m ρ c 2
theorem W2_main_v2_1 (c : Dev nD) : W2 m ρ c (Proc.devRef .tc main_v2_1) = (dat0 (V1 m ρ) c).arrAt 3 cfg0.N := W2_arr m ρ c 3
theorem W2_main_v2_2 (c : Dev nD) : W2 m ρ c (Proc.devRef .tc main_v2_2) = (dat0 (V1 m ρ) c).arrAt 4 cfg0.N := W2_arr m ρ c 4
/-- The attention output, as the attention region leaves it. -/
theorem W4_main_v6 (c : Dev nD) : W4 m ρ c (Proc.devRef .tc main_v6) = (dat1 (V3 m ρ) c).arrAt 3 (cfgM (F := F)).N := W4_arr m ρ c 3

/-! ### The prefetched tables at the attention region's entry: the literals the first stretch wrote -/

/-- No later operation and no window of the projection region writes a table, so the fold at a table's buffer walks
    back to the first stretch, whose constant leaves the literal there. -/
theorem V3_pre (c : Dev nD) (k : Fin 4) : V3 m ρ c (pre1.ref k) = tbl k := by
  have h0 : ∀ (r : Ref sig .tc), r ∉ (hostOps1_W : List (Ref sig .tc)) → (∀ w, Pipeline.arrRef spec0 w ≠ r) →
      V3 m ρ c r = W1 m ρ c (Proc.devRef .tc r) := fun r h1 h2 =>
    (StableHlo.after_of_writes_sub hostOps1 _ hostOps1_writes h1).trans (W2_of_ne m ρ c r h2)
  match k with
  | ⟨0, _⟩ => exact (h0 main_c (by decide) (by decide)).trans (table_c_apply _)
  | ⟨1, _⟩ => exact (h0 main_c_0 (by decide) (by decide)).trans (table_c_0_apply _)
  | ⟨2, _⟩ => exact (h0 main_c_1 (by decide) (by decide)).trans (table_c_1_apply _)
  | ⟨3, _⟩ => exact (h0 main_c_2 (by decide) (by decide)).trans (table_c_2_apply _)

/-- The buffers that bypass the attention region's windows are the four tables, whole at their literal contents, and the
    rest: the tables are unscoped, distinct and no window's array, and each holds its literal at the region's entry. -/
theorem rest1_split (c : Dev nD) :
    (Pipeline.unscopedRest (Ix := Unit) (Name := ℕ) (U := UR sig nD τ) (Lvl := ℕ) spec1 c (V3 m ρ c) : sProp 𝕄)
      = iprop(Pipeline.prefHeld pre1 c (fun _ => fullShare) (tbl (F := F)) ∗ Pipeline.unscopedRestP pre1 spec1 c (V3 m ρ c)) := by
  rw [Pipeline.unscopedRest_split preFacts1 c (V3 m ρ c), show (fun k => V3 m ρ c (pre1.ref k)) = tbl (F := F) from funext (V3_pre m ρ c)]

/-! ### The arguments end as launched: no host operation and no region writes one, so the fold at an argument's
    buffer walks back to the launch memory -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-! ## The proof data family and the thread state -/

/-- The prefetched tables' admissible contents: the projection pipeline has none, the attention pipeline's are the
    four literals. -/
abbrev adm : (p : Fin 2) → (pcfgs (F := F) p).Adm
  | ⟨0, _⟩ => cfg0.toPCfg_adm
  | ⟨1, _⟩ => adm1
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's random-number register at some state and its debts,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends at
    those references at the stretch's fold of `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The launch element: the pipelines' staging cells, each funded with its launch tokens. -/
abbrev u₀ : UR sig nD τ :=
  initOf (Pipeline.cells (Pipeline.pin (pcfgs (F := F)) adm) (cellOf_inj adm)) (Pipeline.launchToks (Pipeline.pin (pcfgs (F := F)) adm) (cellOf_inj adm))

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the
    random-number register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- THE PROJECTION REGION over the thread state: entered from every unscoped buffer at `W1`, left at `W2`. Its arrays
    are split out of the unscoped buffers at entry and put back at the exit contents; the random-number register goes into
    the region's invariant and comes out; nothing is owed; the kernel has no semaphore of its own. -/
def reg0 : Pipeline.RegionSeg (pcfgs (F := F)) adm (pdats m ρ) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V1 m ρ) c).loose
  hwaits := Pipeline.hwaits_of_owed_zero (pcfgs (F := F)) adm (pdats m ρ) () L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) (launch0 (F := F)).win (launch0 (F := F)).arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      (launch0 (F := F)).win (launch0 (F := F)).arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE ATTENTION REGION over the thread state: entered from every unscoped buffer at `W3`, left at `W4`. Its arrays
    are split out of the unscoped buffers at entry, and of the buffers that bypass its windows the four tables are
    split out too, held whole at their literal contents for the region's duration; at the exit the tables rejoin the
    bypassing buffers and the arrays are put back at the exit contents. The random-number register goes into the region's
    invariant and comes out; nothing is owed; the kernel has no semaphore of its own. -/
def reg1 : Pipeline.RegionSeg (pcfgs (F := F)) adm (pdats m ρ) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V3 m ρ) c).loose
  hwaits := Pipeline.hwaits_of_owed_zero (pcfgs (F := F)) adm (pdats m ρ) () L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop((∃ r, prngReg c r) ∗ Pipeline.prefHeld (Ix := Unit) (Name := ℕ) (U := UR sig nD τ) (Lvl := ℕ) pre1 c (fun _ => fullShare) (tbl (F := F)))
  Z c := Pipeline.unscopedRestP (Ix := Unit) (Name := ℕ) (U := UR sig nD τ) (Lvl := ℕ) pre1 spec1 c (V3 m ρ c)
  hentry c := by
    rw [Pipeline.ownSems0_none]
    have hsplit := Pipeline.arrays_of_unscopedBufs (p := 1) (pcfgs (F := F)) adm (pdats m ρ) (launch1 (F := F)).win (launch1 (F := F)).arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    ihave H' := (Entails.of_eq (rest1_split m ρ c)) $$ Hrest
    icases H' with ⟨Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin1 (V3 m ρ) c
  hout c := by
    rw [Pipeline.ownSems0_none]
    refine (hout1 (V3 m ρ) c).trans ?_
    iintro ⟨Hr, Ht, Hs⟩
    isplitl [Hr Ht]
    · isplitl [Hr] <;> iassumption
    isplitr; · iempintro
    iexact Hs
  hexit c := by
    have hjoin := Pipeline.unscopedBufs_of_arrays (p := 1) (pcfgs (F := F)) adm (Ix := Unit) (Name := ℕ) (U := UR sig nD τ) (Lvl := ℕ)
      (launch1 (F := F)).win (launch1 (F := F)).arr_whole c (pdats m ρ) ((pdats m ρ 1 c).share_full fun _ => rfl)
      (V3 m ρ c) (V4 m ρ c) ((pdats m ρ 1 c).arrAt · (cfgM (F := F)).N) (hF1 m ρ c) (hrest1 m ρ c)
    rw [Pipeline.unscopedBufs_held] at hjoin
    iintro ⟨Ha, HO, ⟨Hp, Ht⟩, Hrest⟩
    ihave Hur := (Entails.of_eq (rest1_split m ρ c).symm) $$ [Ht Hrest]
    · isplitl [Ht] <;> iassumption
    imodintro
    isplitl [Ha Hur Hp]
    · isplitl [Ha Hur]
      · iapply hjoin; isplitl [Ha] <;> iassumption
      iexact Hp
    unfold Pipeline.Dat.owesAt Pipeline.owesWithin
    icases HO with ⟨%W, -, HO⟩; iexists W; iexact HO

/-! ## The entry function as segments, and the launch -/

/-- The four segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The entry function IS the run of the segments: it is the chain of its items, and the segments' run is that chain. -/
theorem main_run (c : Dev nD) : main (F := F) c = Pipeline.Seg.run (segs m ρ) := (main_chain c).trans (by chain_rfl)

set_option backward.isDefEq.respectTransparency.types false in
/-- THE RUN: from any memory with zero counters, every weakly fair execution of the entry function on the cores
    terminates, nothing faulting, and every final memory holds, at every unscoped buffer of every core, the last
    boundary's contents `W4`: the launch over the four segments, the last thread state read against the final state. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () (cellOf_inj adm) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := u₀ (F := F))
    (hu₀ := by
      iintro Hu; imodintro
      isplitl [Hu]
      · iapply (show (ownU (u₀ (F := F)) : sProp 𝕄) ⊢ BI.own (emb₁ (u₀ (F := F))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: the run, read at the four argument arrays, which end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨(h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩) (run_main m ρ)

end Cert.KernelIdeal.Hand

end
-- ==== Proof.KI.Glue.lean ====
/-
  The precondition read as real inputs, and the host operations of the kernel's entry function read at an index.

  (1) The precondition is the conjunction, over the four argument arrays, of "every entry has absolute value below +∞",
  each conjunct an all-reduction by `and` of an elementwise comparison. Hence every entry of every argument array is a
  finite extended real, that is, the coercion of a real number: the arrays are given by real-valued functions of their
  coordinates.

  (2) The host operations before the first kernel region: four literal tables of ten words; the reshape of the
  [4, 4096, 1024] input to [16384, 1024], which is row-major, so row i of the result is row (i / 4096, i % 4096) of the
  input; and the concatenation of the three [1024, 64] weight matrices along the columns, so column h of the result is
  column h of the first, h - 64 of the second, or h - 128 of the third matrix according to the range h lies in.
  The host operations between the two kernel regions: three reshapes [16384, 64] to [4, 4096, 64], again row-major:
  entry (b, r, h) of the result is entry (b * 4096 + r, h) of the operand.
-/
import proofs.«422911_j40922448396699_3_alg».proof.Defs
import proofs.«422911_j40922448396699_3_alg».proof.Proof.Gen.KernelIdeal.Launch
import proofs.«422911_j40922448396699_3_alg».proof.Proof.Gen.Pre_finite_inputs
import Idealize.ShloMosaic.Lib.StableHlo.Run
import Idealize.ShloMosaic.Lib.ValueIdx
import Idealize.ShloMosaic.Lib.ValueLayout
import Idealize.ShloMosaic.Lib.Pipeline.Value
import Idealize.ShloMosaic.Lib.ReduceAll
import Idealize.ShloMosaic.PureOps.Ideal.Laws

noncomputable section

namespace Cert.KernelIdeal.HandV

open Idealize.ShloMosaic Idealize.SL.Sem Cert.KernelIdeal Cert.KernelIdeal.Gen
open Idealize.ShloMosaic.ValueIdx

/-! ## The precondition: every argument entry is a real -/

/-- An extended real whose absolute value `max a (-a)` compares below the word of +∞ is (the coercion of) a real:
    the word denotes `⊤`, and `max a (-a) < ⊤` excludes `a = ⊤` and `a = ⊥`. -/
theorem real_of_abs_lt_inf (a : EReal)
    (h : Ideal.cmp .olt (max a (-a)) (Ideal.ofBits .f32 0x7F800000#32) = 1#1) : ((a.toReal : ℝ) : EReal) = a := by
  have htop : Ideal.ofBits .f32 0x7F800000#32 = (⊤ : EReal) := by simp [Ideal.ofBits, Ideal.ieee]
  rw [htop] at h
  change BitVec.ofBool (decide (max a (-a) < ⊤)) = 1#1 at h
  have hlt : max a (-a) < ⊤ := by
    by_contra hn
    rw [decide_eq_false hn] at h
    exact absurd h (by decide)
  induction a using EReal.rec with
  | bot => simp at hlt
  | top => simp at hlt
  | coe r => rfl

/-- Under the precondition every entry of the four argument arrays is (the coercion of) a real number: the predicate is
    the conjunction of four all-reductions by `and`, each over the elementwise comparison `|entry| < +∞`. -/
theorem reals_of_pre [Cert.KernelIdeal.Facts] [Cert.Pre_finite_inputs.Facts]
    (m : (ℓ : Loc nD τ sig) → Buf (Elt Ideal) ℓ) (h : Cert.Pre_KernelIdeal m) (c : Dev nD) :
    ∃ (x : Fin 4 → Fin 4096 → Fin 1024 → ℝ) (Wq Wk Wv : Fin 1024 → Fin 64 → ℝ),
      (∀ b r d, m ((c.tc : Thread nD τ).loc main_arg0) (ix3 b r d) = ((x b r d : ℝ) : EReal))
      ∧ (∀ d h, m ((c.tc : Thread nD τ).loc main_arg1) (ix2 d h) = ((Wq d h : ℝ) : EReal))
      ∧ (∀ d h, m ((c.tc : Thread nD τ).loc main_arg2) (ix2 d h) = ((Wk d h : ℝ) : EReal))
      ∧ (∀ d h, m ((c.tc : Thread nD τ).loc main_arg3) (ix2 d h) = ((Wv d h : ℝ) : EReal)) := by
  haveI : Subsingleton Cert.Pre_finite_inputs.S_.Idx := ⟨fun a b => funext fun d => d.elim0⟩
  -- the predicate's one result entry, as the conjunction of the four all-reductions
  have h0 := congrFun (h c) ix0
  dsimp only [Cert.Pre_finite_inputs.fn, Cert.Pre_finite_inputs.fn_part1] at h0
  obtain ⟨h012, hR3⟩ := IntOp.andi_eq_one.1 h0
  obtain ⟨h01, hR2⟩ := IntOp.andi_eq_one.1 h012
  obtain ⟨hR0, hR1⟩ := IntOp.andi_eq_one.1 h01
  -- each all-reduction that is 1 had a 1 at every entry
  have H0 := Host.reduce_andi_all _ _ _ _ ix0 hR0
  have H1 := Host.reduce_andi_all _ _ _ _ ix0 hR1
  have H2 := Host.reduce_andi_all _ _ _ _ ix0 hR2
  have H3 := Host.reduce_andi_all _ _ _ _ ix0 hR3
  exact ⟨fun b r d => (m ((c.tc : Thread nD τ).loc main_arg0) (ix3 b r d)).toReal,
    fun d h => (m ((c.tc : Thread nD τ).loc main_arg1) (ix2 d h)).toReal,
    fun d h => (m ((c.tc : Thread nD τ).loc main_arg2) (ix2 d h)).toReal,
    fun d h => (m ((c.tc : Thread nD τ).loc main_arg3) (ix2 d h)).toReal,
    fun b r d => (real_of_abs_lt_inf (m ((c.tc : Thread nD τ).loc main_arg0) (ix3 b r d)) (H0 (ix3 b r d))).symm,
    fun d h => (real_of_abs_lt_inf (m ((c.tc : Thread nD τ).loc main_arg1) (ix2 d h)) (H1 (ix2 d h))).symm,
    fun d h => (real_of_abs_lt_inf (m ((c.tc : Thread nD τ).loc main_arg2) (ix2 d h)) (H2 (ix2 d h))).symm,
    fun d h => (real_of_abs_lt_inf (m ((c.tc : Thread nD τ).loc main_arg3) (ix2 d h)) (H3 (ix2 d h))).symm⟩

/-! ## The host operations before the first region -/

/-- The first stretch leaves in the reshape's buffer the shape cast of the first argument (no earlier operation of the
    stretch writes that argument). -/
theorem v0_eq (W : Valuation τ sig (Elt Ideal)) :
    StableHlo.after (hostOps0 (F := Ideal)) W (Proc.devRef .tc main_v0)
      = (fun i => shapeCast S16384x1024 (W (Proc.devRef .tc main_arg0)) shapeCasts_S4x4096x1024_S16384x1024 i) := by
  after_results
  rfl

/-- The reshape [4, 4096, 1024] → [16384, 1024] is row-major: row `i` is row `(i / 4096, i % 4096)`. -/
theorem v0_apply (W : Valuation τ sig (Elt Ideal)) (i : Fin 16384) (d : Fin 1024) :
    StableHlo.after (hostOps0 (F := Ideal)) W (Proc.devRef .tc main_v0) (ix2 i d)
      = W (Proc.devRef .tc main_arg0)
          (ix3 (⟨i.val / 4096, by have := i.isLt; omega⟩ : Fin 4) (⟨i.val % 4096, Nat.mod_lt _ (by decide)⟩ : Fin 4096) d) := by
  rw [v0_eq]
  -- the two indices have the same row-major position: (i / 4096 * 4096 + i % 4096) * 1024 + d = i * 1024 + d
  refine shapeCast_apply (s := S4x4096x1024) (t := S16384x1024) _ _ _ _ ?_
  rw [Shape.rowMajor_val_three, Shape.rowMajor_val_two]
  show ((i.val / 4096) * 4096 + i.val % 4096) * 1024 + d.val = i.val * 1024 + d.val
  have := Nat.div_add_mod i.val 4096
  omega

/-- The first stretch leaves in the concatenation's buffer the concatenation of the three weight arguments (no earlier
    operation of the stretch writes any of them). -/
theorem v1_eq (W : Valuation τ sig (Elt Ideal)) :
    StableHlo.after (hostOps0 (F := Ideal)) W (Proc.devRef .tc main_v1)
      = concatenate S1024x192 1 [⟨S1024x64, W (Proc.devRef .tc main_arg1)⟩, ⟨S1024x64, W (Proc.devRef .tc main_arg2)⟩,
          ⟨S1024x64, W (Proc.devRef .tc main_arg3)⟩] concatenates_S1024x64_S1024x64_S1024x64_S1024x192_d1 := by
  after_results
  -- piece by piece: the reshape and the four tables before the concatenation leave each weight argument as it was
  congr 3 <;>
    (dsimp only
     repeat (first
       | (rw [StableHlo.reshape_result_ne]; rotate_left; decide)
       | (rw [StableHlo.nullary_result_ne]; rotate_left; decide)))

/-- The concatenation along the columns of the three weight matrices: column `h` falls in one of three ranges. -/
theorem v1_apply (W : Valuation τ sig (Elt Ideal)) (d : Fin 1024) (h : Fin 192) :
    StableHlo.after (hostOps0 (F := Ideal)) W (Proc.devRef .tc main_v1) (ix2 d h)
      = if hh : h.val < 64 then W (Proc.devRef .tc main_arg1) (ix2 d (⟨h.val, hh⟩ : Fin 64))
        else if hh2 : h.val < 128 then W (Proc.devRef .tc main_arg2) (ix2 d (⟨h.val - 64, by omega⟩ : Fin 64))
        else W (Proc.devRef .tc main_arg3) (ix2 d (⟨h.val - 128, by have := h.isLt; omega⟩ : Fin 64)) := by
  rw [v1_eq]
  by_cases hh : h.val < 64
  · -- columns 0 … 63: the first piece, nothing before it
    rw [dif_pos hh]
    exact concatenate_apply_piece (t := S1024x192) 1 _ _ (ix2 d h)
      0 (by show 0 < 3; decide) S1024x64 (W (Proc.devRef .tc main_arg1)) rfl rfl 0 rfl (ix2 d (⟨h.val, hh⟩ : Fin 64))
      (fun b hb => match b with | ⟨0, _⟩ => rfl | ⟨1, _⟩ => absurd rfl hb)
      (Nat.zero_add _)
  · rw [dif_neg hh]
    by_cases hh2 : h.val < 128
    · -- columns 64 … 127: the second piece, 64 columns before it
      rw [dif_pos hh2]
      exact concatenate_apply_piece (t := S1024x192) 1 _ _ (ix2 d h)
        1 (by show 1 < 3; decide) S1024x64 (W (Proc.devRef .tc main_arg2)) rfl rfl 64 rfl (ix2 d (⟨h.val - 64, by omega⟩ : Fin 64))
        (fun b hb => match b with | ⟨0, _⟩ => rfl | ⟨1, _⟩ => absurd rfl hb)
        (by show 64 + (h.val - 64) = h.val; omega)
    · -- columns 128 … 191: the third piece, 128 columns before it
      rw [dif_neg hh2]
      exact concatenate_apply_piece (t := S1024x192) 1 _ _ (ix2 d h)
        2 (by show 2 < 3; decide) S1024x64 (W (Proc.devRef .tc main_arg3)) rfl rfl 128 rfl
        (ix2 d (⟨h.val - 128, by have := h.isLt; omega⟩ : Fin 64))
        (fun b hb => match b with | ⟨0, _⟩ => rfl | ⟨1, _⟩ => absurd rfl hb)
        (by show 128 + (h.val - 128) = h.val; omega)

/-! ## The host operations between the two regions -/

/-- The second stretch leaves in each reshape's buffer the shape cast of its projection array. -/
theorem v3_eq (W : Valuation τ sig (Elt Ideal)) :
    StableHlo.after (hostOps1 (F := Ideal)) W (Proc.devRef .tc main_v3)
      = (fun i => shapeCast S4x4096x64 (W (Proc.devRef .tc main_v2_0)) shapeCasts_S16384x64_S4x4096x64 i) := by
  after_results
  rfl
theorem v4_eq (W : Valuation τ sig (Elt Ideal)) :
    StableHlo.after (hostOps1 (F := Ideal)) W (Proc.devRef .tc main_v4)
      = (fun i => shapeCast S4x4096x64 (W (Proc.devRef .tc main_v2_1)) shapeCasts_S16384x64_S4x4096x64 i) := by
  after_results
  rfl
theorem v5_eq (W : Valuation τ sig (Elt Ideal)) :
    StableHlo.after (hostOps1 (F := Ideal)) W (Proc.devRef .tc main_v5)
      = (fun i => shapeCast S4x4096x64 (W (Proc.devRef .tc main_v2_2)) shapeCasts_S16384x64_S4x4096x64 i) := by
  after_results
  rfl

/-- A [16384, 64] array cast to [4, 4096, 64] reads, at `(b, r, h)`, the operand at `(b * 4096 + r, h)`: both indices
    have the row-major position `(b * 4096 + r) * 64 + h`. -/
theorem cast_rows_apply {α : Type} (X : S16384x64.Idx → α) (b : Fin 4) (r : Fin 4096) (h : Fin 64) :
    shapeCast S4x4096x64 X shapeCasts_S16384x64_S4x4096x64 (ix3 b r h)
      = X (ix2 (⟨b.val * 4096 + r.val, by have := b.isLt; have := r.isLt; omega⟩ : Fin 16384) h) := by
  refine shapeCast_apply (s := S16384x64) (t := S4x4096x64) _ _ _ _ ?_
  rw [Shape.rowMajor_val_three, Shape.rowMajor_val_two]
  rfl

/-- The reshape [16384, 64] → [4, 4096, 64] of the first projection is row-major. -/
theorem v3_apply (W : Valuation τ sig (Elt Ideal)) (b : Fin 4) (r : Fin 4096) (h : Fin 64) :
    StableHlo.after (hostOps1 (F := Ideal)) W (Proc.devRef .tc main_v3) (ix3 b r h)
      = W (Proc.devRef .tc main_v2_0) (ix2 (⟨b.val * 4096 + r.val, by have := b.isLt; have := r.isLt; omega⟩ : Fin 16384) h) := by
  rw [v3_eq]
  exact cast_rows_apply _ b r h

/-- The reshape [16384, 64] → [4, 4096, 64] of the second projection is row-major. -/
theorem v4_apply (W : Valuation τ sig (Elt Ideal)) (b : Fin 4) (r : Fin 4096) (h : Fin 64) :
    StableHlo.after (hostOps1 (F := Ideal)) W (Proc.devRef .tc main_v4) (ix3 b r h)
      = W (Proc.devRef .tc main_v2_1) (ix2 (⟨b.val * 4096 + r.val, by have := b.isLt; have := r.isLt; omega⟩ : Fin 16384) h) := by
  rw [v4_eq]
  exact cast_rows_apply _ b r h

/-- The reshape [16384, 64] → [4, 4096, 64] of the third projection is row-major. -/
theorem v5_apply (W : Valuation τ sig (Elt Ideal)) (b : Fin 4) (r : Fin 4096) (h : Fin 64) :
    StableHlo.after (hostOps1 (F := Ideal)) W (Proc.devRef .tc main_v5) (ix3 b r h)
      = W (Proc.devRef .tc main_v2_2) (ix2 (⟨b.val * 4096 + r.val, by have := b.isLt; have := r.isLt; omega⟩ : Fin 16384) h) := by
  rw [v5_eq]
  exact cast_rows_apply _ b r h

end Cert.KernelIdeal.HandV

end
-- ==== Proof.KI.R0Blocks.lean ====
/-
  The projection region's window blocks read at an index, the cover of its three output arrays, and the passage from
  blocks to arrays.

  The region runs over 8 points. At point t the activations' window holds the 2048 rows from row 2048·t of its array of
  16384 rows, the weights' window holds its whole array at every point, and each of the three output windows holds the
  2048 rows from row 2048·t of its array, written back at every point. So element (p, d) of the activations' block (or of
  an output block) is the array's element (2048·t + p, d), and the weights' block is the array: a block's element sits
  at block index × block size + its coordinate on every axis. Row r of an output array lies in the block written back at
  point r / 2048, so the eight written-back blocks cover each output array; hence an output array after the region is
  any function G of the index that every point's block agrees with: if what the body leaves at point t reads G at row
  2048·t + p for every row p of the block, the array ends holding G.
-/
import proofs.«422911_j40922448396699_3_alg».proof.Proof.KI.R0
import Idealize.ShloMosaic.Lib.ValueIdx
import Idealize.ShloMosaic.Lib.Pipeline.Value

set_option maxRecDepth 16384

noncomputable section

namespace Cert.KernelIdeal.HandV

open Idealize.ShloMosaic Idealize.ShloMosaic.TcCoe Idealize.SL.Sem
open Idealize.ShloMosaic.Pipeline (Dat Cfg Window)
open Idealize.ShloMosaic.ValueIdx
open Cert.KernelIdeal Cert.KernelIdeal.Gen Cert.KernelIdeal.Hand

/-! ## The grid -/

/-- Eight row blocks. -/
theorem N0 : cfg0.N = 8 := N_0

/-- A row of a point's block is a row of the array. -/
theorem xrow_lt (t : Fin cfg0.N) (p : Fin 2048) : 2048 * t.val + p.val < 16384 := by
  have h : t.val < 8 := N0 ▸ t.isLt
  have hp := p.isLt
  omega

/-- The point whose block holds row `r`: `r / 2048`. -/
def coverPt0 (i : S16384x64.Idx) : Fin cfg0.N := ⟨(i 0).val / 2048, by
  have h : (i 0).val < 16384 := (i 0).isLt
  exact lt_of_lt_of_eq (by omega : (i 0).val / 2048 < 8) N0.symm⟩

theorem coverPt0_val (i : S16384x64.Idx) : (coverPt0 i).val = (i 0).val / 2048 := rfl

/-! ## The windows' block indices, point by point -/

/-- The activations' window is at row block `t`, column block 0; the weights' at block (0, 0); each output window at row
    block `t`, column block 0. -/
theorem pidx0 (t : Fin cfg0.N) : (cfg0.win 0).index t (0 : Fin 2) = t.val ∧ (cfg0.win 0).index t (1 : Fin 2) = 0 :=
  (by decide +kernel : ∀ t : Fin grid0.N, (cfg0.win 0).index t (0 : Fin 2) = t.val ∧ (cfg0.win 0).index t (1 : Fin 2) = 0) t
theorem pidx1 (t : Fin cfg0.N) : (cfg0.win 1).index t (0 : Fin 2) = 0 ∧ (cfg0.win 1).index t (1 : Fin 2) = 0 :=
  (by decide +kernel : ∀ t : Fin grid0.N, (cfg0.win 1).index t (0 : Fin 2) = 0 ∧ (cfg0.win 1).index t (1 : Fin 2) = 0) t
theorem pidx2 (t : Fin cfg0.N) : (cfg0.win 2).index t (0 : Fin 2) = t.val ∧ (cfg0.win 2).index t (1 : Fin 2) = 0 :=
  (by decide +kernel : ∀ t : Fin grid0.N, (cfg0.win 2).index t (0 : Fin 2) = t.val ∧ (cfg0.win 2).index t (1 : Fin 2) = 0) t
theorem pidx3 (t : Fin cfg0.N) : (cfg0.win 3).index t (0 : Fin 2) = t.val ∧ (cfg0.win 3).index t (1 : Fin 2) = 0 :=
  (by decide +kernel : ∀ t : Fin grid0.N, (cfg0.win 3).index t (0 : Fin 2) = t.val ∧ (cfg0.win 3).index t (1 : Fin 2) = 0) t
theorem pidx4 (t : Fin cfg0.N) : (cfg0.win 4).index t (0 : Fin 2) = t.val ∧ (cfg0.win 4).index t (1 : Fin 2) = 0 :=
  (by decide +kernel : ∀ t : Fin grid0.N, (cfg0.win 4).index t (0 : Fin 2) = t.val ∧ (cfg0.win 4).index t (1 : Fin 2) = 0) t

/-! ## The input blocks read at an index -/

/-- Element `(p, d)` of the activations' block at point `t` is the array's element `(2048·t + p, d)`. -/
theorem xblk_apply (A : S16384x1024.Idx → EReal) (t : Fin cfg0.N) (p : Fin 2048) (d : Fin 1024) :
    ((cfg0.win 0).blk t).view.read (Elt Ideal) A (ix2 p d) = A (ix2 ⟨2048 * t.val + p.val, xrow_lt t p⟩ d) := by
  obtain ⟨e0, e1⟩ := pidx0 t
  show A (((cfg0.win 0).blk t).view.emb (ix2 p d)) = _
  refine congrArg A ?_
  funext a; apply Fin.ext
  match a with
  | ⟨0, _⟩ => show (cfg0.win 0).index t (0 : Fin 2) * 2048 + 1 * p.val = 2048 * t.val + p.val; rw [e0]; omega
  | ⟨1, _⟩ => show (cfg0.win 0).index t (1 : Fin 2) * 1024 + 1 * d.val = d.val; rw [e1]; omega

/-- The weights' block at every point is the weights' array. -/
theorem wblk_apply (A : S1024x192.Idx → EReal) (t : Fin cfg0.N) (d : Fin 1024) (h : Fin 192) :
    ((cfg0.win 1).blk t).view.read (Elt Ideal) A (ix2 d h) = A (ix2 d h) := by
  obtain ⟨e0, e1⟩ := pidx1 t
  show A (((cfg0.win 1).blk t).view.emb (ix2 d h)) = _
  refine congrArg A ?_
  funext a; apply Fin.ext
  match a with
  | ⟨0, _⟩ => show (cfg0.win 1).index t (0 : Fin 2) * 1024 + 1 * d.val = d.val; rw [e0]; omega
  | ⟨1, _⟩ => show (cfg0.win 1).index t (1 : Fin 2) * 192 + 1 * h.val = h.val; rw [e1]; omega

/-! ## Output window 2 -/

/-- Element `(p, h)` of output window 2's block at point `t` is its array's element `(2048·t + p, h)`. -/
theorem oblk_apply_2 (G : S16384x64.Idx → EReal) (t : Fin cfg0.N) (p : Fin 2048) (h : Fin 64) :
    ((cfg0.win 2).blk t).view.read (Elt Ideal) G (ix2 p h) = G (ix2 ⟨2048 * t.val + p.val, xrow_lt t p⟩ h) := by
  obtain ⟨e0, e1⟩ := pidx2 t
  show G (((cfg0.win 2).blk t).view.emb (ix2 p h)) = _
  refine congrArg G ?_
  funext a; apply Fin.ext
  match a with
  | ⟨0, _⟩ => show (cfg0.win 2).index t (0 : Fin 2) * 2048 + 1 * p.val = 2048 * t.val + p.val; rw [e0]; omega
  | ⟨1, _⟩ => show (cfg0.win 2).index t (1 : Fin 2) * 64 + 1 * h.val = h.val; rw [e1]; omega

/-- An index of output window 2's array is in point `t`'s block iff its row is one of the 2048 from row `2048·t`. -/
theorem mem_oblk_2 (t : Fin cfg0.N) (i : S16384x64.Idx) :
    i ∈ ((cfg0.win 2).blk t).view.set ↔ 2048 * t.val ≤ (i 0).val ∧ (i 0).val < 2048 * t.val + 2048 := by
  obtain ⟨e0, e1⟩ := pidx2 t
  show i ∈ ((View.whole main_v2_0).slice ((cfg0.win 2).rect t)).set ↔ _
  rw [View.set_slice_whole, Rect.mem_set_unit]
  constructor
  · intro h
    have h0 : (cfg0.win 2).index t (0 : Fin 2) * 2048 ≤ (i 0).val ∧ (i 0).val < (cfg0.win 2).index t (0 : Fin 2) * 2048 + 2048 := h 0
    rw [e0] at h0
    omega
  · rintro ⟨a0, a1⟩ a
    match a with
    | ⟨0, _⟩ =>
      show (cfg0.win 2).index t (0 : Fin 2) * 2048 ≤ (i 0).val ∧ (i 0).val < (cfg0.win 2).index t (0 : Fin 2) * 2048 + 2048
      rw [e0]; omega
    | ⟨1, _⟩ =>
      show (cfg0.win 2).index t (1 : Fin 2) * 64 ≤ (i 1).val ∧ (i 1).val < (cfg0.win 2).index t (1 : Fin 2) * 64 + 64
      have h1 : (i 1).val < 64 := (i 1).isLt
      rw [e1]; omega

/-- The written-back blocks cover output window 2's array: row `r` is in the block written back at point `r / 2048`. -/
theorem ocover_2 (i : S16384x64.Idx) : ∃ t : Fin cfg0.N, (cfg0.win 2).flush t = true ∧ i ∈ ((cfg0.win 2).blk t).view.set := by
  have hr : (i 0).val < 16384 := (i 0).isLt
  refine ⟨coverPt0 i, flush0_2 _, (mem_oblk_2 _ i).mpr ?_⟩
  rw [coverPt0_val]
  omega

/-- From blocks to the array: if what the body leaves in output window 2's buffer at every point `t` reads `G` at row
    `2048·t + p`, the array after the region is `G`. -/
theorem arr0_of_blocks_2 (V : (c : Dev nD) → (b : Ref sig .tc) → Buf (Elt Ideal) ((c : Thread nD τ).loc b)) (c : Dev nD)
    (G : S16384x64.Idx → EReal)
    (hG : ∀ (t : Fin cfg0.N) (p : Fin 2048) (h : Fin 64),
      (dat0 (F := Ideal) V c).after 2 t (ix2 p h) = G (ix2 ⟨2048 * t.val + p.val, xrow_lt t p⟩ h)) :
    (dat0 (F := Ideal) V c).arrAt 2 cfg0.N = G := by
  refine (dat0 (F := Ideal) V c).arrAt_eq_of_cover 2 G (fun t _ => ?_) (fun i => ocover_2 i)
  show (cfg0.win 2).cut (grid0.coords t) ((dat0 (F := Ideal) V c).after 2 t) = _
  funext y
  obtain ⟨p, h, rfl⟩ : ∃ p h, y = ix2 (n0 := 2048) (n1 := 64) p h := ⟨y 0, y 1, eq_ix2 y⟩
  exact (hG t p h).trans (oblk_apply_2 G t p h).symm

/-! ## Output window 3 -/

/-- Element `(p, h)` of output window 3's block at point `t` is its array's element `(2048·t + p, h)`. -/
theorem oblk_apply_3 (G : S16384x64.Idx → EReal) (t : Fin cfg0.N) (p : Fin 2048) (h : Fin 64) :
    ((cfg0.win 3).blk t).view.read (Elt Ideal) G (ix2 p h) = G (ix2 ⟨2048 * t.val + p.val, xrow_lt t p⟩ h) := by
  obtain ⟨e0, e1⟩ := pidx3 t
  show G (((cfg0.win 3).blk t).view.emb (ix2 p h)) = _
  refine congrArg G ?_
  funext a; apply Fin.ext
  match a with
  | ⟨0, _⟩ => show (cfg0.win 3).index t (0 : Fin 2) * 2048 + 1 * p.val = 2048 * t.val + p.val; rw [e0]; omega
  | ⟨1, _⟩ => show (cfg0.win 3).index t (1 : Fin 2) * 64 + 1 * h.val = h.val; rw [e1]; omega

/-- An index of output window 3's array is in point `t`'s block iff its row is one of the 2048 from row `2048·t`. -/
theorem mem_oblk_3 (t : Fin cfg0.N) (i : S16384x64.Idx) :
    i ∈ ((cfg0.win 3).blk t).view.set ↔ 2048 * t.val ≤ (i 0).val ∧ (i 0).val < 2048 * t.val + 2048 := by
  obtain ⟨e0, e1⟩ := pidx3 t
  show i ∈ ((View.whole main_v2_1).slice ((cfg0.win 3).rect t)).set ↔ _
  rw [View.set_slice_whole, Rect.mem_set_unit]
  constructor
  · intro h
    have h0 : (cfg0.win 3).index t (0 : Fin 2) * 2048 ≤ (i 0).val ∧ (i 0).val < (cfg0.win 3).index t (0 : Fin 2) * 2048 + 2048 := h 0
    rw [e0] at h0
    omega
  · rintro ⟨a0, a1⟩ a
    match a with
    | ⟨0, _⟩ =>
      show (cfg0.win 3).index t (0 : Fin 2) * 2048 ≤ (i 0).val ∧ (i 0).val < (cfg0.win 3).index t (0 : Fin 2) * 2048 + 2048
      rw [e0]; omega
    | ⟨1, _⟩ =>
      show (cfg0.win 3).index t (1 : Fin 2) * 64 ≤ (i 1).val ∧ (i 1).val < (cfg0.win 3).index t (1 : Fin 2) * 64 + 64
      have h1 : (i 1).val < 64 := (i 1).isLt
      rw [e1]; omega

/-- The written-back blocks cover output window 3's array: row `r` is in the block written back at point `r / 2048`. -/
theorem ocover_3 (i : S16384x64.Idx) : ∃ t : Fin cfg0.N, (cfg0.win 3).flush t = true ∧ i ∈ ((cfg0.win 3).blk t).view.set := by
  have hr : (i 0).val < 16384 := (i 0).isLt
  refine ⟨coverPt0 i, flush0_3 _, (mem_oblk_3 _ i).mpr ?_⟩
  rw [coverPt0_val]
  omega

/-- From blocks to the array: if what the body leaves in output window 3's buffer at every point `t` reads `G` at row
    `2048·t + p`, the array after the region is `G`. -/
theorem arr0_of_blocks_3 (V : (c : Dev nD) → (b : Ref sig .tc) → Buf (Elt Ideal) ((c : Thread nD τ).loc b)) (c : Dev nD)
    (G : S16384x64.Idx → EReal)
    (hG : ∀ (t : Fin cfg0.N) (p : Fin 2048) (h : Fin 64),
      (dat0 (F := Ideal) V c).after 3 t (ix2 p h) = G (ix2 ⟨2048 * t.val + p.val, xrow_lt t p⟩ h)) :
    (dat0 (F := Ideal) V c).arrAt 3 cfg0.N = G := by
  refine (dat0 (F := Ideal) V c).arrAt_eq_of_cover 3 G (fun t _ => ?_) (fun i => ocover_3 i)
  show (cfg0.win 3).cut (grid0.coords t) ((dat0 (F := Ideal) V c).after 3 t) = _
  funext y
  obtain ⟨p, h, rfl⟩ : ∃ p h, y = ix2 (n0 := 2048) (n1 := 64) p h := ⟨y 0, y 1, eq_ix2 y⟩
  exact (hG t p h).trans (oblk_apply_3 G t p h).symm

/-! ## Output window 4 -/

/-- Element `(p, h)` of output window 4's block at point `t` is its array's element `(2048·t + p, h)`. -/
theorem oblk_apply_4 (G : S16384x64.Idx → EReal) (t : Fin cfg0.N) (p : Fin 2048) (h : Fin 64) :
    ((cfg0.win 4).blk t).view.read (Elt Ideal) G (ix2 p h) = G (ix2 ⟨2048 * t.val + p.val, xrow_lt t p⟩ h) := by
  obtain ⟨e0, e1⟩ := pidx4 t
  show G (((cfg0.win 4).blk t).view.emb (ix2 p h)) = _
  refine congrArg G ?_
  funext a; apply Fin.ext
  match a with
  | ⟨0, _⟩ => show (cfg0.win 4).index t (0 : Fin 2) * 2048 + 1 * p.val = 2048 * t.val + p.val; rw [e0]; omega
  | ⟨1, _⟩ => show (cfg0.win 4).index t (1 : Fin 2) * 64 + 1 * h.val = h.val; rw [e1]; omega

/-- An index of output window 4's array is in point `t`'s block iff its row is one of the 2048 from row `2048·t`. -/
theorem mem_oblk_4 (t : Fin cfg0.N) (i : S16384x64.Idx) :
    i ∈ ((cfg0.win 4).blk t).view.set ↔ 2048 * t.val ≤ (i 0).val ∧ (i 0).val < 2048 * t.val + 2048 := by
  obtain ⟨e0, e1⟩ := pidx4 t
  show i ∈ ((View.whole main_v2_2).slice ((cfg0.win 4).rect t)).set ↔ _
  rw [View.set_slice_whole, Rect.mem_set_unit]
  constructor
  · intro h
    have h0 : (cfg0.win 4).index t (0 : Fin 2) * 2048 ≤ (i 0).val ∧ (i 0).val < (cfg0.win 4).index t (0 : Fin 2) * 2048 + 2048 := h 0
    rw [e0] at h0
    omega
  · rintro ⟨a0, a1⟩ a
    match a with
    | ⟨0, _⟩ =>
      show (cfg0.win 4).index t (0 : Fin 2) * 2048 ≤ (i 0).val ∧ (i 0).val < (cfg0.win 4).index t (0 : Fin 2) * 2048 + 2048
      rw [e0]; omega
    | ⟨1, _⟩ =>
      show (cfg0.win 4).index t (1 : Fin 2) * 64 ≤ (i 1).val ∧ (i 1).val < (cfg0.win 4).index t (1 : Fin 2) * 64 + 64
      have h1 : (i 1).val < 64 := (i 1).isLt
      rw [e1]; omega

/-- The written-back blocks cover output window 4's array: row `r` is in the block written back at point `r / 2048`. -/
theorem ocover_4 (i : S16384x64.Idx) : ∃ t : Fin cfg0.N, (cfg0.win 4).flush t = true ∧ i ∈ ((cfg0.win 4).blk t).view.set := by
  have hr : (i 0).val < 16384 := (i 0).isLt
  refine ⟨coverPt0 i, flush0_4 _, (mem_oblk_4 _ i).mpr ?_⟩
  rw [coverPt0_val]
  omega

/-- From blocks to the array: if what the body leaves in output window 4's buffer at every point `t` reads `G` at row
    `2048·t + p`, the array after the region is `G`. -/
theorem arr0_of_blocks_4 (V : (c : Dev nD) → (b : Ref sig .tc) → Buf (Elt Ideal) ((c : Thread nD τ).loc b)) (c : Dev nD)
    (G : S16384x64.Idx → EReal)
    (hG : ∀ (t : Fin cfg0.N) (p : Fin 2048) (h : Fin 64),
      (dat0 (F := Ideal) V c).after 4 t (ix2 p h) = G (ix2 ⟨2048 * t.val + p.val, xrow_lt t p⟩ h)) :
    (dat0 (F := Ideal) V c).arrAt 4 cfg0.N = G := by
  refine (dat0 (F := Ideal) V c).arrAt_eq_of_cover 4 G (fun t _ => ?_) (fun i => ocover_4 i)
  show (cfg0.win 4).cut (grid0.coords t) ((dat0 (F := Ideal) V c).after 4 t) = _
  funext y
  obtain ⟨p, h, rfl⟩ : ∃ p h, y = ix2 (n0 := 2048) (n1 := 64) p h := ⟨y 0, y 1, eq_ix2 y⟩
  exact (hG t p h).trans (oblk_apply_4 G t p h).symm

end Cert.KernelIdeal.HandV

end
-- ==== Proof.KI.R0Value.lean ====
/-
  What the projection region leaves in its three output arrays, at the ideal values. The region passes once over the 8
  row blocks of the activations X [16384, 1024]; at each point the body multiplies the point's block of 2048 rows by the
  whole fused weight matrix W [1024, 192] and writes the product's three column groups of 64 (columns 0..63, 64..127,
  128..191) to the point's blocks of the three output arrays [16384, 64]. At the ideal values the two roundings are the
  identity and a matrix product into a zero accumulator is the plain sum over the contraction index, so every output
  element is one sum:  out_g[i, h] = ∑ d, X[i, d] * W[d, h + 64 g]   (g = 0, 1, 2).
  The steps: the stored value read at an index (the product at an index, its column slice at an index); the two input
  blocks read where the output block's rectangle says (row y of block t of X is row 2048 t + y of X; the weights' block
  is the whole matrix); so what each point writes back is its block of ONE whole-array function; row r lies in the
  block of point r / 2048, so the blocks cover the array, and the array after the region is that function.
-/
import proofs.«422911_j40922448396699_3_alg».proof.Proof.KI.R0
import proofs.«422911_j40922448396699_3_alg».proof.Proof.KI.R0Blocks
import Idealize.ShloMosaic.Lib.Pipeline.Value
import Idealize.ShloMosaic.Lib.ValueIdx
import Idealize.ShloMosaic.PureOps.Ideal.Laws

noncomputable section

namespace Cert.KernelIdeal.HandV

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Hand

-- the core's buffer contents when the region is entered
variable (V : (c : Dev nD) → (b : Ref sig .tc) → Buf (Elt Ideal) ((c : Thread nD τ).loc b))

/-! ## The stored value at an index -/

/-- The product's left operand index at output index `j` and contraction index `q`: row `j 0`, -/
theorem lhs_prod_0 (j : S2048x192.Idx) (q : dot_S2048x1024_S1024x192_S2048x192_1_0_0_1_n_n.contr.Idx) :
    (dot_S2048x1024_S1024x192_S2048x192_1_0_0_1_n_n.lhsIdx j q 0).val = (j 0).val := by
  unfold DotDims.lhsIdx
  rw [dif_neg (show ¬(0 : Fin S2048x1024.rank) ∈ dot_S2048x1024_S1024x192_S2048x192_1_0_0_1_n_n.lhsBatch by decide), dif_pos (show (0 : Fin S2048x1024.rank) ∈ dot_S2048x1024_S1024x192_S2048x192_1_0_0_1_n_n.lhsNonContracting by decide)]
  rfl
/-- column the contraction index; -/
theorem lhs_prod_1 (j : S2048x192.Idx) (q : dot_S2048x1024_S1024x192_S2048x192_1_0_0_1_n_n.contr.Idx) :
    (dot_S2048x1024_S1024x192_S2048x192_1_0_0_1_n_n.lhsIdx j q 1).val = (q ⟨0, by decide⟩).val :=
  dot_S2048x1024_S1024x192_S2048x192_1_0_0_1_n_n.lhsIdx_val_of_single rfl j q
/-- the right operand index: row the contraction index, -/
theorem rhs_prod_0 (j : S2048x192.Idx) (q : dot_S2048x1024_S1024x192_S2048x192_1_0_0_1_n_n.contr.Idx) :
    (dot_S2048x1024_S1024x192_S2048x192_1_0_0_1_n_n.rhsIdx j q 0).val = (q ⟨0, by decide⟩).val :=
  dot_S2048x1024_S1024x192_S2048x192_1_0_0_1_n_n.rhsIdx_val_of_single rfl j q
/-- column `j 1`. -/
theorem rhs_prod_1 (j : S2048x192.Idx) (q : dot_S2048x1024_S1024x192_S2048x192_1_0_0_1_n_n.contr.Idx) :
    (dot_S2048x1024_S1024x192_S2048x192_1_0_0_1_n_n.rhsIdx j q 1).val = (j 1).val := by
  unfold DotDims.rhsIdx
  rw [dif_neg (show ¬(1 : Fin S1024x192.rank) ∈ dot_S2048x1024_S1024x192_S2048x192_1_0_0_1_n_n.rhsBatch by decide), dif_pos (show (1 : Fin S1024x192.rank) ∈ dot_S2048x1024_S1024x192_S2048x192_1_0_0_1_n_n.rhsNonContracting by decide)]
  rfl

/-- The product of the two loaded blocks at row `p` and column `q`: at the ideal values the roundings of the operands
    are the identity and the product into the zero accumulator is the sum over the contraction index. -/
theorem prod_apply (x0 : Vec Ideal S2048x1024 .f32) (x1 : Vec Ideal S1024x192 .f32) (p : Fin 2048) (q : Fin 192) :
    k0_pay1 x0 x1 (ix2 p q) = ∑ d : Fin 1024, x0 (ix2 p d) * x1 (ix2 d q) := by
  unfold k0_pay1
  simp only [shapeCast_self, matmul]
  rw [Ideal.matmul_constant_zero_apply, ← Equiv.sum_comp (contrEquiv1 dot_S2048x1024_S1024x192_S2048x192_1_0_0_1_n_n 1024 rfl rfl).symm]
  refine Finset.sum_congr rfl fun k _ => ?_
  have hk := contrEquiv1_symm_val dot_S2048x1024_S1024x192_S2048x192_1_0_0_1_n_n 1024 rfl rfl k
  have el : dot_S2048x1024_S1024x192_S2048x192_1_0_0_1_n_n.lhsIdx (ix2 p q) ((contrEquiv1 dot_S2048x1024_S1024x192_S2048x192_1_0_0_1_n_n 1024 rfl rfl).symm k) = ix2 p k := funext fun a => Fin.ext (by
    match a with
    | ⟨0, _⟩ => exact lhs_prod_0 _ _
    | ⟨1, _⟩ => exact (lhs_prod_1 _ _).trans hk)
  have er : dot_S2048x1024_S1024x192_S2048x192_1_0_0_1_n_n.rhsIdx (ix2 p q) ((contrEquiv1 dot_S2048x1024_S1024x192_S2048x192_1_0_0_1_n_n 1024 rfl rfl).symm k) = ix2 k q := funext fun a => Fin.ext (by
    match a with
    | ⟨0, _⟩ => exact (rhs_prod_0 _ _).trans hk
    | ⟨1, _⟩ => exact rhs_prod_1 _ _)
  rw [truncf_apply, truncf_apply, el, er]

/-- A slice of 64 columns at column offset `o` of a [2048, 192] value, at row `p` and column `h`, is the value at
    column `h + o` (the three offsets the body uses). -/
theorem slice0_apply (y : S2048x192.Idx → EReal) (p : Fin 2048) (h : Fin 64) :
    extractStridedSlice S2048x64 ![0, 0] y slices_S2048x192_o0_0_S2048x64 (ix2 p h)
      = y (ix2 p (⟨h.val, by omega⟩ : Fin 192)) := by
  refine extractStridedSlice_apply _ _ _ _ _ fun a => ?_
  match a with
  | ⟨0, _⟩ => show p.val = 0 + p.val; omega
  | ⟨1, _⟩ => show h.val = 0 + h.val; omega

theorem slice64_apply (y : S2048x192.Idx → EReal) (p : Fin 2048) (h : Fin 64) :
    extractStridedSlice S2048x64 ![0, 64] y slices_S2048x192_o0_64_S2048x64 (ix2 p h)
      = y (ix2 p (⟨h.val + 64, by omega⟩ : Fin 192)) := by
  refine extractStridedSlice_apply _ _ _ _ _ fun a => ?_
  match a with
  | ⟨0, _⟩ => show p.val = 0 + p.val; omega
  | ⟨1, _⟩ => show h.val + 64 = 64 + h.val; omega

theorem slice128_apply (y : S2048x192.Idx → EReal) (p : Fin 2048) (h : Fin 64) :
    extractStridedSlice S2048x64 ![0, 128] y slices_S2048x192_o0_128_S2048x64 (ix2 p h)
      = y (ix2 p (⟨h.val + 128, by omega⟩ : Fin 192)) := by
  refine extractStridedSlice_apply _ _ _ _ _ fun a => ?_
  match a with
  | ⟨0, _⟩ => show p.val = 0 + p.val; omega
  | ⟨1, _⟩ => show h.val + 128 = 128 + h.val; omega

/-- The first column group of the product, rounded for the store (the identity at the ideal values), at row `p` and
    column `h`: the product at column `h + 0`. -/
theorem k0pay2_apply (x0 : Vec Ideal S2048x1024 .f32) (x1 : Vec Ideal S1024x192 .f32) (p : Fin 2048) (h : Fin 64) :
    k0_pay2 x0 x1 (ix2 p h) = ∑ d : Fin 1024, x0 (ix2 p d) * x1 (ix2 d ⟨h.val, by omega⟩) := by
  unfold k0_pay2
  exact (slice0_apply (k0_pay1 x0 x1) p h).trans (prod_apply x0 x1 p _)

/-- The second column group of the product, rounded for the store (the identity at the ideal values), at row `p` and
    column `h`: the product at column `h + 64`. -/
theorem k0pay3_apply (x0 : Vec Ideal S2048x1024 .f32) (x1 : Vec Ideal S1024x192 .f32) (p : Fin 2048) (h : Fin 64) :
    k0_pay3 x0 x1 (ix2 p h) = ∑ d : Fin 1024, x0 (ix2 p d) * x1 (ix2 d ⟨h.val + 64, by omega⟩) := by
  unfold k0_pay3
  exact (slice64_apply (k0_pay1 x0 x1) p h).trans (prod_apply x0 x1 p _)

/-- The third column group of the product, rounded for the store (the identity at the ideal values), at row `p` and
    column `h`: the product at column `h + 128`. -/
theorem k0pay4_apply (x0 : Vec Ideal S2048x1024 .f32) (x1 : Vec Ideal S1024x192 .f32) (p : Fin 2048) (h : Fin 64) :
    k0_pay4 x0 x1 (ix2 p h) = ∑ d : Fin 1024, x0 (ix2 p d) * x1 (ix2 d ⟨h.val + 128, by omega⟩) := by
  unfold k0_pay4
  exact (slice128_apply (k0_pay1 x0 x1) p h).trans (prod_apply x0 x1 p _)

/-! ## The input blocks, read off the arrays -/

/-- The printed index maps over the grid: the activations' window sits at row block `t`, column block 0; the weights'
    window at the origin. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- Row `y` of the activations' block at point `t` is row `2048 t + y` of the array. -/
theorem iblk0_0_apply (c : Dev nD) (t : Fin cfg0.N) (y : Fin 2048) (d : Fin 1024) (r : Fin 16384) (hr : r.val = 2048 * t.val + y.val) :
    (iblk0 V c 0 t : Vec Ideal S2048x1024 .f32) (ix2 y d) = (V c main_v0 : S16384x1024.Idx → EReal) (ix2 r d) := by
  obtain ⟨e0, e1, -⟩ := idx_facts0 t
  unfold iblk0
  rw [View.read_apply]
  show V c main_v0 _ = V c main_v0 _
  congr 1
  funext a
  apply Fin.ext
  match a with
  | ⟨0, _⟩ => show win0_0.index t (0 : Fin 2) * 2048 + 1 * y.val = r.val; rw [e0, hr]; omega
  | ⟨1, _⟩ => show win0_0.index t (1 : Fin 2) * 1024 + 1 * d.val = d.val; rw [e1]; omega

/-- The weights' block at every point is the whole matrix. -/
theorem iblk0_1_apply (c : Dev nD) (t : Fin cfg0.N) (d : Fin 1024) (q : Fin 192) :
    (iblk0 V c 1 t : Vec Ideal S1024x192 .f32) (ix2 d q) = (V c main_v1 : S1024x192.Idx → EReal) (ix2 d q) := by
  obtain ⟨-, -, e0, e1⟩ := idx_facts0 t
  unfold iblk0
  rw [View.read_apply]
  show V c main_v1 _ = V c main_v1 _
  congr 1
  funext a
  apply Fin.ext
  match a with
  | ⟨0, _⟩ => show win0_1.index t (0 : Fin 2) * 1024 + 1 * d.val = d.val; rw [e0]; omega
  | ⟨1, _⟩ => show win0_1.index t (1 : Fin 2) * 192 + 1 * q.val = q.val; rw [e1]; omega

/-! ## What the body leaves in an output block, as a block of one whole-array function -/

/-- The projection of the activations `X` on the weight columns `q h` (`h` the output column): one function on the
    output array's indices. -/
def proj (X : S16384x1024.Idx → EReal) (W : S1024x192.Idx → EReal) (q : Fin 64 → Fin 192) : S16384x64.Idx → EReal :=
  fun j => ∑ d : Fin 1024, X (ix2 (⟨(j 0).val, idx2_lt0 j⟩ : Fin 16384) d) * W (ix2 d (q ⟨(j 1).val, idx2_lt1 j⟩))

/-- The projection at an index given by its coordinates. -/
theorem proj_apply (X : S16384x1024.Idx → EReal) (W : S1024x192.Idx → EReal) (q : Fin 64 → Fin 192) (i : Fin 16384) (h : Fin 64) :
    proj X W q (ix2 i h) = ∑ d : Fin 1024, X (ix2 i d) * W (ix2 d (q h)) := rfl

/-- Output window 2's buffer after the body at point `t`, at row `p` and column `h` of the block: the projection at
    row `2048 t + p` of the activations and weight column `h`. -/
theorem after0_2_apply (c : Dev nD) (t : Fin cfg0.N) (p : Fin 2048) (h : Fin 64) (r : Fin 16384) (hr : r.val = 2048 * t.val + p.val) :
    ((dat0 (F := Ideal) V c).after 2 t : Vec Ideal S2048x64 .bf16) (ix2 p h)
      = proj (V c main_v0) (V c main_v1) (fun h => ⟨h.val, by omega⟩) (ix2 r h) := by
  rw [after0_2, out0_2_eq]
  refine (k0pay2_apply _ _ p h).trans ?_
  refine Finset.sum_congr rfl fun d _ => ?_
  rw [iblk0_0_apply V c t p d r hr, iblk0_1_apply]

/-- Output window 3's buffer after the body at point `t`, at row `p` and column `h` of the block: the projection at
    row `2048 t + p` of the activations and weight column `h + 64`. -/
theorem after0_3_apply (c : Dev nD) (t : Fin cfg0.N) (p : Fin 2048) (h : Fin 64) (r : Fin 16384) (hr : r.val = 2048 * t.val + p.val) :
    ((dat0 (F := Ideal) V c).after 3 t : Vec Ideal S2048x64 .bf16) (ix2 p h)
      = proj (V c main_v0) (V c main_v1) (fun h => ⟨h.val + 64, by omega⟩) (ix2 r h) := by
  rw [after0_3, out0_3_eq]
  refine (k0pay3_apply _ _ p h).trans ?_
  refine Finset.sum_congr rfl fun d _ => ?_
  rw [iblk0_0_apply V c t p d r hr, iblk0_1_apply]

/-- Output window 4's buffer after the body at point `t`, at row `p` and column `h` of the block: the projection at
    row `2048 t + p` of the activations and weight column `h + 128`. -/
theorem after0_4_apply (c : Dev nD) (t : Fin cfg0.N) (p : Fin 2048) (h : Fin 64) (r : Fin 16384) (hr : r.val = 2048 * t.val + p.val) :
    ((dat0 (F := Ideal) V c).after 4 t : Vec Ideal S2048x64 .bf16) (ix2 p h)
      = proj (V c main_v0) (V c main_v1) (fun h => ⟨h.val + 128, by omega⟩) (ix2 r h) := by
  rw [after0_4, out0_4_eq]
  refine (k0pay4_apply _ _ p h).trans ?_
  refine Finset.sum_congr rfl fun d _ => ?_
  rw [iblk0_0_apply V c t p d r hr, iblk0_1_apply]

/-! ## The three arrays after the region

Every point writes back its block of the projection, and the eight blocks cover the array. -/

/-- The query array after the region: activations times the first 64 weight columns. -/
theorem arr0_2 (c : Dev nD) (i : Fin 16384) (h : Fin 64) :
    (dat0 (F := Ideal) V c).arrAt 2 cfg0.N (ix2 i h)
      = ∑ d : Fin 1024, (HMul.hMul : EReal → EReal → EReal) (V c main_v0 (ix2 i d)) (V c main_v1 (ix2 d ⟨h.val, by omega⟩)) :=
  (congrFun (arr0_of_blocks_2 V c (proj (V c main_v0) (V c main_v1) fun h => ⟨h.val, by omega⟩)
    fun t p h => after0_2_apply V c t p h _ rfl) (ix2 i h)).trans (proj_apply _ _ _ i h)

/-- The key array after the region: activations times weight columns 64 to 127. -/
theorem arr0_3 (c : Dev nD) (i : Fin 16384) (h : Fin 64) :
    (dat0 (F := Ideal) V c).arrAt 3 cfg0.N (ix2 i h)
      = ∑ d : Fin 1024, (HMul.hMul : EReal → EReal → EReal) (V c main_v0 (ix2 i d)) (V c main_v1 (ix2 d ⟨h.val + 64, by omega⟩)) :=
  (congrFun (arr0_of_blocks_3 V c (proj (V c main_v0) (V c main_v1) fun h => ⟨h.val + 64, by omega⟩)
    fun t p h => after0_3_apply V c t p h _ rfl) (ix2 i h)).trans (proj_apply _ _ _ i h)

/-- The value array after the region: activations times weight columns 128 to 191. -/
theorem arr0_4 (c : Dev nD) (i : Fin 16384) (h : Fin 64) :
    (dat0 (F := Ideal) V c).arrAt 4 cfg0.N (ix2 i h)
      = ∑ d : Fin 1024, (HMul.hMul : EReal → EReal → EReal) (V c main_v0 (ix2 i d)) (V c main_v1 (ix2 d ⟨h.val + 128, by omega⟩)) :=
  (congrFun (arr0_of_blocks_4 V c (proj (V c main_v0) (V c main_v1) fun h => ⟨h.val + 128, by omega⟩)
    fun t p h => after0_4_apply V c t p h _ rfl) (ix2 i h)).trans (proj_apply _ _ _ i h)

end Cert.KernelIdeal.HandV

end
-- ==== Proof.KI.R1Blocks.lean ====
/-
  The attention region's window blocks read at an index, and the schedule of its output window.

  The region runs over 40 points: point t is batch t / 10 at step t % 10 of the ten steps of the lower triangle of
  4 × 4 blocks, taken row by row; step j works on query block qi(j) = 0,1,1,2,2,2,3,3,3,3 against key block
  ki(j) = 0,0,1,0,1,2,0,1,2,3. The query window's block at point t is the 1024 rows from row 1024·qi(t % 10) of batch
  t / 10 of its array; the key and value windows' block is the whole batch t / 10 (all 4096 rows); the output window's
  block sits where the query's does. So an element (0, p, d) of the query (or output) block is the array's element
  (t / 10, 1024·qi(t % 10) + p, d), and an element (0, r, d) of the key (or value) block is the array's (t / 10, r, d):
  a block's element sits at block index × block size + its coordinate on every axis. Within the resident batch the body
  cuts the 1024 rows from the row offset its table word names: element (0, k, d) of that cut is the batch's
  (0, offset + k, d), and at the literal word n < 4 the offset is 1024·n.

  The output block is written back exactly at the last step of each query row, steps 0, 2, 5 and 9 (where the next
  point's block index differs, or the grid ends). Row r of batch b therefore lies in the block written back at point
  10·b + last(r / 1024), last = 0, 2, 5, 9: the written-back blocks cover the output array.
-/
import proofs.«422911_j40922448396699_3_alg».proof.Proof.KI.R1Runs
import proofs.«422911_j40922448396699_3_alg».proof.Proof.KI.Step
import Idealize.ShloMosaic.Lib.ValueIdx
import Idealize.ShloMosaic.Lib.Pipeline.Value

set_option maxRecDepth 16384

noncomputable section

namespace Cert.KernelIdeal.HandV

open Idealize.ShloMosaic Idealize.ShloMosaic.TcCoe Idealize.SL.Sem
open Idealize.ShloMosaic.Pipeline (Dat Cfg Window)
open Idealize.ShloMosaic.ValueIdx
open Cert.KernelIdeal Cert.KernelIdeal.Gen Cert.KernelIdeal.Hand

/-- The region's pipeline at the literal tables, over the extended reals. -/
abbrev cfgI : Pipeline.Cfg sig Λ₀ := cfgM (F := Ideal)

/-- The query block of step `j` of the triangle. -/
def qiOf : ℕ → ℕ
  | 0 => 0 | 1 => 1 | 2 => 1 | 3 => 2 | 4 => 2 | 5 => 2 | 6 => 3 | 7 => 3 | 8 => 3 | 9 => 3 | _ => 0
/-- The key block of step `j` of the triangle. -/
def kiOf : ℕ → ℕ
  | 0 => 0 | 1 => 0 | 2 => 1 | 3 => 0 | 4 => 1 | 5 => 2 | 6 => 0 | 7 => 1 | 8 => 2 | 9 => 3 | _ => 0
/-- The last step of query row `q`: its diagonal block. -/
def lastOf : ℕ → ℕ
  | 0 => 0 | 1 => 2 | 2 => 5 | 3 => 9 | _ => 0

/-! ## The grid -/

/-- Four batches of ten steps. -/
theorem N1 : cfgI.N = 40 := by decide

/-- A point's batch is one of the four. -/
theorem batch_lt (t : Fin cfgI.N) : t.val / 10 < 4 := by
  have h : t.val < 40 := N1 ▸ t.isLt
  omega

/-- A query block is one of the four of its batch, -/
theorem qiOf_lt (j : ℕ) : qiOf j < 4 := by
  unfold qiOf; split <;> omega
/-- a key block is at most the query block, -/
theorem kiOf_le (j : ℕ) : kiOf j ≤ qiOf j := by
  unfold kiOf qiOf; split <;> omega
/-- the last step of a row is a step, on the row's diagonal block. -/
theorem lastOf_lt (q : ℕ) : lastOf q < 10 := by
  unfold lastOf; split <;> omega
theorem qiOf_lastOf (q : ℕ) (hq : q < 4) : qiOf (lastOf q) = q := by
  interval_cases q <;> rfl
/-- The last step of a row is one of the four write-back steps. -/
theorem lastOf_mem (q : ℕ) : lastOf q = 0 ∨ lastOf q = 2 ∨ lastOf q = 5 ∨ lastOf q = 9 := by
  unfold lastOf; split <;> omega

/-- A row of a query block is a row of the batch. -/
theorem qrow_lt (j : ℕ) (p : Fin 1024) : 1024 * qiOf j + p.val < 4096 := by
  have h := qiOf_lt j
  have hp := p.isLt
  omega

/-! ## The windows' block indices, point by point -/

/-- The query window's block index at point `t`: batch `t / 10`, row block `qi (t % 10)`, column block 0. -/
theorem idx0 (t : Fin cfgI.N) : (cfgI.win 0).index t (0 : Fin 3) = t.val / 10
    ∧ (cfgI.win 0).index t (1 : Fin 3) = qiOf (t.val % 10) ∧ (cfgI.win 0).index t (2 : Fin 3) = 0 :=
  (by decide +kernel : ∀ t : Fin grid1.N, (cfgI.win 0).index t (0 : Fin 3) = t.val / 10
    ∧ (cfgI.win 0).index t (1 : Fin 3) = qiOf (t.val % 10) ∧ (cfgI.win 0).index t (2 : Fin 3) = 0) t
/-- The key window's: batch `t / 10`, the whole batch. -/
theorem idx1 (t : Fin cfgI.N) : (cfgI.win 1).index t (0 : Fin 3) = t.val / 10
    ∧ (cfgI.win 1).index t (1 : Fin 3) = 0 ∧ (cfgI.win 1).index t (2 : Fin 3) = 0 :=
  (by decide +kernel : ∀ t : Fin grid1.N, (cfgI.win 1).index t (0 : Fin 3) = t.val / 10
    ∧ (cfgI.win 1).index t (1 : Fin 3) = 0 ∧ (cfgI.win 1).index t (2 : Fin 3) = 0) t
/-- The value window's: the same. -/
theorem idx2 (t : Fin cfgI.N) : (cfgI.win 2).index t (0 : Fin 3) = t.val / 10
    ∧ (cfgI.win 2).index t (1 : Fin 3) = 0 ∧ (cfgI.win 2).index t (2 : Fin 3) = 0 :=
  (by decide +kernel : ∀ t : Fin grid1.N, (cfgI.win 2).index t (0 : Fin 3) = t.val / 10
    ∧ (cfgI.win 2).index t (1 : Fin 3) = 0 ∧ (cfgI.win 2).index t (2 : Fin 3) = 0) t
/-- The output window's: the query window's. -/
theorem idx3 (t : Fin cfgI.N) : (cfgI.win 3).index t (0 : Fin 3) = t.val / 10
    ∧ (cfgI.win 3).index t (1 : Fin 3) = qiOf (t.val % 10) ∧ (cfgI.win 3).index t (2 : Fin 3) = 0 :=
  (by decide +kernel : ∀ t : Fin grid1.N, (cfgI.win 3).index t (0 : Fin 3) = t.val / 10
    ∧ (cfgI.win 3).index t (1 : Fin 3) = qiOf (t.val % 10) ∧ (cfgI.win 3).index t (2 : Fin 3) = 0) t

/-! ## The blocks read at an index -/

/-- Element `(0, p, d)` of the query block at point `t` is the array's element `(t / 10, 1024·qi(t % 10) + p, d)`. -/
theorem qblk_apply (A : S4x4096x64.Idx → EReal) (t : Fin cfgI.N) (p : Fin 1024) (d : Fin 64) :
    ((cfgI.win 0).blk t).view.read (Elt Ideal) A (ix3 (0 : Fin 1) p d)
      = A (ix3 ⟨t.val / 10, batch_lt t⟩ ⟨1024 * qiOf (t.val % 10) + p.val, qrow_lt _ p⟩ d) := by
  obtain ⟨e0, e1, e2⟩ := idx0 t
  show A (((cfgI.win 0).blk t).view.emb (ix3 (0 : Fin 1) p d)) = _
  refine congrArg A ?_
  funext a; apply Fin.ext
  match a with
  | ⟨0, _⟩ => show (cfgI.win 0).index t (0 : Fin 3) * 1 + 1 * ((0 : Fin 1) : ℕ) = t.val / 10; rw [e0]; simp
  | ⟨1, _⟩ => show (cfgI.win 0).index t (1 : Fin 3) * 1024 + 1 * p.val = 1024 * qiOf (t.val % 10) + p.val; rw [e1]; omega
  | ⟨2, _⟩ => show (cfgI.win 0).index t (2 : Fin 3) * 64 + 1 * d.val = d.val; rw [e2]; omega

/-- Element `(0, row, d)` of the key block at point `t` is the array's element `(t / 10, row, d)`. -/
theorem kblk_apply (A : S4x4096x64.Idx → EReal) (t : Fin cfgI.N) (row : Fin 4096) (d : Fin 64) :
    ((cfgI.win 1).blk t).view.read (Elt Ideal) A (ix3 (0 : Fin 1) row d) = A (ix3 ⟨t.val / 10, batch_lt t⟩ row d) := by
  obtain ⟨e0, e1, e2⟩ := idx1 t
  show A (((cfgI.win 1).blk t).view.emb (ix3 (0 : Fin 1) row d)) = _
  refine congrArg A ?_
  funext a; apply Fin.ext
  match a with
  | ⟨0, _⟩ => show (cfgI.win 1).index t (0 : Fin 3) * 1 + 1 * ((0 : Fin 1) : ℕ) = t.val / 10; rw [e0]; simp
  | ⟨1, _⟩ => show (cfgI.win 1).index t (1 : Fin 3) * 4096 + 1 * row.val = row.val; rw [e1]; omega
  | ⟨2, _⟩ => show (cfgI.win 1).index t (2 : Fin 3) * 64 + 1 * d.val = d.val; rw [e2]; omega

/-- Element `(0, row, d)` of the value block at point `t` is the array's element `(t / 10, row, d)`. -/
theorem vblk_apply (A : S4x4096x64.Idx → EReal) (t : Fin cfgI.N) (row : Fin 4096) (d : Fin 64) :
    ((cfgI.win 2).blk t).view.read (Elt Ideal) A (ix3 (0 : Fin 1) row d) = A (ix3 ⟨t.val / 10, batch_lt t⟩ row d) := by
  obtain ⟨e0, e1, e2⟩ := idx2 t
  show A (((cfgI.win 2).blk t).view.emb (ix3 (0 : Fin 1) row d)) = _
  refine congrArg A ?_
  funext a; apply Fin.ext
  match a with
  | ⟨0, _⟩ => show (cfgI.win 2).index t (0 : Fin 3) * 1 + 1 * ((0 : Fin 1) : ℕ) = t.val / 10; rw [e0]; simp
  | ⟨1, _⟩ => show (cfgI.win 2).index t (1 : Fin 3) * 4096 + 1 * row.val = row.val; rw [e1]; omega
  | ⟨2, _⟩ => show (cfgI.win 2).index t (2 : Fin 3) * 64 + 1 * d.val = d.val; rw [e2]; omega

/-- Element `(0, p, d)` of the output block at point `t` is the array's element `(t / 10, 1024·qi(t % 10) + p, d)`. -/
theorem oblk_apply (G : S4x4096x64.Idx → EReal) (t : Fin cfgI.N) (p : Fin 1024) (d : Fin 64) :
    ((cfgI.win 3).blk t).view.read (Elt Ideal) G (ix3 (0 : Fin 1) p d)
      = G (ix3 ⟨t.val / 10, batch_lt t⟩ ⟨1024 * qiOf (t.val % 10) + p.val, qrow_lt _ p⟩ d) := by
  obtain ⟨e0, e1, e2⟩ := idx3 t
  show G (((cfgI.win 3).blk t).view.emb (ix3 (0 : Fin 1) p d)) = _
  refine congrArg G ?_
  funext a; apply Fin.ext
  match a with
  | ⟨0, _⟩ => show (cfgI.win 3).index t (0 : Fin 3) * 1 + 1 * ((0 : Fin 1) : ℕ) = t.val / 10; rw [e0]; simp
  | ⟨1, _⟩ => show (cfgI.win 3).index t (1 : Fin 3) * 1024 + 1 * p.val = 1024 * qiOf (t.val % 10) + p.val; rw [e1]; omega
  | ⟨2, _⟩ => show (cfgI.win 3).index t (2 : Fin 3) * 64 + 1 * d.val = d.val; rw [e2]; omega

/-! ## The cut of the resident batch -/

/-- A row of the cut is a row of the batch: the cut lies inside it. -/
theorem kld_row_lt (w : BitVec 32) (hw : k1_chk1 w) (k : Fin 1024) : k1_off2 w (1 : Fin 3) + k.val < 4096 := by
  have h : k1_off2 w (1 : Fin 3) + 1024 ≤ 4096 := k1_off2_inb w hw 1
  have hk := k.isLt
  omega

/-- Element `(0, k, d)` of the 1024-row cut at the row offset word `w` names is the batch's `(0, offset + k, d)`. -/
theorem kld_apply (x : Vec Ideal S1x4096x64 .bf16) (w : BitVec 32) (hw : k1_chk1 w) (k : Fin 1024) (d : Fin 64) :
    kld x w hw (ix3 (0 : Fin 1) k d) = x (ix3 (0 : Fin 1) ⟨k1_off2 w (1 : Fin 3) + k.val, kld_row_lt w hw k⟩ d) := by
  show x ((Rect.unit (s := S1x4096x64) (k1_off2 w) S1x1024x64.size (k1_off2_inb w hw)).emb (ix3 (0 : Fin 1) k d)) = _
  refine congrArg x ?_
  funext a; apply Fin.ext
  rw [Rect.emb_apply]
  match a with
  | ⟨0, _⟩ => show k1_off2 w (0 : Fin 3) + 1 * ((0 : Fin 1) : ℕ) = ((0 : Fin 1) : ℕ); rw [show k1_off2 w (0 : Fin 3) = 0 from rfl]; rfl
  | ⟨1, _⟩ => show k1_off2 w (1 : Fin 3) + 1 * k.val = k1_off2 w (1 : Fin 3) + k.val; omega
  | ⟨2, _⟩ => show k1_off2 w (2 : Fin 3) + 1 * d.val = d.val; rw [show k1_off2 w (2 : Fin 3) = 0 from rfl]; omega

/-- At the literal word `n < 4` the row offset is `1024·n`. -/
theorem k1_off2_lit (n : ℕ) (hn : n < 4) : k1_off2 (BitVec.ofNat 32 n) (1 : Fin 3) = 1024 * n := by
  interval_cases n <;> rfl

/-- Every literal key-block word passes the body's side condition. -/
theorem k1_chk1_lit (n : ℕ) (hn : n < 4) : k1_chk1 (BitVec.ofNat 32 n) := by
  interval_cases n <;> decide

/-! ## The output window's schedule and cover -/

/-- The output block is written back exactly at the last step of each query row: steps 0, 2, 5 and 9. -/
theorem flush3 (t : Fin cfgI.N) : (cfgI.win 3).flush t = true ↔ (t.val % 10 = 0 ∨ t.val % 10 = 2 ∨ t.val % 10 = 5 ∨ t.val % 10 = 9) :=
  (by decide +kernel : ∀ t : Fin grid1.N, (cfgI.win 3).flush t = true ↔ (t.val % 10 = 0 ∨ t.val % 10 = 2 ∨ t.val % 10 = 5 ∨ t.val % 10 = 9)) t

/-- Element `y` of the output block at point `t` sits in the array at `(t / 10, 1024·qi(t % 10) + y₁, y₂)`. -/
theorem oblk_emb (t : Fin cfgI.N) (y : S1x1024x64.Idx) :
    ((cfgI.win 3).blk t).view.emb y
      = ix3 ⟨t.val / 10, batch_lt t⟩ ⟨1024 * qiOf (t.val % 10) + (y 1).val, qrow_lt _ (y 1)⟩ (y 2) := by
  obtain ⟨e0, e1, e2⟩ := idx3 t
  funext a; apply Fin.ext
  match a with
  | ⟨0, _⟩ =>
    show (cfgI.win 3).index t (0 : Fin 3) * 1 + 1 * (y 0).val = t.val / 10
    have h : (y 0).val < 1 := (y 0).isLt
    rw [e0]; omega
  | ⟨1, _⟩ => show (cfgI.win 3).index t (1 : Fin 3) * 1024 + 1 * (y 1).val = 1024 * qiOf (t.val % 10) + (y 1).val; rw [e1]; omega
  | ⟨2, _⟩ => show (cfgI.win 3).index t (2 : Fin 3) * 64 + 1 * (y 2).val = (y 2).val; rw [e2]; omega

/-- An index of the output array is in point `t`'s block iff its batch is `t / 10` and its row is one of the 1024 from
    row `1024·qi(t % 10)`. -/
theorem mem_oblk (t : Fin cfgI.N) (i : S4x4096x64.Idx) :
    i ∈ ((cfgI.win 3).blk t).view.set ↔ (i 0).val = t.val / 10 ∧ 1024 * qiOf (t.val % 10) ≤ (i 1).val ∧ (i 1).val < 1024 * qiOf (t.val % 10) + 1024 := by
  obtain ⟨e0, e1, e2⟩ := idx3 t
  show i ∈ ((View.whole main_v6).slice ((cfgI.win 3).rect t)).set ↔ _
  rw [View.set_slice_whole, Rect.mem_set_unit]
  constructor
  · intro h
    have h0 : (cfgI.win 3).index t (0 : Fin 3) * 1 ≤ (i 0).val ∧ (i 0).val < (cfgI.win 3).index t (0 : Fin 3) * 1 + 1 := h 0
    have h1 : (cfgI.win 3).index t (1 : Fin 3) * 1024 ≤ (i 1).val ∧ (i 1).val < (cfgI.win 3).index t (1 : Fin 3) * 1024 + 1024 := h 1
    rw [e0] at h0; rw [e1] at h1
    omega
  · rintro ⟨a0, a1, a2⟩ a
    match a with
    | ⟨0, _⟩ =>
      show (cfgI.win 3).index t (0 : Fin 3) * 1 ≤ (i 0).val ∧ (i 0).val < (cfgI.win 3).index t (0 : Fin 3) * 1 + 1
      rw [e0]; omega
    | ⟨1, _⟩ =>
      show (cfgI.win 3).index t (1 : Fin 3) * 1024 ≤ (i 1).val ∧ (i 1).val < (cfgI.win 3).index t (1 : Fin 3) * 1024 + 1024
      rw [e1]; omega
    | ⟨2, _⟩ =>
      show (cfgI.win 3).index t (2 : Fin 3) * 64 ≤ (i 2).val ∧ (i 2).val < (cfgI.win 3).index t (2 : Fin 3) * 64 + 64
      have h2 : (i 2).val < 64 := (i 2).isLt
      rw [e2]; omega

/-- The point that writes back row `r` of batch `b`: the last step of row block `r / 1024` in batch `b`. -/
def coverPt (i : S4x4096x64.Idx) : Fin cfgI.N := ⟨10 * (i 0).val + lastOf ((i 1).val / 1024), by
  have h0 : (i 0).val < 4 := (i 0).isLt
  have h1 := lastOf_lt ((i 1).val / 1024)
  exact lt_of_lt_of_eq (by omega : 10 * (i 0).val + lastOf ((i 1).val / 1024) < 40) N1.symm⟩

theorem coverPt_val (i : S4x4096x64.Idx) : (coverPt i).val = 10 * (i 0).val + lastOf ((i 1).val / 1024) := rfl

/-- The written-back blocks cover the output array: every index is in the block some flushing point writes back. -/
theorem ocover (i : S4x4096x64.Idx) : ∃ t : Fin cfgI.N, (cfgI.win 3).flush t = true ∧ i ∈ ((cfgI.win 3).blk t).view.set := by
  have hb : (i 0).val < 4 := (i 0).isLt
  have hr : (i 1).val < 4096 := (i 1).isLt
  have hl := lastOf_lt ((i 1).val / 1024)
  have hm := lastOf_mem ((i 1).val / 1024)
  have hq := qiOf_lastOf ((i 1).val / 1024) (by omega)
  have hmod : (coverPt i).val % 10 = lastOf ((i 1).val / 1024) := by rw [coverPt_val]; omega
  have hdiv : (coverPt i).val / 10 = (i 0).val := by rw [coverPt_val]; omega
  refine ⟨coverPt i, (flush3 _).mpr (by rw [hmod]; exact hm), (mem_oblk _ i).mpr ?_⟩
  rw [hmod, hdiv, hq]
  omega

end Cert.KernelIdeal.HandV

end
-- ==== Proof.Row.lean ====
/-
  One row of online softmax over the extended reals, block by block: a block's scores `σ` (a real, or -∞ where the causal
  mask hides the key) and its values `ν` for one output column are folded into a state (running maximum m, running
  denominator l, running numerator a):
    m' = max m (max_k σ k),  l' = exp (m - m') · l + ∑_k exp (σ k - m'),  a' = exp (m - m') · a + ∑_k exp (σ k - m') · ν k,
  and the row's result is a / max l ε. `blockσ` / `blockν` cut block `j` (keys 1024·j … 1024·j + 1023) out of a whole row of
  real scores and values, hiding the keys after the query's own position `r`; `foldSt` folds the first `n` blocks from the
  reset state (-∞, 0, 0).
-/
import Idealize.ShloMosaic.PureOps.Ideal
import Mathlib.Algebra.BigOperators.Fin

noncomputable section

namespace Cert.Row

open Idealize.ShloMosaic
open scoped BigOperators

/-- The new running maximum. -/
def rmax (m : EReal) (σ : Fin 1024 → EReal) : EReal := max m ((Finset.univ : Finset (Fin 1024)).fold max ⊥ σ)

/-- The new running denominator. -/
def rl (m l : EReal) (σ : Fin 1024 → EReal) : EReal :=
  Ideal.exp (m - rmax m σ) * l + ∑ k : Fin 1024, Ideal.exp (σ k - rmax m σ)

/-- The new running numerator (one output column). -/
def ra (m a : EReal) (σ ν : Fin 1024 → EReal) : EReal :=
  Ideal.exp (m - rmax m σ) * a + ∑ k : Fin 1024, Ideal.exp (σ k - rmax m σ) * ν k

/-- The row's result: numerator over the denominator guarded below by ε = 10⁻³⁰. -/
def rfin (l a : EReal) : EReal := Ideal.div a (max l (((1 / 1000000000000000000000000000000 : ℝ)) : EReal))

/-- Block `j` of a row of real scores, as the kernel sees it for the query at key position `r`: keys after `r` are -∞. -/
def blockσ (s : Fin 4096 → ℝ) (r : Fin 4096) (j : ℕ) (k : Fin 1024) : EReal :=
  if h : j * 1024 + k.val < 4096 then (if j * 1024 + k.val ≤ r.val then ((s ⟨j * 1024 + k.val, h⟩ : ℝ) : EReal) else ⊥) else ⊥

/-- Block `j` of a column of real values. -/
def blockν (v : Fin 4096 → ℝ) (j : ℕ) (k : Fin 1024) : EReal :=
  if h : j * 1024 + k.val < 4096 then ((v ⟨j * 1024 + k.val, h⟩ : ℝ) : EReal) else 0

/-- The state after the first `n` blocks, from the reset state. -/
def foldSt (s v : Fin 4096 → ℝ) (r : Fin 4096) : ℕ → EReal × EReal × EReal
  | 0 => (⊥, 0, 0)
  | n + 1 =>
    let st := foldSt s v r n
    (rmax st.1 (blockσ s r n), rl st.1 st.2.1 (blockσ s r n), ra st.1 st.2.2 (blockσ s r n) (blockν v n))

/-- A finite sum of reals, read in the extended reals. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

end Cert.Row

end
-- ==== Proof.KI.R1Pay.lean ====
/-
  The attention kernel's payloads read at an index, at the exact instance (every float an extended real).
  For a query block `q` and a key block `kb` (1024 rows of 64 columns each) the scaled score of query row `p` against
  key row `k` is `sc q kb p k = (∑_d q p d · kb k d) · 2⁻³`; the diagonal block hides the keys after the query's own row,
  `scD q kb p k = sc q kb p k` for `k ≤ p` and `-∞` otherwise. With these the carried state (row maximum m, row denominator
  l, row numerator acc) moves, row by row, exactly as one step of online softmax (`rmax`, `rl`, `ra`): the reset state is
  (-∞, 0, 0); an unmasked block folds `sc` in, a diagonal block folds `scD` in; and the output block is `rfin`, the
  numerator over the denominator guarded below by ε.
-/
import proofs.«422911_j40922448396699_3_alg».proof.Proof.KI.Step
import proofs.«422911_j40922448396699_3_alg».proof.Proof.Row
import Idealize.ShloMosaic.PureOps.Ideal.Laws
import Idealize.ShloMosaic.Lib.ValueIdx
import Idealize.ShloMosaic.Lib.ValueLayout
import Idealize.ShloMosaic.Lib.Pipeline.Value
import Idealize.ShloMosaic.PureOps.IdealRules
import Idealize.ShloMosaic.Lib.StableHlo.Predicate

noncomputable section

namespace Cert.KernelIdeal.HandV

open Idealize.ShloMosaic Idealize.ShloMosaic.ValueIdx Cert.KernelIdeal Cert.KernelIdeal.Gen Cert.KernelIdeal.Hand Cert.Row
open scoped BigOperators

/-- the scaled score of query row p against key row k of the blocks -/
def sc (q kb : Vec Ideal S1x1024x64 .bf16) (p k : Fin 1024) : EReal :=
  (∑ d : Fin 64, q (ix3 (0 : Fin 1) p d) * kb (ix3 (0 : Fin 1) k d)) * Ideal.ofBits .f32 0x3E000000#32

/-- the diagonal block's scores: key rows after the query row are -∞ -/
def scD (q kb : Vec Ideal S1x1024x64 .bf16) (p k : Fin 1024) : EReal := if k.val ≤ p.val then sc q kb p k else ⊥

/-! ## Two column layouts read at an index -/

/-- A vector `[a]` cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ValueIdx.ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two matrix products read at an index -/

theorem lhs_qk_0 (i : S1024x1024.Idx) (c : dot_S1024x64_S64x1024_S1024x1024_1_0_0_1_n_n.contr.Idx) :
    (dot_S1024x64_S64x1024_S1024x1024_1_0_0_1_n_n.lhsIdx i c 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
theorem lhs_qk_1 (i : S1024x1024.Idx) (c : dot_S1024x64_S64x1024_S1024x1024_1_0_0_1_n_n.contr.Idx) :
    (dot_S1024x64_S64x1024_S1024x1024_1_0_0_1_n_n.lhsIdx i c 1).val = (c ⟨0, by decide⟩).val :=
  dot_S1024x64_S64x1024_S1024x1024_1_0_0_1_n_n.lhsIdx_val_of_single rfl i c
theorem rhs_qk_0 (i : S1024x1024.Idx) (c : dot_S1024x64_S64x1024_S1024x1024_1_0_0_1_n_n.contr.Idx) :
    (dot_S1024x64_S64x1024_S1024x1024_1_0_0_1_n_n.rhsIdx i c 0).val = (c ⟨0, by decide⟩).val :=
  dot_S1024x64_S64x1024_S1024x1024_1_0_0_1_n_n.rhsIdx_val_of_single rfl i c
theorem rhs_qk_1 (i : S1024x1024.Idx) (c : dot_S1024x64_S64x1024_S1024x1024_1_0_0_1_n_n.contr.Idx) :
    (dot_S1024x64_S64x1024_S1024x1024_1_0_0_1_n_n.rhsIdx i c 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-- The query-by-key product into the zero splat, at `(p, k)`: the sum over the 64 columns. -/
theorem qk_apply (a : FVec Ideal S1024x64 .bf16) (b : FVec Ideal S64x1024 .bf16) (p k : Fin 1024) :
    matmul dot_S1024x64_S64x1024_S1024x1024_1_0_0_1_n_n none a b (constant (F := Ideal) S1024x1024 .f32 0x00000000#32) (ix2 p k)
      = ∑ d : Fin 64, a (ix2 p d) * b (ix2 d k) := by
  simp only [matmul]
  rw [Ideal.matmul_constant_zero_apply, ← Equiv.sum_comp (contrEquiv1 dot_S1024x64_S64x1024_S1024x1024_1_0_0_1_n_n 64 rfl rfl).symm]
  refine Finset.sum_congr rfl fun d _ => ?_
  have hk := contrEquiv1_symm_val dot_S1024x64_S64x1024_S1024x1024_1_0_0_1_n_n 64 rfl rfl d
  have el : dot_S1024x64_S64x1024_S1024x1024_1_0_0_1_n_n.lhsIdx (ix2 p k) ((contrEquiv1 dot_S1024x64_S64x1024_S1024x1024_1_0_0_1_n_n 64 rfl rfl).symm d) = ix2 p d := funext fun a => Fin.ext (by
    match a with
    | ⟨0, _⟩ => exact lhs_qk_0 _ _
    | ⟨1, _⟩ => exact (lhs_qk_1 _ _).trans hk)
  have er : dot_S1024x64_S64x1024_S1024x1024_1_0_0_1_n_n.rhsIdx (ix2 p k) ((contrEquiv1 dot_S1024x64_S64x1024_S1024x1024_1_0_0_1_n_n 64 rfl rfl).symm d) = ix2 d k := funext fun a => Fin.ext (by
    match a with
    | ⟨0, _⟩ => exact (rhs_qk_0 _ _).trans hk
    | ⟨1, _⟩ => exact rhs_qk_1 _ _)
  rw [el, er]

theorem lhs_pv_0 (i : S1024x64.Idx) (c : dot_S1024x1024_S1024x64_S1024x64_1_0_0_1_n_n.contr.Idx) :
    (dot_S1024x1024_S1024x64_S1024x64_1_0_0_1_n_n.lhsIdx i c 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem lhs_pv_1 (i : S1024x64.Idx) (c : dot_S1024x1024_S1024x64_S1024x64_1_0_0_1_n_n.contr.Idx) :
    (dot_S1024x1024_S1024x64_S1024x64_1_0_0_1_n_n.lhsIdx i c 1).val = (c ⟨0, by decide⟩).val :=
  dot_S1024x1024_S1024x64_S1024x64_1_0_0_1_n_n.lhsIdx_val_of_single rfl i c
theorem rhs_pv_0 (i : S1024x64.Idx) (c : dot_S1024x1024_S1024x64_S1024x64_1_0_0_1_n_n.contr.Idx) :
    (dot_S1024x1024_S1024x64_S1024x64_1_0_0_1_n_n.rhsIdx i c 0).val = (c ⟨0, by decide⟩).val :=
  dot_S1024x1024_S1024x64_S1024x64_1_0_0_1_n_n.rhsIdx_val_of_single rfl i c
theorem rhs_pv_1 (i : S1024x64.Idx) (c : dot_S1024x1024_S1024x64_S1024x64_1_0_0_1_n_n.contr.Idx) :
    (dot_S1024x1024_S1024x64_S1024x64_1_0_0_1_n_n.rhsIdx i c 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- The weights-by-values product into the zero splat, at `(p, h)`: the sum over the block's 1024 key rows. -/
theorem pv_apply (a : FVec Ideal S1024x1024 .bf16) (b : FVec Ideal S1024x64 .bf16) (p : Fin 1024) (h : Fin 64) :
    matmul dot_S1024x1024_S1024x64_S1024x64_1_0_0_1_n_n none a b (constant (F := Ideal) S1024x64 .f32 0x00000000#32) (ix2 p h)
      = ∑ k : Fin 1024, a (ix2 p k) * b (ix2 k h) := by
  simp only [matmul]
  rw [Ideal.matmul_constant_zero_apply, ← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 p h) ((contrEquiv1 dot_S1024x1024_S1024x64_S1024x64_1_0_0_1_n_n 1024 rfl rfl).symm k) = ix2 p k := funext fun a => Fin.ext (by
    match a with
    | ⟨0, _⟩ => exact lhs_pv_0 _ _
    | ⟨1, _⟩ => exact (lhs_pv_1 _ _).trans hk)
  have er : dot_S1024x1024_S1024x64_S1024x64_1_0_0_1_n_n.rhsIdx (ix2 p h) ((contrEquiv1 dot_S1024x1024_S1024x64_S1024x64_1_0_0_1_n_n 1024 rfl rfl).symm k) = ix2 k h := funext fun a => Fin.ext (by
    match a with
    | ⟨0, _⟩ => exact (rhs_pv_0 _ _).trans hk
    | ⟨1, _⟩ => exact rhs_pv_1 _ _)
  rw [el, er]

/-! ## The score payloads -/

/-- The value block with its unit axis dropped. -/
theorem pay4_apply (vb : Vec Ideal S1x1024x64 .bf16) (k : Fin 1024) (h : Fin 64) :
    k1_pay4 vb (ix2 k h) = vb (ix3 (0 : Fin 1) k h) := by
  unfold k1_pay4
  exact shapeCast_1ab_ab_apply vb _ k h

/-- The unmasked scores: the query block times the transposed key block, scaled. -/
theorem pay5_apply (q kb : Vec Ideal S1x1024x64 .bf16) (p k : Fin 1024) :
    k1_pay5 q kb (ix2 p k) = sc q kb p k := by
  unfold k1_pay5 sc
  rw [mulf_apply, broadcast_apply, qk_apply]
  congr 1
  refine Finset.sum_congr rfl fun d _ => ?_
  rw [shapeCast_1ab_ab_apply, transpose_ix2_apply, shapeCast_1ab_ab_apply]

/-! ## The causal mask -/

/-- The mask value is -∞ at the exact instance, by the certificate's table of named constants. -/
theorem neg_big : Named.named (F := Ideal) κ "neg_big" (φ := .f32) 0xFF333332#32 = ⊥ :=
  IdealRules.named_const.ideal_named_scalar _ _ _ _ rfl

/-- Row index against column index: the comparison `row ≥ column` of the two coordinate words. -/
theorem sge_word (p k : Fin 1024) :
    IntOp.cmpi .sge (BitVec.ofNat 32 p.val) (BitVec.ofNat 32 k.val) = 1#1 ↔ k.val ≤ p.val := by
  have hp := p.isLt
  have hk := k.isLt
  rw [StableHlo.Predicate.sge_iff_toNat (by rw [BitVec.toNat_ofNat]; omega) (by rw [BitVec.toNat_ofNat]; omega),
    BitVec.toNat_ofNat, BitVec.toNat_ofNat]
  omega

/-- The diagonal block's scores: the unmasked score where the key row is not after the query row, else the mask value. -/
theorem pay6_apply (q kb : Vec Ideal S1x1024x64 .bf16) (p k : Fin 1024) :
    k1_pay6 q kb (ix2 p k) = scD q kb p k := by
  unfold k1_pay6 scD
  rw [select_apply, broadcast_apply, pay5_apply, neg_big]
  show Scalar.select (IntOp.cmpi .sge (iota .tc S1024x1024 32 [0] _ (ix2 p k)) (iota .tc S1024x1024 32 [1] _ (ix2 p k))) _ _ = _
  rw [iota_single_apply, iota_single_apply]
  show Scalar.select (IntOp.cmpi .sge (BitVec.ofNat 32 p.val) (BitVec.ofNat 32 k.val)) _ _ = _
  by_cases hkp : k.val ≤ p.val
  · rw [(sge_word p k).mpr hkp, select_one, if_pos hkp]
  · rw [eq_zero_of_ne_one (fun h => hkp ((sge_word p k).mp h)), select_zero, if_neg hkp]

/-! ## A row's maximum and a row's sum -/

/-- The exponential read at an index. -/
theorem exp_apply {s : Shape} {φ : FTy} (a : FVec Ideal s φ) (i : s.Idx) : exp a i = Ideal.exp (a i) := rfl

/-- The reduced index `p` with the lane coordinate `k` put back is `(p, k)`. -/
theorem lift_row (h : S1024x1024.Reduces [1] S1024) (p k : Fin 1024) : h.lift (ValueIdx.ix1 p) k = ix2 p k := by
  funext a
  match a with
  | ⟨0, _⟩ => exact Fin.ext rfl
  | ⟨1, _⟩ => exact Fin.ext rfl

/-- The maximum over the lanes of row `p`, from -∞. -/
theorem rowmax_apply (S : FVec Ideal S1024x1024 .f32) (h : S1024x1024.Reduces [1] S1024) (hφ : FKind.Formats .f32)
    (hacc : (0xFF800000#32 : BitVec 32) = FKind.maximumf.neutral .f32 hφ) (p : Fin 1024) :
    multiReduction (F := Ideal) .maximumf [1] S1024 S 0xFF800000#32 h hφ hacc (ValueIdx.ix1 p)
      = (Finset.univ : Finset (Fin 1024)).fold max ⊥ (fun k => S (ix2 p k)) := by
  refine (Ideal.multiReduction_maximumf_single S 0xFF800000#32 h hφ hacc (ValueIdx.ix1 p)).trans ?_
  have hb : (FloatOps.ofBits .f32 0xFF800000#32 : Ideal .f32) = (⊥ : EReal) := by
    show Ideal.ofBits .f32 0xFF800000#32 = ⊥
    simp [Ideal.ofBits, Ideal.ieee]
  have hf : (S ∘ h.lift (ValueIdx.ix1 p)) = fun k : Fin 1024 => S (ix2 p k) :=
    funext fun k => congrArg S (lift_row h p k)
  show (Finset.univ : Finset (Fin 1024)).fold max (FloatOps.ofBits .f32 0xFF800000#32 : Ideal .f32) (S ∘ h.lift (ValueIdx.ix1 p)) = _
  rw [hb, hf]
  rfl

/-- The sum over the lanes of row `p`. -/
theorem rowsum_apply (S : FVec Ideal S1024x1024 .f32) (h : S1024x1024.Reduces [1] S1024) (hφ : FKind.Formats .f32)
    (hacc : (0x00000000#32 : BitVec 32) = FKind.add.neutral .f32 hφ) (p : Fin 1024) :
    multiReduction (F := Ideal) .add [1] S1024 S 0x00000000#32 h hφ hacc (ValueIdx.ix1 p) = ∑ k : Fin 1024, S (ix2 p k) := by
  refine (Ideal.multiReduction_add_single S 0x00000000#32 h hφ hacc (ValueIdx.ix1 p)).trans ?_
  exact Finset.sum_congr rfl fun k _ => congrArg S (lift_row h p k)

/-! ## The unmasked update, payload by payload -/

/-- The new row maximum. -/
theorem pay13_apply (q kb : Vec Ideal S1x1024x64 .bf16) (m : Vec Ideal S1024x1 .f32) (p : Fin 1024) :
    k1_pay13 q kb m (ix2 p (0 : Fin 1)) = rmax (m (ix2 p (0 : Fin 1))) (sc q kb p) := by
  unfold k1_pay13 rmax
  rw [maximumf_apply, shapeCast_a_a1_apply]
  refine congrArg (max _) ((rowmax_apply _ _ _ _ p).trans ?_)
  rw [show (fun k => k1_pay5 q kb (ix2 p k)) = sc q kb p from funext fun k => pay5_apply q kb p k]

/-- The rescaling factor of the old state. -/
theorem pay14_apply (q kb : Vec Ideal S1x1024x64 .bf16) (m m' : Vec Ideal S1024x1 .f32) (p : Fin 1024) :
    k1_pay14 q kb m m' (ix2 p (0 : Fin 1))
      = Ideal.exp (m' (ix2 p (0 : Fin 1)) - rmax (m (ix2 p (0 : Fin 1))) (sc q kb p)) := by
  unfold k1_pay14
  rw [exp_apply, subf_apply, pay13_apply]

/-- The block's weights. -/
theorem pay15_apply (q kb : Vec Ideal S1x1024x64 .bf16) (m : Vec Ideal S1024x1 .f32) (p k : Fin 1024) :
    k1_pay15 q kb m (ix2 p k) = Ideal.exp (sc q kb p k - rmax (m (ix2 p (0 : Fin 1))) (sc q kb p)) := by
  unfold k1_pay15
  rw [exp_apply, subf_apply, broadcastTo_a1_ab_apply, pay13_apply, pay5_apply]

/-- The new row denominator. -/
theorem pay16_apply (q kb : Vec Ideal S1x1024x64 .bf16) (m m' l : Vec Ideal S1024x1 .f32) (p : Fin 1024) :
    k1_pay16 q kb m m' l (ix2 p (0 : Fin 1))
      = Ideal.exp (m' (ix2 p (0 : Fin 1)) - rmax (m (ix2 p (0 : Fin 1))) (sc q kb p)) * l (ix2 p (0 : Fin 1))
        + ∑ k : Fin 1024, Ideal.exp (sc q kb p k - rmax (m (ix2 p (0 : Fin 1))) (sc q kb p)) := by
  unfold k1_pay16
  rw [shapeCast_self, addf_apply, mulf_apply, pay14_apply, shapeCast_a_a1_apply]
  refine congrArg (_ + ·) ((rowsum_apply _ _ _ _ p).trans ?_)
  exact Finset.sum_congr rfl fun k _ => pay15_apply q kb m p k

/-- The new row numerator. -/
theorem pay17_apply (q kb vb : Vec Ideal S1x1024x64 .bf16) (m m' : Vec Ideal S1024x1 .f32) (a : Vec Ideal S1024x64 .f32)
    (p : Fin 1024) (h : Fin 64) :
    k1_pay17 q kb vb m m' a (ix2 p h)
      = Ideal.exp (m' (ix2 p (0 : Fin 1)) - rmax (m (ix2 p (0 : Fin 1))) (sc q kb p)) * a (ix2 p h)
        + ∑ k : Fin 1024, Ideal.exp (sc q kb p k - rmax (m (ix2 p (0 : Fin 1))) (sc q kb p)) * vb (ix3 (0 : Fin 1) k h) := by
  unfold k1_pay17
  rw [shapeCast_self, addf_apply, mulf_apply, broadcastTo_a1_ab_apply, pay14_apply, pv_apply]
  refine congrArg (_ + ·) (Finset.sum_congr rfl fun k _ => ?_)
  rw [truncf_apply, pay15_apply, pay4_apply]

/-! ## The diagonal update, payload by payload -/

/-- The new row maximum. -/
theorem pay7_apply (q kb : Vec Ideal S1x1024x64 .bf16) (m : Vec Ideal S1024x1 .f32) (p : Fin 1024) :
    k1_pay7 q kb m (ix2 p (0 : Fin 1)) = rmax (m (ix2 p (0 : Fin 1))) (scD q kb p) := by
  unfold k1_pay7 rmax
  rw [maximumf_apply, shapeCast_a_a1_apply]
  refine congrArg (max _) ((rowmax_apply _ _ _ _ p).trans ?_)
  rw [show (fun k => k1_pay6 q kb (ix2 p k)) = scD q kb p from funext fun k => pay6_apply q kb p k]

/-- The rescaling factor of the old state. -/
theorem pay8_apply (q kb : Vec Ideal S1x1024x64 .bf16) (m m' : Vec Ideal S1024x1 .f32) (p : Fin 1024) :
    k1_pay8 q kb m m' (ix2 p (0 : Fin 1))
      = Ideal.exp (m' (ix2 p (0 : Fin 1)) - rmax (m (ix2 p (0 : Fin 1))) (scD q kb p)) := by
  unfold k1_pay8
  rw [exp_apply, subf_apply, pay7_apply]

/-- The block's weights. -/
theorem pay9_apply (q kb : Vec Ideal S1x1024x64 .bf16) (m : Vec Ideal S1024x1 .f32) (p k : Fin 1024) :
    k1_pay9 q kb m (ix2 p k) = Ideal.exp (scD q kb p k - rmax (m (ix2 p (0 : Fin 1))) (scD q kb p)) := by
  unfold k1_pay9
  rw [exp_apply, subf_apply, broadcastTo_a1_ab_apply, pay7_apply, pay6_apply]

/-- The new row denominator. -/
theorem pay10_apply (q kb : Vec Ideal S1x1024x64 .bf16) (m m' l : Vec Ideal S1024x1 .f32) (p : Fin 1024) :
    k1_pay10 q kb m m' l (ix2 p (0 : Fin 1))
      = Ideal.exp (m' (ix2 p (0 : Fin 1)) - rmax (m (ix2 p (0 : Fin 1))) (scD q kb p)) * l (ix2 p (0 : Fin 1))
        + ∑ k : Fin 1024, Ideal.exp (scD q kb p k - rmax (m (ix2 p (0 : Fin 1))) (scD q kb p)) := by
  unfold k1_pay10
  rw [shapeCast_self, addf_apply, mulf_apply, pay8_apply, shapeCast_a_a1_apply]
  refine congrArg (_ + ·) ((rowsum_apply _ _ _ _ p).trans ?_)
  exact Finset.sum_congr rfl fun k _ => pay9_apply q kb m p k

/-- The new row numerator. -/
theorem pay11_apply (q kb vb : Vec Ideal S1x1024x64 .bf16) (m m' : Vec Ideal S1024x1 .f32) (a : Vec Ideal S1024x64 .f32)
    (p : Fin 1024) (h : Fin 64) :
    k1_pay11 q kb vb m m' a (ix2 p h)
      = Ideal.exp (m' (ix2 p (0 : Fin 1)) - rmax (m (ix2 p (0 : Fin 1))) (scD q kb p)) * a (ix2 p h)
        + ∑ k : Fin 1024, Ideal.exp (scD q kb p k - rmax (m (ix2 p (0 : Fin 1))) (scD q kb p)) * vb (ix3 (0 : Fin 1) k h) := by
  unfold k1_pay11
  rw [shapeCast_self, addf_apply, mulf_apply, broadcastTo_a1_ab_apply, pay8_apply, pv_apply]
  refine congrArg (_ + ·) (Finset.sum_congr rfl fun k _ => ?_)
  rw [truncf_apply, pay9_apply, pay4_apply]

/-! ## The state's three components and the output block -/

/-- The guard ε is 10⁻³⁰ at the exact instance, by the certificate's table of named constants. -/
theorem inv_eps : Named.named (F := Ideal) κ "inv_1000000000000000000000000000000" (φ := .f32) 0x0DA24260#32
    = ((1 / 1000000000000000000000000000000 : ℝ) : EReal) :=
  IdealRules.named_const.ideal_named_scalar _ _ _ _ rfl

theorem st0_m (p : Fin 1024) : (st0 (F := Ideal)).1 (ix2 p (0 : Fin 1)) = ⊥ := by
  unfold st0 k1_pay1
  simp only [shapeCast_self]
  show Ideal.ofBits .f32 0xFF800000#32 = ⊥
  simp [Ideal.ofBits, Ideal.ieee]

theorem st0_l (p : Fin 1024) : (st0 (F := Ideal)).2.1 (ix2 p (0 : Fin 1)) = 0 := by
  unfold st0 k1_pay2
  simp only [shapeCast_self]
  exact Ideal.ofBits_zero_f32

theorem st0_a (p : Fin 1024) (h : Fin 64) : (st0 (F := Ideal)).2.2 (ix2 p h) = 0 := by
  unfold st0 k1_pay3
  simp only [shapeCast_self]
  exact Ideal.ofBits_zero_f32

theorem updN_m (q kb vb : Vec Ideal S1x1024x64 .bf16) (s : St Ideal) (p : Fin 1024) :
    (updN q kb vb s).1 (ix2 p (0 : Fin 1)) = rmax (s.1 (ix2 p (0 : Fin 1))) (sc q kb p) := by
  show k1_pay18 q kb s.1 (ix2 p (0 : Fin 1)) = _
  unfold k1_pay18
  rw [shapeCast_self, pay13_apply]

theorem updN_l (q kb vb : Vec Ideal S1x1024x64 .bf16) (s : St Ideal) (p : Fin 1024) :
    (updN q kb vb s).2.1 (ix2 p (0 : Fin 1))
      = rl (s.1 (ix2 p (0 : Fin 1))) (s.2.1 (ix2 p (0 : Fin 1))) (sc q kb p) := by
  show k1_pay16 q kb s.1 s.1 s.2.1 (ix2 p (0 : Fin 1)) = _
  rw [pay16_apply]
  rfl

theorem updN_a (q kb vb : Vec Ideal S1x1024x64 .bf16) (s : St Ideal) (p : Fin 1024) (h : Fin 64) :
    (updN q kb vb s).2.2 (ix2 p h)
      = ra (s.1 (ix2 p (0 : Fin 1))) (s.2.2 (ix2 p h)) (sc q kb p) (fun k => vb (ix3 (0 : Fin 1) k h)) := by
  show k1_pay17 q kb vb s.1 s.1 s.2.2 (ix2 p h) = _
  rw [pay17_apply]
  rfl

theorem updD_m (q kb vb : Vec Ideal S1x1024x64 .bf16) (s : St Ideal) (p : Fin 1024) :
    (updD q kb vb s).1 (ix2 p (0 : Fin 1)) = rmax (s.1 (ix2 p (0 : Fin 1))) (scD q kb p) := by
  show k1_pay12 q kb s.1 (ix2 p (0 : Fin 1)) = _
  unfold k1_pay12
  rw [shapeCast_self, pay7_apply]

theorem updD_l (q kb vb : Vec Ideal S1x1024x64 .bf16) (s : St Ideal) (p : Fin 1024) :
    (updD q kb vb s).2.1 (ix2 p (0 : Fin 1))
      = rl (s.1 (ix2 p (0 : Fin 1))) (s.2.1 (ix2 p (0 : Fin 1))) (scD q kb p) := by
  show k1_pay10 q kb s.1 s.1 s.2.1 (ix2 p (0 : Fin 1)) = _
  rw [pay10_apply]
  rfl

theorem updD_a (q kb vb : Vec Ideal S1x1024x64 .bf16) (s : St Ideal) (p : Fin 1024) (h : Fin 64) :
    (updD q kb vb s).2.2 (ix2 p h)
      = ra (s.1 (ix2 p (0 : Fin 1))) (s.2.2 (ix2 p h)) (scD q kb p) (fun k => vb (ix3 (0 : Fin 1) k h)) := by
  show k1_pay11 q kb vb s.1 s.1 s.2.2 (ix2 p h) = _
  rw [pay11_apply]
  rfl

theorem fin_apply (s : St Ideal) (p : Fin 1024) (h : Fin 64) :
    (fin s) (ix3 (0 : Fin 1) p h) = rfin (s.2.1 (ix2 p (0 : Fin 1))) (s.2.2 (ix2 p h)) := by
  show k1_pay19 s.2.1 s.2.2 (ix3 (0 : Fin 1) p h) = _
  unfold k1_pay19 rfin
  rw [shapeCast_ab_1ab_apply, divf_apply, broadcastTo_a1_ab_apply, maximumf_apply, broadcast_apply, inv_eps]

end Cert.KernelIdeal.HandV

end
-- ==== Proof.Spec.lean ====
/-
  The specification, over the reals: the three projections of the input, the scaled scores, and causal softmax attention
  written with no shift (softmax is invariant under subtracting any constant from a row's scores):
    out b r h = (∑_{c ≤ r} exp (s b r c) · v b c h) / (∑_{c ≤ r} exp (s b r c)),   s b r c = (∑_h q b r h · k b c h) / 8.
-/
import Mathlib.Analysis.SpecialFunctions.Exp
import Mathlib.Algebra.BigOperators.Fin

noncomputable section

namespace Cert.Spec

open scoped BigOperators

/-- A projection: row `r` of batch `b` of `x` against column `h` of `W`. -/
def proj (x : Fin 4 → Fin 4096 → Fin 1024 → ℝ) (W : Fin 1024 → Fin 64 → ℝ) (b : Fin 4) (r : Fin 4096) (h : Fin 64) : ℝ :=
  ∑ d : Fin 1024, x b r d * W d h

/-- The scaled score of query row `r` against key row `c` (the scale is 64^(-1/2) = 1/8). -/
def score (q k : Fin 4 → Fin 4096 → Fin 64 → ℝ) (b : Fin 4) (r c : Fin 4096) : ℝ :=
  (∑ h : Fin 64, q b r h * k b c h) * (1 / 8)

/-- Causal softmax attention: key rows `c ≤ r` only. -/
def attn (q k v : Fin 4 → Fin 4096 → Fin 64 → ℝ) (b : Fin 4) (r : Fin 4096) (h : Fin 64) : ℝ :=
  (∑ c : Fin 4096, if c.val ≤ r.val then Real.exp (score q k b r c) * v b c h else 0)
    / (∑ c : Fin 4096, if c.val ≤ r.val then Real.exp (score q k b r c) else 0)

/-- The whole computation from the four inputs. -/
def out (x : Fin 4 → Fin 4096 → Fin 1024 → ℝ) (Wq Wk Wv : Fin 1024 → Fin 64 → ℝ) : Fin 4 → Fin 4096 → Fin 64 → ℝ :=
  attn (proj x Wq) (proj x Wk) (proj x Wv)

end Cert.Spec

end
-- ==== Proof.Softmax.lean ====
/-
  Online (streaming) softmax for one query row is exact softmax.
  The row's keys arrive in blocks of 1024; a state (running maximum m, running denominator l, running numerator a) is updated
  block by block. After n ≥ 1 blocks the state is (M, ∑ exp (s i - M), ∑ exp (s i - M) · v i), the sums over the visible keys
  i < 1024·n, i ≤ r, where M is the score of one of those keys; the step is the law exp (a - b) · exp (b - c) = exp (a - c).
  At the end the denominator is at least 1 (the key whose score is M contributes exp 0), so the guard by ε is idle, and the
  quotient does not depend on the shift M.
-/
import proofs.«422911_j40922448396699_3_alg».proof.Proof.Row
import Mathlib.Analysis.SpecialFunctions.Exp
import Mathlib.Data.EReal.Operations
import Mathlib.Data.EReal.Basic
import Mathlib.Data.Fintype.BigOperators
import Mathlib.Data.Finset.Fold
import Mathlib.Data.Finset.Lattice.Fold
import Mathlib.Algebra.BigOperators.Intervals
import Mathlib.Algebra.BigOperators.Field
import Mathlib.Algebra.Order.BigOperators.Group.Finset

noncomputable section

namespace Cert.Row

open Idealize.ShloMosaic
open scoped BigOperators

/-! ### Shift invariance, the masked maximum, the masked sum -/

/-- The quotient of the weighted sum by the plain sum does not depend on a common shift of the scores (any index type). -/
theorem softmax_shift_gen {ι : Type*} (S : Finset ι) (x w : ι → ℝ) (M : ℝ) :
    (∑ c ∈ S, Real.exp (x c - M) * w c) / (∑ c ∈ S, Real.exp (x c - M))
      = (∑ c ∈ S, Real.exp (x c) * w c) / (∑ c ∈ S, Real.exp (x c)) := by
  have h1 : ∀ c, Real.exp (x c - M) = Real.exp (-M) * Real.exp (x c) := fun c => by
    rw [← Real.exp_add]; congr 1; ring
  simp_rw [h1, mul_assoc, ← Finset.mul_sum]
  exact mul_div_mul_left _ _ (Real.exp_ne_zero _)

/-- The quotient of the weighted sum by the plain sum does not depend on a common shift of the scores. -/
theorem softmax_shift (S : Finset (Fin 4096)) (hS : S.Nonempty) (s v : Fin 4096 → ℝ) (M : ℝ) :
    (∑ c ∈ S, Real.exp (s c - M) * v c) / (∑ c ∈ S, Real.exp (s c - M))
      = (∑ c ∈ S, Real.exp (s c) * v c) / (∑ c ∈ S, Real.exp (s c)) :=
  softmax_shift_gen S s v M

/-- A folded maximum from -∞ is the finite supremum. -/
theorem fold_max_eq_sup {ι : Type*} (S : Finset ι) (f : ι → EReal) : S.fold max ⊥ f = S.sup f := rfl

/-- The maximum of a family whose hidden members are -∞ is the maximum of the visible ones. -/
theorem fold_max_ite {ι : Type*} (S : Finset ι) (p : ι → Prop) [DecidablePred p] (g : ι → ℝ)
    (h : (S.filter p).Nonempty) :
    S.fold max ⊥ (fun c => if p c then ((g c : ℝ) : EReal) else ⊥) = (((S.filter p).sup' h g : ℝ) : EReal) := by
  rw [fold_max_eq_sup]
  apply le_antisymm
  · apply Finset.sup_le
    intro c hc
    by_cases hp : p c
    · rw [if_pos hp, EReal.coe_le_coe_iff]
      exact Finset.le_sup' g (Finset.mem_filter.mpr ⟨hc, hp⟩)
    · rw [if_neg hp]; exact bot_le
  · obtain ⟨c, hc, hcs⟩ := Finset.exists_mem_eq_sup' h g
    rw [hcs]
    have hc' := Finset.mem_filter.mp hc
    have := Finset.le_sup (f := fun c => if p c then ((g c : ℝ) : EReal) else ⊥) hc'.1
    simpa [if_pos hc'.2] using this

/-- The maximum over a whole row whose hidden keys are -∞ is the maximum over the visible keys. -/
theorem fold_max_masked (s : Fin 4096 → ℝ) (r : Fin 4096) :
    (Finset.univ : Finset (Fin 4096)).fold max ⊥ (fun c => if c.val ≤ r.val then ((s c : ℝ) : EReal) else ⊥)
      = (((Finset.univ.filter fun c : Fin 4096 => c.val ≤ r.val).sup' ⟨⟨0, by decide⟩, by simp⟩ s : ℝ) : EReal) :=
  fold_max_ite Finset.univ (fun c : Fin 4096 => c.val ≤ r.val) s _

/-- A sum with hidden terms zero is the sum over the visible keys. -/
theorem sum_ite_eq_filter (r : Fin 4096) (f : Fin 4096 → ℝ) :
    (∑ c : Fin 4096, if c.val ≤ r.val then f c else 0)
      = ∑ c ∈ Finset.univ.filter (fun c : Fin 4096 => c.val ≤ r.val), f c :=
  (Finset.sum_filter _ _).symm

/-! ### One block, then all blocks -/

/-- A row of reals continued by zero beyond its end. -/
def ext (f : Fin 4096 → ℝ) (i : ℕ) : ℝ := if h : i < 4096 then f ⟨i, h⟩ else 0

theorem ext_val (f : Fin 4096 → ℝ) (c : Fin 4096) : ext f c.val = f c := by
  simp [ext, c.isLt]

/-- Block `j`'s scores, read off the continued row: key 1024·j + k, hidden after position `r`. -/
theorem blockσ_eq (s : Fin 4096 → ℝ) (r : Fin 4096) (j : ℕ) (k : Fin 1024) :
    blockσ s r j k = if j * 1024 + k.val ≤ r.val then ((ext s (j * 1024 + k.val) : ℝ) : EReal) else ⊥ := by
  unfold blockσ ext
  by_cases h : j * 1024 + k.val < 4096
  · simp only [dif_pos h]
  · have : ¬ j * 1024 + k.val ≤ r.val := by have := r.isLt; omega
    simp only [dif_neg h, if_neg this]

/-- Block `j`'s values, read off the continued row. -/
theorem blockν_eq (v : Fin 4096 → ℝ) (j : ℕ) (k : Fin 1024) :
    blockν v j k = ((ext v (j * 1024 + k.val) : ℝ) : EReal) := by
  unfold blockν ext
  by_cases h : j * 1024 + k.val < 4096
  · simp only [dif_pos h]
  · simp only [dif_neg h, EReal.coe_zero]

/-- A sum over a block's 1024 places is the sum over its keys. -/
theorem block_sum (G : ℕ → ℝ) (j : ℕ) :
    (∑ k : Fin 1024, ((G (j * 1024 + k.val) : ℝ) : EReal))
      = ((∑ i ∈ Finset.Ico (j * 1024) ((j + 1) * 1024), G i : ℝ) : EReal) := by
  rw [← coe_sum, Fin.sum_univ_eq_sum_range (fun i => G (j * 1024 + i)) 1024, Finset.sum_Ico_eq_sum_range]
  congr 3
  omega

/-- A block's exponentials against a real maximum: hidden keys contribute exp (-∞) = 0. -/
theorem block_exp (s : Fin 4096 → ℝ) (r : Fin 4096) (j : ℕ) (M' : ℝ) :
    (∑ k : Fin 1024, Ideal.exp (blockσ s r j k - (M' : EReal)))
      = ((∑ i ∈ Finset.Ico (j * 1024) ((j + 1) * 1024),
            if i ≤ r.val then Real.exp (ext s i - M') else 0 : ℝ) : EReal) := by
  rw [← block_sum]
  refine Finset.sum_congr rfl fun k _ => ?_
  rw [blockσ_eq]
  by_cases h : j * 1024 + k.val ≤ r.val
  · rw [if_pos h, if_pos h, ← EReal.coe_sub, Ideal.exp_coe]
  · rw [if_neg h, if_neg h, EReal.bot_sub, Ideal.exp_bot, EReal.coe_zero]

/-- A block's weighted exponentials against a real maximum. -/
theorem block_exp_mul (s v : Fin 4096 → ℝ) (r : Fin 4096) (j : ℕ) (M' : ℝ) :
    (∑ k : Fin 1024, Ideal.exp (blockσ s r j k - (M' : EReal)) * blockν v j k)
      = ((∑ i ∈ Finset.Ico (j * 1024) ((j + 1) * 1024),
            if i ≤ r.val then Real.exp (ext s i - M') * ext v i else 0 : ℝ) : EReal) := by
  rw [← block_sum]
  refine Finset.sum_congr rfl fun k _ => ?_
  rw [blockσ_eq, blockν_eq]
  by_cases h : j * 1024 + k.val ≤ r.val
  · rw [if_pos h, if_pos h, ← EReal.coe_sub, Ideal.exp_coe, ← EReal.coe_mul]
  · rw [if_neg h, if_neg h, EReal.bot_sub, Ideal.exp_bot, zero_mul, EReal.coe_zero]

/-- The maximum of a block that holds a visible key is the score of one of its visible keys. -/
theorem block_max (s : Fin 4096 → ℝ) (r : Fin 4096) (j : ℕ) (hj : j * 1024 ≤ r.val) :
    ∃ i, j * 1024 ≤ i ∧ i < (j + 1) * 1024 ∧ i ≤ r.val ∧
      (Finset.univ : Finset (Fin 1024)).fold max ⊥ (blockσ s r j) = ((ext s i : ℝ) : EReal) := by
  rw [fold_max_eq_sup]
  obtain ⟨k, -, hk⟩ := Finset.exists_mem_eq_sup Finset.univ Finset.univ_nonempty (blockσ s r j)
  have h0 : blockσ s r j ⟨0, by decide⟩ ≤ Finset.univ.sup (blockσ s r j) := Finset.le_sup (Finset.mem_univ _)
  rw [blockσ_eq, if_pos (by simpa using hj), hk, blockσ_eq] at h0
  by_cases h : j * 1024 + k.val ≤ r.val
  · refine ⟨j * 1024 + k.val, by omega, by have := k.isLt; omega, h, ?_⟩
    rw [hk, blockσ_eq, if_pos h]
  · rw [if_neg h] at h0
    exact absurd h0 (not_le.mpr (EReal.bot_lt_coe _))

/-- Moving the shift of a masked weighted sum from M to M': the law exp (M - M') · exp (x - M) = exp (x - M'). -/
theorem rescale_mul (x w : ℕ → ℝ) (p : ℕ → Prop) [DecidablePred p] (T : Finset ℕ) (M M' : ℝ) :
    Real.exp (M - M') * (∑ i ∈ T, if p i then Real.exp (x i - M) * w i else 0)
      = ∑ i ∈ T, if p i then Real.exp (x i - M') * w i else 0 := by
  rw [Finset.mul_sum]
  refine Finset.sum_congr rfl fun i _ => ?_
  split_ifs
  · rw [← mul_assoc, ← Real.exp_add]; congr 2; ring
  · rw [mul_zero]

/-- Moving the shift of a masked sum from M to M'. -/
theorem rescale (x : ℕ → ℝ) (p : ℕ → Prop) [DecidablePred p] (T : Finset ℕ) (M M' : ℝ) :
    Real.exp (M - M') * (∑ i ∈ T, if p i then Real.exp (x i - M) else 0)
      = ∑ i ∈ T, if p i then Real.exp (x i - M') else 0 := by
  have := rescale_mul x (fun _ => 1) p T M M'
  simpa only [mul_one] using this

/-- The denominator's update from a real state, once the new maximum is known to be the real M'. -/
theorem rl_coe (s : Fin 4096 → ℝ) (r : Fin 4096) (j : ℕ) (M L M' : ℝ)
    (h : rmax (M : EReal) (blockσ s r j) = (M' : EReal)) :
    rl (M : EReal) (L : EReal) (blockσ s r j)
      = ((Real.exp (M - M') * L + ∑ i ∈ Finset.Ico (j * 1024) ((j + 1) * 1024),
            if i ≤ r.val then Real.exp (ext s i - M') else 0 : ℝ) : EReal) := by
  unfold rl
  rw [h, block_exp, ← EReal.coe_sub, Ideal.exp_coe, ← EReal.coe_mul, ← EReal.coe_add]

/-- The numerator's update from a real state. -/
theorem ra_coe (s v : Fin 4096 → ℝ) (r : Fin 4096) (j : ℕ) (M A M' : ℝ)
    (h : rmax (M : EReal) (blockσ s r j) = (M' : EReal)) :
    ra (M : EReal) (A : EReal) (blockσ s r j) (blockν v j)
      = ((Real.exp (M - M') * A + ∑ i ∈ Finset.Ico (j * 1024) ((j + 1) * 1024),
            if i ≤ r.val then Real.exp (ext s i - M') * ext v i else 0 : ℝ) : EReal) := by
  unfold ra
  rw [h, block_exp_mul, ← EReal.coe_sub, Ideal.exp_coe, ← EReal.coe_mul, ← EReal.coe_add]

/-- The denominator's update from the reset state: exp (-∞) · 0 = 0. -/
theorem rl_bot (s : Fin 4096 → ℝ) (r : Fin 4096) (j : ℕ) (M' : ℝ)
    (h : rmax ⊥ (blockσ s r j) = (M' : EReal)) :
    rl ⊥ 0 (blockσ s r j)
      = ((∑ i ∈ Finset.Ico (j * 1024) ((j + 1) * 1024),
            if i ≤ r.val then Real.exp (ext s i - M') else 0 : ℝ) : EReal) := by
  unfold rl
  rw [h, block_exp, mul_zero, zero_add]

/-- The numerator's update from the reset state. -/
theorem ra_bot (s v : Fin 4096 → ℝ) (r : Fin 4096) (j : ℕ) (M' : ℝ)
    (h : rmax ⊥ (blockσ s r j) = (M' : EReal)) :
    ra ⊥ 0 (blockσ s r j) (blockν v j)
      = ((∑ i ∈ Finset.Ico (j * 1024) ((j + 1) * 1024),
            if i ≤ r.val then Real.exp (ext s i - M') * ext v i else 0 : ℝ) : EReal) := by
  unfold ra
  rw [h, block_exp_mul, mul_zero, zero_add]

/-- The invariant: after `n` blocks the state is real: the maximum M is the score of a visible key among the first 1024·n,
    and the denominator and numerator are the sums over those visible keys, shifted by M. -/
def Inv (s v : Fin 4096 → ℝ) (r : Fin 4096) (n : ℕ) : Prop :=
  ∃ M : ℝ, (∃ i, i < n * 1024 ∧ i ≤ r.val ∧ ext s i = M) ∧
    foldSt s v r n = ((M : EReal),
      ((∑ i ∈ Finset.range (n * 1024), if i ≤ r.val then Real.exp (ext s i - M) else 0 : ℝ) : EReal),
      ((∑ i ∈ Finset.range (n * 1024), if i ≤ r.val then Real.exp (ext s i - M) * ext v i else 0 : ℝ) : EReal))

/-- After the first block (it holds key 0, visible to every query). -/
theorem inv_one (s v : Fin 4096 → ℝ) (r : Fin 4096) : Inv s v r 1 := by
  obtain ⟨i, -, h2, h3, hmax⟩ := block_max s r 0 (by omega)
  have hM : rmax ⊥ (blockσ s r 0) = ((ext s i : ℝ) : EReal) := by
    unfold rmax; rw [hmax]; exact max_eq_right bot_le
  refine ⟨ext s i, ⟨i, by omega, h3, rfl⟩, ?_⟩
  have hr : Finset.range (1 * 1024) = Finset.Ico (0 * 1024) ((0 + 1) * 1024) := by
    rw [Finset.range_eq_Ico]
  show (rmax ⊥ (blockσ s r 0), rl ⊥ 0 (blockσ s r 0), ra ⊥ 0 (blockσ s r 0) (blockν v 0)) = _
  rw [hM, rl_bot s r 0 _ hM, ra_bot s v r 0 _ hM, hr]

/-- One more block, while the block still holds a visible key. -/
theorem inv_succ (s v : Fin 4096 → ℝ) (r : Fin 4096) (n : ℕ) (hn : n * 1024 ≤ r.val) (h : Inv s v r n) :
    Inv s v r (n + 1) := by
  obtain ⟨M, ⟨i0, h01, h02, h03⟩, hst⟩ := h
  obtain ⟨i, h1, h2, h3, hmax⟩ := block_max s r n hn
  have hM : rmax (M : EReal) (blockσ s r n) = ((max M (ext s i) : ℝ) : EReal) := by
    unfold rmax; rw [hmax]; exact (EReal.coe_strictMono.monotone.map_max).symm
  refine ⟨max M (ext s i), ?_, ?_⟩
  · rcases max_choice M (ext s i) with hc | hc
    · exact ⟨i0, by omega, h02, by rw [hc]; exact h03⟩
    · exact ⟨i, h2, h3, by rw [hc]⟩
  · show (rmax (foldSt s v r n).1 (blockσ s r n), rl (foldSt s v r n).1 (foldSt s v r n).2.1 (blockσ s r n),
        ra (foldSt s v r n).1 (foldSt s v r n).2.2 (blockσ s r n) (blockν v n)) = _
    rw [hst]
    simp only []
    rw [hM, rl_coe s r n _ _ _ hM, ra_coe s v r n _ _ _ hM, rescale, rescale_mul,
      Finset.sum_range_add_sum_Ico _ (by omega), Finset.sum_range_add_sum_Ico _ (by omega)]

/-- The invariant holds after every number of blocks from 1 to the query's own block. -/
theorem inv_all (s v : Fin 4096 → ℝ) (r : Fin 4096) (n : ℕ) (hn : n * 1024 ≤ r.val) : Inv s v r (n + 1) := by
  induction n with
  | zero => exact inv_one s v r
  | succ n ih => exact inv_succ s v r (n + 1) hn (ih (by omega))

/-- A sum over the whole row is the sum over an initial stretch of keys, when the terms beyond the stretch vanish. -/
theorem row_sum (G : ℕ → ℝ) (f : Fin 4096 → ℝ) (hf : ∀ c : Fin 4096, f c = G c.val) (n : ℕ) (hn : n ≤ 4096)
    (hz : ∀ i, n ≤ i → G i = 0) : (∑ c : Fin 4096, f c) = ∑ i ∈ Finset.range n, G i := by
  calc (∑ c : Fin 4096, f c) = ∑ c : Fin 4096, G c.val := Finset.sum_congr rfl fun c _ => hf c
    _ = ∑ i ∈ Finset.range 4096, G i := Fin.sum_univ_eq_sum_range G 4096
    _ = ∑ i ∈ Finset.range n, G i :=
      (Finset.sum_subset (Finset.range_subset_range.mpr hn) fun i _ hi =>
        hz i (by simpa [Finset.mem_range] using hi)).symm

/-- Shift invariance for masked sums over a stretch of keys. -/
theorem masked_shift (x w : ℕ → ℝ) (p : ℕ → Prop) [DecidablePred p] (T : Finset ℕ) (M : ℝ) :
    (∑ i ∈ T, if p i then Real.exp (x i - M) * w i else 0) / (∑ i ∈ T, if p i then Real.exp (x i - M) else 0)
      = (∑ i ∈ T, if p i then Real.exp (x i) * w i else 0) / (∑ i ∈ T, if p i then Real.exp (x i) else 0) := by
  simp only [← Finset.sum_filter]
  exact softmax_shift_gen (T.filter p) x w M

/-- Online softmax of one row is its softmax over the visible keys. -/
theorem online_softmax (s v : Fin 4096 → ℝ) (r : Fin 4096) :
    rfin (foldSt s v r (r.val / 1024 + 1)).2.1 (foldSt s v r (r.val / 1024 + 1)).2.2
      = (((∑ c : Fin 4096, if c.val ≤ r.val then Real.exp (s c) * v c else 0)
          / (∑ c : Fin 4096, if c.val ≤ r.val then Real.exp (s c) else 0) : ℝ) : EReal) := by
  obtain ⟨M, ⟨i0, h01, h02, h03⟩, hst⟩ := inv_all s v r (r.val / 1024) (Nat.div_mul_le_self _ _)
  have hN : (r.val / 1024 + 1) * 1024 ≤ 4096 := by have := r.isLt; omega
  have hr : r.val < (r.val / 1024 + 1) * 1024 := by omega
  -- the denominator holds the term exp 0 = 1 of the key whose score is M
  have hL1 : (1 : ℝ) ≤ ∑ i ∈ Finset.range ((r.val / 1024 + 1) * 1024),
      if i ≤ r.val then Real.exp (ext s i - M) else 0 := by
    calc (1 : ℝ) = (fun i => if i ≤ r.val then Real.exp (ext s i - M) else 0) i0 := by
          simp only [if_pos h02, h03, sub_self, Real.exp_zero]
      _ ≤ _ := Finset.single_le_sum (f := fun i => if i ≤ r.val then Real.exp (ext s i - M) else 0)
          (fun i _ => by
            show (0 : ℝ) ≤ if i ≤ r.val then Real.exp (ext s i - M) else 0
            split_ifs
            · exact (Real.exp_pos _).le
            · exact le_rfl)
          (Finset.mem_range.mpr h01)
  -- the whole-row sums of the claim are sums over the keys met so far
  have hnum : (∑ c : Fin 4096, if c.val ≤ r.val then Real.exp (s c) * v c else 0)
      = ∑ i ∈ Finset.range ((r.val / 1024 + 1) * 1024), if i ≤ r.val then Real.exp (ext s i) * ext v i else 0 :=
    row_sum (fun i => if i ≤ r.val then Real.exp (ext s i) * ext v i else 0) _
      (fun c => by simp only [ext_val]) _ hN (fun i hi => if_neg (by omega))
  have hden : (∑ c : Fin 4096, if c.val ≤ r.val then Real.exp (s c) else 0)
      = ∑ i ∈ Finset.range ((r.val / 1024 + 1) * 1024), if i ≤ r.val then Real.exp (ext s i) else 0 :=
    row_sum (fun i => if i ≤ r.val then Real.exp (ext s i) else 0) _
      (fun c => by simp only [ext_val]) _ hN (fun i hi => if_neg (by omega))
  rw [hst, hnum, hden, ← masked_shift (ext s) (ext v) (fun i => i ≤ r.val) _ M]
  simp only []
  unfold rfin
  rw [max_eq_left (by rw [EReal.coe_le_coe_iff]; exact le_trans (by norm_num) hL1),
    Ideal.div_coe (by linarith), ← EReal.coe_mul, mul_one_div]

end Cert.Row

end
-- ==== Proof.KI.R1ValueA.lean ====
/-
  One query row of causal attention followed through the kernel's online-softmax steps, over the reals.
  Fix a batch, a query row r = 1024·qi + p (row p of query block qi) and an output column h. The row's scaled scores
  against all 4096 keys and the value column are real functions (`srow`, `vcol`). For a query block and a key block whose
  entries are the real inputs' (query row r; key rows 1024·j … 1024·j + 1023), the block score `sc` is the real score of
  r against key 1024·j + k; so below the diagonal (j < qi) the block's scores are the row's block j as online softmax
  sees it (`blockσ`: every key of the block is at or before r), and on the diagonal (j = qi) the masked scores `scD`
  are `blockσ` too, because 1024·qi + k ≤ 1024·qi + p exactly when k ≤ p. Hence the carried state, read at row p and
  column h, moves along `foldSt`: the reset state is the fold of no block, one unmasked or diagonal update adds one block.
  After the qi + 1 blocks of the row the quotient written out is causal softmax attention (`online_softmax`).
-/
import proofs.«422911_j40922448396699_3_alg».proof.Proof.KI.R1Pay
import proofs.«422911_j40922448396699_3_alg».proof.Proof.Spec
import proofs.«422911_j40922448396699_3_alg».proof.Proof.Softmax

noncomputable section

namespace Cert.KernelIdeal.HandV

open Idealize.ShloMosaic Idealize.ShloMosaic.ValueIdx Cert.KernelIdeal Cert.KernelIdeal.Gen Cert.KernelIdeal.Hand Cert.Row
open scoped BigOperators

/-- The scale word is the real 1/8. -/
theorem word_eighth : Ideal.ofBits .f32 0x3E000000#32 = (((1 / 8 : ℝ)) : EReal) := by
  simp [Ideal.ofBits, Ideal.ieee]
  rw [← EReal.coe_mul]; congr 1; norm_num

/-- The scores of query row `r` of batch `b` against every key row. -/
def srow (q k : Fin 4 → Fin 4096 → Fin 64 → ℝ) (b : Fin 4) (r : Fin 4096) : Fin 4096 → ℝ := fun c => Cert.Spec.score q k b r c

/-- Column `h` of the values of batch `b`. -/
def vcol (v : Fin 4 → Fin 4096 → Fin 64 → ℝ) (b : Fin 4) (h : Fin 64) : Fin 4096 → ℝ := fun c => v b c h

/-- A block score is the real score, when the two blocks' rows are the real inputs' rows `r` and `c`. -/
theorem sc_real (q k : Fin 4 → Fin 4096 → Fin 64 → ℝ) (b : Fin 4) (r c : Fin 4096)
    (qb kb : Vec Ideal S1x1024x64 .bf16) (p kk : Fin 1024)
    (hq : ∀ d : Fin 64, qb (ix3 (0 : Fin 1) p d) = ((q b r d : ℝ) : EReal))
    (hk : ∀ d : Fin 64, kb (ix3 (0 : Fin 1) kk d) = ((k b c d : ℝ) : EReal)) :
    sc qb kb p kk = ((srow q k b r c : ℝ) : EReal) := by
  unfold sc srow Cert.Spec.score
  rw [word_eighth]
  simp only [hq, hk]
  rw [EReal.coe_mul, coe_sum]
  congr 1

/-- Below the diagonal the block's scores are the row's block as online softmax sees it. -/
theorem sc_block (q k : Fin 4 → Fin 4096 → Fin 64 → ℝ) (b : Fin 4) (r : Fin 4096) (qi j : ℕ) (p : Fin 1024)
    (hr : r.val = 1024 * qi + p.val) (hj : j < qi)
    (qb kb : Vec Ideal S1x1024x64 .bf16)
    (hq : ∀ d : Fin 64, qb (ix3 (0 : Fin 1) p d) = ((q b r d : ℝ) : EReal))
    (hk : ∀ (kk : Fin 1024) (c : Fin 4096), c.val = 1024 * j + kk.val → ∀ d : Fin 64, kb (ix3 (0 : Fin 1) kk d) = ((k b c d : ℝ) : EReal)) :
    sc qb kb p = blockσ (srow q k b r) r j := by
  funext kk
  have hr4 : r.val < 4096 := r.isLt
  have hk4 : kk.val < 1024 := kk.isLt
  have hlt : j * 1024 + kk.val < 4096 := by omega
  have hle : j * 1024 + kk.val ≤ r.val := by omega
  unfold blockσ
  rw [dif_pos hlt, if_pos hle]
  exact sc_real q k b r ⟨j * 1024 + kk.val, hlt⟩ qb kb p kk hq (hk kk ⟨j * 1024 + kk.val, hlt⟩ (by show j * 1024 + kk.val = 1024 * j + kk.val; omega))

/-- On the diagonal the masked scores are the row's block as online softmax sees it. -/
theorem scD_block (q k : Fin 4 → Fin 4096 → Fin 64 → ℝ) (b : Fin 4) (r : Fin 4096) (qi : ℕ) (p : Fin 1024)
    (hr : r.val = 1024 * qi + p.val)
    (qb kb : Vec Ideal S1x1024x64 .bf16)
    (hq : ∀ d : Fin 64, qb (ix3 (0 : Fin 1) p d) = ((q b r d : ℝ) : EReal))
    (hk : ∀ (kk : Fin 1024) (c : Fin 4096), c.val = 1024 * qi + kk.val → ∀ d : Fin 64, kb (ix3 (0 : Fin 1) kk d) = ((k b c d : ℝ) : EReal)) :
    scD qb kb p = blockσ (srow q k b r) r qi := by
  funext kk
  have hr4 : r.val < 4096 := r.isLt
  have hk4 : kk.val < 1024 := kk.isLt
  have hp4 : p.val < 1024 := p.isLt
  have hlt : qi * 1024 + kk.val < 4096 := by omega
  unfold scD blockσ
  rw [dif_pos hlt]
  by_cases hkp : kk.val ≤ p.val
  · rw [if_pos hkp, if_pos (by omega)]
    exact sc_real q k b r ⟨qi * 1024 + kk.val, hlt⟩ qb kb p kk hq (hk kk ⟨qi * 1024 + kk.val, hlt⟩ (by show qi * 1024 + kk.val = 1024 * qi + kk.val; omega))
  · rw [if_neg hkp, if_neg (by omega)]

/-- A value block's column is the value column's block. -/
theorem v_block (v : Fin 4 → Fin 4096 → Fin 64 → ℝ) (b : Fin 4) (h : Fin 64) (j : ℕ) (hj : j < 4)
    (vb : Vec Ideal S1x1024x64 .bf16)
    (hv : ∀ (kk : Fin 1024) (c : Fin 4096), c.val = 1024 * j + kk.val → vb (ix3 (0 : Fin 1) kk h) = ((v b c h : ℝ) : EReal)) :
    (fun kk : Fin 1024 => vb (ix3 (0 : Fin 1) kk h)) = blockν (vcol v b h) j := by
  funext kk
  have hk4 : kk.val < 1024 := kk.isLt
  have hlt : j * 1024 + kk.val < 4096 := by omega
  unfold blockν vcol
  rw [dif_pos hlt]
  exact hv kk ⟨j * 1024 + kk.val, hlt⟩ (by show j * 1024 + kk.val = 1024 * j + kk.val; omega)

/-- The carried state read at row `p` and column `h` is the triple `x`. -/
def RowAt (s : St Ideal) (p : Fin 1024) (h : Fin 64) (x : EReal × EReal × EReal) : Prop :=
  s.1 (ix2 p (0 : Fin 1)) = x.1 ∧ s.2.1 (ix2 p (0 : Fin 1)) = x.2.1 ∧ s.2.2 (ix2 p h) = x.2.2

/-- The reset state is the fold of no block. -/
theorem rowAt_st0 (sr vc : Fin 4096 → ℝ) (r : Fin 4096) (p : Fin 1024) (h : Fin 64) :
    RowAt (st0 (F := Ideal)) p h (foldSt sr vc r 0) :=
  ⟨st0_m p, st0_l p, st0_a p h⟩

/-- One unmasked update adds one block to the fold. -/
theorem rowAt_updN (sr vc : Fin 4096 → ℝ) (r : Fin 4096) (j : ℕ) (p : Fin 1024) (h : Fin 64)
    (qb kb vb : Vec Ideal S1x1024x64 .bf16) (s : St Ideal)
    (hs : RowAt s p h (foldSt sr vc r j))
    (hσ : sc qb kb p = blockσ sr r j)
    (hν : (fun kk : Fin 1024 => vb (ix3 (0 : Fin 1) kk h)) = blockν vc j) :
    RowAt (updN qb kb vb s) p h (foldSt sr vc r (j + 1)) := by
  obtain ⟨h1, h2, h3⟩ := hs
  refine ⟨?_, ?_, ?_⟩
  · rw [updN_m, h1, hσ]; rfl
  · rw [updN_l, h1, h2, hσ]; rfl
  · rw [updN_a, h1, h3, hσ, hν]; rfl

/-- One diagonal update adds one block to the fold. -/
theorem rowAt_updD (sr vc : Fin 4096 → ℝ) (r : Fin 4096) (j : ℕ) (p : Fin 1024) (h : Fin 64)
    (qb kb vb : Vec Ideal S1x1024x64 .bf16) (s : St Ideal)
    (hs : RowAt s p h (foldSt sr vc r j))
    (hσ : scD qb kb p = blockσ sr r j)
    (hν : (fun kk : Fin 1024 => vb (ix3 (0 : Fin 1) kk h)) = blockν vc j) :
    RowAt (updD qb kb vb s) p h (foldSt sr vc r (j + 1)) := by
  obtain ⟨h1, h2, h3⟩ := hs
  refine ⟨?_, ?_, ?_⟩
  · rw [updD_m, h1, hσ]; rfl
  · rw [updD_l, h1, h2, hσ]; rfl
  · rw [updD_a, h1, h3, hσ, hν]; rfl

/-- After the row's qi + 1 blocks the quotient written out is causal softmax attention. -/
theorem fin_row (q k v : Fin 4 → Fin 4096 → Fin 64 → ℝ) (b : Fin 4) (r : Fin 4096) (qi : ℕ) (p : Fin 1024) (h : Fin 64)
    (hr : r.val = 1024 * qi + p.val) (s : St Ideal)
    (hs : RowAt s p h (foldSt (srow q k b r) (vcol v b h) r (qi + 1))) :
    (fin s) (ix3 (0 : Fin 1) p h) = ((Cert.Spec.attn q k v b r h : ℝ) : EReal) := by
  have hp4 : p.val < 1024 := p.isLt
  have hq : r.val / 1024 = qi := by omega
  have hos := online_softmax (srow q k b r) (vcol v b h) r
  rw [hq] at hos
  rw [fin_apply, hs.2.1, hs.2.2, hos]
  rfl

end Cert.KernelIdeal.HandV

end
-- ==== Proof.KI.R1Value.lean ====
/-
  What the attention region leaves in its output array, over the reals.

  The region's 40 points are 4 batches of the ten steps of the lower triangle of 4 × 4 blocks, row by row: step j folds
  key/value block ki(j) into the state of query block qi(j). Fix a batch b, a query row r = 1024·qi + p and a column h,
  and let the three input arrays hold real numbers. At every point of the row block the carried state, read at row p
  and column h, is the online-softmax fold of the row's first ki + 1 key blocks: the first step of the row block starts
  from the reset state, a later one from what the point before left; the block folded in is the row's block ki, masked
  on the diagonal (ki = qi) exactly as online softmax masks it. At the row block's last step (its diagonal block) the
  fold has seen the qi + 1 blocks of keys at or before r, and the quotient written to the output block is causal softmax
  attention at (b, r, h). The output block of batch b, row block qi is written back at that step and at no other, and
  these blocks cover the output array: so the array ends holding causal softmax attention everywhere.
-/
import proofs.«422911_j40922448396699_3_alg».proof.Proof.KI.R1Dat
import proofs.«422911_j40922448396699_3_alg».proof.Proof.KI.R1Blocks
import proofs.«422911_j40922448396699_3_alg».proof.Proof.KI.R1ValueA

noncomputable section

namespace Cert.KernelIdeal.HandV

open Idealize.ShloMosaic Idealize.ShloMosaic.TcCoe Idealize.SL.Sem
open Idealize.ShloMosaic.Pipeline (Dat Cfg Window)
open Idealize.ShloMosaic.ValueIdx
open Cert.KernelIdeal Cert.KernelIdeal.Gen Cert.KernelIdeal.Hand Cert.Row
open scoped BigOperators

variable (V : (c : Dev nD) → (b : Ref sig .tc) → Buf (Elt Ideal) ((c : Thread nD τ).loc b))

/-! ## The triangle's ten steps -/

/-- First steps start at key block 0; diagonal steps have the key block equal to the query block, the others a smaller
    one; a step that is not a first one continues the row block of the step before, one key block further. -/
theorem tri_facts : ∀ j : Fin 10,
    (firstJ j.val → kiOf j.val = 0) ∧ (diagJ j.val → kiOf j.val = qiOf j.val) ∧ (¬diagJ j.val → kiOf j.val < qiOf j.val)
    ∧ (¬firstJ j.val → 1 ≤ j.val ∧ qiOf (j.val - 1) = qiOf j.val ∧ kiOf (j.val - 1) + 1 = kiOf j.val) := by
  decide

/-- The key-block table holds the key block of each step. -/
theorem lit1_eq : ∀ j : Fin 10, lit1 j = BitVec.ofNat 32 (kiOf j.val) := by decide

/-- The key-block word the body reads at a point. -/
theorem kword (c : Dev nD) (t : Fin cfgI.N) :
    wordAt (F := Ideal) c tbM1_1 (tbl 1) (grid1.coords t) = BitVec.ofNat 32 (kiOf (t.val % 10)) :=
  (word_1 c t).trans (lit1_eq ⟨t.val % 10, Nat.mod_lt _ (by decide)⟩)

theorem kiOf_lt (j : ℕ) : kiOf j < 4 := Nat.lt_of_le_of_lt (kiOf_le j) (qiOf_lt j)

/-! ## The blocks a point reads, as entries of the arrays -/

/-- The query block's row `p` is row 1024·qi + p of the point's batch. -/
theorem qAt_apply (c : Dev nD) (t : Fin cfgI.N) (p : Fin 1024) (d : Fin 64) :
    qAt V c t (ix3 (0 : Fin 1) p d)
      = V c main_v3 (ix3 ⟨t.val / 10, batch_lt t⟩ ⟨1024 * qiOf (t.val % 10) + p.val, qrow_lt _ p⟩ d) :=
  qblk_apply (V c main_v3) t p d

/-- The key block's row `kk` is row 1024·ki + kk of the point's batch. -/
theorem kAt_apply (c : Dev nD) (t : Fin cfgI.N) (kk : Fin 1024) (d : Fin 64) (row : Fin 4096)
    (hrow : row.val = 1024 * kiOf (t.val % 10) + kk.val) :
    kAt V c t (ix3 (0 : Fin 1) kk d) = V c main_v4 (ix3 ⟨t.val / 10, batch_lt t⟩ row d) := by
  unfold kAt
  refine (kld_apply _ _ _ kk d).trans ?_
  refine (kblk_apply (V c main_v4) t _ d).trans ?_
  refine congrArg (fun ρ : Fin 4096 => V c main_v4 (ix3 ⟨t.val / 10, batch_lt t⟩ ρ d)) (Fin.ext ?_)
  show k1_off2 (wordAt (F := Ideal) c tbM1_1 (tbl 1) (grid1.coords t)) (1 : Fin 3) + kk.val = row.val
  rw [kword, k1_off2_lit _ (kiOf_lt _), hrow]

/-- The value block's row `kk` is row 1024·ki + kk of the point's batch. -/
theorem vAt_apply (c : Dev nD) (t : Fin cfgI.N) (kk : Fin 1024) (d : Fin 64) (row : Fin 4096)
    (hrow : row.val = 1024 * kiOf (t.val % 10) + kk.val) :
    vAt V c t (ix3 (0 : Fin 1) kk d) = V c main_v5 (ix3 ⟨t.val / 10, batch_lt t⟩ row d) := by
  unfold vAt
  refine (kld_apply _ _ _ kk d).trans ?_
  refine (vblk_apply (V c main_v5) t _ d).trans ?_
  refine congrArg (fun ρ : Fin 4096 => V c main_v5 (ix3 ⟨t.val / 10, batch_lt t⟩ ρ d)) (Fin.ext ?_)
  show k1_off2 (wordAt (F := Ideal) c tbM1_1 (tbl 1) (grid1.coords t)) (1 : Fin 3) + kk.val = row.val
  rw [kword, k1_off2_lit _ (kiOf_lt _), hrow]

/-! ## One point's update, at a row -/

section Row

variable (c : Dev nD) (q k v : Fin 4 → Fin 4096 → Fin 64 → ℝ)
  (hq : ∀ b r h, V c main_v3 (ix3 b r h) = ((q b r h : ℝ) : EReal))
  (hk : ∀ b r h, V c main_v4 (ix3 b r h) = ((k b r h : ℝ) : EReal))
  (hv : ∀ b r h, V c main_v5 (ix3 b r h) = ((v b r h : ℝ) : EReal))

include hq in
/-- The query block's row `p` holds the real query row `r`. -/
theorem qAt_real (t : Fin cfgI.N) (b : Fin 4) (r : Fin 4096) (p : Fin 1024)
    (hb : b.val = t.val / 10) (hr : r.val = 1024 * qiOf (t.val % 10) + p.val) (d : Fin 64) :
    qAt V c t (ix3 (0 : Fin 1) p d) = ((q b r d : ℝ) : EReal) := by
  have hbe : (⟨t.val / 10, batch_lt t⟩ : Fin 4) = b := Fin.ext hb.symm
  have hre : (⟨1024 * qiOf (t.val % 10) + p.val, qrow_lt _ p⟩ : Fin 4096) = r := Fin.ext hr.symm
  rw [qAt_apply, hbe, hre, hq]

include hk in
/-- The key block's row `kk` holds the real key row 1024·ki + kk. -/
theorem kAt_real (t : Fin cfgI.N) (b : Fin 4) (hb : b.val = t.val / 10) (kk : Fin 1024) (c' : Fin 4096)
    (hc' : c'.val = 1024 * kiOf (t.val % 10) + kk.val) (d : Fin 64) :
    kAt V c t (ix3 (0 : Fin 1) kk d) = ((k b c' d : ℝ) : EReal) := by
  have hbe : (⟨t.val / 10, batch_lt t⟩ : Fin 4) = b := Fin.ext hb.symm
  rw [kAt_apply V c t kk d c' hc', hbe, hk]

include hv in
/-- The value block's row `kk` holds the real value row 1024·ki + kk. -/
theorem vAt_real (t : Fin cfgI.N) (b : Fin 4) (hb : b.val = t.val / 10) (kk : Fin 1024) (c' : Fin 4096)
    (hc' : c'.val = 1024 * kiOf (t.val % 10) + kk.val) (d : Fin 64) :
    vAt V c t (ix3 (0 : Fin 1) kk d) = ((v b c' d : ℝ) : EReal) := by
  have hbe : (⟨t.val / 10, batch_lt t⟩ : Fin 4) = b := Fin.ext hb.symm
  rw [vAt_apply V c t kk d c' hc', hbe, hv]

include hq hk hv in
/-- A diagonal step adds the row's diagonal block to the fold. -/
theorem step_diag (t : Fin cfgI.N) (b : Fin 4) (r : Fin 4096) (p : Fin 1024) (h : Fin 64)
    (hb : b.val = t.val / 10) (hr : r.val = 1024 * qiOf (t.val % 10) + p.val) (hD : diagJ (t.val % 10)) (s : St Ideal)
    (hs : RowAt s p h (foldSt (srow q k b r) (vcol v b h) r (kiOf (t.val % 10)))) :
    RowAt (updD (qAt V c t) (kAt V c t) (vAt V c t) s) p h (foldSt (srow q k b r) (vcol v b h) r (kiOf (t.val % 10) + 1)) := by
  have hkq : kiOf (t.val % 10) = qiOf (t.val % 10) := (tri_facts ⟨t.val % 10, Nat.mod_lt _ (by decide)⟩).2.1 hD
  refine rowAt_updD _ _ r _ p h _ _ _ s hs ?_ ?_
  · rw [hkq]
    exact scD_block q k b r (qiOf (t.val % 10)) p hr _ _ (qAt_real V c q hq t b r p hb hr)
      (fun kk c' hc' d => kAt_real V c k hk t b hb kk c' (by rw [hkq]; exact hc') d)
  · exact v_block v b h _ (kiOf_lt _) _ (fun kk c' hc' => vAt_real V c v hv t b hb kk c' hc' h)

include hq hk hv in
/-- A step below the diagonal adds an unmasked block of the row to the fold. -/
theorem step_plain (t : Fin cfgI.N) (b : Fin 4) (r : Fin 4096) (p : Fin 1024) (h : Fin 64)
    (hb : b.val = t.val / 10) (hr : r.val = 1024 * qiOf (t.val % 10) + p.val) (hD : ¬diagJ (t.val % 10)) (s : St Ideal)
    (hs : RowAt s p h (foldSt (srow q k b r) (vcol v b h) r (kiOf (t.val % 10)))) :
    RowAt (updN (qAt V c t) (kAt V c t) (vAt V c t) s) p h (foldSt (srow q k b r) (vcol v b h) r (kiOf (t.val % 10) + 1)) := by
  have hkq : kiOf (t.val % 10) < qiOf (t.val % 10) := (tri_facts ⟨t.val % 10, Nat.mod_lt _ (by decide)⟩).2.2.1 hD
  refine rowAt_updN _ _ r _ p h _ _ _ s hs ?_ ?_
  · exact sc_block q k b r (qiOf (t.val % 10)) (kiOf (t.val % 10)) p hr hkq _ _ (qAt_real V c q hq t b r p hb hr)
      (fun kk c' hc' d => kAt_real V c k hk t b hb kk c' hc' d)
  · exact v_block v b h _ (kiOf_lt _) _ (fun kk c' hc' => vAt_real V c v hv t b hb kk c' hc' h)

end Row

/-! ## The trajectory, the last step's quotient, the array -/

section Traj

variable (c : Dev nD) (q k v : Fin 4 → Fin 4096 → Fin 64 → ℝ)
  (hq : ∀ b r h, V c main_v3 (ix3 b r h) = ((q b r h : ℝ) : EReal))
  (hk : ∀ b r h, V c main_v4 (ix3 b r h) = ((k b r h : ℝ) : EReal))
  (hv : ∀ b r h, V c main_v5 (ix3 b r h) = ((v b r h : ℝ) : EReal))

include hq hk hv in
/-- THE TRAJECTORY AT A ROW: after the point at position n (step n % 10 of batch n / 10) the carried state at row p and
    column h is the fold of the first ki + 1 key blocks of row 1024·qi + p. -/
theorem traj : ∀ (n : ℕ) (hn : n < cfgI.N) (b : Fin 4) (r : Fin 4096) (p : Fin 1024) (h : Fin 64),
    b.val = n / 10 → r.val = 1024 * qiOf (n % 10) + p.val →
    RowAt (scrAt V c n hn) p h (foldSt (srow q k b r) (vcol v b h) r (kiOf (n % 10) + 1)) := by
  intro n
  induction n with
  | zero =>
    intro hn b r p h hb hr
    rw [scrAt_F_D V c ⟨0, hn⟩ (Or.inl rfl) (Or.inl rfl)]
    exact step_diag V c q k v hq hk hv ⟨0, hn⟩ b r p h hb hr (Or.inl rfl) _ (rowAt_st0 _ _ r p h)
  | succ n ih =>
    intro hn b r p h hb hr
    obtain ⟨f1, -, -, f4⟩ := tri_facts ⟨(n + 1) % 10, Nat.mod_lt _ (by decide)⟩
    by_cases hF : firstJ ((n + 1) % 10)
    · have h0 : kiOf ((n + 1) % 10) = 0 := f1 hF
      by_cases hD : diagJ ((n + 1) % 10)
      · rw [scrAt_F_D V c ⟨n + 1, hn⟩ hF hD]
        refine step_diag V c q k v hq hk hv ⟨n + 1, hn⟩ b r p h hb hr hD _ ?_
        show RowAt _ p h (foldSt _ _ r (kiOf ((n + 1) % 10)))
        rw [h0]
        exact rowAt_st0 _ _ r p h
      · rw [scrAt_F_N V c ⟨n + 1, hn⟩ hF hD]
        refine step_plain V c q k v hq hk hv ⟨n + 1, hn⟩ b r p h hb hr hD _ ?_
        show RowAt _ p h (foldSt _ _ r (kiOf ((n + 1) % 10)))
        rw [h0]
        exact rowAt_st0 _ _ r p h
    · obtain ⟨g1, g2, g3⟩ := f4 hF
      have g1' : 1 ≤ (n + 1) % 10 := g1
      have e1 : n % 10 = (n + 1) % 10 - 1 := by omega
      have e2 : n / 10 = (n + 1) / 10 := by omega
      have hprev : RowAt (scrAt V c n (Nat.lt_of_succ_lt hn)) p h (foldSt (srow q k b r) (vcol v b h) r (kiOf ((n + 1) % 10))) := by
        have := ih (Nat.lt_of_succ_lt hn) b r p h (by rw [e2]; exact hb) (by rw [e1, g2]; exact hr)
        rw [e1, g3] at this
        exact this
      by_cases hD : diagJ ((n + 1) % 10)
      · rw [scrAt_D V c ⟨n + 1, hn⟩ hF hD]
        exact step_diag V c q k v hq hk hv ⟨n + 1, hn⟩ b r p h hb hr hD _ hprev
      · rw [scrAt_N V c ⟨n + 1, hn⟩ hF hD]
        exact step_plain V c q k v hq hk hv ⟨n + 1, hn⟩ b r p h hb hr hD _ hprev

include hq hk hv in
/-- At a row block's last step the output block holds causal softmax attention of the block's rows. -/
theorem out_last (t : Fin cfgI.N) (hD : diagJ (t.val % 10)) (p : Fin 1024) (h : Fin 64) :
    outAt V c t.val t.isLt (ix3 (0 : Fin 1) p h)
      = ((Cert.Spec.attn q k v ⟨t.val / 10, batch_lt t⟩ ⟨1024 * qiOf (t.val % 10) + p.val, qrow_lt _ p⟩ h : ℝ) : EReal) := by
  have hkq : kiOf (t.val % 10) = qiOf (t.val % 10) := (tri_facts ⟨t.val % 10, Nat.mod_lt _ (by decide)⟩).2.1 hD
  have ht := traj V c q k v hq hk hv t.val t.isLt ⟨t.val / 10, batch_lt t⟩ ⟨1024 * qiOf (t.val % 10) + p.val, qrow_lt _ p⟩ p h rfl rfl
  rw [hkq] at ht
  unfold outAt
  exact fin_row q k v _ _ (qiOf (t.val % 10)) p h rfl _ ht

end Traj

/-- Causal softmax attention of the real inputs as contents of the output array. -/
def attnArr (q k v : Fin 4 → Fin 4096 → Fin 64 → ℝ) : S4x4096x64.Idx → EReal :=
  fun i => ((Cert.Spec.attn q k v (i 0) (i 1) (i 2) : ℝ) : EReal)

section Arr

variable (c : Dev nD) (q k v : Fin 4 → Fin 4096 → Fin 64 → ℝ)
  (hq : ∀ b r h, V c main_v3 (ix3 b r h) = ((q b r h : ℝ) : EReal))
  (hk : ∀ b r h, V c main_v4 (ix3 b r h) = ((k b r h : ℝ) : EReal))
  (hv : ∀ b r h, V c main_v5 (ix3 b r h) = ((v b r h : ℝ) : EReal))

include hq hk hv in
/-- What a write-back writes is its block of causal softmax attention. -/
theorem flushed_eq (t : Fin cfgI.N) (hf : (cfgI.win 3).flush t = true) :
    (dat1 (F := Ideal) V c).flushed 3 t = ((cfgI.win 3).blk t).view.read (Elt Ideal) (attnArr q k v) := by
  have hD : diagJ (t.val % 10) := (flush3 t).mp hf
  funext y
  obtain ⟨a, p, d, rfl⟩ : ∃ (a : Fin 1) (p : Fin 1024) (d : Fin 64), y = ix3 a p d := ⟨y 0, y 1, y 2, eq_ix3 y⟩
  obtain rfl : a = 0 := Subsingleton.elim _ _
  refine Eq.trans ?_ (oblk_apply (attnArr q k v) t p d).symm
  show (dat1 (F := Ideal) V c).after 3 t (ix3 (0 : Fin 1) p d) = _
  rw [after1_3]
  exact out_last V c q k v hq hk hv t hD p d

end Arr

/-- THE REGION'S OUTPUT ARRAY: with real inputs it ends holding causal softmax attention at every index (the written-back
    blocks are blocks of that one function and cover the array). -/
theorem arr1_3 (c : Dev nD) (q k v : Fin 4 → Fin 4096 → Fin 64 → ℝ)
    (hq : ∀ b r h, V c main_v3 (ix3 b r h) = ((q b r h : ℝ) : EReal))
    (hk : ∀ b r h, V c main_v4 (ix3 b r h) = ((k b r h : ℝ) : EReal))
    (hv : ∀ b r h, V c main_v5 (ix3 b r h) = ((v b r h : ℝ) : EReal))
    (b : Fin 4) (r : Fin 4096) (h : Fin 64) :
    (dat1 (F := Ideal) V c).arrAt 3 (cfgM (F := Ideal)).N (ix3 b r h) = ((Cert.Spec.attn q k v b r h : ℝ) : EReal) := by
  have hfin : (dat1 (F := Ideal) V c).arrAt 3 cfgI.N = attnArr q k v :=
    (dat1 (F := Ideal) V c).arrAt_eq_of_cover 3 (attnArr q k v) (fun t hf => flushed_eq V c q k v hq hk hv t hf) ocover
  exact congrFun hfin (ix3 b r h)

end Cert.KernelIdeal.HandV

end
-- ==== Proof.KI.Value.lean ====
/-
  The kernel's run with its value, at the exact instance (every float an extended real). The entry function is: the
  host operations that reshape the activations x [4, 4096, 1024] to [16384, 1024] and put the three weight matrices side
  by side as one [1024, 192] matrix; the projection region, which leaves in three arrays the products of the activations
  with the three column groups of the fused weights; the host reshapes of the three products back to [4, 4096, 64]; and
  the attention region. When the argument arrays hold real numbers x, Wq, Wk, Wv, the three projections are the real
  sums `proj x W b r h = ∑ d, x b r d · W d h` (a finite sum of products of reals, read in the extended reals), and the
  attention region's output is causal softmax attention of them. So every run of the entry function ends with the result
  array holding `out x Wq Wk Wv` and with the four argument arrays unchanged.
-/
import proofs.«422911_j40922448396699_3_alg».proof.Proof.KI.Glue
import proofs.«422911_j40922448396699_3_alg».proof.Proof.KI.R0Value
import proofs.«422911_j40922448396699_3_alg».proof.Proof.KI.Run
import proofs.«422911_j40922448396699_3_alg».proof.Proof.KI.R1Value
import proofs.«422911_j40922448396699_3_alg».proof.Proof.Spec
import proofs.«422911_j40922448396699_3_alg».proof.Proof.Row

noncomputable section

namespace Cert.KernelIdeal.HandV

open Idealize.ShloMosaic Idealize.ShloMosaic.TcCoe Idealize.SL.Sem
open Idealize.ShloMosaic.ValueIdx
open Cert.KernelIdeal Cert.KernelIdeal.Gen Cert.KernelIdeal.Hand
open scoped BigOperators

/-! ## The three projections -/

/-- A projection, read in the extended reals: the sum of the products of the coerced entries. -/
theorem coe_proj (x : Fin 4 → Fin 4096 → Fin 1024 → ℝ) (W : Fin 1024 → Fin 64 → ℝ) (b : Fin 4) (r : Fin 4096) (h : Fin 64) :
    ((Cert.Spec.proj x W b r h : ℝ) : EReal) = ∑ d : Fin 1024, ((x b r d : ℝ) : EReal) * ((W d h : ℝ) : EReal) := by
  unfold Cert.Spec.proj
  rw [Cert.Row.coe_sum]
  exact Finset.sum_congr rfl fun d _ => EReal.coe_mul _ _

/-- Row `i = 4096 b + r` of the reshaped activations is row `(b, r)` of the activations. -/
theorem x_row (W : Valuation τ sig (Elt Ideal)) (x : Fin 4 → Fin 4096 → Fin 1024 → ℝ)
    (hx : ∀ b r d, W (Proc.devRef .tc main_arg0) (ix3 b r d) = ((x b r d : ℝ) : EReal))
    (b : Fin 4) (r : Fin 4096) (i : Fin 16384) (hi : i.val = b.val * 4096 + r.val) (d : Fin 1024) :
    StableHlo.after (hostOps0 (F := Ideal)) W (Proc.devRef .tc main_v0) (ix2 i d) = ((x b r d : ℝ) : EReal) := by
  have hb := b.isLt
  have hr := r.isLt
  have e0 : (⟨i.val / 4096, by have := i.isLt; omega⟩ : Fin 4) = b := Fin.ext (by show i.val / 4096 = b.val; omega)
  have e1 : (⟨i.val % 4096, Nat.mod_lt _ (by decide)⟩ : Fin 4096) = r := Fin.ext (by show i.val % 4096 = r.val; omega)
  rw [v0_apply, e0, e1, hx]

/-- Columns 0 to 63 of the fused weights are the first weight matrix. -/
theorem w_col_q (W : Valuation τ sig (Elt Ideal)) (Wq : Fin 1024 → Fin 64 → ℝ)
    (hWq : ∀ d h, W (Proc.devRef .tc main_arg1) (ix2 d h) = ((Wq d h : ℝ) : EReal)) (d : Fin 1024) (h : Fin 64) :
    StableHlo.after (hostOps0 (F := Ideal)) W (Proc.devRef .tc main_v1) (ix2 d (⟨h.val, by omega⟩ : Fin 192))
      = ((Wq d h : ℝ) : EReal) := by
  rw [v1_apply, dif_pos (show h.val < 64 from h.isLt)]
  exact hWq d h

/-- Columns 64 to 127 of the fused weights are the second weight matrix. -/
theorem w_col_k (W : Valuation τ sig (Elt Ideal)) (Wk : Fin 1024 → Fin 64 → ℝ)
    (hWk : ∀ d h, W (Proc.devRef .tc main_arg2) (ix2 d h) = ((Wk d h : ℝ) : EReal)) (d : Fin 1024) (h : Fin 64) :
    StableHlo.after (hostOps0 (F := Ideal)) W (Proc.devRef .tc main_v1) (ix2 d (⟨h.val + 64, by omega⟩ : Fin 192))
      = ((Wk d h : ℝ) : EReal) := by
  have hh := h.isLt
  rw [v1_apply, dif_neg (show ¬ h.val + 64 < 64 by omega), dif_pos (show h.val + 64 < 128 by omega)]
  have e : (⟨h.val + 64 - 64, by omega⟩ : Fin 64) = h := Fin.ext (by show h.val + 64 - 64 = h.val; omega)
  exact (congrArg (fun j => W (Proc.devRef .tc main_arg2) (ix2 d j)) e).trans (hWk d h)

/-- Columns 128 to 191 of the fused weights are the third weight matrix. -/
theorem w_col_v (W : Valuation τ sig (Elt Ideal)) (Wv : Fin 1024 → Fin 64 → ℝ)
    (hWv : ∀ d h, W (Proc.devRef .tc main_arg3) (ix2 d h) = ((Wv d h : ℝ) : EReal)) (d : Fin 1024) (h : Fin 64) :
    StableHlo.after (hostOps0 (F := Ideal)) W (Proc.devRef .tc main_v1) (ix2 d (⟨h.val + 128, by omega⟩ : Fin 192))
      = ((Wv d h : ℝ) : EReal) := by
  have hh := h.isLt
  rw [v1_apply, dif_neg (show ¬ h.val + 128 < 64 by omega), dif_neg (show ¬ h.val + 128 < 128 by omega)]
  have e : (⟨h.val + 128 - 128, by omega⟩ : Fin 64) = h := Fin.ext (by show h.val + 128 - 128 = h.val; omega)
  exact (congrArg (fun j => W (Proc.devRef .tc main_arg3) (ix2 d j)) e).trans (hWv d h)

section Projections

-- the core's buffer contents when the projection region is entered, and the contents before the host operations
variable (V : (c : Dev nD) → (b : Ref sig .tc) → Buf (Elt Ideal) ((c : Thread nD τ).loc b))
variable (c : Dev nD) (W : Valuation τ sig (Elt Ideal))
variable (x : Fin 4 → Fin 4096 → Fin 1024 → ℝ) (Wq Wk Wv : Fin 1024 → Fin 64 → ℝ)

/-- The query array after the projection region holds the real projection by the first weight matrix. -/
theorem arr0_q
    (hV0 : ∀ i d, V c main_v0 (ix2 i d) = StableHlo.after (hostOps0 (F := Ideal)) W (Proc.devRef .tc main_v0) (ix2 i d))
    (hV1 : ∀ d h, V c main_v1 (ix2 d h) = StableHlo.after (hostOps0 (F := Ideal)) W (Proc.devRef .tc main_v1) (ix2 d h))
    (hx : ∀ b r d, W (Proc.devRef .tc main_arg0) (ix3 b r d) = ((x b r d : ℝ) : EReal))
    (hWq : ∀ d h, W (Proc.devRef .tc main_arg1) (ix2 d h) = ((Wq d h : ℝ) : EReal))
    (b : Fin 4) (r : Fin 4096) (h : Fin 64) (i : Fin 16384) (hi : i.val = b.val * 4096 + r.val) :
    (dat0 (F := Ideal) V c).arrAt 2 cfg0.N (ix2 i h) = ((Cert.Spec.proj x Wq b r h : ℝ) : EReal) := by
  have key : ∀ d : Fin 1024, (HMul.hMul : EReal → EReal → EReal) (V c main_v0 (ix2 i d)) (V c main_v1 (ix2 d ⟨h.val, by omega⟩))
      = ((x b r d : ℝ) : EReal) * ((Wq d h : ℝ) : EReal) := fun d => by
    rw [hV0, hV1, x_row W x hx b r i hi d, w_col_q W Wq hWq d h]
  have sum_eq : (∑ d : Fin 1024, (HMul.hMul : EReal → EReal → EReal) (V c main_v0 (ix2 i d)) (V c main_v1 (ix2 d ⟨h.val, by omega⟩)))
      = ((Cert.Spec.proj x Wq b r h : ℝ) : EReal) := by
    rw [coe_proj]
    exact Finset.sum_congr rfl fun d _ => key d
  exact (arr0_2 V c i h).trans sum_eq

/-- The key array after the projection region holds the real projection by the second weight matrix. -/
theorem arr0_k
    (hV0 : ∀ i d, V c main_v0 (ix2 i d) = StableHlo.after (hostOps0 (F := Ideal)) W (Proc.devRef .tc main_v0) (ix2 i d))
    (hV1 : ∀ d h, V c main_v1 (ix2 d h) = StableHlo.after (hostOps0 (F := Ideal)) W (Proc.devRef .tc main_v1) (ix2 d h))
    (hx : ∀ b r d, W (Proc.devRef .tc main_arg0) (ix3 b r d) = ((x b r d : ℝ) : EReal))
    (hWk : ∀ d h, W (Proc.devRef .tc main_arg2) (ix2 d h) = ((Wk d h : ℝ) : EReal))
    (b : Fin 4) (r : Fin 4096) (h : Fin 64) (i : Fin 16384) (hi : i.val = b.val * 4096 + r.val) :
    (dat0 (F := Ideal) V c).arrAt 3 cfg0.N (ix2 i h) = ((Cert.Spec.proj x Wk b r h : ℝ) : EReal) := by
  have key : ∀ d : Fin 1024, (HMul.hMul : EReal → EReal → EReal) (V c main_v0 (ix2 i d)) (V c main_v1 (ix2 d ⟨h.val + 64, by omega⟩))
      = ((x b r d : ℝ) : EReal) * ((Wk d h : ℝ) : EReal) := fun d => by
    rw [hV0, hV1, x_row W x hx b r i hi d, w_col_k W Wk hWk d h]
  have sum_eq : (∑ d : Fin 1024, (HMul.hMul : EReal → EReal → EReal) (V c main_v0 (ix2 i d)) (V c main_v1 (ix2 d ⟨h.val + 64, by omega⟩)))
      = ((Cert.Spec.proj x Wk b r h : ℝ) : EReal) := by
    rw [coe_proj]
    exact Finset.sum_congr rfl fun d _ => key d
  exact (arr0_3 V c i h).trans sum_eq

/-- The value array after the projection region holds the real projection by the third weight matrix. -/
theorem arr0_v
    (hV0 : ∀ i d, V c main_v0 (ix2 i d) = StableHlo.after (hostOps0 (F := Ideal)) W (Proc.devRef .tc main_v0) (ix2 i d))
    (hV1 : ∀ d h, V c main_v1 (ix2 d h) = StableHlo.after (hostOps0 (F := Ideal)) W (Proc.devRef .tc main_v1) (ix2 d h))
    (hx : ∀ b r d, W (Proc.devRef .tc main_arg0) (ix3 b r d) = ((x b r d : ℝ) : EReal))
    (hWv : ∀ d h, W (Proc.devRef .tc main_arg3) (ix2 d h) = ((Wv d h : ℝ) : EReal))
    (b : Fin 4) (r : Fin 4096) (h : Fin 64) (i : Fin 16384) (hi : i.val = b.val * 4096 + r.val) :
    (dat0 (F := Ideal) V c).arrAt 4 cfg0.N (ix2 i h) = ((Cert.Spec.proj x Wv b r h : ℝ) : EReal) := by
  have key : ∀ d : Fin 1024, (HMul.hMul : EReal → EReal → EReal) (V c main_v0 (ix2 i d)) (V c main_v1 (ix2 d ⟨h.val + 128, by omega⟩))
      = ((x b r d : ℝ) : EReal) * ((Wv d h : ℝ) : EReal) := fun d => by
    rw [hV0, hV1, x_row W x hx b r i hi d, w_col_v W Wv hWv d h]
  have sum_eq : (∑ d : Fin 1024, (HMul.hMul : EReal → EReal → EReal) (V c main_v0 (ix2 i d)) (V c main_v1 (ix2 d ⟨h.val + 128, by omega⟩)))
      = ((Cert.Spec.proj x Wv b r h : ℝ) : EReal) := by
    rw [coe_proj]
    exact Finset.sum_congr rfl fun d _ => key d
  exact (arr0_4 V c i h).trans sum_eq

end Projections

/-! ## The attention region's inputs are the three projections -/

section Assembly

variable (m : (ℓ : Loc nD τ sig) → Buf (Elt Ideal) ℓ) (ρ : Dev nD → PrngReg)
variable (x : Fin 4 → Fin 4096 → Fin 1024 → ℝ) (Wq Wk Wv : Fin 1024 → Fin 64 → ℝ)

/-- Row `(b, r)` of a reshaped projection is row `4096 b + r` of the projection. -/
theorem row_val (b : Fin 4) (r : Fin 4096) (hlt : b.val * 4096 + r.val < 16384) :
    (⟨b.val * 4096 + r.val, hlt⟩ : Fin 16384).val = b.val * 4096 + r.val := rfl

/-- The query input of the attention region is the projection by the first weight matrix. -/
theorem proj_q
    (hx : ∀ (c : Dev nD) b r d, m ((c.tc : Thread nD τ).loc main_arg0) (ix3 b r d) = ((x b r d : ℝ) : EReal))
    (hWq : ∀ (c : Dev nD) d h, m ((c.tc : Thread nD τ).loc main_arg1) (ix2 d h) = ((Wq d h : ℝ) : EReal))
    (c : Dev nD) (b : Fin 4) (r : Fin 4096) (h : Fin 64) :
    V3 m ρ c main_v3 (ix3 b r h) = ((Cert.Spec.proj x Wq b r h : ℝ) : EReal) := by
  show StableHlo.after (hostOps1 (F := Ideal)) (W2 m ρ c) (Proc.devRef .tc main_v3) (ix3 b r h) = _
  rw [v3_apply, W2_main_v2_0]
  exact arr0_q (V1 m ρ) c (fun b => m (c, b)) x Wq (fun _ _ => rfl) (fun _ _ => rfl) (hx c) (hWq c) b r h _ rfl

/-- The key input of the attention region is the projection by the second weight matrix. -/
theorem proj_k
    (hx : ∀ (c : Dev nD) b r d, m ((c.tc : Thread nD τ).loc main_arg0) (ix3 b r d) = ((x b r d : ℝ) : EReal))
    (hWk : ∀ (c : Dev nD) d h, m ((c.tc : Thread nD τ).loc main_arg2) (ix2 d h) = ((Wk d h : ℝ) : EReal))
    (c : Dev nD) (b : Fin 4) (r : Fin 4096) (h : Fin 64) :
    V3 m ρ c main_v4 (ix3 b r h) = ((Cert.Spec.proj x Wk b r h : ℝ) : EReal) := by
  show StableHlo.after (hostOps1 (F := Ideal)) (W2 m ρ c) (Proc.devRef .tc main_v4) (ix3 b r h) = _
  rw [v4_apply, W2_main_v2_1]
  exact arr0_k (V1 m ρ) c (fun b => m (c, b)) x Wk (fun _ _ => rfl) (fun _ _ => rfl) (hx c) (hWk c) b r h _ rfl

/-- The value input of the attention region is the projection by the third weight matrix. -/
theorem proj_v
    (hx : ∀ (c : Dev nD) b r d, m ((c.tc : Thread nD τ).loc main_arg0) (ix3 b r d) = ((x b r d : ℝ) : EReal))
    (hWv : ∀ (c : Dev nD) d h, m ((c.tc : Thread nD τ).loc main_arg3) (ix2 d h) = ((Wv d h : ℝ) : EReal))
    (c : Dev nD) (b : Fin 4) (r : Fin 4096) (h : Fin 64) :
    V3 m ρ c main_v5 (ix3 b r h) = ((Cert.Spec.proj x Wv b r h : ℝ) : EReal) := by
  show StableHlo.after (hostOps1 (F := Ideal)) (W2 m ρ c) (Proc.devRef .tc main_v5) (ix3 b r h) = _
  rw [v5_apply, W2_main_v2_2]
  exact arr0_v (V1 m ρ) c (fun b => m (c, b)) x Wv (fun _ _ => rfl) (fun _ _ => rfl) (hx c) (hWv c) b r h _ rfl

end Assembly

/-! ## The run -/

/-- Every run of the entry function from real inputs ends with the result array holding causal softmax attention of the
    three projections, and with the argument arrays as they were. -/
theorem kernel_run [Cert.KernelIdeal.Facts] (m : (ℓ : Loc nD τ sig) → Buf (Elt Ideal) ℓ) (ρ : Dev nD → PrngReg)
    (x : Fin 4 → Fin 4096 → Fin 1024 → ℝ) (Wq Wk Wv : Fin 1024 → Fin 64 → ℝ)
    (hx : ∀ (c : Dev nD) b r d, m ((c.tc : Thread nD τ).loc main_arg0) (ix3 b r d) = ((x b r d : ℝ) : EReal))
    (hWq : ∀ (c : Dev nD) d h, m ((c.tc : Thread nD τ).loc main_arg1) (ix2 d h) = ((Wq d h : ℝ) : EReal))
    (hWk : ∀ (c : Dev nD) d h, m ((c.tc : Thread nD τ).loc main_arg2) (ix2 d h) = ((Wk d h : ℝ) : EReal))
    (hWv : ∀ (c : Dev nD) d h, m ((c.tc : Thread nD τ).loc main_arg3) (ix2 d h) = ((Wv d h : ℝ) : EReal)) :
    θ_run (defs (F := Ideal)) (onTc (τ := τ) (main (F := Ideal))) ⟨m, fun _ => 0, ρ⟩ (fun r => ∀ c : Dev nD,
      (∀ b r' h, r.2.mem ((c.tc : Thread nD τ).loc main_v6) (ix3 b r' h) = ((Cert.Spec.out x Wq Wk Wv b r' h : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run _ _ _).mono (fun r hr c => ?_) (run_main (F := Ideal) m ρ)
  refine ⟨fun b r' h => ?_, ?_, ?_, ?_, ?_⟩
  · have h6 : r.2.mem ((c.tc : Thread nD τ).loc main_v6) = W4 m ρ c (Proc.devRef .tc main_v6) :=
      hr c _ (mem_uc main_v6 (by decide))
    rw [h6, W4_main_v6]
    exact arr1_3 (V3 m ρ) c (Cert.Spec.proj x Wq) (Cert.Spec.proj x Wk) (Cert.Spec.proj x Wv)
      (proj_q m ρ x Wq hx hWq c) (proj_k m ρ x Wk hx hWk c) (proj_v m ρ x Wv hx hWv c) b r' h
  · exact (hr c _ (mem_uc main_arg0 (by decide))).trans (W4_main_arg0 m ρ c)
  · exact (hr c _ (mem_uc main_arg1 (by decide))).trans (W4_main_arg1 m ρ c)
  · exact (hr c _ (mem_uc main_arg2 (by decide))).trans (W4_main_arg2 m ρ c)
  · exact (hr c _ (mem_uc main_arg3 (by decide))).trans (W4_main_arg3 m ρ c)

end Cert.KernelIdeal.HandV

end
-- ==== Proof.RefValue.lean ====
/-
  The reference's value. The reference program computes, from the input x and the three weight matrices,
    q = x·Wq,  k = x·Wk,  v = x·Wv,  s = (q·kᵀ)/8,
  hides the keys after the query's own position (the lower-triangular mask: key c is kept for query r when c ≤ r,
  a hidden score is -∞), and applies a softmax along the keys followed by the product with v:
    out b r h = ∑_c (exp (s̃ b r c - M b r) / Z b r) · v b c h,   M = max_c s̃,   Z = ∑_c exp (s̃ - M).
  Read one operation at a time over the extended reals, with real inputs every intermediate is a real (or -∞ exactly at
  the hidden keys): the row maximum is the maximum of the kept scores, a hidden key contributes exp (-∞) = 0, the
  denominator is a positive real, and the quotient is the real quotient. Softmax does not change when a constant is
  subtracted from a row's scores, so the result is the specification's unshifted causal attention.
-/
import proofs.«422911_j40922448396699_3_alg».proof.Defs
import proofs.«422911_j40922448396699_3_alg».proof.Proof.Gen.ReferenceIdeal.Run
import proofs.«422911_j40922448396699_3_alg».proof.Proof.Gen.ReferenceIdeal.Read
import proofs.«422911_j40922448396699_3_alg».proof.Proof.Spec
import proofs.«422911_j40922448396699_3_alg».proof.Proof.Row
import proofs.«422911_j40922448396699_3_alg».proof.Proof.Softmax
import Idealize.ShloMosaic.Lib.StableHlo.Predicate

noncomputable section

namespace Cert.RefValue

open Idealize.ShloMosaic Idealize.ShloMosaic.TcCoe Idealize.SL.Sem
open Idealize.ShloMosaic.ValueIdx (ix2 ix3)
open scoped BigOperators

open Cert.ReferenceIdeal Cert.ReferenceIdeal.Gen Cert.ReferenceIdeal.Read

/-! ## The literal words -/

/-- The scale's word is the real 1/8. -/
theorem ofBits_eighth : Ideal.ofBits .f32 0x3E000000#32 = ((1 / 8 : ℝ) : EReal) := by
  simp [Ideal.ofBits, Ideal.ieee]
  norm_num
  rw [← EReal.coe_mul]
  norm_num

/-- The mask's fill word is -∞. -/
theorem ofBits_neg_inf : Ideal.ofBits .f32 0xFF800000#32 = (⊥ : EReal) := by
  simp [Ideal.ofBits, Ideal.ieee]

/-- The sum's initial word is 0. -/
theorem ofBits_zero : Ideal.ofBits .f32 0x00000000#32 = (0 : EReal) := by
  simp [Ideal.ofBits, Ideal.ieee]

/-! ## The projections -/

section Stages

variable (X0 : (⟨S4x4096x1024, .f32⟩ : BufTy).Contents (Elt Ideal))
  (X1 X2 X3 : (⟨S1024x64, .f32⟩ : BufTy).Contents (Elt Ideal))
  (x : Fin 4 → Fin 4096 → Fin 1024 → ℝ) (Wq Wk Wv : Fin 1024 → Fin 64 → ℝ)

/-- A product of the real input with a real weight matrix is the real projection. -/
theorem proj_sum (W : Fin 1024 → Fin 64 → ℝ) (Y : (⟨S1024x64, .f32⟩ : BufTy).Contents (Elt Ideal))
    (hX0 : ∀ b r d, X0 (ix3 b r d) = ((x b r d : ℝ) : EReal)) (hY : ∀ d h, Y (ix2 d h) = ((W d h : ℝ) : EReal))
    (b : Fin 4) (r : Fin 4096) (h : Fin 64) :
    (∑ k : Fin 1024, X0 (ix3 b r k) * Y (ix2 k h)) = ((Cert.Spec.proj x W b r h : ℝ) : EReal) := by
  unfold Cert.Spec.proj
  rw [Cert.Row.coe_sum]
  refine Finset.sum_congr rfl fun k _ => ?_
  rw [EReal.coe_mul, hX0, hY]

theorem q_read (hX0 : ∀ b r d, X0 (ix3 b r d) = ((x b r d : ℝ) : EReal)) (h1 : ∀ d h, X1 (ix2 d h) = ((Wq d h : ℝ) : EReal))
    (b : Fin 4) (r : Fin 4096) (h : Fin 64) :
    val_main_v0 (F := Ideal) X0 X1 (ix3 b r h) = ((Cert.Spec.proj x Wq b r h : ℝ) : EReal) := by
  rw [val_main_v0_apply, ← proj_sum X0 x Wq X1 hX0 h1 b r h]
  refine Finset.sum_congr rfl fun k _ => ?_
  congr 2
  · funext a; match a with | ⟨0, _⟩ => rfl | ⟨1, _⟩ => rfl | ⟨2, _⟩ => rfl
  · funext a; match a with | ⟨0, _⟩ => rfl | ⟨1, _⟩ => rfl

end Stages

section Stages2

variable (X0 : (⟨S4x4096x1024, .f32⟩ : BufTy).Contents (Elt Ideal))
  (X1 X2 X3 : (⟨S1024x64, .f32⟩ : BufTy).Contents (Elt Ideal))
  (x : Fin 4 → Fin 4096 → Fin 1024 → ℝ) (Wq Wk Wv : Fin 1024 → Fin 64 → ℝ)

theorem k_read (hX0 : ∀ b r d, X0 (ix3 b r d) = ((x b r d : ℝ) : EReal)) (h2 : ∀ d h, X2 (ix2 d h) = ((Wk d h : ℝ) : EReal))
    (b : Fin 4) (r : Fin 4096) (h : Fin 64) :
    val_main_v1 (F := Ideal) X0 X2 (ix3 b r h) = ((Cert.Spec.proj x Wk b r h : ℝ) : EReal) := by
  rw [val_main_v1_apply, ← proj_sum X0 x Wk X2 hX0 h2 b r h]
  refine Finset.sum_congr rfl fun k _ => ?_
  congr 2
  · funext a; match a with | ⟨0, _⟩ => rfl | ⟨1, _⟩ => rfl | ⟨2, _⟩ => rfl
  · funext a; match a with | ⟨0, _⟩ => rfl | ⟨1, _⟩ => rfl

theorem v_read (hX0 : ∀ b r d, X0 (ix3 b r d) = ((x b r d : ℝ) : EReal)) (h3 : ∀ d h, X3 (ix2 d h) = ((Wv d h : ℝ) : EReal))
    (b : Fin 4) (r : Fin 4096) (h : Fin 64) :
    val_main_v2 (F := Ideal) X0 X3 (ix3 b r h) = ((Cert.Spec.proj x Wv b r h : ℝ) : EReal) := by
  rw [val_main_v2_apply, ← proj_sum X0 x Wv X3 hX0 h3 b r h]
  refine Finset.sum_congr rfl fun k _ => ?_
  congr 2
  · funext a; match a with | ⟨0, _⟩ => rfl | ⟨1, _⟩ => rfl | ⟨2, _⟩ => rfl
  · funext a; match a with | ⟨0, _⟩ => rfl | ⟨1, _⟩ => rfl

/-! ## The scaled scores -/

/-- The score of query row r against key row c: the product of the two projections' rows, times 1/8. -/
theorem score_read (hX0 : ∀ b r d, X0 (ix3 b r d) = ((x b r d : ℝ) : EReal)) (h1 : ∀ d h, X1 (ix2 d h) = ((Wq d h : ℝ) : EReal))
    (h2 : ∀ d h, X2 (ix2 d h) = ((Wk d h : ℝ) : EReal)) (b : Fin 4) (r c : Fin 4096) :
    val_main_v5 (F := Ideal) X0 X1 X2 (ix3 b r c)
      = ((Cert.Spec.score (Cert.Spec.proj x Wq) (Cert.Spec.proj x Wk) b r c : ℝ) : EReal) := by
  rw [val_main_v5_apply, val_main_v3_apply, val_main_v4_apply, val_main_cst_apply, Ideal.mulf_def, Ideal.ofBits_def, ofBits_eighth]
  unfold Cert.Spec.score
  rw [EReal.coe_mul, Cert.Row.coe_sum]
  congr 1
  refine Finset.sum_congr rfl fun k _ => ?_
  rw [EReal.coe_mul, ← q_read X0 X1 x Wq hX0 h1 b r k, ← k_read X0 X2 x Wk hX0 h2 b c k]
  congr 2
  · funext a; match a with | ⟨0, _⟩ => rfl | ⟨1, _⟩ => rfl | ⟨2, _⟩ => rfl
  · funext a; match a with | ⟨0, _⟩ => rfl | ⟨1, _⟩ => rfl | ⟨2, _⟩ => rfl

end Stages2

/-! ## The lower-triangular mask -/

theorem toNat_ofNat_row (n : ℕ) (h : n < 4096) : (BitVec.ofNat 32 n).toNat = n := by
  rw [BitVec.toNat_ofNat]; exact Nat.mod_eq_of_lt (by omega)

/-- The mask's bit at (r, c): the row number (plus the diagonal offset 0) is at least the column number. -/
theorem tril_bit (r c : Fin 4096) :
    Scalar.select (IntOp.cmpi .sge (IntOp.addi (BitVec.ofNat 32 r.val) 0#32) (BitVec.ofNat 32 c.val)) (1#1 : BitVec 1) 0#1
      = if c.val ≤ r.val then 1#1 else 0#1 := by
  have e0 : IntOp.addi (BitVec.ofNat 32 r.val) 0#32 = BitVec.ofNat 32 r.val := by
    unfold IntOp.addi; exact BitVec.add_zero _
  rw [e0]
  have hr := toNat_ofNat_row r.val r.isLt
  have hc := toNat_ofNat_row c.val c.isLt
  have hiff := StableHlo.Predicate.sge_iff_toNat (a := BitVec.ofNat 32 r.val) (b := BitVec.ofNat 32 c.val)
    (by rw [hr]; have := r.isLt; omega) (by rw [hc]; have := c.isLt; omega)
  rw [hr, hc] at hiff
  by_cases hcr : c.val ≤ r.val
  · rw [hiff.mpr hcr, ValueIdx.select_one, if_pos hcr]
  · rw [ValueIdx.eq_zero_of_ne_one (fun e => hcr (hiff.mp e)), ValueIdx.select_zero, if_neg hcr]

theorem mask_read (b : Fin 4) (r c : Fin 4096) :
    val_main_call1_v1 (F := Ideal) (ix3 b r c) = if c.val ≤ r.val then 1#1 else 0#1 := by
  rw [val_main_call1_v1_apply, val_main_v8_apply, val_main_v7_apply, val_main_call0_v4_apply, val_main_call0_v2_apply,
    val_main_call0_v0_apply, val_main_call0_v1_apply, val_main_call0_c_apply, val_main_call0_v3_apply, val_main_v6_apply,
    val_main_c_apply, val_main_call0_v5_apply, val_main_call0_c_0_apply]
  exact tril_bit r c

section Stages3

variable (X0 : (⟨S4x4096x1024, .f32⟩ : BufTy).Contents (Elt Ideal))
  (X1 X2 X3 : (⟨S1024x64, .f32⟩ : BufTy).Contents (Elt Ideal))
  (x : Fin 4 → Fin 4096 → Fin 1024 → ℝ) (Wq Wk Wv : Fin 1024 → Fin 64 → ℝ)

/-- The masked score: the score at a kept key, -∞ at a hidden one. -/
theorem masked_read (hX0 : ∀ b r d, X0 (ix3 b r d) = ((x b r d : ℝ) : EReal)) (h1 : ∀ d h, X1 (ix2 d h) = ((Wq d h : ℝ) : EReal))
    (h2 : ∀ d h, X2 (ix2 d h) = ((Wk d h : ℝ) : EReal)) (b : Fin 4) (r c : Fin 4096) :
    val_main_v9 (F := Ideal) X0 X1 X2 (ix3 b r c)
      = if c.val ≤ r.val then ((Cert.Spec.score (Cert.Spec.proj x Wq) (Cert.Spec.proj x Wk) b r c : ℝ) : EReal) else ⊥ := by
  rw [val_main_v9_apply, mask_read, score_read X0 X1 X2 x Wq Wk hX0 h1 h2, val_main_call1_v2_apply, val_main_call1_v0_apply,
    val_main_cst_0_apply, Ideal.ofBits_def, ofBits_neg_inf]
  by_cases hcr : c.val ≤ r.val
  · rw [if_pos hcr, if_pos hcr, ValueIdx.select_one]
  · rw [if_neg hcr, if_neg hcr, ValueIdx.select_zero]

end Stages3

/-! ## One row of the softmax, over the reals -/

/-- The largest kept score of a row (the kept keys are a nonempty set: key 0 is always kept). -/
def rowMax (s : Fin 4096 → ℝ) (r : Fin 4096) : ℝ :=
  (Finset.univ.filter fun c : Fin 4096 => c.val ≤ r.val).sup' ⟨⟨0, by decide⟩, by simp⟩ s

/-- A key's shifted exponential: zero at a hidden key. -/
def ew (s : Fin 4096 → ℝ) (r c : Fin 4096) : ℝ := if c.val ≤ r.val then Real.exp (s c - rowMax s r) else 0

/-- The row's denominator. -/
def den (s : Fin 4096 → ℝ) (r : Fin 4096) : ℝ := ∑ c : Fin 4096, ew s r c

/-- The denominator is positive: every term is nonnegative and the query's own key contributes a positive one. -/
theorem den_pos (s : Fin 4096 → ℝ) (r : Fin 4096) : 0 < den s r := by
  unfold den
  refine Finset.sum_pos' (fun c _ => ?_) ⟨r, Finset.mem_univ _, ?_⟩
  · unfold ew; split_ifs
    · exact (Real.exp_pos _).le
    · exact le_rfl
  · unfold ew; rw [if_pos le_rfl]; exact Real.exp_pos _

/-- The reduced index (b, r) with key k put back on the reduced axis is (b, r, k). -/
theorem lift_ix3 (h : S4x4096x4096.Reduces [2] S4x4096) (b : Fin 4) (r : Fin 4096) (k : Fin (S4x4096x4096.size 2)) :
    h.lift (ix2 b r) k = ix3 b r (⟨k.val, k.isLt⟩ : Fin 4096) := by
  funext c; apply Fin.ext
  fin_cases c <;> rfl

/-- The maximum-reduce along the keys, from -∞, of any array whose row (b, r) is the family g: the fold of the maximum over g. -/
theorem rowfold (y : (⟨S4x4096x4096, .f32⟩ : BufTy).Contents (Elt Ideal)) (b : Fin 4) (r : Fin 4096) (g : Fin 4096 → EReal)
    (hy : ∀ c : Fin 4096, y (ix3 b r c) = g c) :
    Host.reduce (FloatOps.maximumf (F := Ideal) (φ := .f32)) y (val_main_cst_1 (F := Ideal)) reducesTo_S4x4096x4096_S4x4096_d2 h_S_ (ix2 b r)
      = (Finset.univ : Finset (Fin 4096)).fold max ⊥ g := by
  have hR : S4x4096x4096.Reduces [2] S4x4096 := by decide
  rw [Host.reduce_eq_fold_single (FloatOps.maximumf (F := Ideal) (φ := .f32)) y _ reducesTo_S4x4096x4096_S4x4096_d2 hR h_S_ (ix2 b r),
    val_main_cst_1_apply, Ideal.ofBits_def, ofBits_neg_inf]
  have hf : (y ∘ hR.lift (ix2 b r)) = g := by
    funext c
    show y (hR.lift (ix2 b r) c) = g c
    rw [lift_ix3 hR b r c]
    exact hy ⟨c.val, c.isLt⟩
  rw [hf]
  rfl

section Stages4

variable (X0 : (⟨S4x4096x1024, .f32⟩ : BufTy).Contents (Elt Ideal))
  (X1 X2 X3 : (⟨S1024x64, .f32⟩ : BufTy).Contents (Elt Ideal))
  (x : Fin 4 → Fin 4096 → Fin 1024 → ℝ) (Wq Wk Wv : Fin 1024 → Fin 64 → ℝ)

/-- A row of scores. -/
abbrev sc (b : Fin 4) (r : Fin 4096) : Fin 4096 → ℝ := Cert.Spec.score (Cert.Spec.proj x Wq) (Cert.Spec.proj x Wk) b r

/-- The row maximum: the fold of the maximum over the masked row from -∞ is the largest kept score, and the further
    maximum with -∞ changes nothing. -/
theorem max_read (hX0 : ∀ b r d, X0 (ix3 b r d) = ((x b r d : ℝ) : EReal)) (h1 : ∀ d h, X1 (ix2 d h) = ((Wq d h : ℝ) : EReal))
    (h2 : ∀ d h, X2 (ix2 d h) = ((Wk d h : ℝ) : EReal)) (b : Fin 4) (r : Fin 4096) :
    val_main_v12 (F := Ideal) X0 X1 X2 (ix2 b r) = ((rowMax (sc x Wq Wk b r) r : ℝ) : EReal) := by
  rw [val_main_v12_apply, val_main_v11_apply, val_main_cst_2_apply, Ideal.maximumf_def, Ideal.ofBits_def, ofBits_neg_inf, max_bot_left]
  unfold val_main_v10
  rw [rowfold (val_main_v9 (F := Ideal) X0 X1 X2) b r
    (fun c : Fin 4096 => if c.val ≤ r.val then ((sc x Wq Wk b r c : ℝ) : EReal) else ⊥)
    (fun c => masked_read X0 X1 X2 x Wq Wk hX0 h1 h2 b r c)]
  exact Cert.Row.fold_max_masked (sc x Wq Wk b r) r

/-- The shifted exponential: exp (s - M) at a kept key, exp (-∞) = 0 at a hidden one. -/
theorem exp_read (hX0 : ∀ b r d, X0 (ix3 b r d) = ((x b r d : ℝ) : EReal)) (h1 : ∀ d h, X1 (ix2 d h) = ((Wq d h : ℝ) : EReal))
    (h2 : ∀ d h, X2 (ix2 d h) = ((Wk d h : ℝ) : EReal)) (b : Fin 4) (r c : Fin 4096) :
    val_main_v16 (F := Ideal) X0 X1 X2 (ix3 b r c) = ((ew (sc x Wq Wk b r) r c : ℝ) : EReal) := by
  rw [val_main_v16_apply, val_main_v15_apply, val_main_v14_apply, val_main_v13_apply, Ideal.hostUnary_exp_def, Ideal.subf_def]
  have ei : idx_main_v13 (idx_main_v14 (ix3 b r c)) = ix2 b r := by
    funext a; match a with | ⟨0, _⟩ => rfl | ⟨1, _⟩ => rfl
  rw [ei, masked_read X0 X1 X2 x Wq Wk hX0 h1 h2, max_read X0 X1 X2 x Wq Wk hX0 h1 h2]
  unfold ew
  by_cases hcr : c.val ≤ r.val
  · rw [if_pos hcr, if_pos hcr, ← EReal.coe_sub, Ideal.exp_coe]
  · rw [if_neg hcr, if_neg hcr, EReal.bot_sub, Ideal.exp_bot, EReal.coe_zero]

/-- The denominator: zero plus the sum of the row's exponentials. -/
theorem den_read (hX0 : ∀ b r d, X0 (ix3 b r d) = ((x b r d : ℝ) : EReal)) (h1 : ∀ d h, X1 (ix2 d h) = ((Wq d h : ℝ) : EReal))
    (h2 : ∀ d h, X2 (ix2 d h) = ((Wk d h : ℝ) : EReal)) (b : Fin 4) (r : Fin 4096) :
    val_main_v17 (F := Ideal) X0 X1 X2 (ix2 b r) = ((den (sc x Wq Wk b r) r : ℝ) : EReal) := by
  rw [val_main_v17_apply, val_main_cst_3_apply, Ideal.ofBits_def, ofBits_zero, zero_add]
  unfold den
  rw [Cert.Row.coe_sum]
  refine Finset.sum_congr rfl fun k _ => ?_
  rw [← exp_read X0 X1 X2 x Wq Wk hX0 h1 h2 b r k]
  congr 1
  funext a; match a with | ⟨0, _⟩ => rfl | ⟨1, _⟩ => rfl | ⟨2, _⟩ => rfl

/-- The normalised weight: the quotient by a nonzero real is the real quotient. -/
theorem w_read (hX0 : ∀ b r d, X0 (ix3 b r d) = ((x b r d : ℝ) : EReal)) (h1 : ∀ d h, X1 (ix2 d h) = ((Wq d h : ℝ) : EReal))
    (h2 : ∀ d h, X2 (ix2 d h) = ((Wk d h : ℝ) : EReal)) (b : Fin 4) (r c : Fin 4096) :
    val_main_v20 (F := Ideal) X0 X1 X2 (ix3 b r c)
      = ((ew (sc x Wq Wk b r) r c / den (sc x Wq Wk b r) r : ℝ) : EReal) := by
  rw [val_main_v20_apply, val_main_v19_apply, val_main_v18_apply, Ideal.hostDivf_def]
  have ei : idx_main_v18 (idx_main_v19 (ix3 b r c)) = ix2 b r := by
    funext a; match a with | ⟨0, _⟩ => rfl | ⟨1, _⟩ => rfl
  rw [ei, exp_read X0 X1 X2 x Wq Wk hX0 h1 h2, den_read X0 X1 X2 x Wq Wk hX0 h1 h2,
    Ideal.div_coe (den_pos _ r).ne', ← EReal.coe_mul, mul_one_div]

end Stages4

/-! ## Softmax does not see the shift -/

/-- The normalised, shifted weights against a column of values: the unshifted causal softmax average. -/
theorem attn_shift (s v : Fin 4096 → ℝ) (r : Fin 4096) :
    (∑ c : Fin 4096, ew s r c / den s r * v c)
      = (∑ c : Fin 4096, if c.val ≤ r.val then Real.exp (s c) * v c else 0)
        / (∑ c : Fin 4096, if c.val ≤ r.val then Real.exp (s c) else 0) := by
  have hnum : (∑ c : Fin 4096, ew s r c / den s r * v c) = (∑ c : Fin 4096, ew s r c * v c) / den s r := by
    rw [Finset.sum_div]
    refine Finset.sum_congr rfl fun c _ => ?_
    rw [div_mul_eq_mul_div]
  have hne : (Finset.univ.filter fun c : Fin 4096 => c.val ≤ r.val).Nonempty :=
    ⟨r, Finset.mem_filter.mpr ⟨Finset.mem_univ _, le_rfl⟩⟩
  have e1 : (∑ c : Fin 4096, ew s r c * v c)
      = ∑ c ∈ Finset.univ.filter (fun c : Fin 4096 => c.val ≤ r.val), Real.exp (s c - rowMax s r) * v c := by
    rw [← Cert.Row.sum_ite_eq_filter r (fun c => Real.exp (s c - rowMax s r) * v c)]
    refine Finset.sum_congr rfl fun c _ => ?_
    unfold ew
    by_cases hcr : c.val ≤ r.val
    · rw [if_pos hcr, if_pos hcr]
    · rw [if_neg hcr, if_neg hcr, zero_mul]
  have e2 : den s r = ∑ c ∈ Finset.univ.filter (fun c : Fin 4096 => c.val ≤ r.val), Real.exp (s c - rowMax s r) := by
    rw [← Cert.Row.sum_ite_eq_filter r (fun c => Real.exp (s c - rowMax s r))]
    rfl
  rw [hnum, e1, e2, Cert.Row.softmax_shift _ hne s v (rowMax s r),
    Cert.Row.sum_ite_eq_filter r (fun c => Real.exp (s c) * v c), Cert.Row.sum_ite_eq_filter r (fun c => Real.exp (s c))]

/-! ## The result -/

section Stages5

variable (X0 : (⟨S4x4096x1024, .f32⟩ : BufTy).Contents (Elt Ideal))
  (X1 X2 X3 : (⟨S1024x64, .f32⟩ : BufTy).Contents (Elt Ideal))
  (x : Fin 4 → Fin 4096 → Fin 1024 → ℝ) (Wq Wk Wv : Fin 1024 → Fin 64 → ℝ)

/-- The last product, the weights against the value projection, is the specification's causal attention. -/
theorem out_read (hX0 : ∀ b r d, X0 (ix3 b r d) = ((x b r d : ℝ) : EReal)) (h1 : ∀ d h, X1 (ix2 d h) = ((Wq d h : ℝ) : EReal))
    (h2 : ∀ d h, X2 (ix2 d h) = ((Wk d h : ℝ) : EReal)) (h3 : ∀ d h, X3 (ix2 d h) = ((Wv d h : ℝ) : EReal))
    (b : Fin 4) (r : Fin 4096) (hh : Fin 64) :
    val_main_v21 (F := Ideal) X0 X1 X2 X3 (ix3 b r hh) = ((Cert.Spec.out x Wq Wk Wv b r hh : ℝ) : EReal) := by
  rw [val_main_v21_apply]
  have e : ∀ k : Fin 4096,
      val_main_v20 (F := Ideal) X0 X1 X2 (lidx_main_v21 (ix3 b r hh) k) * val_main_v2 (F := Ideal) X0 X3 (ridx_main_v21 (ix3 b r hh) k)
        = ((ew (sc x Wq Wk b r) r k / den (sc x Wq Wk b r) r * Cert.Spec.proj x Wv b k hh : ℝ) : EReal) := by
    intro k
    have el : lidx_main_v21 (ix3 b r hh) k = ix3 b r k := by
      funext a; match a with | ⟨0, _⟩ => rfl | ⟨1, _⟩ => rfl | ⟨2, _⟩ => rfl
    have er : ridx_main_v21 (ix3 b r hh) k = ix3 b k hh := by
      funext a; match a with | ⟨0, _⟩ => rfl | ⟨1, _⟩ => rfl | ⟨2, _⟩ => rfl
    rw [el, er, w_read X0 X1 X2 x Wq Wk hX0 h1 h2, v_read X0 X3 x Wv hX0 h3, ← EReal.coe_mul]
  rw [Finset.sum_congr rfl (fun k _ => e k), ← Cert.Row.coe_sum,
    attn_shift (sc x Wq Wk b r) (fun k => Cert.Spec.proj x Wv b k hh) r]
  rfl

end Stages5

/-- The reference runs, and its arguments end unchanged: its run with the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)
/-- From real inputs the reference's result is the specification, entry by entry, and its arguments end unchanged. -/
theorem ref_run [Cert.ReferenceIdeal.Facts]
    (m' : (ℓ : Loc Cert.ReferenceIdeal.nD Cert.ReferenceIdeal.τ Cert.ReferenceIdeal.sig) → Buf (Elt Ideal) ℓ)
    (ρ' : Dev Cert.ReferenceIdeal.nD → PrngReg)
    (x : Fin 4 → Fin 4096 → Fin 1024 → ℝ) (Wq Wk Wv : Fin 1024 → Fin 64 → ℝ)
    (hx : ∀ (c : Dev Cert.ReferenceIdeal.nD) b r d,
      m' ((c.tc : Thread Cert.ReferenceIdeal.nD Cert.ReferenceIdeal.τ).loc Cert.ReferenceIdeal.main_arg0) (ix3 b r d) = ((x b r d : ℝ) : EReal))
    (hq : ∀ (c : Dev Cert.ReferenceIdeal.nD) d h,
      m' ((c.tc : Thread Cert.ReferenceIdeal.nD Cert.ReferenceIdeal.τ).loc Cert.ReferenceIdeal.main_arg1) (ix2 d h) = ((Wq d h : ℝ) : EReal))
    (hk : ∀ (c : Dev Cert.ReferenceIdeal.nD) d h,
      m' ((c.tc : Thread Cert.ReferenceIdeal.nD Cert.ReferenceIdeal.τ).loc Cert.ReferenceIdeal.main_arg2) (ix2 d h) = ((Wk d h : ℝ) : EReal))
    (hv : ∀ (c : Dev Cert.ReferenceIdeal.nD) d h,
      m' ((c.tc : Thread Cert.ReferenceIdeal.nD Cert.ReferenceIdeal.τ).loc Cert.ReferenceIdeal.main_arg3) (ix2 d h) = ((Wv d h : ℝ) : EReal)) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
        (∀ b r' h, r.2.mem ((c.tc : Thread Cert.ReferenceIdeal.nD Cert.ReferenceIdeal.τ).loc Cert.ReferenceIdeal.main_v21) (ix3 b r' h)
            = ((Cert.Spec.out x Wq Wk Wv b r' h : ℝ) : EReal))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) := by
  refine (θ_run Cert.ReferenceIdeal.defs _ _).mono (fun _ h c => ⟨fun b r' hh => ?_, (h c).2⟩)
    (Cert.ReferenceIdeal.Value.run (F := Ideal) m' ρ')
  exact (congrFun ((h c).1.trans (val_main_v21_eq m' c)) (ix3 b r' hh)).trans
    (out_read _ _ _ _ x Wq Wk Wv (hx c) (hq c) (hk c) (hv c) b r' hh)

end Cert.RefValue

end
-- ==== Proof.lean ====
/-
  The certificate's claim, assembled.

  The kernel is a fused projection followed by causal flash attention. Its first region multiplies the activations
  x (seen as 16384 rows of 1024) by the three weight matrices laid side by side, leaving q = x·Wq, k = x·Wk, v = x·Wv.
  Its second region walks, for each of the four batches, a triangular schedule of ten steps over (query block, key block)
  pairs with key block ≤ query block, carrying per query row a running maximum m, a running denominator l and a running
  numerator acc (online softmax): a key block rescales l and acc by exp (m_old - m_new) and adds the block's
  exp (s - m_new) terms, the diagonal block with the scores above the diagonal masked, and the last step of a query block
  writes acc / max (l, ε). The reference is plain attention: the same three projections, the scores (q·kᵀ)/8 with the
  keys after the query's position hidden, a softmax along the keys and the product with v.

  Over the extended reals, from inputs that the precondition makes real numbers, both programs end with the result
  array holding the same real function of the inputs, the specification `Cert.Spec.out`: causal softmax attention of
  the three projections written with no shift, out b r h = (∑_{c ≤ r} exp (s b r c) · v b c h) / (∑_{c ≤ r} exp (s b r c)).
  The online recurrence telescopes to that quotient (softmax is invariant under the subtraction of a row constant, the
  guard ε is below the denominator, which is at least 1), and so does the reference's shifted softmax. That is the
  algebraic claim: the common result is the specification read as an array.

  The three frame claims say that each program runs to its end from any admitted memory and leaves its four argument
  arrays as launched. The kernel's idealization names two constants, whose table values are restated: the mask value
  "neg_big" is -∞, and the guard "inv_1000000000000000000000000000000" is the real 10⁻³⁰.
-/
import proofs.«422911_j40922448396699_3_alg».proof.Defs
import proofs.«422911_j40922448396699_3_alg».proof.Proof.Gen.Kernel
import proofs.«422911_j40922448396699_3_alg».proof.Proof.Gen.KernelIdeal
import proofs.«422911_j40922448396699_3_alg».proof.Proof.Gen.ReferenceIdeal
import proofs.«422911_j40922448396699_3_alg».proof.Proof.Gen.Pre_finite_inputs
import proofs.«422911_j40922448396699_3_alg».proof.Proof.K.Run
import proofs.«422911_j40922448396699_3_alg».proof.Proof.KI.Run
import proofs.«422911_j40922448396699_3_alg».proof.Proof.KI.Value
import proofs.«422911_j40922448396699_3_alg».proof.Proof.KI.Glue
import proofs.«422911_j40922448396699_3_alg».proof.Proof.RefValue

noncomputable section

namespace Cert.Proof

open Idealize.ShloMosaic Idealize.SL.Sem
open Idealize.ShloMosaic.ValueIdx (ix2 ix3 eq_ix3)

/-! ## The frames -/

/-- The word-level kernel runs and leaves its arguments as launched. -/
theorem frame_k : Cert.frame_Kernel (hKernel := Cert.Kernel.Gen.facts) (hPre_finite_inputs := Cert.Pre_finite_inputs.Gen.facts) :=
  fun m ρ _ => Cert.Kernel.Hand.frame (F := Bits) m ρ

/-- The idealized kernel runs and leaves its arguments as launched. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The idealized reference runs and leaves its arguments as launched. -/
theorem frame_ri : Cert.frame_ReferenceIdeal (hReferenceIdeal := Cert.ReferenceIdeal.Gen.facts) (hPre_finite_inputs := Cert.Pre_finite_inputs.Gen.facts) :=
  Cert.RefValue.frame_ri

/-! ## The named constants -/

/-- The table gives the mask value the value -∞ and the guard the real 10⁻³⁰, and the printed constants are those values
    at the exact instance. -/
theorem preserves : Cert.preserves_Kernel_KernelIdeal :=
  ⟨IdealRules.named_const.statement Cert.KernelIdeal.κ "neg_big" .f32 0xFF333332#32 ⊥ rfl,
    IdealRules.named_const.statement Cert.KernelIdeal.κ "inv_1000000000000000000000000000000" .f32 0x0DA24260#32
      ((1 / 1000000000000000000000000000000 : ℝ) : EReal) rfl⟩

/-! ## The two results are the specification -/

/-- The specification read as a [4, 4096, 64] array of extended reals. -/
def specArr (x : Fin 4 → Fin 4096 → Fin 1024 → ℝ) (Wq Wk Wv : Fin 1024 → Fin 64 → ℝ) :
    (⟨3, ![4, 4096, 64]⟩ : Shape).Idx → EReal :=
  fun i => ((Cert.Spec.out x Wq Wk Wv (i 0) (i 1) (i 2) : ℝ) : EReal)

/-- An array that holds the specification at every coordinate triple is the specification array. -/
theorem eq_specArr (x : Fin 4 → Fin 4096 → Fin 1024 → ℝ) (Wq Wk Wv : Fin 1024 → Fin 64 → ℝ)
    (A : (⟨3, ![4, 4096, 64]⟩ : Shape).Idx → EReal)
    (hA : ∀ b r h, A (ix3 b r h) = ((Cert.Spec.out x Wq Wk Wv b r h : ℝ) : EReal)) : A = specArr x Wq Wk Wv := by
  funext i
  rw [eq_ix3 i]
  exact hA (i 0) (i 1) (i 2)

/-- From memories that agree on the arguments, under the precondition, both programs run, both results are the
    specification of the real inputs, and the arguments end unchanged. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  -- the one device's argument arrays are real-valued
  obtain ⟨x, Wq, Wk, Wv, hx, hq, hk, hv⟩ := Cert.KernelIdeal.HandV.reals_of_pre m hpre (0 : Dev Cert.KernelIdeal.nD)
  have dev0 : ∀ c : Dev Cert.KernelIdeal.nD, c = 0 := fun c => Subsingleton.elim c 0
  refine ⟨fun _ => specArr x Wq Wk Wv, ?_, ?_⟩
  · -- the kernel: its result at every coordinate triple is the specification
    refine (θ_run (Cert.KernelIdeal.defs (F := Ideal)) _ _).mono (fun r h c => ⟨eq_specArr x Wq Wk Wv _ (h c).1, (h c).2⟩)
      (Cert.KernelIdeal.HandV.kernel_run m ρ x Wq Wk Wv
        (fun c b r d => by rw [dev0 c]; exact hx b r d) (fun c d h => by rw [dev0 c]; exact hq d h)
        (fun c d h => by rw [dev0 c]; exact hk d h) (fun c d h => by rw [dev0 c]; exact hv d h))
  · -- the reference, whose arguments are the kernel's
    refine (θ_run (Cert.ReferenceIdeal.defs (F := Ideal)) _ _).mono (fun r h c => ⟨eq_specArr x Wq Wk Wv _ (h c).1, (h c).2⟩)
      (Cert.RefValue.ref_run m' ρ' x Wq Wk Wv
        (fun c b r d => by rw [(hagree c).1, dev0 c]; exact hx b r d)
        (fun c d h => by rw [(hagree c).2.1, dev0 c]; exact hq d h)
        (fun c d h => by rw [(hagree c).2.2.1, dev0 c]; exact hk d h)
        (fun c d h => by rw [(hagree c).2.2.2, dev0 c]; exact hv d h))

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
